-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v47)) (v1 : (c : Dev Cert.KernelIdeal.nD) → Buf (Elt Ideal) ((c.tc : Thread Cert.KernelIdeal.nD Cert.KernelIdeal.τ).loc Cert.KernelIdeal.main_v49)) (v2 : (c : Dev Cert.KernelIdeal.nD) → Buf (Elt Ideal) ((c.tc : Thread Cert.KernelIdeal.nD Cert.KernelIdeal.τ).loc Cert.KernelIdeal.main_v44)) (v3 : (c : Dev Cert.KernelIdeal.nD) → Buf (Elt Ideal) ((c.tc : Thread Cert.KernelIdeal.nD Cert.KernelIdeal.τ).loc Cert.KernelIdeal.main_v46)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_v49) = v1 c
          ∧ r.2.mem ((c.tc : Thread Cert.KernelIdeal.nD Cert.KernelIdeal.τ).loc Cert.KernelIdeal.main_v44) = v2 c
          ∧ r.2.mem ((c.tc : Thread Cert.KernelIdeal.nD Cert.KernelIdeal.τ).loc Cert.KernelIdeal.main_v46) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_v56) = v1 c
          ∧ r.2.mem ((c.tc : Thread Cert.ReferenceIdeal.nD Cert.ReferenceIdeal.τ).loc Cert.ReferenceIdeal.main_v46) = v2 c
          ∧ r.2.mem ((c.tc : Thread Cert.ReferenceIdeal.nD Cert.ReferenceIdeal.τ).loc Cert.ReferenceIdeal.main_v50) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S262144 : Shape := ⟨1, ![262144]⟩
abbrev S512x256 : Shape := ⟨2, ![512, 256]⟩
abbrev S256x128 : Shape := ⟨2, ![256, 128]⟩
abbrev S128x64 : Shape := ⟨2, ![128, 64]⟩
abbrev S64 : Shape := ⟨1, ![64]⟩
abbrev S64x6 : Shape := ⟨2, ![64, 6]⟩
abbrev S6 : Shape := ⟨1, ![6]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S262144 : S_.BroadcastsInDim S262144 (![] : Fin 0 → Fin S262144.rank)
  reducesTo_S262144_S_d0 : S262144.ReducesTo [0] S_
  bcast_S_S512x256 : S_.BroadcastsInDim S512x256 (![] : Fin 0 → Fin S512x256.rank)
  reducesTo_S512x256_S_d0_1 : S512x256.ReducesTo [0, 1] S_
  bcast_S_S256x128 : S_.BroadcastsInDim S256x128 (![] : Fin 0 → Fin S256x128.rank)
  reducesTo_S256x128_S_d0_1 : S256x128.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x6 : S_.BroadcastsInDim S64x6 (![] : Fin 0 → Fin S64x6.rank)
  reducesTo_S64x6_S_d0_1 : S64x6.ReducesTo [0, 1] S_
  bcast_S_S6 : S_.BroadcastsInDim S6 (![] : Fin 0 → Fin S6.rank)
  reducesTo_S6_S_d0 : S6.ReducesTo [0] S_

variable [Facts]

def fn_part2 {F : FTy → Type} [FloatOps F] (main_arg9 : FVec F S64x6 .f32) (main_arg10 : FVec F S6 .f32) (main_v33 : IVec S_ 1) : IVec S_ 1 :=
  let main_v34 : FVec F S64x6 .f32 := Host.absf main_arg9
  let main_cst_12 : FVec F S_ .f32 := constant S_ .f32 0x7F800000#32
  let main_v35 : FVec F S64x6 .f32 := broadcastInDim S64x6 ![] bcast_S_S64x6 main_cst_12
  let main_v36 : IVec S64x6 1 := cmpf .olt main_v34 main_v35
  let main_c_13 : IVec S_ 1 := constantI S_ 1 1#1
  let main_v37 : IVec S_ 1 := (fun x v => Host.reduce IntOp.andi x v reducesTo_S64x6_S_d0_1 h_S_) main_v36 main_c_13
  let main_v38 : IVec S_ 1 := andi main_v33 main_v37
  let main_v39 : FVec F S6 .f32 := Host.absf main_arg10
  let main_cst_14 : FVec F S_ .f32 := constant S_ .f32 0x7F800000#32
  let main_v40 : FVec F S6 .f32 := broadcastInDim S6 ![] bcast_S_S6 main_cst_14
  let main_v41 : IVec S6 1 := cmpf .olt main_v39 main_v40
  let main_c_15 : IVec S_ 1 := constantI S_ 1 1#1
  let main_v42 : IVec S_ 1 := (fun x v => Host.reduce IntOp.andi x v reducesTo_S6_S_d0 h_S_) main_v41 main_c_15
  let main_v43 : IVec S_ 1 := andi main_v38 main_v42
  main_v43

def fn_part1 {F : FTy → Type} [FloatOps F] (main_arg6 : FVec F S256x128 .f32) (main_arg7 : FVec F S128x64 .f32) (main_arg8 : FVec F S64 .f32) (main_arg9 : FVec F S64x6 .f32) (main_arg10 : FVec F S6 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S256x128 .f32 := Host.absf main_arg6
  let main_cst_6 : FVec F S_ .f32 := constant S_ .f32 0x7F800000#32
  let main_v20 : FVec F S256x128 .f32 := broadcastInDim S256x128 ![] bcast_S_S256x128 main_cst_6
  let main_v21 : IVec S256x128 1 := cmpf .olt main_v19 main_v20
  let main_c_7 : IVec S_ 1 := constantI S_ 1 1#1
  let main_v22 : IVec S_ 1 := (fun x v => Host.reduce IntOp.andi x v reducesTo_S256x128_S_d0_1 h_S_) main_v21 main_c_7
  let main_v23 : IVec S_ 1 := andi main_v18 main_v22
  let main_v24 : FVec F S128x64 .f32 := Host.absf main_arg7
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg9 main_arg10 main_v33

def fn {F : FTy → Type} [FloatOps F] (main_arg0 : FVec F S8192x512 .f32) (main_arg1 : IVec S262144 32) (main_arg2 : IVec S262144 32) (main_arg3 : FVec F S262144 .f32) (main_arg4 : FVec F S512x256 .f32) (main_arg5 : FVec F S256x128 .f32) (main_arg6 : FVec F S256x128 .f32) (main_arg7 : FVec F S128x64 .f32) (main_arg8 : FVec F S64 .f32) (main_arg9 : FVec F S64x6 .f32) (main_arg10 : FVec F S6 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S262144 .f32 := Host.absf main_arg3
  let main_cst_0 : FVec F S_ .f32 := constant S_ .f32 0x7F800000#32
  let main_v5 : FVec F S262144 .f32 := broadcastInDim S262144 ![] bcast_S_S262144 main_cst_0
  let main_v6 : IVec S262144 1 := cmpf .olt main_v4 main_v5
  let main_c_1 : IVec S_ 1 := constantI S_ 1 1#1
  let main_v7 : IVec S_ 1 := (fun x v => Host.reduce IntOp.andi x v reducesTo_S262144_S_d0 h_S_) main_v6 main_c_1
  let main_v8 : IVec S_ 1 := andi main_v3 main_v7
  let main_v9 : FVec F S512x256 .f32 := Host.absf main_arg4
  let main_cst_2 : FVec F S_ .f32 := constant S_ .f32 0x7F800000#32
  let main_v10 : FVec F S512x256 .f32 := broadcastInDim S512x256 ![] bcast_S_S512x256 main_cst_2
  let main_v11 : IVec S512x256 1 := cmpf .olt main_v9 main_v10
  let main_c_3 : IVec S_ 1 := constantI S_ 1 1#1
  let main_v12 : IVec S_ 1 := (fun x v => Host.reduce IntOp.andi x v reducesTo_S512x256_S_d0_1 h_S_) main_v11 main_c_3
  let main_v13 : IVec S_ 1 := andi main_v8 main_v12
  let main_v14 : FVec F S256x128 .f32 := Host.absf main_arg5
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg6 main_arg7 main_arg8 main_arg9 main_arg10 main_v13 main_v16
-- ==== Kernel.lean ====
abbrev S8192x512 : Shape := ⟨2, ![8192, 512]⟩
abbrev S262144 : Shape := ⟨1, ![262144]⟩
abbrev S512x256 : Shape := ⟨2, ![512, 256]⟩
abbrev S256x128 : Shape := ⟨2, ![256, 128]⟩
abbrev S128x64 : Shape := ⟨2, ![128, 64]⟩
abbrev S64 : Shape := ⟨1, ![64]⟩
abbrev S64x6 : Shape := ⟨2, ![64, 6]⟩
abbrev S6 : Shape := ⟨1, ![6]⟩
abbrev S8192x256 : Shape := ⟨2, ![8192, 256]⟩
abbrev S1024x512 : Shape := ⟨2, ![1024, 512]⟩
abbrev S1024x256 : Shape := ⟨2, ![1024, 256]⟩
abbrev S262144x1 : Shape := ⟨2, ![262144, 1]⟩
abbrev S_ : Shape := ⟨0, ![]⟩
abbrev S262144x256 : Shape := ⟨2, ![262144, 256]⟩
abbrev S8192x128 : Shape := ⟨2, ![8192, 128]⟩
abbrev S1024x128 : Shape := ⟨2, ![1024, 128]⟩
abbrev S262144x128 : Shape := ⟨2, ![262144, 128]⟩
abbrev S1x64 : Shape := ⟨2, ![1, 64]⟩
abbrev S8192x64 : Shape := ⟨2, ![8192, 64]⟩
abbrev S1024x64 : Shape := ⟨2, ![1024, 64]⟩
abbrev S8192x8192 : Shape := ⟨2, ![8192, 8192]⟩
abbrev S1024x1024 : Shape := ⟨2, ![1024, 1024]⟩
abbrev S64x1024 : Shape := ⟨2, ![64, 1024]⟩
abbrev S1x6 : Shape := ⟨2, ![1, 6]⟩
abbrev S8192x6 : Shape := ⟨2, ![8192, 6]⟩
abbrev S1024x6 : Shape := ⟨2, ![1024, 6]⟩

abbrev nBuf : Space → Nat
  | .hbm => 72
  | .vmem => 39
  | .smem => 0
  | _ => 0

abbrev bufTy : (tb : Table) → Fin (tcTables nBuf tb) → BufTy
  | .hbm, ⟨0, _⟩ => ⟨S8192x512, .f32⟩
  | .hbm, ⟨1, _⟩ => ⟨S262144, .i32⟩
  | .hbm, ⟨2, _⟩ => ⟨S262144, .i32⟩
  | .hbm, ⟨3, _⟩ => ⟨S262144, .f32⟩
  | .hbm, ⟨4, _⟩ => ⟨S512x256, .f32⟩
  | .hbm, ⟨5, _⟩ => ⟨S256x128, .f32⟩
  | .hbm, ⟨6, _⟩ => ⟨S256x128, .f32⟩
  | .hbm, ⟨7, _⟩ => ⟨S128x64, .f32⟩
  | .hbm, ⟨8, _⟩ => ⟨S64, .f32⟩
  | .hbm, ⟨9, _⟩ => ⟨S64x6, .f32⟩
  | .hbm, ⟨10, _⟩ => ⟨S6, .f32⟩
  | .hbm, ⟨11, _⟩ => ⟨S8192x256, .f32⟩
  | .hbm, ⟨12, _⟩ => ⟨S262144x1, .f32⟩
  | .hbm, ⟨13, _⟩ => ⟨S_, .i32⟩
  | .hbm, ⟨14, _⟩ => ⟨S262144, .i32⟩
  | .hbm, ⟨15, _⟩ => ⟨S262144, .i1⟩
  | .hbm, ⟨16, _⟩ => ⟨S_, .i32⟩
  | .hbm, ⟨17, _⟩ => ⟨S262144, .i32⟩
  | .hbm, ⟨18, _⟩ => ⟨S262144, .i32⟩
  | .hbm, ⟨19, _⟩ => ⟨S262144, .i32⟩
  | .hbm, ⟨20, _⟩ => ⟨S262144x1, .i32⟩
  | .hbm, ⟨21, _⟩ => ⟨S262144x256, .f32⟩
  | .hbm, ⟨22, _⟩ => ⟨S262144x256, .f32⟩
  | .hbm, ⟨23, _⟩ => ⟨S262144x256, .f32⟩
  | .hbm, ⟨24, _⟩ => ⟨S_, .f32⟩
  | .hbm, ⟨25, _⟩ => ⟨S8192x256, .f32⟩
  | .hbm, ⟨26, _⟩ => ⟨S262144x1, .i32⟩
  | .hbm, ⟨27, _⟩ => ⟨S8192x256, .f32⟩
  | .hbm, ⟨28, _⟩ => ⟨S_, .f32⟩
  | .hbm, ⟨29, _⟩ => ⟨S8192x256, .f32⟩
  | .hbm, ⟨30, _⟩ => ⟨S8192x256, .f32⟩
  | .hbm, ⟨31, _⟩ => ⟨S8192x128, .f32⟩
  | .hbm, ⟨32, _⟩ => ⟨S8192x128, .f32⟩
  | .hbm, ⟨33, _⟩ => ⟨S262144x1, .f32⟩
  | .hbm, ⟨34, _⟩ => ⟨S_, .i32⟩
  | .hbm, ⟨35, _⟩ => ⟨S262144, .i32⟩
  | .hbm, ⟨36, _⟩ => ⟨S262144, .i1⟩
  | .hbm, ⟨37, _⟩ => ⟨S_, .i32⟩
  | .hbm, ⟨38, _⟩ => ⟨S262144, .i32⟩
  | .hbm, ⟨39, _⟩ => ⟨S262144, .i32⟩
  | .hbm, ⟨40, _⟩ => ⟨S262144, .i32⟩
  | .hbm, ⟨41, _⟩ => ⟨S262144x1, .i32⟩
  | .hbm, ⟨42, _⟩ => ⟨S262144x128, .f32⟩
  | .hbm, ⟨43, _⟩ => ⟨S262144x128, .f32⟩
  | .hbm, ⟨44, _⟩ => ⟨S262144x128, .f32⟩
  | .hbm, ⟨45, _⟩ => ⟨S_, .f32⟩
  | .hbm, ⟨46, _⟩ => ⟨S8192x128, .f32⟩
  | .hbm, ⟨47, _⟩ => ⟨S262144x1, .i32⟩
  | .hbm, ⟨48, _⟩ => ⟨S8192x128, .f32⟩
  | .hbm, ⟨49, _⟩ => ⟨S262144x1, .f32⟩
  | .hbm, ⟨50, _⟩ => ⟨S_, .i32⟩
  | .hbm, ⟨51, _⟩ => ⟨S262144, .i32⟩
  | .hbm, ⟨52, _⟩ => ⟨S262144, .i1⟩
  | .hbm, ⟨53, _⟩ => ⟨S_, .i32⟩
  | .hbm, ⟨54, _⟩ => ⟨S262144, .i32⟩
  | .hbm, ⟨55, _⟩ => ⟨S262144, .i32⟩
  | .hbm, ⟨56, _⟩ => ⟨S262144, .i32⟩
  | .hbm, ⟨57, _⟩ => ⟨S262144x1, .i32⟩
  | .hbm, ⟨58, _⟩ => ⟨S262144x128, .f32⟩
  | .hbm, ⟨59, _⟩ => ⟨S262144x128, .f32⟩
  | .hbm, ⟨60, _⟩ => ⟨S262144x128, .f32⟩
  | .hbm, ⟨61, _⟩ => ⟨S_, .f32⟩
  | .hbm, ⟨62, _⟩ => ⟨S8192x128, .f32⟩
  | .hbm, ⟨63, _⟩ => ⟨S262144x1, .i32⟩
  | .hbm, ⟨64, _⟩ => ⟨S8192x128, .f32⟩
  | .hbm, ⟨65, _⟩ => ⟨S1x64, .f32⟩
  | .hbm, ⟨66, _⟩ => ⟨S8192x64, .f32⟩
  | .hbm, ⟨67, _⟩ => ⟨S1x64, .f32⟩
  | .hbm, ⟨68, _⟩ => ⟨S8192x64, .f32⟩
  | .hbm, ⟨69, _⟩ => ⟨S8192x8192, .f32⟩
  | .hbm, ⟨70, _⟩ => ⟨S1x6, .f32⟩
  | .hbm, ⟨71, _⟩ => ⟨S8192x6, .f32⟩
  | .local _ .vmem, ⟨0, _⟩ => ⟨S1024x512, .f32⟩
  | .local _ .vmem, ⟨1, _⟩ => ⟨S1024x512, .f32⟩
  | .local _ .vmem, ⟨2, _⟩ => ⟨S512x256, .f32⟩
  | .local _ .vmem, ⟨3, _⟩ => ⟨S1024x256, .f32⟩
  | .local _ .vmem, ⟨4, _⟩ => ⟨S1024x256, .f32⟩
  | .local _ .vmem, ⟨5, _⟩ => ⟨S1024x256, .f32⟩
  | .local _ .vmem, ⟨6, _⟩ => ⟨S1024x256, .f32⟩
  | .local _ .vmem, ⟨7, _⟩ => ⟨S256x128, .f32⟩
  | .local _ .vmem, ⟨8, _⟩ => ⟨S1024x128, .f32⟩
  | .local _ .vmem, ⟨9, _⟩ => ⟨S1024x128, .f32⟩
  | .local _ .vmem, ⟨10, _⟩ => ⟨S1024x256, .f32⟩
  | .local _ .vmem, ⟨11, _⟩ => ⟨S1024x256, .f32⟩
  | .local _ .vmem, ⟨12, _⟩ => ⟨S256x128, .f32⟩
  | .local _ .vmem, ⟨13, _⟩ => ⟨S1024x128, .f32⟩
  | .local _ .vmem, ⟨14, _⟩ => ⟨S1024x128, .f32⟩
  | .local _ .vmem, ⟨15, _⟩ => ⟨S1024x128, .f32⟩
  | .local _ .vmem, ⟨16, _⟩ => ⟨S1024x128, .f32⟩
  | .local _ .vmem, ⟨17, _⟩ => ⟨S128x64, .f32⟩
  | .local _ .vmem, ⟨18, _⟩ => ⟨S1x64, .f32⟩
  | .local _ .vmem, ⟨19, _⟩ => ⟨S1024x64, .f32⟩
  | .local _ .vmem, ⟨20, _⟩ => ⟨S1024x64, .f32⟩
  | .local _ .vmem, ⟨21, _⟩ => ⟨S1024x128, .f32⟩
  | .local _ .vmem, ⟨22, _⟩ => ⟨S1024x128, .f32⟩
  | .local _ .vmem, ⟨23, _⟩ => ⟨S128x64, .f32⟩
  | .local _ .vmem, ⟨24, _⟩ => ⟨S1x64, .f32⟩
  | .local _ .vmem, ⟨25, _⟩ => ⟨S1024x64, .f32⟩
  | .local _ .vmem, ⟨26, _⟩ => ⟨S1024x64, .f32⟩
  | .local _ .vmem, ⟨27, _⟩ => ⟨S1024x64, .f32⟩
  | .local _ .vmem, ⟨28, _⟩ => ⟨S1024x64, .f32⟩
  | .local _ .vmem, ⟨29, _⟩ => ⟨S1024x64, .f32⟩
  | .local _ .vmem, ⟨30, _⟩ => ⟨S1024x64, .f32⟩
  | .local _ .vmem, ⟨31, _⟩ => ⟨S1024x1024, .f32⟩
  | .local _ .vmem, ⟨32, _⟩ => ⟨S1024x1024, .f32⟩
  | .local _ .vmem, ⟨33, _⟩ => ⟨S1024x64, .f32⟩
  | .local _ .vmem, ⟨34, _⟩ => ⟨S1024x64, .f32⟩
  | .local _ .vmem, ⟨35, _⟩ => ⟨S64x6, .f32⟩
  | .local _ .vmem, ⟨36, _⟩ => ⟨S1x6, .f32⟩
  | .local _ .vmem, ⟨37, _⟩ => ⟨S1024x6, .f32⟩
  | .local _ .vmem, ⟨38, _⟩ => ⟨S1024x6, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_c : Ref sig .tc := ⟨.hbm, 13, rfl⟩
abbrev main_v2 : Ref sig .tc := ⟨.hbm, 14, rfl⟩
abbrev main_v3 : Ref sig .tc := ⟨.hbm, 15, rfl⟩
abbrev main_c_0 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_call0_cst : Ref sig .tc := ⟨.hbm, 28, rfl⟩
abbrev main_call0_v0 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_c_1 : Ref sig .tc := ⟨.hbm, 34, rfl⟩
abbrev main_v18 : Ref sig .tc := ⟨.hbm, 35, rfl⟩
abbrev main_v19 : Ref sig .tc := ⟨.hbm, 36, rfl⟩
abbrev main_c_2 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_cst_3 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_c_4 : Ref sig .tc := ⟨.hbm, 50, rfl⟩
abbrev main_v31 : Ref sig .tc := ⟨.hbm, 51, rfl⟩
abbrev main_v32 : Ref sig .tc := ⟨.hbm, 52, rfl⟩
abbrev main_c_5 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_cst_6 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg3_0 : Ref sig .tc := ⟨.vmem, 19, rfl⟩
abbrev cc3_stg3_1 : Ref sig .tc := ⟨.vmem, 20, rfl⟩
abbrev cc4_stg0_0 : Ref sig .tc := ⟨.vmem, 21, rfl⟩
abbrev cc4_stg0_1 : Ref sig .tc := ⟨.vmem, 22, rfl⟩
abbrev cc4_stg1_0 : Ref sig .tc := ⟨.vmem, 23, rfl⟩
abbrev cc4_stg2_0 : Ref sig .tc := ⟨.vmem, 24, rfl⟩
abbrev cc4_stg3_0 : Ref sig .tc := ⟨.vmem, 25, rfl⟩
abbrev cc4_stg3_1 : Ref sig .tc := ⟨.vmem, 26, rfl⟩
abbrev cc5_stg0_0 : Ref sig .tc := ⟨.vmem, 27, rfl⟩
abbrev cc5_stg0_1 : Ref sig .tc := ⟨.vmem, 28, rfl⟩
abbrev cc5_stg1_0 : Ref sig .tc := ⟨.vmem, 29, rfl⟩
abbrev cc5_stg1_1 : Ref sig .tc := ⟨.vmem, 30, rfl⟩
abbrev cc5_stg2_0 : Ref sig .tc := ⟨.vmem, 31, rfl⟩
abbrev cc5_stg2_1 : Ref sig .tc := ⟨.vmem, 32, rfl⟩
abbrev cc6_stg0_0 : Ref sig .tc := ⟨.vmem, 33, rfl⟩
abbrev cc6_stg0_1 : Ref sig .tc := ⟨.vmem, 34, rfl⟩
abbrev cc6_stg1_0 : Ref sig .tc := ⟨.vmem, 35, rfl⟩
abbrev cc6_stg2_0 : Ref sig .tc := ⟨.vmem, 36, rfl⟩
abbrev cc6_stg3_0 : Ref sig .tc := ⟨.vmem, 37, rfl⟩
abbrev cc6_stg3_1 : Ref sig .tc := ⟨.vmem, 38, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem3_0 : DmaSem sig := 19
abbrev cc3_sem3_1 : DmaSem sig := 20
abbrev cc4_sem0_0 : DmaSem sig := 21
abbrev cc4_sem0_1 : DmaSem sig := 22
abbrev cc4_sem1_0 : DmaSem sig := 23
abbrev cc4_sem2_0 : DmaSem sig := 24
abbrev cc4_sem3_0 : DmaSem sig := 25
abbrev cc4_sem3_1 : DmaSem sig := 26
abbrev cc5_sem0_0 : DmaSem sig := 27
abbrev cc5_sem0_1 : DmaSem sig := 28
abbrev cc5_sem1_0 : DmaSem sig := 29
abbrev cc5_sem1_1 : DmaSem sig := 30
abbrev cc5_sem2_0 : DmaSem sig := 31
abbrev cc5_sem2_1 : DmaSem sig := 32
abbrev cc6_sem0_0 : DmaSem sig := 33
abbrev cc6_sem0_1 : DmaSem sig := 34
abbrev cc6_sem1_0 : DmaSem sig := 35
abbrev cc6_sem2_0 : DmaSem sig := 36
abbrev cc6_sem3_0 : DmaSem sig := 37
abbrev cc6_sem3_1 : DmaSem sig := 38

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1024x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1024x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S1024x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![8], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S1024x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S1024x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![8], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S1024x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S1024x64 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨2, ![8, 8], ![false, false]⟩

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage5_0 : Fin 2 → Memref sig .tc .vmem S1024x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, false]

abbrev stage5_1 : Fin 2 → Memref sig .tc .vmem S1024x64 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true]

abbrev stage5_2 : Fin 2 → Memref sig .tc .vmem S1024x1024 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true]

abbrev grid6 : Pipeline.Grid := ⟨1, ![8], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S1024x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S64x6 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x6 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S1024x6 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

class Facts₀ : Prop where
  inb_S1024x512_S1024x512_0_0 : ∀ a, (![0, 0] : Fin 2 → Nat) a + S1024x512.size a ≤ S1024x512.size a
  h_S1024x512 : 0 < S1024x512.numel
  bitsLt_bf16_f32 : FTy.bits .bf16 < FTy.bits .f32
  inb_S512x256_S512x256_0_0 : ∀ a, (![0, 0] : Fin 2 → Nat) a + S512x256.size a ≤ S512x256.size a
  h_S512x256 : 0 < S512x256.numel
  inb_S1024x256_S1024x256_0_0 : ∀ a, (![0, 0] : Fin 2 → Nat) a + S1024x256.size a ≤ S1024x256.size a
  h_S1024x256 : 0 < S1024x256.numel
  bcast_S262144_S262144x1_0 : S262144.BroadcastsInDim S262144x1 (![0] : Fin 1 → Fin S262144x1.rank)
  bcast_S_S262144 : S_.BroadcastsInDim S262144 (![] : Fin 0 → Fin S262144.rank)
  bcast_S262144x1_S262144x256_0_1 : S262144x1.BroadcastsInDim S262144x256 (![0, 1] : Fin 2 → Fin S262144x256.rank)
  bcast_S_S8192x256 : S_.BroadcastsInDim S8192x256 (![] : Fin 0 → Fin S8192x256.rank)
  shapeCasts_S1024x256_S1024x256 : S1024x256.ShapeCasts S1024x256
  inb_S256x128_S256x128_0_0 : ∀ a, (![0, 0] : Fin 2 → Nat) a + S256x128.size a ≤ S256x128.size a
  h_S256x128 : 0 < S256x128.numel
  inb_S1024x128_S1024x128_0_0 : ∀ a, (![0, 0] : Fin 2 → Nat) a + S1024x128.size a ≤ S1024x128.size a
  h_S1024x128 : 0 < S1024x128.numel
  bcast_S262144x1_S262144x128_0_1 : S262144x1.BroadcastsInDim S262144x128 (![0, 1] : Fin 2 → Fin S262144x128.rank)
  bcast_S_S8192x128 : S_.BroadcastsInDim S8192x128 (![] : Fin 0 → Fin S8192x128.rank)
  shapeCasts_S64_S1x64 : S64.ShapeCasts S1x64
  shapeCasts_S1024x128_S1024x128 : S1024x128.ShapeCasts S1024x128
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S1024x64 : S1x64.Broadcasts S1024x64
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  transposes_S1024x64_p1_0_S64x1024 : S1024x64.Transposes [1, 0] S64x1024
  inb_S1024x1024_S1024x1024_0_0 : ∀ a, (![0, 0] : Fin 2 → Nat) a + S1024x1024.size a ≤ S1024x1024.size a
  h_S1024x1024 : 0 < S1024x1024.numel
  shapeCasts_S6_S1x6 : S6.ShapeCasts S1x6
  inb_S64x6_S64x6_0_0 : ∀ a, (![0, 0] : Fin 2 → Nat) a + S64x6.size a ≤ S64x6.size a
  h_S64x6 : 0 < S64x6.numel
  inb_S1x6_S1x6_0_0 : ∀ a, (![0, 0] : Fin 2 → Nat) a + S1x6.size a ≤ S1x6.size a
  h_S1x6 : 0 < S1x6.numel
  shapeCasts_S1x6_S1x6 : S1x6.ShapeCasts S1x6
  broadcasts_S1x6_S1024x6 : S1x6.Broadcasts S1024x6
  inb_S1024x6_S1024x6_0_0 : ∀ a, (![0, 0] : Fin 2 → Nat) a + S1024x6.size a ≤ S1024x6.size a
  h_S1024x6 : 0 < S1024x6.numel
  dot_S1024x512_S512x256_S1024x256_1_0_0_1_n_n_wf : DotDims.WF S1024x512 S512x256 S1024x256 [1] [0] [0] [1] [] []
  gather_S8192x256_S262144x1_S262144x256_1_0_n_n_0_1_1256_wf : GatherDims.WF S8192x256 S262144x1 S262144x256 [1] [0] [] [0] [] 1 ![1, 256]
  scatter_S8192x256_S262144x1_S262144x256_1_0_0_1_wf : ScatterDims.WF S8192x256 S262144x1 S262144x256 [1] [0] [0] 1
  dot_S1024x256_S256x128_S1024x128_1_0_0_1_n_n_wf : DotDims.WF S1024x256 S256x128 S1024x128 [1] [0] [0] [1] [] []
  gather_S8192x128_S262144x1_S262144x128_1_0_n_n_0_1_1128_wf : GatherDims.WF S8192x128 S262144x1 S262144x128 [1] [0] [] [0] [] 1 ![1, 128]
  scatter_S8192x128_S262144x1_S262144x128_1_0_0_1_wf : ScatterDims.WF S8192x128 S262144x1 S262144x128 [1] [0] [0] 1
  dot_S1024x128_S128x64_S1024x64_1_0_0_1_n_n_wf : DotDims.WF S1024x128 S128x64 S1024x64 [1] [0] [0] [1] [] []
  dot_S1024x64_S64x1024_S1024x1024_1_0_0_1_n_n_wf : DotDims.WF S1024x64 S64x1024 S1024x1024 [1] [0] [0] [1] [] []
  dot_S1024x64_S64x6_S1024x6_1_0_0_1_n_n_wf : DotDims.WF S1024x64 S64x6 S1024x6 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x512.size a
  hwx0_0 : ∀ i : grid0.Coords, EltTy.bits .f32 = 32 ∨ (Rect.block (s := S8192x512) S1024x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S512x256.size a
  hwx0_1 : ∀ i : grid0.Coords, EltTy.bits .f32 = 32 ∨ (Rect.block (s := S512x256) S512x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x256.size a ≤ S8192x256.size a
  hwx0_2 : ∀ i : grid0.Coords, EltTy.bits .f32 = 32 ∨ (Rect.block (s := S8192x256) S1024x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x256.size a ≤ S8192x256.size a
  hwx1_0 : ∀ i : grid1.Coords, EltTy.bits .f32 = 32 ∨ (Rect.block (s := S8192x256) S1024x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x128.size a ≤ S256x128.size a
  hwx1_1 : ∀ i : grid1.Coords, EltTy.bits .f32 = 32 ∨ (Rect.block (s := S256x128) S256x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x128.size a ≤ S8192x128.size a
  hwx1_2 : ∀ i : grid1.Coords, EltTy.bits .f32 = 32 ∨ (Rect.block (s := S8192x128) S1024x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x256.size a ≤ S8192x256.size a
  hwx2_0 : ∀ i : grid2.Coords, EltTy.bits .f32 = 32 ∨ (Rect.block (s := S8192x256) S1024x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x128.size a ≤ S256x128.size a
  hwx2_1 : ∀ i : grid2.Coords, EltTy.bits .f32 = 32 ∨ (Rect.block (s := S256x128) S256x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x128.size a ≤ S8192x128.size a
  hwx2_2 : ∀ i : grid2.Coords, EltTy.bits .f32 = 32 ∨ (Rect.block (s := S8192x128) S1024x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1024x128.size a ≤ S8192x128.size a
  hwx3_0 : ∀ i : grid3.Coords, EltTy.bits .f32 = 32 ∨ (Rect.block (s := S8192x128) S1024x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x64.size a ≤ S128x64.size a
  hwx3_1 : ∀ i : grid3.Coords, EltTy.bits .f32 = 32 ∨ (Rect.block (s := S128x64) S128x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1024x64.size a ≤ S8192x64.size a
  hwx3_3 : ∀ i : grid3.Coords, EltTy.bits .f32 = 32 ∨ (Rect.block (s := S8192x64) S1024x64.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1024x128.size a ≤ S8192x128.size a
  hwx4_0 : ∀ i : grid4.Coords, EltTy.bits .f32 = 32 ∨ (Rect.block (s := S8192x128) S1024x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x64.size a ≤ S128x64.size a
  hwx4_1 : ∀ i : grid4.Coords, EltTy.bits .f32 = 32 ∨ (Rect.block (s := S128x64) S128x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x64.size a ≤ S1x64.size a
  hwx4_2 : ∀ i : grid4.Coords, EltTy.bits .f32 = 32 ∨ (Rect.block (s := S1x64) S1x64.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S1024x64.size a ≤ S8192x64.size a
  hwx4_3 : ∀ i : grid4.Coords, EltTy.bits .f32 = 32 ∨ (Rect.block (s := S8192x64) S1024x64.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S1024x64.size a ≤ S8192x64.size a
  hwx5_0 : ∀ i : grid5.Coords, EltTy.bits .f32 = 32 ∨ (Rect.block (s := S8192x64) S1024x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S1024x64.size a ≤ S8192x64.size a
  hwx5_1 : ∀ i : grid5.Coords, EltTy.bits .f32 = 32 ∨ (Rect.block (s := S8192x64) S1024x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S1024x1024.size a ≤ S8192x8192.size a
  hwx5_2 : ∀ i : grid5.Coords, EltTy.bits .f32 = 32 ∨ (Rect.block (s := S8192x8192) S1024x1024.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S1024x64.size a ≤ S8192x64.size a
  hwx6_0 : ∀ i : grid6.Coords, EltTy.bits .f32 = 32 ∨ (Rect.block (s := S8192x64) S1024x64.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S64x6.size a ≤ S64x6.size a
  hwx6_1 : ∀ i : grid6.Coords, EltTy.bits .f32 = 32 ∨ (Rect.block (s := S64x6) S64x6.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x6.size a ≤ S1x6.size a
  hwx6_2 : ∀ i : grid6.Coords, EltTy.bits .f32 = 32 ∨ (Rect.block (s := S1x6) S1x6.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S1024x6.size a ≤ S8192x6.size a
  hwx6_3 : ∀ i : grid6.Coords, EltTy.bits .f32 = 32 ∨ (Rect.block (s := S8192x6) S1024x6.size (cc6_transform_3 i) (hinb6_3 i)).WholeWords (EltTy.packing .f32)

variable [Facts₀]

def dot_S1024x512_S512x256_S1024x256_1_0_0_1_n_n : DotDims S1024x512 S512x256 S1024x256 where
  lhsContracting := [1]
  rhsContracting := [0]
  lhsNonContracting := [0]
  rhsNonContracting := [1]
  lhsBatch := []
  rhsBatch := []
  wf := dot_S1024x512_S512x256_S1024x256_1_0_0_1_n_n_wf
def gather_S8192x256_S262144x1_S262144x256_1_0_n_n_0_1_1256 : GatherDims S8192x256 S262144x1 S262144x256 where
  offsetDims := [1]
  collapsedSliceDims := [0]
  operandBatchingDims := []
  startIndicesBatchingDims := []
  startIndexMap := [0]
  indexVectorDim := 1
  sliceSizes := ![1, 256]
  wf := gather_S8192x256_S262144x1_S262144x256_1_0_n_n_0_1_1256_wf
def scatter_S8192x256_S262144x1_S262144x256_1_0_0_1 : ScatterDims S8192x256 S262144x1 S262144x256 where
  updateWindowDims := [1]
  insertedWindowDims := [0]
  scatterDimsToOperandDims := [0]
  indexVectorDim := 1
  wf := scatter_S8192x256_S262144x1_S262144x256_1_0_0_1_wf
def dot_S1024x256_S256x128_S1024x128_1_0_0_1_n_n : DotDims S1024x256 S256x128 S1024x128 where
  lhsContracting := [1]
  rhsContracting := [0]
  lhsNonContracting := [0]
  rhsNonContracting := [1]
  lhsBatch := []
  rhsBatch := []
  wf := dot_S1024x256_S256x128_S1024x128_1_0_0_1_n_n_wf
def gather_S8192x128_S262144x1_S262144x128_1_0_n_n_0_1_1128 : GatherDims S8192x128 S262144x1 S262144x128 where
  offsetDims := [1]
  collapsedSliceDims := [0]
  operandBatchingDims := []
  startIndicesBatchingDims := []
  startIndexMap := [0]
  indexVectorDim := 1
  sliceSizes := ![1, 128]
  wf := gather_S8192x128_S262144x1_S262144x128_1_0_n_n_0_1_1128_wf
def scatter_S8192x128_S262144x1_S262144x128_1_0_0_1 : ScatterDims S8192x128 S262144x1 S262144x128 where
  updateWindowDims := [1]
  insertedWindowDims := [0]
  scatterDimsToOperandDims := [0]
  indexVectorDim := 1
  wf := scatter_S8192x128_S262144x1_S262144x128_1_0_0_1_wf
def dot_S1024x128_S128x64_S1024x64_1_0_0_1_n_n : DotDims S1024x128 S128x64 S1024x64 where
  lhsContracting := [1]
  rhsContracting := [0]
  lhsNonContracting := [0]
  rhsNonContracting := [1]
  lhsBatch := []
  rhsBatch := []
  wf := dot_S1024x128_S128x64_S1024x64_1_0_0_1_n_n_wf
def dot_S1024x64_S64x1024_S1024x1024_1_0_0_1_n_n : DotDims S1024x64 S64x1024 S1024x1024 where
  lhsContracting := [1]
  rhsContracting := [0]
  lhsNonContracting := [0]
  rhsNonContracting := [1]
  lhsBatch := []
  rhsBatch := []
  wf := dot_S1024x64_S64x1024_S1024x1024_1_0_0_1_n_n_wf
def dot_S1024x64_S64x6_S1024x6_1_0_0_1_n_n : DotDims S1024x64 S64x6 S1024x6 where
  lhsContracting := [1]
  rhsContracting := [0]
  lhsNonContracting := [0]
  rhsNonContracting := [1]
  lhsBatch := []
  rhsBatch := []
  wf := dot_S1024x64_S64x6_S1024x6_1_0_0_1_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S512x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v14) S1024x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S256x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v15) S1024x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v14) S1024x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S256x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v16) S1024x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v29) S1024x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg7) S128x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v43) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v44) S1024x64.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v42) S1024x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg7) S128x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v45) S1x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v46) S1024x64.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v44) S1024x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v44) S1024x64.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v47) S1024x1024.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v44) S1024x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg9) S64x6.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v48) S1x6.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v49) S1024x6.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

class Facts : Prop extends Facts₀ where

variable [Facts]
-- ==== ReferenceIdeal.lean ====
abbrev S8192x512 : Shape := ⟨2, ![8192, 512]⟩
abbrev S262144 : Shape := ⟨1, ![262144]⟩
abbrev S512x256 : Shape := ⟨2, ![512, 256]⟩
abbrev S256x128 : Shape := ⟨2, ![256, 128]⟩
abbrev S128x64 : Shape := ⟨2, ![128, 64]⟩
abbrev S64 : Shape := ⟨1, ![64]⟩
abbrev S64x6 : Shape := ⟨2, ![64, 6]⟩
abbrev S6 : Shape := ⟨1, ![6]⟩
abbrev S8192x256 : Shape := ⟨2, ![8192, 256]⟩
abbrev S262144x1 : Shape := ⟨2, ![262144, 1]⟩
abbrev S_ : Shape := ⟨0, ![]⟩
abbrev S262144x256 : Shape := ⟨2, ![262144, 256]⟩
abbrev S8192x128 : Shape := ⟨2, ![8192, 128]⟩
abbrev S262144x128 : Shape := ⟨2, ![262144, 128]⟩
abbrev S8192x64 : Shape := ⟨2, ![8192, 64]⟩
abbrev S1x64 : Shape := ⟨2, ![1, 64]⟩
abbrev S64x8192 : Shape := ⟨2, ![64, 8192]⟩
abbrev S8192x8192 : Shape := ⟨2, ![8192, 8192]⟩
abbrev S8192x6 : Shape := ⟨2, ![8192, 6]⟩
abbrev S1x6 : Shape := ⟨2, ![1, 6]⟩

abbrev nBuf : Space → Nat
  | .hbm => 79
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S262144, .i32⟩
  | .hbm, ⟨2, _⟩ => ⟨S262144, .i32⟩
  | .hbm, ⟨3, _⟩ => ⟨S262144, .f32⟩
  | .hbm, ⟨4, _⟩ => ⟨S512x256, .f32⟩
  | .hbm, ⟨5, _⟩ => ⟨S256x128, .f32⟩
  | .hbm, ⟨6, _⟩ => ⟨S256x128, .f32⟩
  | .hbm, ⟨7, _⟩ => ⟨S128x64, .f32⟩
  | .hbm, ⟨8, _⟩ => ⟨S64, .f32⟩
  | .hbm, ⟨9, _⟩ => ⟨S64x6, .f32⟩
  | .hbm, ⟨10, _⟩ => ⟨S6, .f32⟩
  | .hbm, ⟨11, _⟩ => ⟨S8192x256, .f32⟩
  | .hbm, ⟨12, _⟩ => ⟨S262144x1, .f32⟩
  | .hbm, ⟨13, _⟩ => ⟨S_, .i32⟩
  | .hbm, ⟨14, _⟩ => ⟨S262144, .i32⟩
  | .hbm, ⟨15, _⟩ => ⟨S262144, .i1⟩
  | .hbm, ⟨16, _⟩ => ⟨S_, .i32⟩
  | .hbm, ⟨17, _⟩ => ⟨S262144, .i32⟩
  | .hbm, ⟨18, _⟩ => ⟨S262144, .i32⟩
  | .hbm, ⟨19, _⟩ => ⟨S262144, .i32⟩
  | .hbm, ⟨20, _⟩ => ⟨S262144x1, .i32⟩
  | .hbm, ⟨21, _⟩ => ⟨S262144x256, .f32⟩
  | .hbm, ⟨22, _⟩ => ⟨S262144x256, .f32⟩
  | .hbm, ⟨23, _⟩ => ⟨S262144x256, .f32⟩
  | .hbm, ⟨24, _⟩ => ⟨S_, .f32⟩
  | .hbm, ⟨25, _⟩ => ⟨S8192x256, .f32⟩
  | .hbm, ⟨26, _⟩ => ⟨S262144x1, .i32⟩
  | .hbm, ⟨27, _⟩ => ⟨S8192x256, .f32⟩
  | .hbm, ⟨28, _⟩ => ⟨S_, .f32⟩
  | .hbm, ⟨29, _⟩ => ⟨S8192x256, .f32⟩
  | .hbm, ⟨30, _⟩ => ⟨S8192x256, .f32⟩
  | .hbm, ⟨31, _⟩ => ⟨S8192x128, .f32⟩
  | .hbm, ⟨32, _⟩ => ⟨S262144x1, .f32⟩
  | .hbm, ⟨33, _⟩ => ⟨S_, .i32⟩
  | .hbm, ⟨34, _⟩ => ⟨S262144, .i32⟩
  | .hbm, ⟨35, _⟩ => ⟨S262144, .i1⟩
  | .hbm, ⟨36, _⟩ => ⟨S_, .i32⟩
  | .hbm, ⟨37, _⟩ => ⟨S262144, .i32⟩
  | .hbm, ⟨38, _⟩ => ⟨S262144, .i32⟩
  | .hbm, ⟨39, _⟩ => ⟨S262144, .i32⟩
  | .hbm, ⟨40, _⟩ => ⟨S262144x1, .i32⟩
  | .hbm, ⟨41, _⟩ => ⟨S262144x128, .f32⟩
  | .hbm, ⟨42, _⟩ => ⟨S262144x128, .f32⟩
  | .hbm, ⟨43, _⟩ => ⟨S262144x128, .f32⟩
  | .hbm, ⟨44, _⟩ => ⟨S_, .f32⟩
  | .hbm, ⟨45, _⟩ => ⟨S8192x128, .f32⟩
  | .hbm, ⟨46, _⟩ => ⟨S262144x1, .i32⟩
  | .hbm, ⟨47, _⟩ => ⟨S8192x128, .f32⟩
  | .hbm, ⟨48, _⟩ => ⟨S8192x128, .f32⟩
  | .hbm, ⟨49, _⟩ => ⟨S262144x1, .f32⟩
  | .hbm, ⟨50, _⟩ => ⟨S_, .i32⟩
  | .hbm, ⟨51, _⟩ => ⟨S262144, .i32⟩
  | .hbm, ⟨52, _⟩ => ⟨S262144, .i1⟩
  | .hbm, ⟨53, _⟩ => ⟨S_, .i32⟩
  | .hbm, ⟨54, _⟩ => ⟨S262144, .i32⟩
  | .hbm, ⟨55, _⟩ => ⟨S262144, .i32⟩
  | .hbm, ⟨56, _⟩ => ⟨S262144, .i32⟩
  | .hbm, ⟨57, _⟩ => ⟨S262144x1, .i32⟩
  | .hbm, ⟨58, _⟩ => ⟨S262144x128, .f32⟩
  | .hbm, ⟨59, _⟩ => ⟨S262144x128, .f32⟩
  | .hbm, ⟨60, _⟩ => ⟨S262144x128, .f32⟩
  | .hbm, ⟨61, _⟩ => ⟨S_, .f32⟩
  | .hbm, ⟨62, _⟩ => ⟨S8192x128, .f32⟩
  | .hbm, ⟨63, _⟩ => ⟨S262144x1, .i32⟩
  | .hbm, ⟨64, _⟩ => ⟨S8192x128, .f32⟩
  | .hbm, ⟨65, _⟩ => ⟨S8192x64, .f32⟩
  | .hbm, ⟨66, _⟩ => ⟨S1x64, .f32⟩
  | .hbm, ⟨67, _⟩ => ⟨S8192x64, .f32⟩
  | .hbm, ⟨68, _⟩ => ⟨S8192x64, .f32⟩
  | .hbm, ⟨69, _⟩ => ⟨S8192x64, .f32⟩
  | .hbm, ⟨70, _⟩ => ⟨S1x64, .f32⟩
  | .hbm, ⟨71, _⟩ => ⟨S8192x64, .f32⟩
  | .hbm, ⟨72, _⟩ => ⟨S8192x64, .f32⟩
  | .hbm, ⟨73, _⟩ => ⟨S64x8192, .f32⟩
  | .hbm, ⟨74, _⟩ => ⟨S8192x8192, .f32⟩
  | .hbm, ⟨75, _⟩ => ⟨S8192x6, .f32⟩
  | .hbm, ⟨76, _⟩ => ⟨S1x6, .f32⟩
  | .hbm, ⟨77, _⟩ => ⟨S8192x6, .f32⟩
  | .hbm, ⟨78, _⟩ => ⟨S8192x6, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_c : Ref sig .tc := ⟨.hbm, 13, rfl⟩
abbrev main_v2 : Ref sig .tc := ⟨.hbm, 14, rfl⟩
abbrev main_v3 : Ref sig .tc := ⟨.hbm, 15, rfl⟩
abbrev main_c_0 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_call0_cst : Ref sig .tc := ⟨.hbm, 28, rfl⟩
abbrev main_call0_v0 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_c_1 : Ref sig .tc := ⟨.hbm, 33, rfl⟩
abbrev main_v17 : Ref sig .tc := ⟨.hbm, 34, rfl⟩
abbrev main_v18 : Ref sig .tc := ⟨.hbm, 35, rfl⟩
abbrev main_c_2 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_cst_3 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_c_4 : Ref sig .tc := ⟨.hbm, 50, rfl⟩
abbrev main_v31 : Ref sig .tc := ⟨.hbm, 51, rfl⟩
abbrev main_v32 : Ref sig .tc := ⟨.hbm, 52, rfl⟩
abbrev main_c_5 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_cst_6 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩

abbrev nD : Nat := 1
abbrev τ : Topo := Topo.v7x

variable {F : FTy → Type} [FloatOps F]

class Facts₀ : Prop where
  bcast_S262144_S262144x1_0 : S262144.BroadcastsInDim S262144x1 (![0] : Fin 1 → Fin S262144x1.rank)
  bcast_S_S262144 : S_.BroadcastsInDim S262144 (![] : Fin 0 → Fin S262144.rank)
  bcast_S262144x1_S262144x256_0_1 : S262144x1.BroadcastsInDim S262144x256 (![0, 1] : Fin 2 → Fin S262144x256.rank)
  bcast_S_S8192x256 : S_.BroadcastsInDim S8192x256 (![] : Fin 0 → Fin S8192x256.rank)
  bcast_S262144x1_S262144x128_0_1 : S262144x1.BroadcastsInDim S262144x128 (![0, 1] : Fin 2 → Fin S262144x128.rank)
  bcast_S_S8192x128 : S_.BroadcastsInDim S8192x128 (![] : Fin 0 → Fin S8192x128.rank)
  bcast_S64_S1x64_1 : S64.BroadcastsInDim S1x64 (![1] : Fin 1 → Fin S1x64.rank)
  bcast_S1x64_S8192x64_0_1 : S1x64.BroadcastsInDim S8192x64 (![0, 1] : Fin 2 → Fin S8192x64.rank)
  transposes_S8192x64_S64x8192_1_0 : S8192x64.Transposes [1, 0] S64x8192
  bcast_S6_S1x6_1 : S6.BroadcastsInDim S1x6 (![1] : Fin 1 → Fin S1x6.rank)
  bcast_S1x6_S8192x6_0_1 : S1x6.BroadcastsInDim S8192x6 (![0, 1] : Fin 2 → Fin S8192x6.rank)
  dot_S8192x512_S512x256_S8192x256_1_0_0_1_n_n_wf : DotDims.WF S8192x512 S512x256 S8192x256 [1] [0] [0] [1] [] []
  gather_S8192x256_S262144x1_S262144x256_1_0_n_n_0_1_1256_wf : GatherDims.WF S8192x256 S262144x1 S262144x256 [1] [0] [] [0] [] 1 ![1, 256]
  scatter_S8192x256_S262144x1_S262144x256_1_0_0_1_wf : ScatterDims.WF S8192x256 S262144x1 S262144x256 [1] [0] [0] 1
  dot_S8192x256_S256x128_S8192x128_1_0_0_1_n_n_wf : DotDims.WF S8192x256 S256x128 S8192x128 [1] [0] [0] [1] [] []
  gather_S8192x128_S262144x1_S262144x128_1_0_n_n_0_1_1128_wf : GatherDims.WF S8192x128 S262144x1 S262144x128 [1] [0] [] [0] [] 1 ![1, 128]
  scatter_S8192x128_S262144x1_S262144x128_1_0_0_1_wf : ScatterDims.WF S8192x128 S262144x1 S262144x128 [1] [0] [0] 1
  dot_S8192x128_S128x64_S8192x64_1_0_0_1_n_n_wf : DotDims.WF S8192x128 S128x64 S8192x64 [1] [0] [0] [1] [] []
  dot_S8192x64_S64x8192_S8192x8192_1_0_0_1_n_n_wf : DotDims.WF S8192x64 S64x8192 S8192x8192 [1] [0] [0] [1] [] []
  dot_S8192x64_S64x6_S8192x6_1_0_0_1_n_n_wf : DotDims.WF S8192x64 S64x6 S8192x6 [1] [0] [0] [1] [] []

variable [Facts₀]

def dot_S8192x512_S512x256_S8192x256_1_0_0_1_n_n : DotDims S8192x512 S512x256 S8192x256 where
  lhsContracting := [1]
  rhsContracting := [0]
  lhsNonContracting := [0]
  rhsNonContracting := [1]
  lhsBatch := []
  rhsBatch := []
  wf := dot_S8192x512_S512x256_S8192x256_1_0_0_1_n_n_wf
def gather_S8192x256_S262144x1_S262144x256_1_0_n_n_0_1_1256 : GatherDims S8192x256 S262144x1 S262144x256 where
  offsetDims := [1]
  collapsedSliceDims := [0]
  operandBatchingDims := []
  startIndicesBatchingDims := []
  startIndexMap := [0]
  indexVectorDim := 1
  sliceSizes := ![1, 256]
  wf := gather_S8192x256_S262144x1_S262144x256_1_0_n_n_0_1_1256_wf
def scatter_S8192x256_S262144x1_S262144x256_1_0_0_1 : ScatterDims S8192x256 S262144x1 S262144x256 where
  updateWindowDims := [1]
  insertedWindowDims := [0]
  scatterDimsToOperandDims := [0]
  indexVectorDim := 1
  wf := scatter_S8192x256_S262144x1_S262144x256_1_0_0_1_wf
def dot_S8192x256_S256x128_S8192x128_1_0_0_1_n_n : DotDims S8192x256 S256x128 S8192x128 where
  lhsContracting := [1]
  rhsContracting := [0]
  lhsNonContracting := [0]
  rhsNonContracting := [1]
  lhsBatch := []
  rhsBatch := []
  wf := dot_S8192x256_S256x128_S8192x128_1_0_0_1_n_n_wf
def gather_S8192x128_S262144x1_S262144x128_1_0_n_n_0_1_1128 : GatherDims S8192x128 S262144x1 S262144x128 where
  offsetDims := [1]
  collapsedSliceDims := [0]
  operandBatchingDims := []
  startIndicesBatchingDims := []
  startIndexMap := [0]
  indexVectorDim := 1
  sliceSizes := ![1, 128]
  wf := gather_S8192x128_S262144x1_S262144x128_1_0_n_n_0_1_1128_wf
def scatter_S8192x128_S262144x1_S262144x128_1_0_0_1 : ScatterDims S8192x128 S262144x1 S262144x128 where
  updateWindowDims := [1]
  insertedWindowDims := [0]
  scatterDimsToOperandDims := [0]
  indexVectorDim := 1
  wf := scatter_S8192x128_S262144x1_S262144x128_1_0_0_1_wf
def dot_S8192x128_S128x64_S8192x64_1_0_0_1_n_n : DotDims S8192x128 S128x64 S8192x64 where
  lhsContracting := [1]
  rhsContracting := [0]
  lhsNonContracting := [0]
  rhsNonContracting := [1]
  lhsBatch := []
  rhsBatch := []
  wf := dot_S8192x128_S128x64_S8192x64_1_0_0_1_n_n_wf
def dot_S8192x64_S64x8192_S8192x8192_1_0_0_1_n_n : DotDims S8192x64 S64x8192 S8192x8192 where
  lhsContracting := [1]
  rhsContracting := [0]
  lhsNonContracting := [0]
  rhsNonContracting := [1]
  lhsBatch := []
  rhsBatch := []
  wf := dot_S8192x64_S64x8192_S8192x8192_1_0_0_1_n_n_wf
def dot_S8192x64_S64x6_S8192x6_1_0_0_1_n_n : DotDims S8192x64 S64x6 S8192x6 where
  lhsContracting := [1]
  rhsContracting := [0]
  lhsNonContracting := [0]
  rhsNonContracting := [1]
  lhsBatch := []
  rhsBatch := []
  wf := dot_S8192x64_S64x6_S8192x6_1_0_0_1_n_n_wf

class Facts : Prop extends Facts₀ where

variable [Facts]
-- ==== Proof.Kernel.Call0.lean ====
/- The first pallas_call of the program: the feature projection, one row block of `x · W1` per grid point.
   Eight points; at point `t` the body reads rows `1024·t … 1024·t + 1023` of `x` (window 0), all of `W1`
   (window 1, fetched once), and overwrites the output's block with their product (window 2). Stated here,
   at any entry contents `V` of the core's buffers and for both readings of the floats: what the body leaves in
   the output's buffer as a function of the two input blocks, the body's triple, and the pipeline's proof data
   with its obligation at every point. -/
import proofs.«137898_j56616258896068_1_alg».proof.Proof.Gen.Kernel.Launch
import proofs.«137898_j56616258896068_1_alg».proof.Proof.Gen.Kernel.Skeleton
import proofs.«137898_j56616258896068_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Calls

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window `w`'s array that point `t` works on, as the call finds the array. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The rows of `x` are in their buffer when the body runs, whichever proof data say the body leaves them there. -/
theorem found0_0_of {c : Dev nD} (dat : Dat τ (Elt F) Unit ℕ (UR sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)

/-- `W1` is in its buffer at every point although it is fetched only at the first: its block never moves. -/
theorem found0_1_of {c : Dev nD} (dat : Dat τ (Elt F) Unit ℕ (UR sig nD τ) ℕ cfg0 c) (hA : dat.A 1 = V c (Pipeline.arrRef spec0 1))
    (hafter : ∀ t, dat.after 1 t = blk0 V c 1 t) (t : Fin cfg0.N) (d) : dat.before 1 t d = blk0 V c 1 t :=
  (dat.before_in_eq_fetched 1 rfl (fun _ => rfl) (fun _ _ _ => rfl) (fun t => by rw [hafter]; unfold Dat.blockOf blk0; rw [hA]; try rfl) t d).trans
    (by unfold Dat.fetched Dat.blockOf blk0; rw [hA]; try rfl)

/-- The whole of each buffer, as a rectangle: what the body's loads and its one store address. -/
abbrev whole0_x : Rect S1024x512 := Rect.unit (s := S1024x512) ![0, 0] S1024x512.size inb_S1024x512_S1024x512_0_0
abbrev whole0_w : Rect S512x256 := Rect.unit (s := S512x256) ![0, 0] S512x256.size inb_S512x256_S512x256_0_0
abbrev whole0_o : Rect S1024x256 := Rect.unit (s := S1024x256) ![0, 0] S1024x256.size inb_S1024x256_S1024x256_0_0

/-- What the body leaves in the output's buffer: its one store, of the product of the two blocks. -/
def prod0 (x0 : Vec F S1024x512 .f32) (x1 : Vec F S512x256 .f32) : Vec F S1024x256 .f32 :=
  View.canon [⟨whole0_o, k0_pay1 (View.ld x0 whole0_x) (View.ld x1 whole0_w)⟩]

/-- That store covers the buffer. -/
theorem prod0_cover (p0 : Vec F S1024x256 .f32) (y : S1024x256.Idx) :
    ∃ pc ∈ ([⟨whole0_o, p0⟩] : List (View.Piece (Elt F) S1024x256 .f32)), y ∈ pc.1.set :=
  View.cover_of_tiled [⟨whole0_o, p0⟩] S1024x256.size (by rfl) y

set_option maxHeartbeats 1000000 in
/-- The body on whole buffers: the two inputs at `x0`, `x1` and the output at anything; it leaves the inputs as they
    were and the output at `prod0 x0 x1`. -/
theorem body0_triple (c : Dev nD) (E : Set ℕ) (i : grid0.Coords) (arg1 : Memref sig .tc .vmem S1024x512 .f32) (harg1 : arg1.IsWhole)
    (arg2 : Memref sig .tc .vmem S512x256 .f32) (harg2 : arg2.IsWhole) (arg3 : Memref sig .tc .vmem S1024x256 .f32) (harg3 : arg3.IsWhole)
    (x0 : Vec F S1024x512 .f32) (x1 : Vec F S512x256 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (prod0 x0 x1)) -∗ K ⟨⟩))
      ⊢ wp frame (wpE (defs₀ (F := F)) Variants.none c none) E (cc0__mm_kernel i arg1 harg1 arg2 harg2 arg3 harg3) K := by
  simp only [cc0__mm_kernel_eq_skeleton]; unfold cc0__mm_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (prod0_cover _)

/-- The pipeline's proof data on core `c`: the arrays as found; after the body each input's buffer still at its block
    and the output's at the product; the invariant between points the untouched rest; full shares; nothing owed. -/
def data0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => prod0 (blk0 V c 0 t) (blk0 V c 1 t)
  Φ _ := Pipeline.ΦA spec0 c
  q _ := fullShare
  owed _ := 0

theorem data0_A (c : Dev nD) (w : Fin cfg0.W) : (data0 V c).A w = V c (Pipeline.arrRef spec0 w) := by
  dsimp only [data0]
theorem data0_after_0 (c : Dev nD) (t : Fin cfg0.N) : (data0 V c).after 0 t = blk0 V c 0 t := by dsimp only [data0]
theorem data0_after_1 (c : Dev nD) (t : Fin cfg0.N) : (data0 V c).after 1 t = blk0 V c 1 t := by dsimp only [data0]
theorem data0_after_2 (c : Dev nD) (t : Fin cfg0.N) : (data0 V c).after 2 t = prod0 (blk0 V c 0 t) (blk0 V c 1 t) := by dsimp only [data0]

theorem data0_before_0 (c : Dev nD) (t : Fin cfg0.N) (d) : (data0 V c).before 0 t d = blk0 V c 0 t :=
  found0_0_of V (data0 V c) (data0_A V c 0) (data0_after_0 V c) t d
theorem data0_before_1 (c : Dev nD) (t : Fin cfg0.N) (d) : (data0 V c).before 1 t d = blk0 V c 1 t :=
  found0_1_of V (data0 V c) (data0_A V c 1) (data0_after_1 V c) t d

/-- What the pipeline hands the body at point `t`, window by window, -/
def handed0 (c : Dev nD) (t : Fin cfg0.N) : sProp 𝕄 :=
  iprop((data0 V c).Φ t.castSucc ∗ (data0 V c).owesAt () t.castSucc
    ∗ (∃ d, owns (c : Thread nD τ) (st0_0 t) fullShare ((data0 V c).before 0 t d))
    ∗ (∃ d, owns (c : Thread nD τ) (st0_1 t) fullShare ((data0 V c).before 1 t d))
    ∗ (∃ d, owns (c : Thread nD τ) (st0_2 t) fullShare ((data0 V c).before 2 t d)))

/-- and what the body hands back. -/
def returned0 (c : Dev nD) (t : Fin cfg0.N) : sProp 𝕄 :=
  iprop((data0 V c).Φ t.succ ∗ (data0 V c).owesAt () t.succ
    ∗ owns (c : Thread nD τ) (st0_0 t) fullShare ((data0 V c).after 0 t)
    ∗ owns (c : Thread nD τ) (st0_1 t) fullShare ((data0 V c).after 1 t)
    ∗ owns (c : Thread nD τ) (st0_2 t) fullShare ((data0 V c).after 2 t))

theorem body0_at (c : Dev nD) (t : Fin cfg0.N) :
    handed0 V c t ⊢ wp frame (wpE (defs₀ (F := F)) Variants.none c none) Set.univ (bodyAt0 t) (fun _ => returned0 V c t) := by
  unfold handed0 returned0 bodyAt0
  simp only [data0_before_0, data0_before_1]
  rw [show (data0 V c).Φ t.succ = (data0 V c).Φ t.castSucc from rfl,
    show (data0 V c).owesAt () t.succ = (data0 V c).owesAt () t.castSucc from rfl,
    data0_after_0, data0_after_1, data0_after_2]
  iintro ⟨HΦ, Ho, ⟨%d0, H0⟩, ⟨%d1, H1⟩, ⟨%d2, H2⟩⟩
  iapply (body0_triple c Set.univ _ _ _ _ _ _ _ (blk0 V c 0 t) (blk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's obligation on the body, at every point. -/
theorem body0_obligation (c : Dev nD) : BodyObligation (data0 (F := F) V c) (defs₀ (F := F)) Variants.none () Set.univ := fun t => by
  rw [bigSep_W0, bigSep_W0]
  exact body0_at V c t

end Cert.Kernel.Calls

end
-- ==== Proof.Kernel.Call1.lean ====
/- The second pallas_call of the program: one row block of `hidden1 · W2` per grid point (eight points: rows 1024·t … 1024·t + 1023 of the hidden features, all of `W2` fetched once, the product written over the output's block). At any entry contents `V` of the core's buffers and for both readings of the floats: what the body leaves in the output's buffer as a function of the two input blocks, the body's triple, and the pipeline's proof data with its obligation at every point. -/
import proofs.«137898_j56616258896068_1_alg».proof.Proof.Gen.Kernel.Launch
import proofs.«137898_j56616258896068_1_alg».proof.Proof.Gen.Kernel.Skeleton
import proofs.«137898_j56616258896068_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Calls

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window `w`'s array that point `t` works on, as the call finds the array. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The rows of `x` are in their buffer when the body runs, whichever proof data say the body leaves them there. -/
theorem found1_0_of {c : Dev nD} (dat : Dat τ (Elt F) Unit ℕ (UR sig nD τ) ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)

/-- `W1` is in its buffer at every point although it is fetched only at the first: its block never moves. -/
theorem found1_1_of {c : Dev nD} (dat : Dat τ (Elt F) Unit ℕ (UR sig nD τ) ℕ cfg1 c) (hA : dat.A 1 = V c (Pipeline.arrRef spec1 1))
    (hafter : ∀ t, dat.after 1 t = blk1 V c 1 t) (t : Fin cfg1.N) (d) : dat.before 1 t d = blk1 V c 1 t :=
  (dat.before_in_eq_fetched 1 rfl (fun _ => rfl) (fun _ _ _ => rfl) (fun t => by rw [hafter]; unfold Dat.blockOf blk1; rw [hA]; try rfl) t d).trans
    (by unfold Dat.fetched Dat.blockOf blk1; rw [hA]; try rfl)

/-- The whole of each buffer, as a rectangle: what the body's loads and its one store address. -/
abbrev whole1_x : Rect S1024x256 := Rect.unit (s := S1024x256) ![0, 0] S1024x256.size inb_S1024x256_S1024x256_0_0
abbrev whole1_w : Rect S256x128 := Rect.unit (s := S256x128) ![0, 0] S256x128.size inb_S256x128_S256x128_0_0
abbrev whole1_o : Rect S1024x128 := Rect.unit (s := S1024x128) ![0, 0] S1024x128.size inb_S1024x128_S1024x128_0_0

/-- What the body leaves in the output's buffer: its one store, of the product of the two blocks. -/
def prod1 (x0 : Vec F S1024x256 .f32) (x1 : Vec F S256x128 .f32) : Vec F S1024x128 .f32 :=
  View.canon [⟨whole1_o, k1_pay1 (View.ld x0 whole1_x) (View.ld x1 whole1_w)⟩]

/-- That store covers the buffer. -/
theorem prod1_cover (p0 : Vec F S1024x128 .f32) (y : S1024x128.Idx) :
    ∃ pc ∈ ([⟨whole1_o, p0⟩] : List (View.Piece (Elt F) S1024x128 .f32)), y ∈ pc.1.set :=
  View.cover_of_tiled [⟨whole1_o, p0⟩] S1024x128.size (by rfl) y

set_option maxHeartbeats 1000000 in
/-- The body on whole buffers: the two inputs at `x0`, `x1` and the output at anything; it leaves the inputs as they
    were and the output at `prod1 x0 x1`. -/
theorem body1_triple (c : Dev nD) (E : Set ℕ) (i : grid1.Coords) (arg1 : Memref sig .tc .vmem S1024x256 .f32) (harg1 : arg1.IsWhole)
    (arg2 : Memref sig .tc .vmem S256x128 .f32) (harg2 : arg2.IsWhole) (arg3 : Memref sig .tc .vmem S1024x128 .f32) (harg3 : arg3.IsWhole)
    (x0 : Vec F S1024x256 .f32) (x1 : Vec F S256x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (prod1 x0 x1)) -∗ K ⟨⟩))
      ⊢ wp frame (wpE (defs₀ (F := F)) Variants.none c none) E (cc1__mm_kernel i arg1 harg1 arg2 harg2 arg3 harg3) K := by
  simp only [cc1__mm_kernel_eq_skeleton]; unfold cc1__mm_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (prod1_cover _)

/-- The pipeline's proof data on core `c`: the arrays as found; after the body each input's buffer still at its block
    and the output's at the product; the invariant between points the untouched rest; full shares; nothing owed. -/
def data1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => prod1 (blk1 V c 0 t) (blk1 V c 1 t)
  Φ _ := Pipeline.ΦA spec1 c
  q _ := fullShare
  owed _ := 0

theorem data1_A (c : Dev nD) (w : Fin cfg1.W) : (data1 V c).A w = V c (Pipeline.arrRef spec1 w) := by
  dsimp only [data1]
theorem data1_after_0 (c : Dev nD) (t : Fin cfg1.N) : (data1 V c).after 0 t = blk1 V c 0 t := by dsimp only [data1]
theorem data1_after_1 (c : Dev nD) (t : Fin cfg1.N) : (data1 V c).after 1 t = blk1 V c 1 t := by dsimp only [data1]
theorem data1_after_2 (c : Dev nD) (t : Fin cfg1.N) : (data1 V c).after 2 t = prod1 (blk1 V c 0 t) (blk1 V c 1 t) := by dsimp only [data1]

theorem data1_before_0 (c : Dev nD) (t : Fin cfg1.N) (d) : (data1 V c).before 0 t d = blk1 V c 0 t :=
  found1_0_of V (data1 V c) (data1_A V c 0) (data1_after_0 V c) t d
theorem data1_before_1 (c : Dev nD) (t : Fin cfg1.N) (d) : (data1 V c).before 1 t d = blk1 V c 1 t :=
  found1_1_of V (data1 V c) (data1_A V c 1) (data1_after_1 V c) t d

/-- What the pipeline hands the body at point `t`, window by window, -/
def handed1 (c : Dev nD) (t : Fin cfg1.N) : sProp 𝕄 :=
  iprop((data1 V c).Φ t.castSucc ∗ (data1 V c).owesAt () t.castSucc
    ∗ (∃ d, owns (c : Thread nD τ) (st1_0 t) fullShare ((data1 V c).before 0 t d))
    ∗ (∃ d, owns (c : Thread nD τ) (st1_1 t) fullShare ((data1 V c).before 1 t d))
    ∗ (∃ d, owns (c : Thread nD τ) (st1_2 t) fullShare ((data1 V c).before 2 t d)))

/-- and what the body hands back. -/
def returned1 (c : Dev nD) (t : Fin cfg1.N) : sProp 𝕄 :=
  iprop((data1 V c).Φ t.succ ∗ (data1 V c).owesAt () t.succ
    ∗ owns (c : Thread nD τ) (st1_0 t) fullShare ((data1 V c).after 0 t)
    ∗ owns (c : Thread nD τ) (st1_1 t) fullShare ((data1 V c).after 1 t)
    ∗ owns (c : Thread nD τ) (st1_2 t) fullShare ((data1 V c).after 2 t))

theorem body1_at (c : Dev nD) (t : Fin cfg1.N) :
    handed1 V c t ⊢ wp frame (wpE (defs₀ (F := F)) Variants.none c none) Set.univ (bodyAt1 t) (fun _ => returned1 V c t) := by
  unfold handed1 returned1 bodyAt1
  simp only [data1_before_0, data1_before_1]
  rw [show (data1 V c).Φ t.succ = (data1 V c).Φ t.castSucc from rfl,
    show (data1 V c).owesAt () t.succ = (data1 V c).owesAt () t.castSucc from rfl,
    data1_after_0, data1_after_1, data1_after_2]
  iintro ⟨HΦ, Ho, ⟨%d0, H0⟩, ⟨%d1, H1⟩, ⟨%d2, H2⟩⟩
  iapply (body1_triple c Set.univ _ _ _ _ _ _ _ (blk1 V c 0 t) (blk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's obligation on the body, at every point. -/
theorem body1_obligation (c : Dev nD) : BodyObligation (data1 (F := F) V c) (defs₀ (F := F)) Variants.none () Set.univ := fun t => by
  rw [bigSep_W1, bigSep_W1]
  exact body1_at V c t

end Cert.Kernel.Calls

end
-- ==== Proof.Kernel.Call2.lean ====
/- The third pallas_call of the program: one row block of `hidden1 · W3` per grid point (eight points: rows 1024·t … 1024·t + 1023 of the hidden features, all of `W3` fetched once, the product written over the output's block). At any entry contents `V` of the core's buffers and for both readings of the floats: what the body leaves in the output's buffer as a function of the two input blocks, the body's triple, and the pipeline's proof data with its obligation at every point. -/
import proofs.«137898_j56616258896068_1_alg».proof.Proof.Gen.Kernel.Launch
import proofs.«137898_j56616258896068_1_alg».proof.Proof.Gen.Kernel.Skeleton
import proofs.«137898_j56616258896068_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Calls

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window `w`'s array that point `t` works on, as the call finds the array. -/
def blk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The rows of `x` are in their buffer when the body runs, whichever proof data say the body leaves them there. -/
theorem found2_0_of {c : Dev nD} (dat : Dat τ (Elt F) Unit ℕ (UR sig nD τ) ℕ cfg2 c) (hA : dat.A 0 = V c (Pipeline.arrRef spec2 0))
    (hafter : ∀ t, dat.after 0 t = blk2 V c 0 t) (t : Fin cfg2.N) (d) : dat.before 0 t d = blk2 V c 0 t :=
  (dat.before_in_eq_fetched 0 rfl (fun _ => rfl) (fun _ _ _ => rfl) (fun t => by rw [hafter]; unfold Dat.blockOf blk2; rw [hA]; try rfl) t d).trans
    (by unfold Dat.fetched Dat.blockOf blk2; rw [hA]; try rfl)

/-- `W1` is in its buffer at every point although it is fetched only at the first: its block never moves. -/
theorem found2_1_of {c : Dev nD} (dat : Dat τ (Elt F) Unit ℕ (UR sig nD τ) ℕ cfg2 c) (hA : dat.A 1 = V c (Pipeline.arrRef spec2 1))
    (hafter : ∀ t, dat.after 1 t = blk2 V c 1 t) (t : Fin cfg2.N) (d) : dat.before 1 t d = blk2 V c 1 t :=
  (dat.before_in_eq_fetched 1 rfl (fun _ => rfl) (fun _ _ _ => rfl) (fun t => by rw [hafter]; unfold Dat.blockOf blk2; rw [hA]; try rfl) t d).trans
    (by unfold Dat.fetched Dat.blockOf blk2; rw [hA]; try rfl)

/-- The whole of each buffer, as a rectangle: what the body's loads and its one store address. -/
abbrev whole2_x : Rect S1024x256 := Rect.unit (s := S1024x256) ![0, 0] S1024x256.size inb_S1024x256_S1024x256_0_0
abbrev whole2_w : Rect S256x128 := Rect.unit (s := S256x128) ![0, 0] S256x128.size inb_S256x128_S256x128_0_0
abbrev whole2_o : Rect S1024x128 := Rect.unit (s := S1024x128) ![0, 0] S1024x128.size inb_S1024x128_S1024x128_0_0

/-- What the body leaves in the output's buffer: its one store, of the product of the two blocks. -/
def prod2 (x0 : Vec F S1024x256 .f32) (x1 : Vec F S256x128 .f32) : Vec F S1024x128 .f32 :=
  View.canon [⟨whole2_o, k2_pay1 (View.ld x0 whole2_x) (View.ld x1 whole2_w)⟩]

/-- That store covers the buffer. -/
theorem prod2_cover (p0 : Vec F S1024x128 .f32) (y : S1024x128.Idx) :
    ∃ pc ∈ ([⟨whole2_o, p0⟩] : List (View.Piece (Elt F) S1024x128 .f32)), y ∈ pc.1.set :=
  View.cover_of_tiled [⟨whole2_o, p0⟩] S1024x128.size (by rfl) y

set_option maxHeartbeats 1000000 in
/-- The body on whole buffers: the two inputs at `x0`, `x1` and the output at anything; it leaves the inputs as they
    were and the output at `prod2 x0 x1`. -/
theorem body2_triple (c : Dev nD) (E : Set ℕ) (i : grid2.Coords) (arg1 : Memref sig .tc .vmem S1024x256 .f32) (harg1 : arg1.IsWhole)
    (arg2 : Memref sig .tc .vmem S256x128 .f32) (harg2 : arg2.IsWhole) (arg3 : Memref sig .tc .vmem S1024x128 .f32) (harg3 : arg3.IsWhole)
    (x0 : Vec F S1024x256 .f32) (x1 : Vec F S256x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (prod2 x0 x1)) -∗ K ⟨⟩))
      ⊢ wp frame (wpE (defs₀ (F := F)) Variants.none c none) E (cc2__mm_kernel i arg1 harg1 arg2 harg2 arg3 harg3) K := by
  simp only [cc2__mm_kernel_eq_skeleton]; unfold cc2__mm_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (prod2_cover _)

/-- The pipeline's proof data on core `c`: the arrays as found; after the body each input's buffer still at its block
    and the output's at the product; the invariant between points the untouched rest; full shares; nothing owed. -/
def data2 (c : Dev nD) : Dat τ (Elt F) Unit ℕ (UR sig nD τ) ℕ cfg2 c where
  A w := V c (Pipeline.arrRef spec2 w)
  after w t := match w with
    | ⟨0, _⟩ => blk2 V c 0 t
    | ⟨1, _⟩ => blk2 V c 1 t
    | ⟨2, _⟩ => prod2 (blk2 V c 0 t) (blk2 V c 1 t)
  Φ _ := Pipeline.ΦA spec2 c
  q _ := fullShare
  owed _ := 0

theorem data2_A (c : Dev nD) (w : Fin cfg2.W) : (data2 V c).A w = V c (Pipeline.arrRef spec2 w) := by
  dsimp only [data2]
theorem data2_after_0 (c : Dev nD) (t : Fin cfg2.N) : (data2 V c).after 0 t = blk2 V c 0 t := by dsimp only [data2]
theorem data2_after_1 (c : Dev nD) (t : Fin cfg2.N) : (data2 V c).after 1 t = blk2 V c 1 t := by dsimp only [data2]
theorem data2_after_2 (c : Dev nD) (t : Fin cfg2.N) : (data2 V c).after 2 t = prod2 (blk2 V c 0 t) (blk2 V c 1 t) := by dsimp only [data2]

theorem data2_before_0 (c : Dev nD) (t : Fin cfg2.N) (d) : (data2 V c).before 0 t d = blk2 V c 0 t :=
  found2_0_of V (data2 V c) (data2_A V c 0) (data2_after_0 V c) t d
theorem data2_before_1 (c : Dev nD) (t : Fin cfg2.N) (d) : (data2 V c).before 1 t d = blk2 V c 1 t :=
  found2_1_of V (data2 V c) (data2_A V c 1) (data2_after_1 V c) t d

/-- What the pipeline hands the body at point `t`, window by window, -/
def handed2 (c : Dev nD) (t : Fin cfg2.N) : sProp 𝕄 :=
  iprop((data2 V c).Φ t.castSucc ∗ (data2 V c).owesAt () t.castSucc
    ∗ (∃ d, owns (c : Thread nD τ) (st2_0 t) fullShare ((data2 V c).before 0 t d))
    ∗ (∃ d, owns (c : Thread nD τ) (st2_1 t) fullShare ((data2 V c).before 1 t d))
    ∗ (∃ d, owns (c : Thread nD τ) (st2_2 t) fullShare ((data2 V c).before 2 t d)))

/-- and what the body hands back. -/
def returned2 (c : Dev nD) (t : Fin cfg2.N) : sProp 𝕄 :=
  iprop((data2 V c).Φ t.succ ∗ (data2 V c).owesAt () t.succ
    ∗ owns (c : Thread nD τ) (st2_0 t) fullShare ((data2 V c).after 0 t)
    ∗ owns (c : Thread nD τ) (st2_1 t) fullShare ((data2 V c).after 1 t)
    ∗ owns (c : Thread nD τ) (st2_2 t) fullShare ((data2 V c).after 2 t))

theorem body2_at (c : Dev nD) (t : Fin cfg2.N) :
    handed2 V c t ⊢ wp frame (wpE (defs₀ (F := F)) Variants.none c none) Set.univ (bodyAt2 t) (fun _ => returned2 V c t) := by
  unfold handed2 returned2 bodyAt2
  simp only [data2_before_0, data2_before_1]
  rw [show (data2 V c).Φ t.succ = (data2 V c).Φ t.castSucc from rfl,
    show (data2 V c).owesAt () t.succ = (data2 V c).owesAt () t.castSucc from rfl,
    data2_after_0, data2_after_1, data2_after_2]
  iintro ⟨HΦ, Ho, ⟨%d0, H0⟩, ⟨%d1, H1⟩, ⟨%d2, H2⟩⟩
  iapply (body2_triple c Set.univ _ _ _ _ _ _ _ (blk2 V c 0 t) (blk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's obligation on the body, at every point. -/
theorem body2_obligation (c : Dev nD) : BodyObligation (data2 (F := F) V c) (defs₀ (F := F)) Variants.none () Set.univ := fun t => by
  rw [bigSep_W2, bigSep_W2]
  exact body2_at V c t

end Cert.Kernel.Calls

end
-- ==== Proof.Kernel.Call3.lean ====
/- The fourth pallas_call of the program: the affine map that makes `mu`, one row block of `mu0 · dense_W + dense_b`
   per grid point. Eight points; at point `t` the body reads rows `1024·t … 1024·t + 1023` of the aggregated
   features (window 0), all of `dense_W` (window 1) and the bias as a 1 × 64 row (window 2), both fetched once, and
   overwrites the output's block with the product plus the bias row repeated down the rows (window 3). Stated here,
   at any entry contents `V` of the core's buffers and for both readings of the floats: what the body leaves in
   the output's buffer as a function of the three input blocks, the body's triple, and the pipeline's proof data
   with its obligation at every point. -/
import proofs.«137898_j56616258896068_1_alg».proof.Proof.Gen.Kernel.Launch
import proofs.«137898_j56616258896068_1_alg».proof.Proof.Gen.Kernel.Skeleton
import proofs.«137898_j56616258896068_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Calls

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window `w`'s array that point `t` works on, as the call finds the array. -/
def blk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The rows of the features are in their buffer when the body runs, whichever proof data say the body leaves them there. -/
theorem found3_0_of {c : Dev nD} (dat : Dat τ (Elt F) Unit ℕ (UR sig nD τ) ℕ cfg3 c) (hA : dat.A 0 = V c (Pipeline.arrRef spec3 0))
    (hafter : ∀ t, dat.after 0 t = blk3 V c 0 t) (t : Fin cfg3.N) (d) : dat.before 0 t d = blk3 V c 0 t :=
  (dat.before_in_eq_fetched 0 rfl (fun _ => rfl) (fun _ _ _ => rfl) (fun t => by rw [hafter]; unfold Dat.blockOf blk3; rw [hA]; try rfl) t d).trans
    (by unfold Dat.fetched Dat.blockOf blk3; rw [hA]; try rfl)

/-- The weights are in their buffer at every point although fetched only at the first: their block never moves. -/
theorem found3_1_of {c : Dev nD} (dat : Dat τ (Elt F) Unit ℕ (UR sig nD τ) ℕ cfg3 c) (hA : dat.A 1 = V c (Pipeline.arrRef spec3 1))
    (hafter : ∀ t, dat.after 1 t = blk3 V c 1 t) (t : Fin cfg3.N) (d) : dat.before 1 t d = blk3 V c 1 t :=
  (dat.before_in_eq_fetched 1 rfl (fun _ => rfl) (fun _ _ _ => rfl) (fun t => by rw [hafter]; unfold Dat.blockOf blk3; rw [hA]; try rfl) t d).trans
    (by unfold Dat.fetched Dat.blockOf blk3; rw [hA]; try rfl)

/-- So is the bias row. -/
theorem found3_2_of {c : Dev nD} (dat : Dat τ (Elt F) Unit ℕ (UR sig nD τ) ℕ cfg3 c) (hA : dat.A 2 = V c (Pipeline.arrRef spec3 2))
    (hafter : ∀ t, dat.after 2 t = blk3 V c 2 t) (t : Fin cfg3.N) (d) : dat.before 2 t d = blk3 V c 2 t :=
  (dat.before_in_eq_fetched 2 rfl (fun _ => rfl) (fun _ _ _ => rfl) (fun t => by rw [hafter]; unfold Dat.blockOf blk3; rw [hA]; try rfl) t d).trans
    (by unfold Dat.fetched Dat.blockOf blk3; rw [hA]; try rfl)

/-- The whole of each buffer, as a rectangle: what the body's loads and its one store address. -/
abbrev whole3_x : Rect S1024x128 := Rect.unit (s := S1024x128) ![0, 0] S1024x128.size inb_S1024x128_S1024x128_0_0
abbrev whole3_w : Rect S128x64 := Rect.unit (s := S128x64) ![0, 0] S128x64.size inb_S128x64_S128x64_0_0
abbrev whole3_b : Rect S1x64 := Rect.unit (s := S1x64) ![0, 0] S1x64.size inb_S1x64_S1x64_0_0
abbrev whole3_o : Rect S1024x64 := Rect.unit (s := S1024x64) ![0, 0] S1024x64.size inb_S1024x64_S1024x64_0_0

/-- What the body leaves in the output's buffer: its one store, of the product of the two blocks plus the bias row. -/
def affine3 (x0 : Vec F S1024x128 .f32) (x1 : Vec F S128x64 .f32) (x2 : Vec F S1x64 .f32) : Vec F S1024x64 .f32 :=
  View.canon [⟨whole3_o, k3_pay1 (View.ld x0 whole3_x) (View.ld x1 whole3_w) (View.ld x2 whole3_b)⟩]

/-- That store covers the buffer. -/
theorem affine3_cover (p0 : Vec F S1024x64 .f32) (y : S1024x64.Idx) :
    ∃ pc ∈ ([⟨whole3_o, p0⟩] : List (View.Piece (Elt F) S1024x64 .f32)), y ∈ pc.1.set :=
  View.cover_of_tiled [⟨whole3_o, p0⟩] S1024x64.size (by rfl) y

set_option maxHeartbeats 1000000 in
/-- The body on whole buffers: the three inputs at `x0`, `x1`, `x2` and the output at anything; it leaves the inputs as
    they were and the output at `affine3 x0 x1 x2`. -/
theorem body3_triple (c : Dev nD) (E : Set ℕ) (i : grid3.Coords) (arg1 : Memref sig .tc .vmem S1024x128 .f32) (harg1 : arg1.IsWhole)
    (arg2 : Memref sig .tc .vmem S128x64 .f32) (harg2 : arg2.IsWhole) (arg3 : Memref sig .tc .vmem S1x64 .f32) (harg3 : arg3.IsWhole)
    (arg4 : Memref sig .tc .vmem S1024x64 .f32) (harg4 : arg4.IsWhole)
    (x0 : Vec F S1024x128 .f32) (x1 : Vec F S128x64 .f32) (x2 : Vec F S1x64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (affine3 x0 x1 x2)) -∗ K ⟨⟩))
      ⊢ wp frame (wpE (defs₀ (F := F)) Variants.none c none) E (cc3__mm_bias_kernel i arg1 harg1 arg2 harg2 arg3 harg3 arg4 harg4) K := by
  simp only [cc3__mm_bias_kernel_eq_skeleton]; unfold cc3__mm_bias_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (affine3_cover _)

/-- The pipeline's proof data on core `c`: the arrays as found; after the body each input's buffer still at its block
    and the output's at the affine image; the invariant between points the untouched rest; full shares; nothing owed. -/
def data3 (c : Dev nD) : Dat τ (Elt F) Unit ℕ (UR sig nD τ) ℕ cfg3 c where
  A w := V c (Pipeline.arrRef spec3 w)
  after w t := match w with
    | ⟨0, _⟩ => blk3 V c 0 t
    | ⟨1, _⟩ => blk3 V c 1 t
    | ⟨2, _⟩ => blk3 V c 2 t
    | ⟨3, _⟩ => affine3 (blk3 V c 0 t) (blk3 V c 1 t) (blk3 V c 2 t)
  Φ _ := Pipeline.ΦA spec3 c
  q _ := fullShare
  owed _ := 0

theorem data3_A (c : Dev nD) (w : Fin cfg3.W) : (data3 V c).A w = V c (Pipeline.arrRef spec3 w) := by
  dsimp only [data3]
theorem data3_after_0 (c : Dev nD) (t : Fin cfg3.N) : (data3 V c).after 0 t = blk3 V c 0 t := by dsimp only [data3]
theorem data3_after_1 (c : Dev nD) (t : Fin cfg3.N) : (data3 V c).after 1 t = blk3 V c 1 t := by dsimp only [data3]
theorem data3_after_2 (c : Dev nD) (t : Fin cfg3.N) : (data3 V c).after 2 t = blk3 V c 2 t := by dsimp only [data3]
theorem data3_after_3 (c : Dev nD) (t : Fin cfg3.N) :
    (data3 V c).after 3 t = affine3 (blk3 V c 0 t) (blk3 V c 1 t) (blk3 V c 2 t) := by dsimp only [data3]

theorem data3_before_0 (c : Dev nD) (t : Fin cfg3.N) (d) : (data3 V c).before 0 t d = blk3 V c 0 t :=
  found3_0_of V (data3 V c) (data3_A V c 0) (data3_after_0 V c) t d
theorem data3_before_1 (c : Dev nD) (t : Fin cfg3.N) (d) : (data3 V c).before 1 t d = blk3 V c 1 t :=
  found3_1_of V (data3 V c) (data3_A V c 1) (data3_after_1 V c) t d
theorem data3_before_2 (c : Dev nD) (t : Fin cfg3.N) (d) : (data3 V c).before 2 t d = blk3 V c 2 t :=
  found3_2_of V (data3 V c) (data3_A V c 2) (data3_after_2 V c) t d

/-- What the pipeline hands the body at point `t`, window by window, -/
def handed3 (c : Dev nD) (t : Fin cfg3.N) : sProp 𝕄 :=
  iprop((data3 V c).Φ t.castSucc ∗ (data3 V c).owesAt () t.castSucc
    ∗ (∃ d, owns (c : Thread nD τ) (st3_0 t) fullShare ((data3 V c).before 0 t d))
    ∗ (∃ d, owns (c : Thread nD τ) (st3_1 t) fullShare ((data3 V c).before 1 t d))
    ∗ (∃ d, owns (c : Thread nD τ) (st3_2 t) fullShare ((data3 V c).before 2 t d))
    ∗ (∃ d, owns (c : Thread nD τ) (st3_3 t) fullShare ((data3 V c).before 3 t d)))

/-- and what the body hands back. -/
def returned3 (c : Dev nD) (t : Fin cfg3.N) : sProp 𝕄 :=
  iprop((data3 V c).Φ t.succ ∗ (data3 V c).owesAt () t.succ
    ∗ owns (c : Thread nD τ) (st3_0 t) fullShare ((data3 V c).after 0 t)
    ∗ owns (c : Thread nD τ) (st3_1 t) fullShare ((data3 V c).after 1 t)
    ∗ owns (c : Thread nD τ) (st3_2 t) fullShare ((data3 V c).after 2 t)
    ∗ owns (c : Thread nD τ) (st3_3 t) fullShare ((data3 V c).after 3 t))

theorem body3_at (c : Dev nD) (t : Fin cfg3.N) :
    handed3 V c t ⊢ wp frame (wpE (defs₀ (F := F)) Variants.none c none) Set.univ (bodyAt3 t) (fun _ => returned3 V c t) := by
  unfold handed3 returned3 bodyAt3
  simp only [data3_before_0, data3_before_1, data3_before_2]
  rw [show (data3 V c).Φ t.succ = (data3 V c).Φ t.castSucc from rfl,
    show (data3 V c).owesAt () t.succ = (data3 V c).owesAt () t.castSucc from rfl,
    data3_after_0, data3_after_1, data3_after_2, data3_after_3]
  iintro ⟨HΦ, Ho, ⟨%d0, H0⟩, ⟨%d1, H1⟩, ⟨%d2, H2⟩, ⟨%d3, H3⟩⟩
  iapply (body3_triple c Set.univ _ _ _ _ _ _ _ _ _ (blk3 V c 0 t) (blk3 V c 1 t) (blk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's obligation on the body, at every point. -/
theorem body3_obligation (c : Dev nD) : BodyObligation (data3 (F := F) V c) (defs₀ (F := F)) Variants.none () Set.univ := fun t => by
  rw [bigSep_W3, bigSep_W3]
  exact body3_at V c t

end Cert.Kernel.Calls

end
-- ==== Proof.Kernel.Call4.lean ====
/- The fifth pallas_call of the program: the affine map that makes `logvar`, one row block of `logvar0 · dense_W + dense_b` per grid point (eight points; the weights and the bias row fetched once). At any entry contents `V` of the core's buffers and for both readings of the floats: what the body leaves in the output's buffer as a function of the three input blocks, the body's triple, and the pipeline's proof data with its obligation at every point. -/
import proofs.«137898_j56616258896068_1_alg».proof.Proof.Gen.Kernel.Launch
import proofs.«137898_j56616258896068_1_alg».proof.Proof.Gen.Kernel.Skeleton
import proofs.«137898_j56616258896068_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Calls

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window `w`'s array that point `t` works on, as the call finds the array. -/
def blk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The rows of the features are in their buffer when the body runs, whichever proof data say the body leaves them there. -/
theorem found4_0_of {c : Dev nD} (dat : Dat τ (Elt F) Unit ℕ (UR sig nD τ) ℕ cfg4 c) (hA : dat.A 0 = V c (Pipeline.arrRef spec4 0))
    (hafter : ∀ t, dat.after 0 t = blk4 V c 0 t) (t : Fin cfg4.N) (d) : dat.before 0 t d = blk4 V c 0 t :=
  (dat.before_in_eq_fetched 0 rfl (fun _ => rfl) (fun _ _ _ => rfl) (fun t => by rw [hafter]; unfold Dat.blockOf blk4; rw [hA]; try rfl) t d).trans
    (by unfold Dat.fetched Dat.blockOf blk4; rw [hA]; try rfl)

/-- The weights are in their buffer at every point although fetched only at the first: their block never moves. -/
theorem found4_1_of {c : Dev nD} (dat : Dat τ (Elt F) Unit ℕ (UR sig nD τ) ℕ cfg4 c) (hA : dat.A 1 = V c (Pipeline.arrRef spec4 1))
    (hafter : ∀ t, dat.after 1 t = blk4 V c 1 t) (t : Fin cfg4.N) (d) : dat.before 1 t d = blk4 V c 1 t :=
  (dat.before_in_eq_fetched 1 rfl (fun _ => rfl) (fun _ _ _ => rfl) (fun t => by rw [hafter]; unfold Dat.blockOf blk4; rw [hA]; try rfl) t d).trans
    (by unfold Dat.fetched Dat.blockOf blk4; rw [hA]; try rfl)

/-- So is the bias row. -/
theorem found4_2_of {c : Dev nD} (dat : Dat τ (Elt F) Unit ℕ (UR sig nD τ) ℕ cfg4 c) (hA : dat.A 2 = V c (Pipeline.arrRef spec4 2))
    (hafter : ∀ t, dat.after 2 t = blk4 V c 2 t) (t : Fin cfg4.N) (d) : dat.before 2 t d = blk4 V c 2 t :=
  (dat.before_in_eq_fetched 2 rfl (fun _ => rfl) (fun _ _ _ => rfl) (fun t => by rw [hafter]; unfold Dat.blockOf blk4; rw [hA]; try rfl) t d).trans
    (by unfold Dat.fetched Dat.blockOf blk4; rw [hA]; try rfl)

/-- The whole of each buffer, as a rectangle: what the body's loads and its one store address. -/
abbrev whole4_x : Rect S1024x128 := Rect.unit (s := S1024x128) ![0, 0] S1024x128.size inb_S1024x128_S1024x128_0_0
abbrev whole4_w : Rect S128x64 := Rect.unit (s := S128x64) ![0, 0] S128x64.size inb_S128x64_S128x64_0_0
abbrev whole4_b : Rect S1x64 := Rect.unit (s := S1x64) ![0, 0] S1x64.size inb_S1x64_S1x64_0_0
abbrev whole4_o : Rect S1024x64 := Rect.unit (s := S1024x64) ![0, 0] S1024x64.size inb_S1024x64_S1024x64_0_0

/-- What the body leaves in the output's buffer: its one store, of the product of the two blocks plus the bias row. -/
def affine4 (x0 : Vec F S1024x128 .f32) (x1 : Vec F S128x64 .f32) (x2 : Vec F S1x64 .f32) : Vec F S1024x64 .f32 :=
  View.canon [⟨whole4_o, k4_pay1 (View.ld x0 whole4_x) (View.ld x1 whole4_w) (View.ld x2 whole4_b)⟩]

/-- That store covers the buffer. -/
theorem affine4_cover (p0 : Vec F S1024x64 .f32) (y : S1024x64.Idx) :
    ∃ pc ∈ ([⟨whole4_o, p0⟩] : List (View.Piece (Elt F) S1024x64 .f32)), y ∈ pc.1.set :=
  View.cover_of_tiled [⟨whole4_o, p0⟩] S1024x64.size (by rfl) y

set_option maxHeartbeats 1000000 in
/-- The body on whole buffers: the three inputs at `x0`, `x1`, `x2` and the output at anything; it leaves the inputs as
    they were and the output at `affine4 x0 x1 x2`. -/
theorem body4_triple (c : Dev nD) (E : Set ℕ) (i : grid4.Coords) (arg1 : Memref sig .tc .vmem S1024x128 .f32) (harg1 : arg1.IsWhole)
    (arg2 : Memref sig .tc .vmem S128x64 .f32) (harg2 : arg2.IsWhole) (arg3 : Memref sig .tc .vmem S1x64 .f32) (harg3 : arg3.IsWhole)
    (arg4 : Memref sig .tc .vmem S1024x64 .f32) (harg4 : arg4.IsWhole)
    (x0 : Vec F S1024x128 .f32) (x1 : Vec F S128x64 .f32) (x2 : Vec F S1x64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (affine4 x0 x1 x2)) -∗ K ⟨⟩))
      ⊢ wp frame (wpE (defs₀ (F := F)) Variants.none c none) E (cc4__mm_bias_kernel i arg1 harg1 arg2 harg2 arg3 harg3 arg4 harg4) K := by
  simp only [cc4__mm_bias_kernel_eq_skeleton]; unfold cc4__mm_bias_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (affine4_cover _)

/-- The pipeline's proof data on core `c`: the arrays as found; after the body each input's buffer still at its block
    and the output's at the affine image; the invariant between points the untouched rest; full shares; nothing owed. -/
def data4 (c : Dev nD) : Dat τ (Elt F) Unit ℕ (UR sig nD τ) ℕ cfg4 c where
  A w := V c (Pipeline.arrRef spec4 w)
  after w t := match w with
    | ⟨0, _⟩ => blk4 V c 0 t
    | ⟨1, _⟩ => blk4 V c 1 t
    | ⟨2, _⟩ => blk4 V c 2 t
    | ⟨3, _⟩ => affine4 (blk4 V c 0 t) (blk4 V c 1 t) (blk4 V c 2 t)
  Φ _ := Pipeline.ΦA spec4 c
  q _ := fullShare
  owed _ := 0

theorem data4_A (c : Dev nD) (w : Fin cfg4.W) : (data4 V c).A w = V c (Pipeline.arrRef spec4 w) := by
  dsimp only [data4]
theorem data4_after_0 (c : Dev nD) (t : Fin cfg4.N) : (data4 V c).after 0 t = blk4 V c 0 t := by dsimp only [data4]
theorem data4_after_1 (c : Dev nD) (t : Fin cfg4.N) : (data4 V c).after 1 t = blk4 V c 1 t := by dsimp only [data4]
theorem data4_after_2 (c : Dev nD) (t : Fin cfg4.N) : (data4 V c).after 2 t = blk4 V c 2 t := by dsimp only [data4]
theorem data4_after_3 (c : Dev nD) (t : Fin cfg4.N) :
    (data4 V c).after 3 t = affine4 (blk4 V c 0 t) (blk4 V c 1 t) (blk4 V c 2 t) := by dsimp only [data4]

theorem data4_before_0 (c : Dev nD) (t : Fin cfg4.N) (d) : (data4 V c).before 0 t d = blk4 V c 0 t :=
  found4_0_of V (data4 V c) (data4_A V c 0) (data4_after_0 V c) t d
theorem data4_before_1 (c : Dev nD) (t : Fin cfg4.N) (d) : (data4 V c).before 1 t d = blk4 V c 1 t :=
  found4_1_of V (data4 V c) (data4_A V c 1) (data4_after_1 V c) t d
theorem data4_before_2 (c : Dev nD) (t : Fin cfg4.N) (d) : (data4 V c).before 2 t d = blk4 V c 2 t :=
  found4_2_of V (data4 V c) (data4_A V c 2) (data4_after_2 V c) t d

/-- What the pipeline hands the body at point `t`, window by window, -/
def handed4 (c : Dev nD) (t : Fin cfg4.N) : sProp 𝕄 :=
  iprop((data4 V c).Φ t.castSucc ∗ (data4 V c).owesAt () t.castSucc
    ∗ (∃ d, owns (c : Thread nD τ) (st4_0 t) fullShare ((data4 V c).before 0 t d))
    ∗ (∃ d, owns (c : Thread nD τ) (st4_1 t) fullShare ((data4 V c).before 1 t d))
    ∗ (∃ d, owns (c : Thread nD τ) (st4_2 t) fullShare ((data4 V c).before 2 t d))
    ∗ (∃ d, owns (c : Thread nD τ) (st4_3 t) fullShare ((data4 V c).before 3 t d)))

/-- and what the body hands back. -/
def returned4 (c : Dev nD) (t : Fin cfg4.N) : sProp 𝕄 :=
  iprop((data4 V c).Φ t.succ ∗ (data4 V c).owesAt () t.succ
    ∗ owns (c : Thread nD τ) (st4_0 t) fullShare ((data4 V c).after 0 t)
    ∗ owns (c : Thread nD τ) (st4_1 t) fullShare ((data4 V c).after 1 t)
    ∗ owns (c : Thread nD τ) (st4_2 t) fullShare ((data4 V c).after 2 t)
    ∗ owns (c : Thread nD τ) (st4_3 t) fullShare ((data4 V c).after 3 t))

theorem body4_at (c : Dev nD) (t : Fin cfg4.N) :
    handed4 V c t ⊢ wp frame (wpE (defs₀ (F := F)) Variants.none c none) Set.univ (bodyAt4 t) (fun _ => returned4 V c t) := by
  unfold handed4 returned4 bodyAt4
  simp only [data4_before_0, data4_before_1, data4_before_2]
  rw [show (data4 V c).Φ t.succ = (data4 V c).Φ t.castSucc from rfl,
    show (data4 V c).owesAt () t.succ = (data4 V c).owesAt () t.castSucc from rfl,
    data4_after_0, data4_after_1, data4_after_2, data4_after_3]
  iintro ⟨HΦ, Ho, ⟨%d0, H0⟩, ⟨%d1, H1⟩, ⟨%d2, H2⟩, ⟨%d3, H3⟩⟩
  iapply (body4_triple c Set.univ _ _ _ _ _ _ _ _ _ (blk4 V c 0 t) (blk4 V c 1 t) (blk4 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's obligation on the body, at every point. -/
theorem body4_obligation (c : Dev nD) : BodyObligation (data4 (F := F) V c) (defs₀ (F := F)) Variants.none () Set.univ := fun t => by
  rw [bigSep_W4, bigSep_W4]
  exact body4_at V c t

end Cert.Kernel.Calls

end
-- ==== Proof.Kernel.Call5.lean ====
/- The sixth pallas_call of the program: the inner-product decoder, one 1024 × 1024 tile of `z · zᵀ` per grid point of an
   8 × 8 grid. At point (i, j) the body reads rows 1024·i … of `z` through window 0 (fetched when i changes) and rows
   1024·j … of the SAME array through window 1 (fetched at every point), and writes over the output's tile the product
   of the first block with the transpose of the second. The two input windows share one array, so the pipeline holds
   that array at two complementary shares, one per window. Stated here, at any entry contents `V` of the core's buffers
   and for both readings of the floats: what the body leaves in the output's buffer as a function of the two input
   blocks, the body's triple, and the pipeline's proof data with its obligation at every point. -/
import proofs.«137898_j56616258896068_1_alg».proof.Proof.Gen.Kernel.Launch
import proofs.«137898_j56616258896068_1_alg».proof.Proof.Gen.Kernel.Skeleton
import proofs.«137898_j56616258896068_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Calls

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window `w`'s array that point `t` works on, as the call finds the array. -/
def blk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- The rows of `x` are in their buffer when the body runs, whichever proof data say the body leaves them there. -/
theorem found5_0_of {c : Dev nD} (dat : Dat τ (Elt F) Unit ℕ (UR sig nD τ) ℕ cfg5 c) (hA : dat.A 0 = V c (Pipeline.arrRef spec5 0))
    (hafter : ∀ t, dat.after 0 t = blk5 V c 0 t) (t : Fin cfg5.N) (d) : dat.before 0 t d = blk5 V c 0 t :=
  (dat.before_in_eq_fetched 0 rfl (fun _ => rfl) (fun _ _ _ => rfl) (fun t => by rw [hafter]; unfold Dat.blockOf blk5; rw [hA]; try rfl) t d).trans
    (by unfold Dat.fetched Dat.blockOf blk5; rw [hA]; try rfl)

/-- `W1` is in its buffer at every point although it is fetched only at the first: its block never moves. -/
theorem found5_1_of {c : Dev nD} (dat : Dat τ (Elt F) Unit ℕ (UR sig nD τ) ℕ cfg5 c) (hA : dat.A 1 = V c (Pipeline.arrRef spec5 1))
    (hafter : ∀ t, dat.after 1 t = blk5 V c 1 t) (t : Fin cfg5.N) (d) : dat.before 1 t d = blk5 V c 1 t :=
  (dat.before_in_eq_fetched 1 rfl (fun _ => rfl) (fun _ _ _ => rfl) (fun t => by rw [hafter]; unfold Dat.blockOf blk5; rw [hA]; try rfl) t d).trans
    (by unfold Dat.fetched Dat.blockOf blk5; rw [hA]; try rfl)

/-- The whole of each buffer, as a rectangle: what the body's loads and its one store address. -/
abbrev whole5_x : Rect S1024x64 := Rect.unit (s := S1024x64) ![0, 0] S1024x64.size inb_S1024x64_S1024x64_0_0
abbrev whole5_w : Rect S1024x64 := Rect.unit (s := S1024x64) ![0, 0] S1024x64.size inb_S1024x64_S1024x64_0_0
abbrev whole5_o : Rect S1024x1024 := Rect.unit (s := S1024x1024) ![0, 0] S1024x1024.size inb_S1024x1024_S1024x1024_0_0

/-- What the body leaves in the output's buffer: its one store, of the product of the two blocks. -/
def prod5 (x0 : Vec F S1024x64 .f32) (x1 : Vec F S1024x64 .f32) : Vec F S1024x1024 .f32 :=
  View.canon [⟨whole5_o, k5_pay1 (View.ld x0 whole5_x) (View.ld x1 whole5_w)⟩]

/-- That store covers the buffer. -/
theorem prod5_cover (p0 : Vec F S1024x1024 .f32) (y : S1024x1024.Idx) :
    ∃ pc ∈ ([⟨whole5_o, p0⟩] : List (View.Piece (Elt F) S1024x1024 .f32)), y ∈ pc.1.set :=
  View.cover_of_tiled [⟨whole5_o, p0⟩] S1024x1024.size (by rfl) y

set_option maxHeartbeats 1000000 in
/-- The body on whole buffers: the two inputs at `x0`, `x1` and the output at anything; it leaves the inputs as they
    were and the output at `prod5 x0 x1`. -/
theorem body5_triple (c : Dev nD) (E : Set ℕ) (i : grid5.Coords) (arg1 : Memref sig .tc .vmem S1024x64 .f32) (harg1 : arg1.IsWhole)
    (arg2 : Memref sig .tc .vmem S1024x64 .f32) (harg2 : arg2.IsWhole) (arg3 : Memref sig .tc .vmem S1024x1024 .f32) (harg3 : arg3.IsWhole)
    (x0 : Vec F S1024x64 .f32) (x1 : Vec F S1024x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (prod5 x0 x1)) -∗ K ⟨⟩))
      ⊢ wp frame (wpE (defs₀ (F := F)) Variants.none c none) E (cc5__inner_kernel i arg1 harg1 arg2 harg2 arg3 harg3) K := by
  simp only [cc5__inner_kernel_eq_skeleton]; unfold cc5__inner_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (prod5_cover _)

/-- The pipeline's proof data on core `c`: the arrays as found; after the body each input's buffer still at its block
    and the output's at the product; the invariant between points the untouched rest; the shared input array held half by each of
    its two windows; nothing owed. -/
def data5 (c : Dev nD) : Dat τ (Elt F) Unit ℕ (UR sig nD τ) ℕ cfg5 c where
  A w := V c (Pipeline.arrRef spec5 w)
  after w t := match w with
    | ⟨0, _⟩ => blk5 V c 0 t
    | ⟨1, _⟩ => blk5 V c 1 t
    | ⟨2, _⟩ => prod5 (blk5 V c 0 t) (blk5 V c 1 t)
  Φ _ := Pipeline.ΦA spec5 c
  q w := match w with
    | ⟨0, _⟩ => fullShare.left
    | ⟨1, _⟩ => fullShare.right
    | ⟨2, _⟩ => fullShare
  owed _ := 0

theorem data5_A (c : Dev nD) (w : Fin cfg5.W) : (data5 V c).A w = V c (Pipeline.arrRef spec5 w) := by
  dsimp only [data5]
theorem data5_after_0 (c : Dev nD) (t : Fin cfg5.N) : (data5 V c).after 0 t = blk5 V c 0 t := by dsimp only [data5]
theorem data5_after_1 (c : Dev nD) (t : Fin cfg5.N) : (data5 V c).after 1 t = blk5 V c 1 t := by dsimp only [data5]
theorem data5_after_2 (c : Dev nD) (t : Fin cfg5.N) : (data5 V c).after 2 t = prod5 (blk5 V c 0 t) (blk5 V c 1 t) := by dsimp only [data5]

theorem data5_before_0 (c : Dev nD) (t : Fin cfg5.N) (d) : (data5 V c).before 0 t d = blk5 V c 0 t :=
  found5_0_of V (data5 V c) (data5_A V c 0) (data5_after_0 V c) t d
theorem data5_before_1 (c : Dev nD) (t : Fin cfg5.N) (d) : (data5 V c).before 1 t d = blk5 V c 1 t :=
  found5_1_of V (data5 V c) (data5_A V c 1) (data5_after_1 V c) t d

/-- What the pipeline hands the body at point `t`, window by window, -/
def handed5 (c : Dev nD) (t : Fin cfg5.N) : sProp 𝕄 :=
  iprop((data5 V c).Φ t.castSucc ∗ (data5 V c).owesAt () t.castSucc
    ∗ (∃ d, owns (c : Thread nD τ) (st5_0 t) fullShare ((data5 V c).before 0 t d))
    ∗ (∃ d, owns (c : Thread nD τ) (st5_1 t) fullShare ((data5 V c).before 1 t d))
    ∗ (∃ d, owns (c : Thread nD τ) (st5_2 t) fullShare ((data5 V c).before 2 t d)))

/-- and what the body hands back. -/
def returned5 (c : Dev nD) (t : Fin cfg5.N) : sProp 𝕄 :=
  iprop((data5 V c).Φ t.succ ∗ (data5 V c).owesAt () t.succ
    ∗ owns (c : Thread nD τ) (st5_0 t) fullShare ((data5 V c).after 0 t)
    ∗ owns (c : Thread nD τ) (st5_1 t) fullShare ((data5 V c).after 1 t)
    ∗ owns (c : Thread nD τ) (st5_2 t) fullShare ((data5 V c).after 2 t))

theorem body5_at (c : Dev nD) (t : Fin cfg5.N) :
    handed5 V c t ⊢ wp frame (wpE (defs₀ (F := F)) Variants.none c none) Set.univ (bodyAt5 t) (fun _ => returned5 V c t) := by
  unfold handed5 returned5 bodyAt5
  simp only [data5_before_0, data5_before_1]
  rw [show (data5 V c).Φ t.succ = (data5 V c).Φ t.castSucc from rfl,
    show (data5 V c).owesAt () t.succ = (data5 V c).owesAt () t.castSucc from rfl,
    data5_after_0, data5_after_1, data5_after_2]
  iintro ⟨HΦ, Ho, ⟨%d0, H0⟩, ⟨%d1, H1⟩, ⟨%d2, H2⟩⟩
  iapply (body5_triple c Set.univ _ _ _ _ _ _ _ (blk5 V c 0 t) (blk5 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's obligation on the body, at every point. -/
theorem body5_obligation (c : Dev nD) : BodyObligation (data5 (F := F) V c) (defs₀ (F := F)) Variants.none () Set.univ := fun t => by
  rw [bigSep_W5, bigSep_W5]
  exact body5_at V c t

end Cert.Kernel.Calls

end
-- ==== Proof.Kernel.Call6.lean ====
/- The seventh pallas_call of the program: the last affine map, one row block of `z · dense1_W + dense1_b` per grid point (eight points; the 64 × 6 weights and the 1 × 6 bias row fetched once). At any entry contents `V` of the core's buffers and for both readings of the floats: what the body leaves in the output's buffer as a function of the three input blocks, the body's triple, and the pipeline's proof data with its obligation at every point. -/
import proofs.«137898_j56616258896068_1_alg».proof.Proof.Gen.Kernel.Launch
import proofs.«137898_j56616258896068_1_alg».proof.Proof.Gen.Kernel.Skeleton
import proofs.«137898_j56616258896068_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Calls

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window `w`'s array that point `t` works on, as the call finds the array. -/
def blk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- The rows of the features are in their buffer when the body runs, whichever proof data say the body leaves them there. -/
theorem found6_0_of {c : Dev nD} (dat : Dat τ (Elt F) Unit ℕ (UR sig nD τ) ℕ cfg6 c) (hA : dat.A 0 = V c (Pipeline.arrRef spec6 0))
    (hafter : ∀ t, dat.after 0 t = blk6 V c 0 t) (t : Fin cfg6.N) (d) : dat.before 0 t d = blk6 V c 0 t :=
  (dat.before_in_eq_fetched 0 rfl (fun _ => rfl) (fun _ _ _ => rfl) (fun t => by rw [hafter]; unfold Dat.blockOf blk6; rw [hA]; try rfl) t d).trans
    (by unfold Dat.fetched Dat.blockOf blk6; rw [hA]; try rfl)

/-- The weights are in their buffer at every point although fetched only at the first: their block never moves. -/
theorem found6_1_of {c : Dev nD} (dat : Dat τ (Elt F) Unit ℕ (UR sig nD τ) ℕ cfg6 c) (hA : dat.A 1 = V c (Pipeline.arrRef spec6 1))
    (hafter : ∀ t, dat.after 1 t = blk6 V c 1 t) (t : Fin cfg6.N) (d) : dat.before 1 t d = blk6 V c 1 t :=
  (dat.before_in_eq_fetched 1 rfl (fun _ => rfl) (fun _ _ _ => rfl) (fun t => by rw [hafter]; unfold Dat.blockOf blk6; rw [hA]; try rfl) t d).trans
    (by unfold Dat.fetched Dat.blockOf blk6; rw [hA]; try rfl)

/-- So is the bias row. -/
theorem found6_2_of {c : Dev nD} (dat : Dat τ (Elt F) Unit ℕ (UR sig nD τ) ℕ cfg6 c) (hA : dat.A 2 = V c (Pipeline.arrRef spec6 2))
    (hafter : ∀ t, dat.after 2 t = blk6 V c 2 t) (t : Fin cfg6.N) (d) : dat.before 2 t d = blk6 V c 2 t :=
  (dat.before_in_eq_fetched 2 rfl (fun _ => rfl) (fun _ _ _ => rfl) (fun t => by rw [hafter]; unfold Dat.blockOf blk6; rw [hA]; try rfl) t d).trans
    (by unfold Dat.fetched Dat.blockOf blk6; rw [hA]; try rfl)

/-- The whole of each buffer, as a rectangle: what the body's loads and its one store address. -/
abbrev whole6_x : Rect S1024x64 := Rect.unit (s := S1024x64) ![0, 0] S1024x64.size inb_S1024x64_S1024x64_0_0
abbrev whole6_w : Rect S64x6 := Rect.unit (s := S64x6) ![0, 0] S64x6.size inb_S64x6_S64x6_0_0
abbrev whole6_b : Rect S1x6 := Rect.unit (s := S1x6) ![0, 0] S1x6.size inb_S1x6_S1x6_0_0
abbrev whole6_o : Rect S1024x6 := Rect.unit (s := S1024x6) ![0, 0] S1024x6.size inb_S1024x6_S1024x6_0_0

/-- What the body leaves in the output's buffer: its one store, of the product of the two blocks plus the bias row. -/
def affine6 (x0 : Vec F S1024x64 .f32) (x1 : Vec F S64x6 .f32) (x2 : Vec F S1x6 .f32) : Vec F S1024x6 .f32 :=
  View.canon [⟨whole6_o, k6_pay1 (View.ld x0 whole6_x) (View.ld x1 whole6_w) (View.ld x2 whole6_b)⟩]

/-- That store covers the buffer. -/
theorem affine6_cover (p0 : Vec F S1024x6 .f32) (y : S1024x6.Idx) :
    ∃ pc ∈ ([⟨whole6_o, p0⟩] : List (View.Piece (Elt F) S1024x6 .f32)), y ∈ pc.1.set :=
  View.cover_of_tiled [⟨whole6_o, p0⟩] S1024x6.size (by rfl) y

set_option maxHeartbeats 1000000 in
/-- The body on whole buffers: the three inputs at `x0`, `x1`, `x2` and the output at anything; it leaves the inputs as
    they were and the output at `affine6 x0 x1 x2`. -/
theorem body6_triple (c : Dev nD) (E : Set ℕ) (i : grid6.Coords) (arg1 : Memref sig .tc .vmem S1024x64 .f32) (harg1 : arg1.IsWhole)
    (arg2 : Memref sig .tc .vmem S64x6 .f32) (harg2 : arg2.IsWhole) (arg3 : Memref sig .tc .vmem S1x6 .f32) (harg3 : arg3.IsWhole)
    (arg4 : Memref sig .tc .vmem S1024x6 .f32) (harg4 : arg4.IsWhole)
    (x0 : Vec F S1024x64 .f32) (x1 : Vec F S64x6 .f32) (x2 : Vec F S1x6 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (affine6 x0 x1 x2)) -∗ K ⟨⟩))
      ⊢ wp frame (wpE (defs₀ (F := F)) Variants.none c none) E (cc6__mm_bias_kernel i arg1 harg1 arg2 harg2 arg3 harg3 arg4 harg4) K := by
  simp only [cc6__mm_bias_kernel_eq_skeleton]; unfold cc6__mm_bias_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (affine6_cover _)

/-- The pipeline's proof data on core `c`: the arrays as found; after the body each input's buffer still at its block
    and the output's at the affine image; the invariant between points the untouched rest; full shares; nothing owed. -/
def data6 (c : Dev nD) : Dat τ (Elt F) Unit ℕ (UR sig nD τ) ℕ cfg6 c where
  A w := V c (Pipeline.arrRef spec6 w)
  after w t := match w with
    | ⟨0, _⟩ => blk6 V c 0 t
    | ⟨1, _⟩ => blk6 V c 1 t
    | ⟨2, _⟩ => blk6 V c 2 t
    | ⟨3, _⟩ => affine6 (blk6 V c 0 t) (blk6 V c 1 t) (blk6 V c 2 t)
  Φ _ := Pipeline.ΦA spec6 c
  q _ := fullShare
  owed _ := 0

theorem data6_A (c : Dev nD) (w : Fin cfg6.W) : (data6 V c).A w = V c (Pipeline.arrRef spec6 w) := by
  dsimp only [data6]
theorem data6_after_0 (c : Dev nD) (t : Fin cfg6.N) : (data6 V c).after 0 t = blk6 V c 0 t := by dsimp only [data6]
theorem data6_after_1 (c : Dev nD) (t : Fin cfg6.N) : (data6 V c).after 1 t = blk6 V c 1 t := by dsimp only [data6]
theorem data6_after_2 (c : Dev nD) (t : Fin cfg6.N) : (data6 V c).after 2 t = blk6 V c 2 t := by dsimp only [data6]
theorem data6_after_3 (c : Dev nD) (t : Fin cfg6.N) :
    (data6 V c).after 3 t = affine6 (blk6 V c 0 t) (blk6 V c 1 t) (blk6 V c 2 t) := by dsimp only [data6]

theorem data6_before_0 (c : Dev nD) (t : Fin cfg6.N) (d) : (data6 V c).before 0 t d = blk6 V c 0 t :=
  found6_0_of V (data6 V c) (data6_A V c 0) (data6_after_0 V c) t d
theorem data6_before_1 (c : Dev nD) (t : Fin cfg6.N) (d) : (data6 V c).before 1 t d = blk6 V c 1 t :=
  found6_1_of V (data6 V c) (data6_A V c 1) (data6_after_1 V c) t d
theorem data6_before_2 (c : Dev nD) (t : Fin cfg6.N) (d) : (data6 V c).before 2 t d = blk6 V c 2 t :=
  found6_2_of V (data6 V c) (data6_A V c 2) (data6_after_2 V c) t d

/-- What the pipeline hands the body at point `t`, window by window, -/
def handed6 (c : Dev nD) (t : Fin cfg6.N) : sProp 𝕄 :=
  iprop((data6 V c).Φ t.castSucc ∗ (data6 V c).owesAt () t.castSucc
    ∗ (∃ d, owns (c : Thread nD τ) (st6_0 t) fullShare ((data6 V c).before 0 t d))
    ∗ (∃ d, owns (c : Thread nD τ) (st6_1 t) fullShare ((data6 V c).before 1 t d))
    ∗ (∃ d, owns (c : Thread nD τ) (st6_2 t) fullShare ((data6 V c).before 2 t d))
    ∗ (∃ d, owns (c : Thread nD τ) (st6_3 t) fullShare ((data6 V c).before 3 t d)))

/-- and what the body hands back. -/
def returned6 (c : Dev nD) (t : Fin cfg6.N) : sProp 𝕄 :=
  iprop((data6 V c).Φ t.succ ∗ (data6 V c).owesAt () t.succ
    ∗ owns (c : Thread nD τ) (st6_0 t) fullShare ((data6 V c).after 0 t)
    ∗ owns (c : Thread nD τ) (st6_1 t) fullShare ((data6 V c).after 1 t)
    ∗ owns (c : Thread nD τ) (st6_2 t) fullShare ((data6 V c).after 2 t)
    ∗ owns (c : Thread nD τ) (st6_3 t) fullShare ((data6 V c).after 3 t))

theorem body6_at (c : Dev nD) (t : Fin cfg6.N) :
    handed6 V c t ⊢ wp frame (wpE (defs₀ (F := F)) Variants.none c none) Set.univ (bodyAt6 t) (fun _ => returned6 V c t) := by
  unfold handed6 returned6 bodyAt6
  simp only [data6_before_0, data6_before_1, data6_before_2]
  rw [show (data6 V c).Φ t.succ = (data6 V c).Φ t.castSucc from rfl,
    show (data6 V c).owesAt () t.succ = (data6 V c).owesAt () t.castSucc from rfl,
    data6_after_0, data6_after_1, data6_after_2, data6_after_3]
  iintro ⟨HΦ, Ho, ⟨%d0, H0⟩, ⟨%d1, H1⟩, ⟨%d2, H2⟩, ⟨%d3, H3⟩⟩
  iapply (body6_triple c Set.univ _ _ _ _ _ _ _ _ _ (blk6 V c 0 t) (blk6 V c 1 t) (blk6 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's obligation on the body, at every point. -/
theorem body6_obligation (c : Dev nD) : BodyObligation (data6 (F := F) V c) (defs₀ (F := F)) Variants.none () Set.univ := fun t => by
  rw [bigSep_W6, bigSep_W6]
  exact body6_at V c t

end Cert.Kernel.Calls

end
-- ==== Proof.Kernel.Chain.lean ====
/- The contents of the core's unscoped buffers between the items of @main, with the seven calls' results named.
   @main is: call 0, two stretches of host operations, calls 1 and 2, a stretch, call 3, a stretch, calls 4 and 5, a
   stretch, call 6. `C0` is the launch memory; a stretch of host operations changes the contents by its operations'
   pure functions; a call changes one array, its output, to what its eight (or sixty-four) write-backs leave there,
   `resK`. `left` packs those results as the family the generated conditional frame is stated over, and `between_K`
   identify the generated valuations at that family with the contents named here. `datas` is the proof-data
   family: every call's data at the contents the call is entered from. -/
import proofs.«137898_j56616258896068_1_alg».proof.Proof.Kernel.Call0
import proofs.«137898_j56616258896068_1_alg».proof.Proof.Kernel.Call1
import proofs.«137898_j56616258896068_1_alg».proof.Proof.Kernel.Call2
import proofs.«137898_j56616258896068_1_alg».proof.Proof.Kernel.Call3
import proofs.«137898_j56616258896068_1_alg».proof.Proof.Kernel.Call4
import proofs.«137898_j56616258896068_1_alg».proof.Proof.Kernel.Call5
import proofs.«137898_j56616258896068_1_alg».proof.Proof.Kernel.Call6
import proofs.«137898_j56616258896068_1_alg».proof.Proof.Gen.Kernel.Regions

noncomputable section

namespace Cert.Kernel.Calls

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

variable (m : (ℓ : Loc nD τ sig) → Buf (Elt F) ℓ)

/-- A core's contents read at the TensorCore's references: the form the calls' proof data take. -/
abbrev atRefs (W : Dev nD → Valuation τ sig (Elt F)) : (c : Dev nD) → (b : Ref sig .tc) → Buf (Elt F) ((c : Thread nD τ).loc b) :=
  fun c b => W c b

/-- At launch. -/
def C0 (c : Dev nD) : Valuation τ sig (Elt F) := V0 m c
/-- What call 0 leaves in `main_v0`. -/
def res0 (c : Dev nD) : Buf (Elt F) ((c : Thread nD τ).loc main_v0) := (data0 (atRefs (C0 m)) c).arrAt 2 cfg0.N
/-- After call 0. -/
def C1 (c : Dev nD) : Valuation τ sig (Elt F) := Function.update (C0 m c) main_v0 (res0 m c)
/-- After the aggregation and the rectifier: calls 1 and 2 are entered from here. -/
def C3 (c : Dev nD) : Valuation τ sig (Elt F) := StableHlo.after hostOps1_1 (StableHlo.after hostOps1 (C1 m c))
/-- What call 1 leaves in `main_v15`. -/
def res1 (c : Dev nD) : Buf (Elt F) ((c : Thread nD τ).loc main_v15) := (data1 (atRefs (C3 m)) c).arrAt 2 cfg1.N
def C4 (c : Dev nD) : Valuation τ sig (Elt F) := Function.update (C3 m c) main_v15 (res1 m c)
/-- What call 2 leaves in `main_v16`. -/
def res2 (c : Dev nD) : Buf (Elt F) ((c : Thread nD τ).loc main_v16) := (data2 (atRefs (C4 m)) c).arrAt 2 cfg2.N
def C5 (c : Dev nD) : Valuation τ sig (Elt F) := Function.update (C4 m c) main_v16 (res2 m c)
/-- After the two aggregations and the bias row's reshape: call 3 is entered from here. -/
def C6 (c : Dev nD) : Valuation τ sig (Elt F) := StableHlo.after hostOps3 (C5 m c)
/-- What call 3 leaves in `main_v44`. -/
def res3 (c : Dev nD) : Buf (Elt F) ((c : Thread nD τ).loc main_v44) := (data3 (atRefs (C6 m)) c).arrAt 3 cfg3.N
def C7 (c : Dev nD) : Valuation τ sig (Elt F) := Function.update (C6 m c) main_v44 (res3 m c)
def C8 (c : Dev nD) : Valuation τ sig (Elt F) := StableHlo.after hostOps4 (C7 m c)
/-- What call 4 leaves in `main_v46`. -/
def res4 (c : Dev nD) : Buf (Elt F) ((c : Thread nD τ).loc main_v46) := (data4 (atRefs (C8 m)) c).arrAt 3 cfg4.N
def C9 (c : Dev nD) : Valuation τ sig (Elt F) := Function.update (C8 m c) main_v46 (res4 m c)
/-- What call 5 leaves in `main_v47`. -/
def res5 (c : Dev nD) : Buf (Elt F) ((c : Thread nD τ).loc main_v47) := (data5 (atRefs (C9 m)) c).arrAt 2 cfg5.N
def C10 (c : Dev nD) : Valuation τ sig (Elt F) := Function.update (C9 m c) main_v47 (res5 m c)
def C11 (c : Dev nD) : Valuation τ sig (Elt F) := StableHlo.after hostOps6 (C10 m c)
/-- What call 6 leaves in `main_v49`. -/
def res6 (c : Dev nD) : Buf (Elt F) ((c : Thread nD τ).loc main_v49) := (data6 (atRefs (C11 m)) c).arrAt 3 cfg6.N
/-- At the return. -/
def C12 (c : Dev nD) : Valuation τ sig (Elt F) := Function.update (C11 m c) main_v49 (res6 m c)

/-- The calls' results as the family the conditional frame is stated over (it reads the family only at a call's
    output, after that call). -/
def left : Outs (F := F) := fun J r c =>
  match J with
  | 1 => Function.update (β := fun r' : Ref sig .tc => Buf (Elt F) ((c : Thread nD τ).loc r')) (fun r' => m ((c : Thread nD τ).loc r')) main_v0 (res0 m c) r
  | 4 => Function.update (β := fun r' : Ref sig .tc => Buf (Elt F) ((c : Thread nD τ).loc r')) (fun r' => m ((c : Thread nD τ).loc r')) main_v15 (res1 m c) r
  | 5 => Function.update (β := fun r' : Ref sig .tc => Buf (Elt F) ((c : Thread nD τ).loc r')) (fun r' => m ((c : Thread nD τ).loc r')) main_v16 (res2 m c) r
  | 7 => Function.update (β := fun r' : Ref sig .tc => Buf (Elt F) ((c : Thread nD τ).loc r')) (fun r' => m ((c : Thread nD τ).loc r')) main_v44 (res3 m c) r
  | 9 => Function.update (β := fun r' : Ref sig .tc => Buf (Elt F) ((c : Thread nD τ).loc r')) (fun r' => m ((c : Thread nD τ).loc r')) main_v46 (res4 m c) r
  | 10 => Function.update (β := fun r' : Ref sig .tc => Buf (Elt F) ((c : Thread nD τ).loc r')) (fun r' => m ((c : Thread nD τ).loc r')) main_v47 (res5 m c) r
  | 12 => Function.update (β := fun r' : Ref sig .tc => Buf (Elt F) ((c : Thread nD τ).loc r')) (fun r' => m ((c : Thread nD τ).loc r')) main_v49 (res6 m c) r
  | _ => m ((c : Thread nD τ).loc r)

theorem left_1 (c : Dev nD) : left m 1 main_v0 c = res0 m c := by unfold left; exact Function.update_self ..
theorem left_4 (c : Dev nD) : left m 4 main_v15 c = res1 m c := by unfold left; exact Function.update_self ..
theorem left_5 (c : Dev nD) : left m 5 main_v16 c = res2 m c := by unfold left; exact Function.update_self ..
theorem left_7 (c : Dev nD) : left m 7 main_v44 c = res3 m c := by unfold left; exact Function.update_self ..
theorem left_9 (c : Dev nD) : left m 9 main_v46 c = res4 m c := by unfold left; exact Function.update_self ..
theorem left_10 (c : Dev nD) : left m 10 main_v47 c = res5 m c := by unfold left; exact Function.update_self ..
theorem left_12 (c : Dev nD) : left m 12 main_v49 c = res6 m c := by unfold left; exact Function.update_self ..

/-- The generated valuations, at the family `left`, are the contents named above. -/
theorem between_0 (c : Dev nD) : V0 m c = C0 m c := rfl
theorem between_1 (c : Dev nD) : V1 m (left m) c = C1 m c := by
  show Function.update (V0 m c) main_v0 (left m 1 main_v0 c) = _; rw [left_1]; rfl
theorem between_3 (c : Dev nD) : V3 m (left m) c = C3 m c := by
  show StableHlo.after hostOps1_1 (StableHlo.after hostOps1 (V1 m (left m) c)) = _; rw [between_1]; rfl
theorem between_4 (c : Dev nD) : V4 m (left m) c = C4 m c := by
  show Function.update (V3 m (left m) c) main_v15 (left m 4 main_v15 c) = _; rw [left_4, between_3]; rfl
theorem between_5 (c : Dev nD) : V5 m (left m) c = C5 m c := by
  show Function.update (V4 m (left m) c) main_v16 (left m 5 main_v16 c) = _; rw [left_5, between_4]; rfl
theorem between_6 (c : Dev nD) : V6 m (left m) c = C6 m c := by
  show StableHlo.after hostOps3 (V5 m (left m) c) = _; rw [between_5]; rfl
theorem between_7 (c : Dev nD) : V7 m (left m) c = C7 m c := by
  show Function.update (V6 m (left m) c) main_v44 (left m 7 main_v44 c) = _; rw [left_7, between_6]; rfl
theorem between_8 (c : Dev nD) : V8 m (left m) c = C8 m c := by
  show StableHlo.after hostOps4 (V7 m (left m) c) = _; rw [between_7]; rfl
theorem between_9 (c : Dev nD) : V9 m (left m) c = C9 m c := by
  show Function.update (V8 m (left m) c) main_v46 (left m 9 main_v46 c) = _; rw [left_9, between_8]; rfl
theorem between_10 (c : Dev nD) : V10 m (left m) c = C10 m c := by
  show Function.update (V9 m (left m) c) main_v47 (left m 10 main_v47 c) = _; rw [left_10, between_9]; rfl
theorem between_11 (c : Dev nD) : V11 m (left m) c = C11 m c := by
  show StableHlo.after hostOps6 (V10 m (left m) c) = _; rw [between_10]; rfl
theorem between_12 (c : Dev nD) : V12 m (left m) c = C12 m c := by
  show Function.update (V11 m (left m) c) main_v49 (left m 12 main_v49 c) = _; rw [left_12, between_11]; rfl

/-- Every call's proof data, each at the contents the call is entered from: a literal match on the call's number. -/
def datas : (p : Fin 7) → (c : Dev nD) → Dat τ (Elt F) Unit ℕ (UR sig nD τ) ℕ (cfgs p) c
  | ⟨0, _⟩ => fun c => data0 (atRefs (C0 m)) c
  | ⟨1, _⟩ => fun c => data1 (atRefs (C3 m)) c
  | ⟨2, _⟩ => fun c => data2 (atRefs (C4 m)) c
  | ⟨3, _⟩ => fun c => data3 (atRefs (C6 m)) c
  | ⟨4, _⟩ => fun c => data4 (atRefs (C8 m)) c
  | ⟨5, _⟩ => fun c => data5 (atRefs (C9 m)) c
  | ⟨6, _⟩ => fun c => data6 (atRefs (C11 m)) c

/-! ## What rides beside the buffers through every item -/

/-- No variants, no level assigned: no core owes another anything in this program. -/
abbrev noVar : Variants := Variants.none
abbrev noPairs : GSem nD τ sig → Finset Unit := fun _ => ∅
abbrev noLevel : GSem nD τ sig → Unit → ℕ := fun _ _ => 0

/-- Beside the buffers, through every item: the core's generator register at some state (a call's invariant takes it in
    and gives it back) and the core owing nothing. -/
abbrev rides (c : Dev nD) : sProp (MT nD τ sig Unit (Elt F) ℕ (UR sig nD τ) ℕ) :=
  iprop((∃ r, prngReg c r) ∗ ∃ W, owes (c : Thread nD τ) (0 : CellTallies nD τ sig Unit) W)

/-- The thread state between items: every unscoped buffer at the contents `W c`, and what rides along. -/
abbrev at_ (W : Dev nD → Valuation τ sig (Elt F)) (c : Dev nD) : sProp (MT nD τ sig Unit (Elt F) ℕ (UR sig nD τ) ℕ) :=
  iprop(StableHlo.held (c : Thread nD τ) (Pipeline.ucRefs τ sig) (W c) ∗ rides c)

end Cert.Kernel.Calls

end
-- ==== Proof.Kernel.Region0.lean ====
/- Call 0 as an item of @main: entered with every unscoped buffer at the launch contents `C0`, left with them at
   `C1` (the same but for the call's output, now at `res0`). At entry the call's three arrays are taken out of the
   unscoped buffers and the rest bypasses the call; the generator register goes into the call's invariant and comes
   back; at exit the arrays go back among the unscoped buffers: the two inputs unchanged, the output at what the
   write-backs left. The call has no semaphore of its own and owes nothing. -/
import proofs.«137898_j56616258896068_1_alg».proof.Proof.Kernel.Chain
import Idealize.ShloMosaic.Lib.Pipeline.Regions
import Idealize.ShloMosaic.Lib.Pipeline.RegionsLoop

noncomputable section

namespace Cert.Kernel.Calls

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RegionSeg)

variable {F : FTy → Type} [FloatOps F]

local notation "𝕄" => MT nD τ sig Unit (Elt F) ℕ (UR sig nD τ) ℕ

variable (m : (ℓ : Loc nD τ sig) → Buf (Elt F) ℓ)

/-- Off the call's arrays nothing changes. -/
theorem exit0_rest (c : Dev nD) : ∀ b, b ∉ Finset.univ.image (Pipeline.arrRef spec0) → atRefs (C1 m) c b = atRefs (C0 m) c b := by
  intro b hb
  have hne : b ≠ main_v0 := fun e => hb (Finset.mem_image.mpr ⟨2, Finset.mem_univ _, e.symm⟩)
  show C1 m c (Proc.devRef .tc b) = C0 m c (Proc.devRef .tc b)
  unfold C1
  rw [Function.update_of_ne (StableHlo.devRef_ne_of_ne hne : (Proc.devRef .tc b : DevRef τ sig) ≠ Proc.devRef .tc main_v0)]

/-- At exit each of the call's arrays holds what the pipeline leaves there: the inputs what they held, the output its write-backs. -/
theorem exit0_array0 (c : Dev nD) : (datas m 0 c).arrAt 0 cfg0.N = atRefs (C1 m) c (Pipeline.arrRef spec0 0) := by
  refine ((data0 (atRefs (C0 m)) c).arrAt_in 0 rfl _).trans ?_
  show C0 m c (Proc.devRef .tc main_arg0) = C1 m c (Proc.devRef .tc main_arg0)
  unfold C1
  rw [Function.update_of_ne (StableHlo.devRef_ne_of_ne (by decide) : (Proc.devRef .tc main_arg0 : DevRef τ sig) ≠ Proc.devRef .tc main_v0)]
theorem exit0_array1 (c : Dev nD) : (datas m 0 c).arrAt 1 cfg0.N = atRefs (C1 m) c (Pipeline.arrRef spec0 1) := by
  refine ((data0 (atRefs (C0 m)) c).arrAt_in 1 rfl _).trans ?_
  show C0 m c (Proc.devRef .tc main_arg4) = C1 m c (Proc.devRef .tc main_arg4)
  unfold C1
  rw [Function.update_of_ne (StableHlo.devRef_ne_of_ne (by decide) : (Proc.devRef .tc main_arg4 : DevRef τ sig) ≠ Proc.devRef .tc main_v0)]
theorem exit0_array2 (c : Dev nD) : (datas m 0 c).arrAt 2 cfg0.N = atRefs (C1 m) c (Pipeline.arrRef spec0 2) := by
  show res0 m c = C1 m c (Proc.devRef .tc main_v0)
  unfold C1
  rw [Function.update_self]
theorem exit0_arrays (c : Dev nD) : ∀ w : Fin cfg0.W, (datas m 0 c).arrAt w cfg0.N = atRefs (C1 m) c (Pipeline.arrRef spec0 w) :=
  fun | 0 => exit0_array0 m c | 1 => exit0_array1 m c | 2 => exit0_array2 m c | ⟨_ + 3, h⟩ => absurd h (Nat.not_lt.2 (Nat.le_add_left _ _))

set_option backward.isDefEq.respectTransparency.types false in
/-- The call's record. -/
def region0 : RegionSeg (pcfgs (F := F)) adm (datas m) () defs₀ noVar noPairs noLevel 0 where
  win := launch0.win.to₀
  block_pos := launch0.block_pos
  stage_whole := launch0.stage_whole
  K := PEmpty
  osem k := k.elim
  ho := Pipeline.OwnSemFacts.none _
  hbody c := (body0_obligation (atRefs (C0 m)) c).loose
  hwaits := Pipeline.hwaits_of_owed_zero _ _ _ _ noPairs noLevel 0 fun _ _ => rfl
  pre c := at_ (C0 m) c
  post c := at_ (C1 m) c
  X c := iprop(∃ r, prngReg c r)
  Y c := iprop(∃ r, prngReg c r)
  Z c := Pipeline.unscopedRest (Ix := Unit) (Name := ℕ) (U := UR sig nD τ) (Lvl := ℕ) spec0 c (atRefs (C0 m) c)
  hentry c := by
    rw [Pipeline.ownSems0_none]
    have hsplit := Pipeline.arrays_of_unscopedBufs (p := 0) (pcfgs (F := F)) adm (datas m) launch0.win launch0.arr_whole c
      ((datas m 0 c).share_full fun _ => rfl) (atRefs (C0 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (datas m 0 c).Φ 0 = Pipeline.ΦA spec0 c from rfl]; unfold Pipeline.ΦA
    iintro ⟨Hp, -, Hr⟩
    isplitl [Hr]; · iexact Hr
    iexact Hp
  hout c := by
    rw [Pipeline.ownSems0_none, show (datas m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (datas m) ((datas m 0 c).share_full fun _ => rfl)
      (atRefs (C0 m) c) (atRefs (C1 m) c) ((datas m 0 c).arrAt · cfg0.N) (exit0_arrays m c) (exit0_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Calls

end
-- ==== Proof.Kernel.Region1.lean ====
/- Call 1 as an item of @main: entered with every unscoped buffer at the contents `C3`, left with them at `C4` (the same but for the call's output `main_v15`, now at `res1`). At entry the call's arrays are taken out of the unscoped buffers and the rest bypasses the call; the generator register goes into the call's invariant and comes back; at exit the arrays go back among the unscoped buffers: the two inputs unchanged, the output at what the write-backs left. The call has no semaphore of its own and owes nothing. -/
import proofs.«137898_j56616258896068_1_alg».proof.Proof.Kernel.Chain
import Idealize.ShloMosaic.Lib.Pipeline.Regions
import Idealize.ShloMosaic.Lib.Pipeline.RegionsLoop

noncomputable section

namespace Cert.Kernel.Calls

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RegionSeg)

variable {F : FTy → Type} [FloatOps F]

local notation "𝕄" => MT nD τ sig Unit (Elt F) ℕ (UR sig nD τ) ℕ

variable (m : (ℓ : Loc nD τ sig) → Buf (Elt F) ℓ)

/-- Off the call's arrays nothing changes. -/
theorem exit1_rest (c : Dev nD) : ∀ b, b ∉ Finset.univ.image (Pipeline.arrRef spec1) → atRefs (C4 m) c b = atRefs (C3 m) c b := by
  intro b hb
  have hne : b ≠ main_v15 := fun e => hb (Finset.mem_image.mpr ⟨2, Finset.mem_univ _, e.symm⟩)
  show C4 m c (Proc.devRef .tc b) = C3 m c (Proc.devRef .tc b)
  unfold C4
  rw [Function.update_of_ne (StableHlo.devRef_ne_of_ne hne : (Proc.devRef .tc b : DevRef τ sig) ≠ Proc.devRef .tc main_v15)]

/-- At exit each of the call's arrays holds what the pipeline leaves there: the inputs what they held, the output its write-backs. -/
theorem exit1_array0 (c : Dev nD) : (datas m 1 c).arrAt 0 cfg1.N = atRefs (C4 m) c (Pipeline.arrRef spec1 0) := by
  refine ((data1 (atRefs (C3 m)) c).arrAt_in 0 rfl _).trans ?_
  show C3 m c (Proc.devRef .tc main_v14) = C4 m c (Proc.devRef .tc main_v14)
  unfold C4
  rw [Function.update_of_ne (StableHlo.devRef_ne_of_ne (by decide) : (Proc.devRef .tc main_v14 : DevRef τ sig) ≠ Proc.devRef .tc main_v15)]
theorem exit1_array1 (c : Dev nD) : (datas m 1 c).arrAt 1 cfg1.N = atRefs (C4 m) c (Pipeline.arrRef spec1 1) := by
  refine ((data1 (atRefs (C3 m)) c).arrAt_in 1 rfl _).trans ?_
  show C3 m c (Proc.devRef .tc main_arg5) = C4 m c (Proc.devRef .tc main_arg5)
  unfold C4
  rw [Function.update_of_ne (StableHlo.devRef_ne_of_ne (by decide) : (Proc.devRef .tc main_arg5 : DevRef τ sig) ≠ Proc.devRef .tc main_v15)]
theorem exit1_array2 (c : Dev nD) : (datas m 1 c).arrAt 2 cfg1.N = atRefs (C4 m) c (Pipeline.arrRef spec1 2) := by
  show res1 m c = C4 m c (Proc.devRef .tc main_v15)
  unfold C4
  rw [Function.update_self]
theorem exit1_arrays (c : Dev nD) : ∀ w : Fin cfg1.W, (datas m 1 c).arrAt w cfg1.N = atRefs (C4 m) c (Pipeline.arrRef spec1 w) :=
  fun | 0 => exit1_array0 m c | 1 => exit1_array1 m c | 2 => exit1_array2 m c | ⟨_ + 3, h⟩ => absurd h (Nat.not_lt.2 (Nat.le_add_left _ _))

set_option backward.isDefEq.respectTransparency.types false in
/-- The call's record. -/
def region1 : RegionSeg (pcfgs (F := F)) adm (datas m) () defs₀ noVar noPairs noLevel 1 where
  win := launch1.win.to₀
  block_pos := launch1.block_pos
  stage_whole := launch1.stage_whole
  K := PEmpty
  osem k := k.elim
  ho := Pipeline.OwnSemFacts.none _
  hbody c := (body1_obligation (atRefs (C3 m)) c).loose
  hwaits := Pipeline.hwaits_of_owed_zero _ _ _ _ noPairs noLevel 1 fun _ _ => rfl
  pre c := at_ (C3 m) c
  post c := at_ (C4 m) c
  X c := iprop(∃ r, prngReg c r)
  Y c := iprop(∃ r, prngReg c r)
  Z c := Pipeline.unscopedRest (Ix := Unit) (Name := ℕ) (U := UR sig nD τ) (Lvl := ℕ) spec1 c (atRefs (C3 m) c)
  hentry c := by
    rw [Pipeline.ownSems0_none]
    have hsplit := Pipeline.arrays_of_unscopedBufs (p := 1) (pcfgs (F := F)) adm (datas m) launch1.win launch1.arr_whole c
      ((datas m 1 c).share_full fun _ => rfl) (atRefs (C3 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (datas m 1 c).Φ 0 = Pipeline.ΦA spec1 c from rfl]; unfold Pipeline.ΦA
    iintro ⟨Hp, -, Hr⟩
    isplitl [Hr]; · iexact Hr
    iexact Hp
  hout c := by
    rw [Pipeline.ownSems0_none, show (datas m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (datas m) ((datas m 1 c).share_full fun _ => rfl)
      (atRefs (C3 m) c) (atRefs (C4 m) c) ((datas m 1 c).arrAt · cfg1.N) (exit1_arrays m c) (exit1_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Calls

end
-- ==== Proof.Kernel.Region2.lean ====
/- Call 2 as an item of @main: entered with every unscoped buffer at the contents `C4`, left with them at `C5` (the same but for the call's output `main_v16`, now at `res2`). At entry the call's arrays are taken out of the unscoped buffers and the rest bypasses the call; the generator register goes into the call's invariant and comes back; at exit the arrays go back among the unscoped buffers: the two inputs unchanged, the output at what the write-backs left. The call has no semaphore of its own and owes nothing. -/
import proofs.«137898_j56616258896068_1_alg».proof.Proof.Kernel.Chain
import Idealize.ShloMosaic.Lib.Pipeline.Regions
import Idealize.ShloMosaic.Lib.Pipeline.RegionsLoop

noncomputable section

namespace Cert.Kernel.Calls

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RegionSeg)

variable {F : FTy → Type} [FloatOps F]

local notation "𝕄" => MT nD τ sig Unit (Elt F) ℕ (UR sig nD τ) ℕ

variable (m : (ℓ : Loc nD τ sig) → Buf (Elt F) ℓ)

/-- Off the call's arrays nothing changes. -/
theorem exit2_rest (c : Dev nD) : ∀ b, b ∉ Finset.univ.image (Pipeline.arrRef spec2) → atRefs (C5 m) c b = atRefs (C4 m) c b := by
  intro b hb
  have hne : b ≠ main_v16 := fun e => hb (Finset.mem_image.mpr ⟨2, Finset.mem_univ _, e.symm⟩)
  show C5 m c (Proc.devRef .tc b) = C4 m c (Proc.devRef .tc b)
  unfold C5
  rw [Function.update_of_ne (StableHlo.devRef_ne_of_ne hne : (Proc.devRef .tc b : DevRef τ sig) ≠ Proc.devRef .tc main_v16)]

/-- At exit each of the call's arrays holds what the pipeline leaves there: the inputs what they held, the output its write-backs. -/
theorem exit2_array0 (c : Dev nD) : (datas m 2 c).arrAt 0 cfg2.N = atRefs (C5 m) c (Pipeline.arrRef spec2 0) := by
  refine ((data2 (atRefs (C4 m)) c).arrAt_in 0 rfl _).trans ?_
  show C4 m c (Proc.devRef .tc main_v14) = C5 m c (Proc.devRef .tc main_v14)
  unfold C5
  rw [Function.update_of_ne (StableHlo.devRef_ne_of_ne (by decide) : (Proc.devRef .tc main_v14 : DevRef τ sig) ≠ Proc.devRef .tc main_v16)]
theorem exit2_array1 (c : Dev nD) : (datas m 2 c).arrAt 1 cfg2.N = atRefs (C5 m) c (Pipeline.arrRef spec2 1) := by
  refine ((data2 (atRefs (C4 m)) c).arrAt_in 1 rfl _).trans ?_
  show C4 m c (Proc.devRef .tc main_arg6) = C5 m c (Proc.devRef .tc main_arg6)
  unfold C5
  rw [Function.update_of_ne (StableHlo.devRef_ne_of_ne (by decide) : (Proc.devRef .tc main_arg6 : DevRef τ sig) ≠ Proc.devRef .tc main_v16)]
theorem exit2_array2 (c : Dev nD) : (datas m 2 c).arrAt 2 cfg2.N = atRefs (C5 m) c (Pipeline.arrRef spec2 2) := by
  show res2 m c = C5 m c (Proc.devRef .tc main_v16)
  unfold C5
  rw [Function.update_self]
theorem exit2_arrays (c : Dev nD) : ∀ w : Fin cfg2.W, (datas m 2 c).arrAt w cfg2.N = atRefs (C5 m) c (Pipeline.arrRef spec2 w) :=
  fun | 0 => exit2_array0 m c | 1 => exit2_array1 m c | 2 => exit2_array2 m c | ⟨_ + 3, h⟩ => absurd h (Nat.not_lt.2 (Nat.le_add_left _ _))

set_option backward.isDefEq.respectTransparency.types false in
/-- The call's record. -/
def region2 : RegionSeg (pcfgs (F := F)) adm (datas m) () defs₀ noVar noPairs noLevel 2 where
  win := launch2.win.to₀
  block_pos := launch2.block_pos
  stage_whole := launch2.stage_whole
  K := PEmpty
  osem k := k.elim
  ho := Pipeline.OwnSemFacts.none _
  hbody c := (body2_obligation (atRefs (C4 m)) c).loose
  hwaits := Pipeline.hwaits_of_owed_zero _ _ _ _ noPairs noLevel 2 fun _ _ => rfl
  pre c := at_ (C4 m) c
  post c := at_ (C5 m) c
  X c := iprop(∃ r, prngReg c r)
  Y c := iprop(∃ r, prngReg c r)
  Z c := Pipeline.unscopedRest (Ix := Unit) (Name := ℕ) (U := UR sig nD τ) (Lvl := ℕ) spec2 c (atRefs (C4 m) c)
  hentry c := by
    rw [Pipeline.ownSems0_none]
    have hsplit := Pipeline.arrays_of_unscopedBufs (p := 2) (pcfgs (F := F)) adm (datas m) launch2.win launch2.arr_whole c
      ((datas m 2 c).share_full fun _ => rfl) (atRefs (C4 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (datas m 2 c).Φ 0 = Pipeline.ΦA spec2 c from rfl]; unfold Pipeline.ΦA
    iintro ⟨Hp, -, Hr⟩
    isplitl [Hr]; · iexact Hr
    iexact Hp
  hout c := by
    rw [Pipeline.ownSems0_none, show (datas m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (datas m) ((datas m 2 c).share_full fun _ => rfl)
      (atRefs (C4 m) c) (atRefs (C5 m) c) ((datas m 2 c).arrAt · cfg2.N) (exit2_arrays m c) (exit2_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Calls

end
-- ==== Proof.Kernel.Region3.lean ====
/- Call 3 as an item of @main: entered with every unscoped buffer at the contents `C6`, left with them at `C7` (the same
   but for the call's output `main_v44`, now at `res3`). At entry the call's four arrays — the aggregated features, the
   weights, the bias row, the output — are taken out of the unscoped buffers and the rest bypasses the call; the
   generator register goes into the call's invariant and comes back; at exit the arrays go back among the unscoped
   buffers: the three inputs unchanged, the output at what the write-backs left. The call has no semaphore of its own
   and owes nothing. -/
import proofs.«137898_j56616258896068_1_alg».proof.Proof.Kernel.Chain
import Idealize.ShloMosaic.Lib.Pipeline.Regions
import Idealize.ShloMosaic.Lib.Pipeline.RegionsLoop

noncomputable section

namespace Cert.Kernel.Calls

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RegionSeg)

variable {F : FTy → Type} [FloatOps F]

local notation "𝕄" => MT nD τ sig Unit (Elt F) ℕ (UR sig nD τ) ℕ

variable (m : (ℓ : Loc nD τ sig) → Buf (Elt F) ℓ)

/-- Off the call's arrays nothing changes. -/
theorem exit3_rest (c : Dev nD) : ∀ b, b ∉ Finset.univ.image (Pipeline.arrRef spec3) → atRefs (C7 m) c b = atRefs (C6 m) c b := by
  intro b hb
  have hne : b ≠ main_v44 := fun e => hb (Finset.mem_image.mpr ⟨3, Finset.mem_univ _, e.symm⟩)
  show C7 m c (Proc.devRef .tc b) = C6 m c (Proc.devRef .tc b)
  unfold C7
  rw [Function.update_of_ne (StableHlo.devRef_ne_of_ne hne : (Proc.devRef .tc b : DevRef τ sig) ≠ Proc.devRef .tc main_v44)]

/-- At exit each of the call's arrays holds what the pipeline leaves there: the inputs what they held, the output its write-backs. -/
theorem exit3_array0 (c : Dev nD) : (datas m 3 c).arrAt 0 cfg3.N = atRefs (C7 m) c (Pipeline.arrRef spec3 0) := by
  refine ((data3 (atRefs (C6 m)) c).arrAt_in 0 rfl _).trans ?_
  show C6 m c (Proc.devRef .tc main_v29) = C7 m c (Proc.devRef .tc main_v29)
  unfold C7
  rw [Function.update_of_ne (StableHlo.devRef_ne_of_ne (by decide) : (Proc.devRef .tc main_v29 : DevRef τ sig) ≠ Proc.devRef .tc main_v44)]
theorem exit3_array1 (c : Dev nD) : (datas m 3 c).arrAt 1 cfg3.N = atRefs (C7 m) c (Pipeline.arrRef spec3 1) := by
  refine ((data3 (atRefs (C6 m)) c).arrAt_in 1 rfl _).trans ?_
  show C6 m c (Proc.devRef .tc main_arg7) = C7 m c (Proc.devRef .tc main_arg7)
  unfold C7
  rw [Function.update_of_ne (StableHlo.devRef_ne_of_ne (by decide) : (Proc.devRef .tc main_arg7 : DevRef τ sig) ≠ Proc.devRef .tc main_v44)]
theorem exit3_array2 (c : Dev nD) : (datas m 3 c).arrAt 2 cfg3.N = atRefs (C7 m) c (Pipeline.arrRef spec3 2) := by
  refine ((data3 (atRefs (C6 m)) c).arrAt_in 2 rfl _).trans ?_
  show C6 m c (Proc.devRef .tc main_v43) = C7 m c (Proc.devRef .tc main_v43)
  unfold C7
  rw [Function.update_of_ne (StableHlo.devRef_ne_of_ne (by decide) : (Proc.devRef .tc main_v43 : DevRef τ sig) ≠ Proc.devRef .tc main_v44)]
theorem exit3_array3 (c : Dev nD) : (datas m 3 c).arrAt 3 cfg3.N = atRefs (C7 m) c (Pipeline.arrRef spec3 3) := by
  show res3 m c = C7 m c (Proc.devRef .tc main_v44)
  unfold C7
  rw [Function.update_self]
theorem exit3_arrays (c : Dev nD) : ∀ w : Fin cfg3.W, (datas m 3 c).arrAt w cfg3.N = atRefs (C7 m) c (Pipeline.arrRef spec3 w) :=
  fun | 0 => exit3_array0 m c | 1 => exit3_array1 m c | 2 => exit3_array2 m c | 3 => exit3_array3 m c | ⟨_ + 4, h⟩ => absurd h (Nat.not_lt.2 (Nat.le_add_left _ _))

set_option backward.isDefEq.respectTransparency.types false in
/-- The call's record. -/
def region3 : RegionSeg (pcfgs (F := F)) adm (datas m) () defs₀ noVar noPairs noLevel 3 where
  win := launch3.win.to₀
  block_pos := launch3.block_pos
  stage_whole := launch3.stage_whole
  K := PEmpty
  osem k := k.elim
  ho := Pipeline.OwnSemFacts.none _
  hbody c := (body3_obligation (atRefs (C6 m)) c).loose
  hwaits := Pipeline.hwaits_of_owed_zero _ _ _ _ noPairs noLevel 3 fun _ _ => rfl
  pre c := at_ (C6 m) c
  post c := at_ (C7 m) c
  X c := iprop(∃ r, prngReg c r)
  Y c := iprop(∃ r, prngReg c r)
  Z c := Pipeline.unscopedRest (Ix := Unit) (Name := ℕ) (U := UR sig nD τ) (Lvl := ℕ) spec3 c (atRefs (C6 m) c)
  hentry c := by
    rw [Pipeline.ownSems0_none]
    have hsplit := Pipeline.arrays_of_unscopedBufs (p := 3) (pcfgs (F := F)) adm (datas m) launch3.win launch3.arr_whole c
      ((datas m 3 c).share_full fun _ => rfl) (atRefs (C6 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (datas m 3 c).Φ 0 = Pipeline.ΦA spec3 c from rfl]; unfold Pipeline.ΦA
    iintro ⟨Hp, -, Hr⟩
    isplitl [Hr]; · iexact Hr
    iexact Hp
  hout c := by
    rw [Pipeline.ownSems0_none, show (datas m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (datas m) ((datas m 3 c).share_full fun _ => rfl)
      (atRefs (C6 m) c) (atRefs (C7 m) c) ((datas m 3 c).arrAt · cfg3.N) (exit3_arrays m c) (exit3_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Calls

end
-- ==== Proof.Kernel.Region4.lean ====
/- Call 4 as an item of @main: entered with every unscoped buffer at the contents `C8`, left with them at `C9` (the same but for the call's output `main_v46`, now at `res4`). At entry the call's arrays are taken out of the unscoped buffers and the rest bypasses the call; the generator register goes into the call's invariant and comes back; at exit the arrays go back among the unscoped buffers: the three inputs unchanged, the output at what the write-backs left. The call has no semaphore of its own and owes nothing. -/
import proofs.«137898_j56616258896068_1_alg».proof.Proof.Kernel.Chain
import Idealize.ShloMosaic.Lib.Pipeline.Regions
import Idealize.ShloMosaic.Lib.Pipeline.RegionsLoop

noncomputable section

namespace Cert.Kernel.Calls

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RegionSeg)

variable {F : FTy → Type} [FloatOps F]

local notation "𝕄" => MT nD τ sig Unit (Elt F) ℕ (UR sig nD τ) ℕ

variable (m : (ℓ : Loc nD τ sig) → Buf (Elt F) ℓ)

/-- Off the call's arrays nothing changes. -/
theorem exit4_rest (c : Dev nD) : ∀ b, b ∉ Finset.univ.image (Pipeline.arrRef spec4) → atRefs (C9 m) c b = atRefs (C8 m) c b := by
  intro b hb
  have hne : b ≠ main_v46 := fun e => hb (Finset.mem_image.mpr ⟨3, Finset.mem_univ _, e.symm⟩)
  show C9 m c (Proc.devRef .tc b) = C8 m c (Proc.devRef .tc b)
  unfold C9
  rw [Function.update_of_ne (StableHlo.devRef_ne_of_ne hne : (Proc.devRef .tc b : DevRef τ sig) ≠ Proc.devRef .tc main_v46)]

/-- At exit each of the call's arrays holds what the pipeline leaves there: the inputs what they held, the output its write-backs. -/
theorem exit4_array0 (c : Dev nD) : (datas m 4 c).arrAt 0 cfg4.N = atRefs (C9 m) c (Pipeline.arrRef spec4 0) := by
  refine ((data4 (atRefs (C8 m)) c).arrAt_in 0 rfl _).trans ?_
  show C8 m c (Proc.devRef .tc main_v42) = C9 m c (Proc.devRef .tc main_v42)
  unfold C9
  rw [Function.update_of_ne (StableHlo.devRef_ne_of_ne (by decide) : (Proc.devRef .tc main_v42 : DevRef τ sig) ≠ Proc.devRef .tc main_v46)]
theorem exit4_array1 (c : Dev nD) : (datas m 4 c).arrAt 1 cfg4.N = atRefs (C9 m) c (Pipeline.arrRef spec4 1) := by
  refine ((data4 (atRefs (C8 m)) c).arrAt_in 1 rfl _).trans ?_
  show C8 m c (Proc.devRef .tc main_arg7) = C9 m c (Proc.devRef .tc main_arg7)
  unfold C9
  rw [Function.update_of_ne (StableHlo.devRef_ne_of_ne (by decide) : (Proc.devRef .tc main_arg7 : DevRef τ sig) ≠ Proc.devRef .tc main_v46)]
theorem exit4_array2 (c : Dev nD) : (datas m 4 c).arrAt 2 cfg4.N = atRefs (C9 m) c (Pipeline.arrRef spec4 2) := by
  refine ((data4 (atRefs (C8 m)) c).arrAt_in 2 rfl _).trans ?_
  show C8 m c (Proc.devRef .tc main_v45) = C9 m c (Proc.devRef .tc main_v45)
  unfold C9
  rw [Function.update_of_ne (StableHlo.devRef_ne_of_ne (by decide) : (Proc.devRef .tc main_v45 : DevRef τ sig) ≠ Proc.devRef .tc main_v46)]
theorem exit4_array3 (c : Dev nD) : (datas m 4 c).arrAt 3 cfg4.N = atRefs (C9 m) c (Pipeline.arrRef spec4 3) := by
  show res4 m c = C9 m c (Proc.devRef .tc main_v46)
  unfold C9
  rw [Function.update_self]
theorem exit4_arrays (c : Dev nD) : ∀ w : Fin cfg4.W, (datas m 4 c).arrAt w cfg4.N = atRefs (C9 m) c (Pipeline.arrRef spec4 w) :=
  fun | 0 => exit4_array0 m c | 1 => exit4_array1 m c | 2 => exit4_array2 m c | 3 => exit4_array3 m c | ⟨_ + 4, h⟩ => absurd h (Nat.not_lt.2 (Nat.le_add_left _ _))

set_option backward.isDefEq.respectTransparency.types false in
/-- The call's record. -/
def region4 : RegionSeg (pcfgs (F := F)) adm (datas m) () defs₀ noVar noPairs noLevel 4 where
  win := launch4.win.to₀
  block_pos := launch4.block_pos
  stage_whole := launch4.stage_whole
  K := PEmpty
  osem k := k.elim
  ho := Pipeline.OwnSemFacts.none _
  hbody c := (body4_obligation (atRefs (C8 m)) c).loose
  hwaits := Pipeline.hwaits_of_owed_zero _ _ _ _ noPairs noLevel 4 fun _ _ => rfl
  pre c := at_ (C8 m) c
  post c := at_ (C9 m) c
  X c := iprop(∃ r, prngReg c r)
  Y c := iprop(∃ r, prngReg c r)
  Z c := Pipeline.unscopedRest (Ix := Unit) (Name := ℕ) (U := UR sig nD τ) (Lvl := ℕ) spec4 c (atRefs (C8 m) c)
  hentry c := by
    rw [Pipeline.ownSems0_none]
    have hsplit := Pipeline.arrays_of_unscopedBufs (p := 4) (pcfgs (F := F)) adm (datas m) launch4.win launch4.arr_whole c
      ((datas m 4 c).share_full fun _ => rfl) (atRefs (C8 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (datas m 4 c).Φ 0 = Pipeline.ΦA spec4 c from rfl]; unfold Pipeline.ΦA
    iintro ⟨Hp, -, Hr⟩
    isplitl [Hr]; · iexact Hr
    iexact Hp
  hout c := by
    rw [Pipeline.ownSems0_none, show (datas m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (datas m) ((datas m 4 c).share_full fun _ => rfl)
      (atRefs (C8 m) c) (atRefs (C9 m) c) ((datas m 4 c).arrAt · cfg4.N) (exit4_arrays m c) (exit4_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Calls

end
-- ==== Proof.Kernel.Region5.lean ====
/- Call 5 as an item of @main: entered with every unscoped buffer at the contents `C9`, left with them at `C10` (the same
   but for the call's output `main_v47`, now at `res5`). Its two input windows are on ONE array, `main_v44`: at entry
   that array's full share is split in two, one half to each window; at exit the halves are put together again. The
   rest is as for the other calls: the buffers that are no array of the call bypass it, the generator register goes into
   the call's invariant and comes back, the call has no semaphore of its own and owes nothing. -/
import proofs.«137898_j56616258896068_1_alg».proof.Proof.Kernel.Chain
import Idealize.ShloMosaic.Lib.Pipeline.Regions
import Idealize.ShloMosaic.Lib.Pipeline.RegionsLoop

noncomputable section

namespace Cert.Kernel.Calls

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RegionSeg)

variable {F : FTy → Type} [FloatOps F]

local notation "𝕄" => MT nD τ sig Unit (Elt F) ℕ (UR sig nD τ) ℕ

variable (m : (ℓ : Loc nD τ sig) → Buf (Elt F) ℓ)

/-- The buffers behind the call's arrays: the input that both input windows read, and the output. -/
theorem arrRefs5 : (Finset.univ : Finset (Fin 3)).image (Pipeline.arrRef spec5) = {main_v44, main_v47} := by decide

/-- The two buffers are distinct. -/
theorem v44_notMem : main_v44 ∉ ({main_v47} : Finset (Ref sig .tc)) := by decide

section Shares

variable (V : (c : Dev nD) → (b : Ref sig .tc) → Buf (Elt F) ((c : Thread nD τ).loc b))

/-- Window 0 holds the shared input whole at the left half of the full share. -/
theorem arr5_0 (c : Dev nD) (G : Buf (Elt F) ((cfg5.win 0).arr.view.loc (c : Thread nD τ))) :
    ((cfg5.win 0).arr.view.loc (c : Thread nD τ) ↦[(cfg5.win 0).arr.view.set]{(data5 V c).share 0} G : sProp 𝕄)
      = ((c : Thread nD τ).loc main_v44 ↦{fullShare.left} G) := by
  rw [(arr_whole5 0).set_eq_univ]; rfl

/-- Window 1 holds it whole at the right half. -/
theorem arr5_1 (c : Dev nD) (G : Buf (Elt F) ((cfg5.win 1).arr.view.loc (c : Thread nD τ))) :
    ((cfg5.win 1).arr.view.loc (c : Thread nD τ) ↦[(cfg5.win 1).arr.view.set]{(data5 V c).share 1} G : sProp 𝕄)
      = ((c : Thread nD τ).loc main_v44 ↦{fullShare.right} G) := by
  rw [(arr_whole5 1).set_eq_univ]; rfl

/-- Window 2 holds the output whole at the full share. -/
theorem arr5_2 (c : Dev nD) (G : Buf (Elt F) ((cfg5.win 2).arr.view.loc (c : Thread nD τ))) :
    ((cfg5.win 2).arr.view.loc (c : Thread nD τ) ↦[(cfg5.win 2).arr.view.set]{(data5 V c).share 2} G : sProp 𝕄)
      = ((c : Thread nD τ).loc main_v47 ↦{fullShare} G) := by
  rw [(arr_whole5 2).set_eq_univ]; rfl

/-- The call's arrays, window by window: the shared input at its two halves and the output whole. -/
theorem arrays5_eq (c : Dev nD) (G : (w : Fin cfg5.W) → Buf (Elt F) ((cfg5.win w).arr.view.loc (c : Thread nD τ))) :
    ((data5 V c).arrays G : sProp 𝕄)
      = iprop(((c : Thread nD τ).loc main_v44 ↦{fullShare.left} G 0) ∗ ((c : Thread nD τ).loc main_v44 ↦{fullShare.right} G 1)
          ∗ ((c : Thread nD τ).loc main_v47 ↦{fullShare} G 2)) := by
  unfold Pipeline.Dat.arrays
  rw [bigSep_W5, arr5_0, arr5_1, arr5_2]

/-- The buffers behind the call's arrays, each whole at the full share: the shared input and the output. -/
theorem arrBufs5_eq (c : Dev nD) (W : (b : Ref sig .tc) → Buf (Elt F) ((c : Thread nD τ).loc b)) :
    (Pipeline.arrBufs spec5 c W : sProp 𝕄)
      = iprop(((c : Thread nD τ).loc main_v44 ↦{fullShare} W main_v44) ∗ ((c : Thread nD τ).loc main_v47 ↦{fullShare} W main_v47)) := by
  unfold Pipeline.arrBufs
  rw [arrRefs5, BI.bigSep_insert v44_notMem, BI.bigSep_singleton]; rfl

/-- ENTRY: the full share of the shared input is split in two, one half to each input window. -/
theorem entry5_arrays (c : Dev nD) (W : (b : Ref sig .tc) → Buf (Elt F) ((c : Thread nD τ).loc b))
    (G : (w : Fin cfg5.W) → Buf (Elt F) ((cfg5.win w).arr.view.loc (c : Thread nD τ)))
    (h0 : G 0 = W main_v44) (h1 : G 1 = W main_v44) (h2 : G 2 = W main_v47) :
    (Pipeline.arrBufs spec5 c W : sProp 𝕄) ⊢ (data5 V c).arrays G := by
  rw [arrBufs5_eq, arrays5_eq, h0, h1, h2]
  iintro ⟨H44, H47⟩
  ihave H := (pointsTo_share (PosShare.mem_left_op_right fullShare)).1 $$ H44
  icases H with ⟨Hl, Hr⟩
  isplitl [Hl]; · iexact Hl
  isplitl [Hr]; · iexact Hr
  iexact H47

/-- EXIT: the two halves of the shared input, at one contents, are joined to the full share again. -/
theorem exit5_arrays (c : Dev nD) (W : (b : Ref sig .tc) → Buf (Elt F) ((c : Thread nD τ).loc b))
    (G : (w : Fin cfg5.W) → Buf (Elt F) ((cfg5.win w).arr.view.loc (c : Thread nD τ)))
    (h0 : G 0 = W main_v44) (h1 : G 1 = W main_v44) (h2 : G 2 = W main_v47) :
    ((data5 V c).arrays G : sProp 𝕄) ⊢ Pipeline.arrBufs spec5 c W := by
  rw [arrBufs5_eq, arrays5_eq, h0, h1, h2]
  iintro ⟨Hl, Hr, H47⟩
  isplitl [Hl Hr]
  · iapply (pointsTo_share (PosShare.mem_left_op_right fullShare)).2
    isplitl [Hl]; · iexact Hl
    iexact Hr
  iexact H47

end Shares

/-- Off the call's arrays nothing changes. -/
theorem exit5_rest (c : Dev nD) : ∀ b, b ∉ Finset.univ.image (Pipeline.arrRef spec5) → atRefs (C10 m) c b = atRefs (C9 m) c b := by
  intro b hb
  have hne : b ≠ main_v47 := fun e => hb (Finset.mem_image.mpr ⟨2, Finset.mem_univ _, e.symm⟩)
  show C10 m c (Proc.devRef .tc b) = C9 m c (Proc.devRef .tc b)
  unfold C10
  rw [Function.update_of_ne (StableHlo.devRef_ne_of_ne hne : (Proc.devRef .tc b : DevRef τ sig) ≠ Proc.devRef .tc main_v47)]

/-- At entry each window's array is at the entry contents of the buffer behind it. -/
theorem entry5_arr0 (c : Dev nD) : (datas m 5 c).arrAt 0 0 = atRefs (C9 m) c main_v44 := rfl
theorem entry5_arr1 (c : Dev nD) : (datas m 5 c).arrAt 1 0 = atRefs (C9 m) c main_v44 := rfl
theorem entry5_arr2 (c : Dev nD) : (datas m 5 c).arrAt 2 0 = atRefs (C9 m) c main_v47 := rfl

/-- At exit each of the call's arrays holds what the pipeline leaves there: the shared input, through either window,
    what it held; the output its write-backs. -/
theorem exit5_arr0 (c : Dev nD) : (datas m 5 c).arrAt 0 cfg5.N = atRefs (C10 m) c main_v44 := by
  refine ((data5 (atRefs (C9 m)) c).arrAt_in 0 rfl _).trans ?_
  show C9 m c (Proc.devRef .tc main_v44) = C10 m c (Proc.devRef .tc main_v44)
  unfold C10
  rw [Function.update_of_ne (StableHlo.devRef_ne_of_ne (by decide) : (Proc.devRef .tc main_v44 : DevRef τ sig) ≠ Proc.devRef .tc main_v47)]
theorem exit5_arr1 (c : Dev nD) : (datas m 5 c).arrAt 1 cfg5.N = atRefs (C10 m) c main_v44 := by
  refine ((data5 (atRefs (C9 m)) c).arrAt_in 1 rfl _).trans ?_
  show C9 m c (Proc.devRef .tc main_v44) = C10 m c (Proc.devRef .tc main_v44)
  unfold C10
  rw [Function.update_of_ne (StableHlo.devRef_ne_of_ne (by decide) : (Proc.devRef .tc main_v44 : DevRef τ sig) ≠ Proc.devRef .tc main_v47)]
theorem exit5_arr2 (c : Dev nD) : (datas m 5 c).arrAt 2 cfg5.N = atRefs (C10 m) c main_v47 := by
  show res5 m c = C10 m c (Proc.devRef .tc main_v47)
  unfold C10
  rw [Function.update_self]

/-- ENTRY, the buffers' part: the core's unscoped buffers at the entry contents are the call's arrays, the shared input
    dealt in halves to its two windows, and the unscoped rest. -/
theorem entry5_held (c : Dev nD) :
    (StableHlo.held (c : Thread nD τ) (Pipeline.ucRefs τ sig) (C9 m c) : sProp 𝕄)
      ⊢ iprop((datas m 5 c).arrays ((datas m 5 c).arrAt · 0)
          ∗ Pipeline.unscopedRest (Ix := Unit) (Name := ℕ) (U := UR sig nD τ) (Lvl := ℕ) spec5 c (atRefs (C9 m) c)) := by
  have hsplit := Pipeline.unscopedBufs_split₀ (Ix := Unit) (Name := ℕ) (U := UR sig nD τ) (Lvl := ℕ) (Val := Elt F) cfgs 5
    winFacts₀5.arr_unscoped c (atRefs (C9 m) c)
  rw [Pipeline.unscopedBufs_held] at hsplit
  exact (Entails.of_eq hsplit).trans
    (sep_mono (entry5_arrays (atRefs (C9 m)) c (atRefs (C9 m) c) _ (entry5_arr0 m c) (entry5_arr1 m c) (entry5_arr2 m c)) .rfl)

/-- EXIT, the buffers' part: the call's arrays at their final contents, the halves of the shared input joined again, and
    the unscoped rest are the core's unscoped buffers at the contents after the call. -/
theorem exit5_held (c : Dev nD) :
    iprop((datas m 5 c).arrays ((datas m 5 c).arrAt · cfg5.N)
        ∗ Pipeline.unscopedRest (Ix := Unit) (Name := ℕ) (U := UR sig nD τ) (Lvl := ℕ) spec5 c (atRefs (C9 m) c))
      ⊢ (StableHlo.held (c : Thread nD τ) (Pipeline.ucRefs τ sig) (C10 m c) : sProp 𝕄) := by
  have hsplit := Pipeline.unscopedBufs_split₀ (Ix := Unit) (Name := ℕ) (U := UR sig nD τ) (Lvl := ℕ) (Val := Elt F) cfgs 5
    winFacts₀5.arr_unscoped c (atRefs (C10 m) c)
  rw [Pipeline.unscopedBufs_held] at hsplit
  refine BIBase.Entails.trans ?_ (Entails.of_eq hsplit.symm)
  refine sep_mono (exit5_arrays (atRefs (C9 m)) c (atRefs (C10 m) c) _ (exit5_arr0 m c) (exit5_arr1 m c) (exit5_arr2 m c)) (Entails.of_eq ?_)
  unfold Pipeline.unscopedRest
  exact BI.bigSep_congr fun b hb => by rw [exit5_rest m c b (Finset.mem_sdiff.mp hb).2]

set_option backward.isDefEq.respectTransparency.types false in
/-- Call 5's record. -/
def region5 : RegionSeg (pcfgs (F := F)) adm (datas m) () defs₀ noVar noPairs noLevel 5 where
  win := winFacts₀5
  block_pos := block_pos5
  stage_whole := stage_whole5
  K := PEmpty
  osem k := k.elim
  ho := Pipeline.OwnSemFacts.none _
  hbody c := (body5_obligation (atRefs (C9 m)) c).loose
  hwaits := Pipeline.hwaits_of_owed_zero _ _ _ _ noPairs noLevel 5 fun _ _ => rfl
  pre c := at_ (C9 m) c
  post c := at_ (C10 m) c
  X c := iprop(∃ r, prngReg c r)
  Y c := iprop(∃ r, prngReg c r)
  Z c := Pipeline.unscopedRest (Ix := Unit) (Name := ℕ) (U := UR sig nD τ) (Lvl := ℕ) spec5 c (atRefs (C9 m) c)
  hentry c := by
    rw [Pipeline.ownSems0_none]
    iintro ⟨⟨Hub, Hp, HO⟩, -, -⟩
    ihave H := (entry5_held m c) $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (datas m 5 c).Φ 0 = Pipeline.ΦA spec5 c from rfl]; unfold Pipeline.ΦA
    iintro ⟨Hp, -, Hr⟩
    isplitl [Hr]; · iexact Hr
    iexact Hp
  hout c := by
    rw [Pipeline.ownSems0_none, show (datas m 5 c).Φ (Fin.last _) = Pipeline.ΦA spec5 c from rfl]; unfold Pipeline.ΦA
    iintro ⟨Hr, Hp⟩
    isplitl [Hp]; · iexact Hp
    isplitr; · iempintro
    iexact Hr
  hexit c := by
    iintro ⟨Ha, HO, HY, Hrest⟩
    imodintro
    isplitl [Ha Hrest]
    · iapply (exit5_held m c); isplitl [Ha] <;> iassumption
    isplitl [HY]; · iexact HY
    unfold Pipeline.Dat.owesAt Pipeline.owesWithin
    icases HO with ⟨%W, -, HO⟩; iexists W; iexact HO

end Cert.Kernel.Calls

end
-- ==== Proof.Kernel.Region6.lean ====
/- Call 6 as an item of @main: entered with every unscoped buffer at the contents `C11`, left with them at `C12` (the same but for the call's output `main_v49`, now at `res6`). At entry the call's arrays are taken out of the unscoped buffers and the rest bypasses the call; the generator register goes into the call's invariant and comes back; at exit the arrays go back among the unscoped buffers: the three inputs unchanged, the output at what the write-backs left. The call has no semaphore of its own and owes nothing. -/
import proofs.«137898_j56616258896068_1_alg».proof.Proof.Kernel.Chain
import Idealize.ShloMosaic.Lib.Pipeline.Regions
import Idealize.ShloMosaic.Lib.Pipeline.RegionsLoop

noncomputable section

namespace Cert.Kernel.Calls

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RegionSeg)

variable {F : FTy → Type} [FloatOps F]

local notation "𝕄" => MT nD τ sig Unit (Elt F) ℕ (UR sig nD τ) ℕ

variable (m : (ℓ : Loc nD τ sig) → Buf (Elt F) ℓ)

/-- Off the call's arrays nothing changes. -/
theorem exit6_rest (c : Dev nD) : ∀ b, b ∉ Finset.univ.image (Pipeline.arrRef spec6) → atRefs (C12 m) c b = atRefs (C11 m) c b := by
  intro b hb
  have hne : b ≠ main_v49 := fun e => hb (Finset.mem_image.mpr ⟨3, Finset.mem_univ _, e.symm⟩)
  show C12 m c (Proc.devRef .tc b) = C11 m c (Proc.devRef .tc b)
  unfold C12
  rw [Function.update_of_ne (StableHlo.devRef_ne_of_ne hne : (Proc.devRef .tc b : DevRef τ sig) ≠ Proc.devRef .tc main_v49)]

/-- At exit each of the call's arrays holds what the pipeline leaves there: the inputs what they held, the output its write-backs. -/
theorem exit6_array0 (c : Dev nD) : (datas m 6 c).arrAt 0 cfg6.N = atRefs (C12 m) c (Pipeline.arrRef spec6 0) := by
  refine ((data6 (atRefs (C11 m)) c).arrAt_in 0 rfl _).trans ?_
  show C11 m c (Proc.devRef .tc main_v44) = C12 m c (Proc.devRef .tc main_v44)
  unfold C12
  rw [Function.update_of_ne (StableHlo.devRef_ne_of_ne (by decide) : (Proc.devRef .tc main_v44 : DevRef τ sig) ≠ Proc.devRef .tc main_v49)]
theorem exit6_array1 (c : Dev nD) : (datas m 6 c).arrAt 1 cfg6.N = atRefs (C12 m) c (Pipeline.arrRef spec6 1) := by
  refine ((data6 (atRefs (C11 m)) c).arrAt_in 1 rfl _).trans ?_
  show C11 m c (Proc.devRef .tc main_arg9) = C12 m c (Proc.devRef .tc main_arg9)
  unfold C12
  rw [Function.update_of_ne (StableHlo.devRef_ne_of_ne (by decide) : (Proc.devRef .tc main_arg9 : DevRef τ sig) ≠ Proc.devRef .tc main_v49)]
theorem exit6_array2 (c : Dev nD) : (datas m 6 c).arrAt 2 cfg6.N = atRefs (C12 m) c (Pipeline.arrRef spec6 2) := by
  refine ((data6 (atRefs (C11 m)) c).arrAt_in 2 rfl _).trans ?_
  show C11 m c (Proc.devRef .tc main_v48) = C12 m c (Proc.devRef .tc main_v48)
  unfold C12
  rw [Function.update_of_ne (StableHlo.devRef_ne_of_ne (by decide) : (Proc.devRef .tc main_v48 : DevRef τ sig) ≠ Proc.devRef .tc main_v49)]
theorem exit6_array3 (c : Dev nD) : (datas m 6 c).arrAt 3 cfg6.N = atRefs (C12 m) c (Pipeline.arrRef spec6 3) := by
  show res6 m c = C12 m c (Proc.devRef .tc main_v49)
  unfold C12
  rw [Function.update_self]
theorem exit6_arrays (c : Dev nD) : ∀ w : Fin cfg6.W, (datas m 6 c).arrAt w cfg6.N = atRefs (C12 m) c (Pipeline.arrRef spec6 w) :=
  fun | 0 => exit6_array0 m c | 1 => exit6_array1 m c | 2 => exit6_array2 m c | 3 => exit6_array3 m c | ⟨_ + 4, h⟩ => absurd h (Nat.not_lt.2 (Nat.le_add_left _ _))

set_option backward.isDefEq.respectTransparency.types false in
/-- The call's record. -/
def region6 : RegionSeg (pcfgs (F := F)) adm (datas m) () defs₀ noVar noPairs noLevel 6 where
  win := launch6.win.to₀
  block_pos := launch6.block_pos
  stage_whole := launch6.stage_whole
  K := PEmpty
  osem k := k.elim
  ho := Pipeline.OwnSemFacts.none _
  hbody c := (body6_obligation (atRefs (C11 m)) c).loose
  hwaits := Pipeline.hwaits_of_owed_zero _ _ _ _ noPairs noLevel 6 fun _ _ => rfl
  pre c := at_ (C11 m) c
  post c := at_ (C12 m) c
  X c := iprop(∃ r, prngReg c r)
  Y c := iprop(∃ r, prngReg c r)
  Z c := Pipeline.unscopedRest (Ix := Unit) (Name := ℕ) (U := UR sig nD τ) (Lvl := ℕ) spec6 c (atRefs (C11 m) c)
  hentry c := by
    rw [Pipeline.ownSems0_none]
    have hsplit := Pipeline.arrays_of_unscopedBufs (p := 6) (pcfgs (F := F)) adm (datas m) launch6.win launch6.arr_whole c
      ((datas m 6 c).share_full fun _ => rfl) (atRefs (C11 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (datas m 6 c).Φ 0 = Pipeline.ΦA spec6 c from rfl]; unfold Pipeline.ΦA
    iintro ⟨Hp, -, Hr⟩
    isplitl [Hr]; · iexact Hr
    iexact Hp
  hout c := by
    rw [Pipeline.ownSems0_none, show (datas m 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (datas m) ((datas m 6 c).share_full fun _ => rfl)
      (atRefs (C11 m) c) (atRefs (C12 m) c) ((datas m 6 c).arrAt · cfg6.N) (exit6_arrays m c) (exit6_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Calls

end
-- ==== Proof.Kernel.RunCond.lean ====
/- The run of @main given the calls' records, with every unscoped buffer read at the end. The hypotheses are those of
   the conditional frame: any proof data, any contents `outs` the calls leave, any rest states `E` chaining through the
   items, and per call a record entered from the thread state before it and left at the one after it. The conclusion
   says more than the frame: every weakly fair execution terminates and the final memory holds EVERY unscoped buffer at
   the last valuation `V12 m outs c` — the arguments (which no item writes) and also what the calls and the host
   operations computed. -/
import proofs.«137898_j56616258896068_1_alg».proof.Proof.Gen.Kernel.Regions

noncomputable section

namespace Cert.Kernel.Calls

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

variable (m : (ℓ : Loc nD τ sig) → Buf (Elt F) ℓ)

set_option backward.isDefEq.respectTransparency.types false in
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 7) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 8 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE7 : ∀ c : Dev nD, E 7 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V0 m c) ∗ E 0 c) ⊢ R0.pre c)
    (hpost0 : ∀ c : Dev nD, R0.post c ⊢ iprop(StableHlo.held (c : Thread nD τ) (Pipeline.ucRefs τ sig) (V1 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V3 m outs c) ∗ E 1 c) ⊢ R1.pre c)
    (hpost1 : ∀ c : Dev nD, R1.post c ⊢ iprop(StableHlo.held (c : Thread nD τ) (Pipeline.ucRefs τ sig) (V4 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V4 m outs c) ∗ E 2 c) ⊢ R2.pre c)
    (hpost2 : ∀ c : Dev nD, R2.post c ⊢ iprop(StableHlo.held (c : Thread nD τ) (Pipeline.ucRefs τ sig) (V5 m outs c) ∗ E 3 c))
    (R3 : RegionSeg (pcfgs (F := F)) adm pdats ι defs₀ 𝒱₀ L lv 3)
    (hpre3 : ∀ c : Dev nD, iprop(StableHlo.held (c : Thread nD τ) (Pipeline.ucRefs τ sig) (V6 m outs c) ∗ E 3 c) ⊢ R3.pre c)
    (hpost3 : ∀ c : Dev nD, R3.post c ⊢ iprop(StableHlo.held (c : Thread nD τ) (Pipeline.ucRefs τ sig) (V7 m outs c) ∗ E 4 c))
    (R4 : RegionSeg (pcfgs (F := F)) adm pdats ι defs₀ 𝒱₀ L lv 4)
    (hpre4 : ∀ c : Dev nD, iprop(StableHlo.held (c : Thread nD τ) (Pipeline.ucRefs τ sig) (V8 m outs c) ∗ E 4 c) ⊢ R4.pre c)
    (hpost4 : ∀ c : Dev nD, R4.post c ⊢ iprop(StableHlo.held (c : Thread nD τ) (Pipeline.ucRefs τ sig) (V9 m outs c) ∗ E 5 c))
    (R5 : RegionSeg (pcfgs (F := F)) adm pdats ι defs₀ 𝒱₀ L lv 5)
    (hpre5 : ∀ c : Dev nD, iprop(StableHlo.held (c : Thread nD τ) (Pipeline.ucRefs τ sig) (V9 m outs c) ∗ E 5 c) ⊢ R5.pre c)
    (hpost5 : ∀ c : Dev nD, R5.post c ⊢ iprop(StableHlo.held (c : Thread nD τ) (Pipeline.ucRefs τ sig) (V10 m outs c) ∗ E 6 c))
    (R6 : RegionSeg (pcfgs (F := F)) adm pdats ι defs₀ 𝒱₀ L lv 6)
    (hpre6 : ∀ c : Dev nD, iprop(StableHlo.held (c : Thread nD τ) (Pipeline.ucRefs τ sig) (V11 m outs c) ∗ E 6 c) ⊢ R6.pre c)
    (hpost6 : ∀ c : Dev nD, R6.post c ⊢ iprop(StableHlo.held (c : Thread nD τ) (Pipeline.ucRefs τ sig) (V12 m outs c) ∗ E 7 c)) :
    θ_run defs (onTc (τ := τ) (main (F := F))) ⟨m, fun _ => 0, ρ⟩ (fun r => ∀ c : Dev nD,
      ∀ b ∈ Pipeline.ucRefs τ sig, r.2.mem ((c : Thread nD τ).1, b) = V12 m outs c b) := by
  refine Pipeline.θ_run_regions_kit_dev (pcfgs (F := F)) adm pdats ι cellOf_inj EP defs₀ 𝒱₀ L lv m ρ main
    (segs m outs 𝒱₀ L lv E ι pdats R0 R1 R2 R3 R4 R5 R6)
    (fun c Q => by
      rewrite [main_chain c, Seg.run_eq_chain,
        show (segs m outs 𝒱₀ L lv E ι pdats R0 R1 R2 R3 R4 R5 R6 c).map Seg.prog = [
          Prog.lift (.customCall (Pipeline.entry 0) ()),
          StableHlo.seq hostOps1,
          StableHlo.seq hostOps1_1,
          Prog.lift (.customCall (Pipeline.entry 1) ()),
          Prog.lift (.customCall (Pipeline.entry 2) ()),
          StableHlo.seq hostOps3,
          Prog.lift (.customCall (Pipeline.entry 3) ()),
          StableHlo.seq hostOps4,
          Prog.lift (.customCall (Pipeline.entry 4) ()),
          Prog.lift (.customCall (Pipeline.entry 5) ()),
          StableHlo.seq hostOps6,
          Prog.lift (.customCall (Pipeline.entry 6) ()) ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V12 m outs c))
    (hch := fun c => ⟨hpre0 c, hpost0 c, .rfl, hpre1 c, (hpost1 c).trans (hpre2 c), hpost2 c, hpre3 c, hpost3 c, hpre4 c, (hpost4 c).trans (hpre5 c), hpost5 c, hpre6 c, (hpost6 c).trans (sep_mono .rfl (hE7 c))⟩)
    (hinit := ?_) (QY := fun c s => ∀ b ∈ Pipeline.ucRefs τ sig, s.mem ((c : Thread nD τ).1, b) = V12 m outs c b)
    (hfin := fun c s' => ?_) (hQ := fun _ h => h)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: every unscoped buffer read off the last valuation
    unfold StableHlo.held
    iintro ⟨Hh, HSI⟩
    imodintro
    iapply (pointsTo_read_all (Pipeline.ucRefs τ sig) (fun b => ((c : Thread nD τ).1, b)) (V12 m outs c) s')
    isplitl [Hh] <;> iassumption

end Cert.Kernel.Calls

end
-- ==== Proof.Kernel.Frames.lean ====
/- The two launches of @main at the seven calls' records. The launch deals every core its generator register and
   nothing owed, which is what rides beside the buffers through every item; each call's record is entered from the
   contents before it and left at the contents after it, and the generated valuations at the family `left` are those
   contents (`between_K`). `frame`: every weakly fair execution terminates, faults nowhere, and the eleven argument
   arrays end as launched. `run`: the same run, with every unscoped buffer read at the end at the contents `C12`. -/
import proofs.«137898_j56616258896068_1_alg».proof.Proof.Kernel.Region0
import proofs.«137898_j56616258896068_1_alg».proof.Proof.Kernel.Region1
import proofs.«137898_j56616258896068_1_alg».proof.Proof.Kernel.Region2
import proofs.«137898_j56616258896068_1_alg».proof.Proof.Kernel.Region3
import proofs.«137898_j56616258896068_1_alg».proof.Proof.Kernel.Region4
import proofs.«137898_j56616258896068_1_alg».proof.Proof.Kernel.Region5
import proofs.«137898_j56616258896068_1_alg».proof.Proof.Kernel.Region6
import proofs.«137898_j56616258896068_1_alg».proof.Proof.Kernel.RunCond

noncomputable section

namespace Cert.Kernel.Calls

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The launch's ghost element is the pipelines' own; no core gets anything besides. -/
theorem launch_element :
    (ownU (initOf (Pipeline.cells cfgs cellOf_inj) (Pipeline.launchToks cfgs cellOf_inj)) : sProp 𝕄)
      ⊢ |={Set.univ}=> iprop(BI.own (emb₁ (initOf (Pipeline.cells cfgs cellOf_inj) (Pipeline.launchToks cfgs cellOf_inj)))
          ∗ bigSep Finset.univ fun _ : Dev nD => (BI.emp : sProp 𝕄)) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

/-- What the launch deals each core makes what rides along: its generator register, and nothing owed. -/
theorem launch_rides :
    iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (BI.emp : sProp 𝕄))) ∗ levAts noPairs noLevel)
      ⊢ (|={Set.univ}=> bigSep Finset.univ (fun c : Dev nD => rides (F := F) c) : sProp 𝕄) := by
  refine Pipeline.initEach noPairs noLevel fun c => ?_
  iintro ⟨⟨-, HO, -, Hp, -⟩, -⟩
  imodintro
  isplitl [Hp]; · iexists _; iexact Hp
  iexists ∅; iexact HO

set_option backward.isDefEq.respectTransparency.types false in
/-- The frame of @main. -/
theorem frame :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_cond m emb₁ () noVar noPairs noLevel (fun _ _ => rfl) ρ (left m) (datas m) 0 (fun _ => (BI.emp : sProp 𝕄)) _
    launch_element (fun _ c => rides c) (launch_rides ρ) (fun c => by iintro ⟨-, H⟩; iexact H)
    (region0 m) (fun c => by rw [between_0]; exact .rfl) (fun c => by rw [between_1]; exact .rfl)
    (region1 m) (fun c => by rw [between_3]; exact .rfl) (fun c => by rw [between_4]; exact .rfl)
    (region2 m) (fun c => by rw [between_4]; exact .rfl) (fun c => by rw [between_5]; exact .rfl)
    (region3 m) (fun c => by rw [between_6]; exact .rfl) (fun c => by rw [between_7]; exact .rfl)
    (region4 m) (fun c => by rw [between_8]; exact .rfl) (fun c => by rw [between_9]; exact .rfl)
    (region5 m) (fun c => by rw [between_9]; exact .rfl) (fun c => by rw [between_10]; exact .rfl)
    (region6 m) (fun c => by rw [between_11]; exact .rfl) (fun c => by rw [between_12]; exact .rfl)

set_option backward.isDefEq.respectTransparency.types false in
/-- The run of @main with every unscoped buffer read at the end. -/
theorem run :
    θ_run defs (onTc (τ := τ) (main (F := F))) ⟨m, fun _ => 0, ρ⟩ (fun r => ∀ c : Dev nD,
      ∀ b ∈ Pipeline.ucRefs τ sig, r.2.mem ((c : Thread nD τ).1, b) = C12 m c b) :=
  (θ_run defs _ _).mono (fun r h c b hb => (h c b hb).trans (congrFun (between_12 m c) b))
    (run_cond m emb₁ () noVar noPairs noLevel (fun _ _ => rfl) ρ (left m) (datas m) 0 (fun _ => (BI.emp : sProp 𝕄)) _
      launch_element (fun _ c => rides c) (launch_rides ρ) (fun c => by iintro ⟨-, H⟩; iexact H)
      (region0 m) (fun c => by rw [between_0]; exact .rfl) (fun c => by rw [between_1]; exact .rfl)
      (region1 m) (fun c => by rw [between_3]; exact .rfl) (fun c => by rw [between_4]; exact .rfl)
      (region2 m) (fun c => by rw [between_4]; exact .rfl) (fun c => by rw [between_5]; exact .rfl)
      (region3 m) (fun c => by rw [between_6]; exact .rfl) (fun c => by rw [between_7]; exact .rfl)
      (region4 m) (fun c => by rw [between_8]; exact .rfl) (fun c => by rw [between_9]; exact .rfl)
      (region5 m) (fun c => by rw [between_9]; exact .rfl) (fun c => by rw [between_10]; exact .rfl)
      (region6 m) (fun c => by rw [between_11]; exact .rfl) (fun c => by rw [between_12]; exact .rfl))

end Cert.Kernel.Calls

end
-- ==== Proof.KernelIdeal.Call0.lean ====
/- The first pallas_call of the program: the feature projection, one row block of `x · W1` per grid point.
   Eight points; at point `t` the body reads rows `1024·t … 1024·t + 1023` of `x` (window 0), all of `W1`
   (window 1, fetched once), and overwrites the output's block with their product (window 2). Stated here,
   at any entry contents `V` of the core's buffers and for both readings of the floats: what the body leaves in
   the output's buffer as a function of the two input blocks, the body's triple, and the pipeline's proof data
   with its obligation at every point. -/
import proofs.«137898_j56616258896068_1_alg».proof.Proof.Gen.KernelIdeal.Launch
import proofs.«137898_j56616258896068_1_alg».proof.Proof.Gen.KernelIdeal.Skeleton
import proofs.«137898_j56616258896068_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Calls

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window `w`'s array that point `t` works on, as the call finds the array. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The rows of `x` are in their buffer when the body runs, whichever proof data say the body leaves them there. -/
theorem found0_0_of {c : Dev nD} (dat : Dat τ (Elt F) Unit ℕ (UR sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)

/-- `W1` is in its buffer at every point although it is fetched only at the first: its block never moves. -/
theorem found0_1_of {c : Dev nD} (dat : Dat τ (Elt F) Unit ℕ (UR sig nD τ) ℕ cfg0 c) (hA : dat.A 1 = V c (Pipeline.arrRef spec0 1))
    (hafter : ∀ t, dat.after 1 t = blk0 V c 1 t) (t : Fin cfg0.N) (d) : dat.before 1 t d = blk0 V c 1 t :=
  (dat.before_in_eq_fetched 1 rfl (fun _ => rfl) (fun _ _ _ => rfl) (fun t => by rw [hafter]; unfold Dat.blockOf blk0; rw [hA]; try rfl) t d).trans
    (by unfold Dat.fetched Dat.blockOf blk0; rw [hA]; try rfl)

/-- The whole of each buffer, as a rectangle: what the body's loads and its one store address. -/
abbrev whole0_x : Rect S1024x512 := Rect.unit (s := S1024x512) ![0, 0] S1024x512.size inb_S1024x512_S1024x512_0_0
abbrev whole0_w : Rect S512x256 := Rect.unit (s := S512x256) ![0, 0] S512x256.size inb_S512x256_S512x256_0_0
abbrev whole0_o : Rect S1024x256 := Rect.unit (s := S1024x256) ![0, 0] S1024x256.size inb_S1024x256_S1024x256_0_0

/-- What the body leaves in the output's buffer: its one store, of the product of the two blocks. -/
def prod0 (x0 : Vec F S1024x512 .f32) (x1 : Vec F S512x256 .f32) : Vec F S1024x256 .f32 :=
  View.canon [⟨whole0_o, k0_pay1 (View.ld x0 whole0_x) (View.ld x1 whole0_w)⟩]

/-- That store covers the buffer. -/
theorem prod0_cover (p0 : Vec F S1024x256 .f32) (y : S1024x256.Idx) :
    ∃ pc ∈ ([⟨whole0_o, p0⟩] : List (View.Piece (Elt F) S1024x256 .f32)), y ∈ pc.1.set :=
  View.cover_of_tiled [⟨whole0_o, p0⟩] S1024x256.size (by rfl) y

set_option maxHeartbeats 1000000 in
/-- The body on whole buffers: the two inputs at `x0`, `x1` and the output at anything; it leaves the inputs as they
    were and the output at `prod0 x0 x1`. -/
theorem body0_triple (c : Dev nD) (E : Set ℕ) (i : grid0.Coords) (arg1 : Memref sig .tc .vmem S1024x512 .f32) (harg1 : arg1.IsWhole)
    (arg2 : Memref sig .tc .vmem S512x256 .f32) (harg2 : arg2.IsWhole) (arg3 : Memref sig .tc .vmem S1024x256 .f32) (harg3 : arg3.IsWhole)
    (x0 : Vec F S1024x512 .f32) (x1 : Vec F S512x256 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (prod0 x0 x1)) -∗ K ⟨⟩))
      ⊢ wp frame (wpE (defs₀ (F := F)) Variants.none c none) E (cc0__mm_kernel i arg1 harg1 arg2 harg2 arg3 harg3) K := by
  simp only [cc0__mm_kernel_eq_skeleton]; unfold cc0__mm_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (prod0_cover _)

/-- The pipeline's proof data on core `c`: the arrays as found; after the body each input's buffer still at its block
    and the output's at the product; the invariant between points the untouched rest; full shares; nothing owed. -/
def data0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => prod0 (blk0 V c 0 t) (blk0 V c 1 t)
  Φ _ := Pipeline.ΦA spec0 c
  q _ := fullShare
  owed _ := 0

theorem data0_A (c : Dev nD) (w : Fin cfg0.W) : (data0 V c).A w = V c (Pipeline.arrRef spec0 w) := by
  dsimp only [data0]
theorem data0_after_0 (c : Dev nD) (t : Fin cfg0.N) : (data0 V c).after 0 t = blk0 V c 0 t := by dsimp only [data0]
theorem data0_after_1 (c : Dev nD) (t : Fin cfg0.N) : (data0 V c).after 1 t = blk0 V c 1 t := by dsimp only [data0]
theorem data0_after_2 (c : Dev nD) (t : Fin cfg0.N) : (data0 V c).after 2 t = prod0 (blk0 V c 0 t) (blk0 V c 1 t) := by dsimp only [data0]

theorem data0_before_0 (c : Dev nD) (t : Fin cfg0.N) (d) : (data0 V c).before 0 t d = blk0 V c 0 t :=
  found0_0_of V (data0 V c) (data0_A V c 0) (data0_after_0 V c) t d
theorem data0_before_1 (c : Dev nD) (t : Fin cfg0.N) (d) : (data0 V c).before 1 t d = blk0 V c 1 t :=
  found0_1_of V (data0 V c) (data0_A V c 1) (data0_after_1 V c) t d

/-- What the pipeline hands the body at point `t`, window by window, -/
def handed0 (c : Dev nD) (t : Fin cfg0.N) : sProp 𝕄 :=
  iprop((data0 V c).Φ t.castSucc ∗ (data0 V c).owesAt () t.castSucc
    ∗ (∃ d, owns (c : Thread nD τ) (st0_0 t) fullShare ((data0 V c).before 0 t d))
    ∗ (∃ d, owns (c : Thread nD τ) (st0_1 t) fullShare ((data0 V c).before 1 t d))
    ∗ (∃ d, owns (c : Thread nD τ) (st0_2 t) fullShare ((data0 V c).before 2 t d)))

/-- and what the body hands back. -/
def returned0 (c : Dev nD) (t : Fin cfg0.N) : sProp 𝕄 :=
  iprop((data0 V c).Φ t.succ ∗ (data0 V c).owesAt () t.succ
    ∗ owns (c : Thread nD τ) (st0_0 t) fullShare ((data0 V c).after 0 t)
    ∗ owns (c : Thread nD τ) (st0_1 t) fullShare ((data0 V c).after 1 t)
    ∗ owns (c : Thread nD τ) (st0_2 t) fullShare ((data0 V c).after 2 t))

theorem body0_at (c : Dev nD) (t : Fin cfg0.N) :
    handed0 V c t ⊢ wp frame (wpE (defs₀ (F := F)) Variants.none c none) Set.univ (bodyAt0 t) (fun _ => returned0 V c t) := by
  unfold handed0 returned0 bodyAt0
  simp only [data0_before_0, data0_before_1]
  rw [show (data0 V c).Φ t.succ = (data0 V c).Φ t.castSucc from rfl,
    show (data0 V c).owesAt () t.succ = (data0 V c).owesAt () t.castSucc from rfl,
    data0_after_0, data0_after_1, data0_after_2]
  iintro ⟨HΦ, Ho, ⟨%d0, H0⟩, ⟨%d1, H1⟩, ⟨%d2, H2⟩⟩
  iapply (body0_triple c Set.univ _ _ _ _ _ _ _ (blk0 V c 0 t) (blk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's obligation on the body, at every point. -/
theorem body0_obligation (c : Dev nD) : BodyObligation (data0 (F := F) V c) (defs₀ (F := F)) Variants.none () Set.univ := fun t => by
  rw [bigSep_W0, bigSep_W0]
  exact body0_at V c t

end Cert.KernelIdeal.Calls

end
-- ==== Proof.KernelIdeal.Call1.lean ====
/- The second pallas_call of the program: one row block of `hidden1 · W2` per grid point (eight points: rows 1024·t … 1024·t + 1023 of the hidden features, all of `W2` fetched once, the product written over the output's block). At any entry contents `V` of the core's buffers and for both readings of the floats: what the body leaves in the output's buffer as a function of the two input blocks, the body's triple, and the pipeline's proof data with its obligation at every point. -/
import proofs.«137898_j56616258896068_1_alg».proof.Proof.Gen.KernelIdeal.Launch
import proofs.«137898_j56616258896068_1_alg».proof.Proof.Gen.KernelIdeal.Skeleton
import proofs.«137898_j56616258896068_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Calls

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window `w`'s array that point `t` works on, as the call finds the array. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The rows of `x` are in their buffer when the body runs, whichever proof data say the body leaves them there. -/
theorem found1_0_of {c : Dev nD} (dat : Dat τ (Elt F) Unit ℕ (UR sig nD τ) ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)

/-- `W1` is in its buffer at every point although it is fetched only at the first: its block never moves. -/
theorem found1_1_of {c : Dev nD} (dat : Dat τ (Elt F) Unit ℕ (UR sig nD τ) ℕ cfg1 c) (hA : dat.A 1 = V c (Pipeline.arrRef spec1 1))
    (hafter : ∀ t, dat.after 1 t = blk1 V c 1 t) (t : Fin cfg1.N) (d) : dat.before 1 t d = blk1 V c 1 t :=
  (dat.before_in_eq_fetched 1 rfl (fun _ => rfl) (fun _ _ _ => rfl) (fun t => by rw [hafter]; unfold Dat.blockOf blk1; rw [hA]; try rfl) t d).trans
    (by unfold Dat.fetched Dat.blockOf blk1; rw [hA]; try rfl)

/-- The whole of each buffer, as a rectangle: what the body's loads and its one store address. -/
abbrev whole1_x : Rect S1024x256 := Rect.unit (s := S1024x256) ![0, 0] S1024x256.size inb_S1024x256_S1024x256_0_0
abbrev whole1_w : Rect S256x128 := Rect.unit (s := S256x128) ![0, 0] S256x128.size inb_S256x128_S256x128_0_0
abbrev whole1_o : Rect S1024x128 := Rect.unit (s := S1024x128) ![0, 0] S1024x128.size inb_S1024x128_S1024x128_0_0

/-- What the body leaves in the output's buffer: its one store, of the product of the two blocks. -/
def prod1 (x0 : Vec F S1024x256 .f32) (x1 : Vec F S256x128 .f32) : Vec F S1024x128 .f32 :=
  View.canon [⟨whole1_o, k1_pay1 (View.ld x0 whole1_x) (View.ld x1 whole1_w)⟩]

/-- That store covers the buffer. -/
theorem prod1_cover (p0 : Vec F S1024x128 .f32) (y : S1024x128.Idx) :
    ∃ pc ∈ ([⟨whole1_o, p0⟩] : List (View.Piece (Elt F) S1024x128 .f32)), y ∈ pc.1.set :=
  View.cover_of_tiled [⟨whole1_o, p0⟩] S1024x128.size (by rfl) y

set_option maxHeartbeats 1000000 in
/-- The body on whole buffers: the two inputs at `x0`, `x1` and the output at anything; it leaves the inputs as they
    were and the output at `prod1 x0 x1`. -/
theorem body1_triple (c : Dev nD) (E : Set ℕ) (i : grid1.Coords) (arg1 : Memref sig .tc .vmem S1024x256 .f32) (harg1 : arg1.IsWhole)
    (arg2 : Memref sig .tc .vmem S256x128 .f32) (harg2 : arg2.IsWhole) (arg3 : Memref sig .tc .vmem S1024x128 .f32) (harg3 : arg3.IsWhole)
    (x0 : Vec F S1024x256 .f32) (x1 : Vec F S256x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (prod1 x0 x1)) -∗ K ⟨⟩))
      ⊢ wp frame (wpE (defs₀ (F := F)) Variants.none c none) E (cc1__mm_kernel i arg1 harg1 arg2 harg2 arg3 harg3) K := by
  simp only [cc1__mm_kernel_eq_skeleton]; unfold cc1__mm_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (prod1_cover _)

/-- The pipeline's proof data on core `c`: the arrays as found; after the body each input's buffer still at its block
    and the output's at the product; the invariant between points the untouched rest; full shares; nothing owed. -/
def data1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => prod1 (blk1 V c 0 t) (blk1 V c 1 t)
  Φ _ := Pipeline.ΦA spec1 c
  q _ := fullShare
  owed _ := 0

theorem data1_A (c : Dev nD) (w : Fin cfg1.W) : (data1 V c).A w = V c (Pipeline.arrRef spec1 w) := by
  dsimp only [data1]
theorem data1_after_0 (c : Dev nD) (t : Fin cfg1.N) : (data1 V c).after 0 t = blk1 V c 0 t := by dsimp only [data1]
theorem data1_after_1 (c : Dev nD) (t : Fin cfg1.N) : (data1 V c).after 1 t = blk1 V c 1 t := by dsimp only [data1]
theorem data1_after_2 (c : Dev nD) (t : Fin cfg1.N) : (data1 V c).after 2 t = prod1 (blk1 V c 0 t) (blk1 V c 1 t) := by dsimp only [data1]

theorem data1_before_0 (c : Dev nD) (t : Fin cfg1.N) (d) : (data1 V c).before 0 t d = blk1 V c 0 t :=
  found1_0_of V (data1 V c) (data1_A V c 0) (data1_after_0 V c) t d
theorem data1_before_1 (c : Dev nD) (t : Fin cfg1.N) (d) : (data1 V c).before 1 t d = blk1 V c 1 t :=
  found1_1_of V (data1 V c) (data1_A V c 1) (data1_after_1 V c) t d

/-- What the pipeline hands the body at point `t`, window by window, -/
def handed1 (c : Dev nD) (t : Fin cfg1.N) : sProp 𝕄 :=
  iprop((data1 V c).Φ t.castSucc ∗ (data1 V c).owesAt () t.castSucc
    ∗ (∃ d, owns (c : Thread nD τ) (st1_0 t) fullShare ((data1 V c).before 0 t d))
    ∗ (∃ d, owns (c : Thread nD τ) (st1_1 t) fullShare ((data1 V c).before 1 t d))
    ∗ (∃ d, owns (c : Thread nD τ) (st1_2 t) fullShare ((data1 V c).before 2 t d)))

/-- and what the body hands back. -/
def returned1 (c : Dev nD) (t : Fin cfg1.N) : sProp 𝕄 :=
  iprop((data1 V c).Φ t.succ ∗ (data1 V c).owesAt () t.succ
    ∗ owns (c : Thread nD τ) (st1_0 t) fullShare ((data1 V c).after 0 t)
    ∗ owns (c : Thread nD τ) (st1_1 t) fullShare ((data1 V c).after 1 t)
    ∗ owns (c : Thread nD τ) (st1_2 t) fullShare ((data1 V c).after 2 t))

theorem body1_at (c : Dev nD) (t : Fin cfg1.N) :
    handed1 V c t ⊢ wp frame (wpE (defs₀ (F := F)) Variants.none c none) Set.univ (bodyAt1 t) (fun _ => returned1 V c t) := by
  unfold handed1 returned1 bodyAt1
  simp only [data1_before_0, data1_before_1]
  rw [show (data1 V c).Φ t.succ = (data1 V c).Φ t.castSucc from rfl,
    show (data1 V c).owesAt () t.succ = (data1 V c).owesAt () t.castSucc from rfl,
    data1_after_0, data1_after_1, data1_after_2]
  iintro ⟨HΦ, Ho, ⟨%d0, H0⟩, ⟨%d1, H1⟩, ⟨%d2, H2⟩⟩
  iapply (body1_triple c Set.univ _ _ _ _ _ _ _ (blk1 V c 0 t) (blk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's obligation on the body, at every point. -/
theorem body1_obligation (c : Dev nD) : BodyObligation (data1 (F := F) V c) (defs₀ (F := F)) Variants.none () Set.univ := fun t => by
  rw [bigSep_W1, bigSep_W1]
  exact body1_at V c t

end Cert.KernelIdeal.Calls

end
-- ==== Proof.KernelIdeal.Call2.lean ====
/- The third pallas_call of the program: one row block of `hidden1 · W3` per grid point (eight points: rows 1024·t … 1024·t + 1023 of the hidden features, all of `W3` fetched once, the product written over the output's block). At any entry contents `V` of the core's buffers and for both readings of the floats: what the body leaves in the output's buffer as a function of the two input blocks, the body's triple, and the pipeline's proof data with its obligation at every point. -/
import proofs.«137898_j56616258896068_1_alg».proof.Proof.Gen.KernelIdeal.Launch
import proofs.«137898_j56616258896068_1_alg».proof.Proof.Gen.KernelIdeal.Skeleton
import proofs.«137898_j56616258896068_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Calls

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window `w`'s array that point `t` works on, as the call finds the array. -/
def blk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The rows of `x` are in their buffer when the body runs, whichever proof data say the body leaves them there. -/
theorem found2_0_of {c : Dev nD} (dat : Dat τ (Elt F) Unit ℕ (UR sig nD τ) ℕ cfg2 c) (hA : dat.A 0 = V c (Pipeline.arrRef spec2 0))
    (hafter : ∀ t, dat.after 0 t = blk2 V c 0 t) (t : Fin cfg2.N) (d) : dat.before 0 t d = blk2 V c 0 t :=
  (dat.before_in_eq_fetched 0 rfl (fun _ => rfl) (fun _ _ _ => rfl) (fun t => by rw [hafter]; unfold Dat.blockOf blk2; rw [hA]; try rfl) t d).trans
    (by unfold Dat.fetched Dat.blockOf blk2; rw [hA]; try rfl)

/-- `W1` is in its buffer at every point although it is fetched only at the first: its block never moves. -/
theorem found2_1_of {c : Dev nD} (dat : Dat τ (Elt F) Unit ℕ (UR sig nD τ) ℕ cfg2 c) (hA : dat.A 1 = V c (Pipeline.arrRef spec2 1))
    (hafter : ∀ t, dat.after 1 t = blk2 V c 1 t) (t : Fin cfg2.N) (d) : dat.before 1 t d = blk2 V c 1 t :=
  (dat.before_in_eq_fetched 1 rfl (fun _ => rfl) (fun _ _ _ => rfl) (fun t => by rw [hafter]; unfold Dat.blockOf blk2; rw [hA]; try rfl) t d).trans
    (by unfold Dat.fetched Dat.blockOf blk2; rw [hA]; try rfl)

/-- The whole of each buffer, as a rectangle: what the body's loads and its one store address. -/
abbrev whole2_x : Rect S1024x256 := Rect.unit (s := S1024x256) ![0, 0] S1024x256.size inb_S1024x256_S1024x256_0_0
abbrev whole2_w : Rect S256x128 := Rect.unit (s := S256x128) ![0, 0] S256x128.size inb_S256x128_S256x128_0_0
abbrev whole2_o : Rect S1024x128 := Rect.unit (s := S1024x128) ![0, 0] S1024x128.size inb_S1024x128_S1024x128_0_0

/-- What the body leaves in the output's buffer: its one store, of the product of the two blocks. -/
def prod2 (x0 : Vec F S1024x256 .f32) (x1 : Vec F S256x128 .f32) : Vec F S1024x128 .f32 :=
  View.canon [⟨whole2_o, k2_pay1 (View.ld x0 whole2_x) (View.ld x1 whole2_w)⟩]

/-- That store covers the buffer. -/
theorem prod2_cover (p0 : Vec F S1024x128 .f32) (y : S1024x128.Idx) :
    ∃ pc ∈ ([⟨whole2_o, p0⟩] : List (View.Piece (Elt F) S1024x128 .f32)), y ∈ pc.1.set :=
  View.cover_of_tiled [⟨whole2_o, p0⟩] S1024x128.size (by rfl) y

set_option maxHeartbeats 1000000 in
/-- The body on whole buffers: the two inputs at `x0`, `x1` and the output at anything; it leaves the inputs as they
    were and the output at `prod2 x0 x1`. -/
theorem body2_triple (c : Dev nD) (E : Set ℕ) (i : grid2.Coords) (arg1 : Memref sig .tc .vmem S1024x256 .f32) (harg1 : arg1.IsWhole)
    (arg2 : Memref sig .tc .vmem S256x128 .f32) (harg2 : arg2.IsWhole) (arg3 : Memref sig .tc .vmem S1024x128 .f32) (harg3 : arg3.IsWhole)
    (x0 : Vec F S1024x256 .f32) (x1 : Vec F S256x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (prod2 x0 x1)) -∗ K ⟨⟩))
      ⊢ wp frame (wpE (defs₀ (F := F)) Variants.none c none) E (cc2__mm_kernel i arg1 harg1 arg2 harg2 arg3 harg3) K := by
  simp only [cc2__mm_kernel_eq_skeleton]; unfold cc2__mm_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (prod2_cover _)

/-- The pipeline's proof data on core `c`: the arrays as found; after the body each input's buffer still at its block
    and the output's at the product; the invariant between points the untouched rest; full shares; nothing owed. -/
def data2 (c : Dev nD) : Dat τ (Elt F) Unit ℕ (UR sig nD τ) ℕ cfg2 c where
  A w := V c (Pipeline.arrRef spec2 w)
  after w t := match w with
    | ⟨0, _⟩ => blk2 V c 0 t
    | ⟨1, _⟩ => blk2 V c 1 t
    | ⟨2, _⟩ => prod2 (blk2 V c 0 t) (blk2 V c 1 t)
  Φ _ := Pipeline.ΦA spec2 c
  q _ := fullShare
  owed _ := 0

theorem data2_A (c : Dev nD) (w : Fin cfg2.W) : (data2 V c).A w = V c (Pipeline.arrRef spec2 w) := by
  dsimp only [data2]
theorem data2_after_0 (c : Dev nD) (t : Fin cfg2.N) : (data2 V c).after 0 t = blk2 V c 0 t := by dsimp only [data2]
theorem data2_after_1 (c : Dev nD) (t : Fin cfg2.N) : (data2 V c).after 1 t = blk2 V c 1 t := by dsimp only [data2]
theorem data2_after_2 (c : Dev nD) (t : Fin cfg2.N) : (data2 V c).after 2 t = prod2 (blk2 V c 0 t) (blk2 V c 1 t) := by dsimp only [data2]

theorem data2_before_0 (c : Dev nD) (t : Fin cfg2.N) (d) : (data2 V c).before 0 t d = blk2 V c 0 t :=
  found2_0_of V (data2 V c) (data2_A V c 0) (data2_after_0 V c) t d
theorem data2_before_1 (c : Dev nD) (t : Fin cfg2.N) (d) : (data2 V c).before 1 t d = blk2 V c 1 t :=
  found2_1_of V (data2 V c) (data2_A V c 1) (data2_after_1 V c) t d

/-- What the pipeline hands the body at point `t`, window by window, -/
def handed2 (c : Dev nD) (t : Fin cfg2.N) : sProp 𝕄 :=
  iprop((data2 V c).Φ t.castSucc ∗ (data2 V c).owesAt () t.castSucc
    ∗ (∃ d, owns (c : Thread nD τ) (st2_0 t) fullShare ((data2 V c).before 0 t d))
    ∗ (∃ d, owns (c : Thread nD τ) (st2_1 t) fullShare ((data2 V c).before 1 t d))
    ∗ (∃ d, owns (c : Thread nD τ) (st2_2 t) fullShare ((data2 V c).before 2 t d)))

/-- and what the body hands back. -/
def returned2 (c : Dev nD) (t : Fin cfg2.N) : sProp 𝕄 :=
  iprop((data2 V c).Φ t.succ ∗ (data2 V c).owesAt () t.succ
    ∗ owns (c : Thread nD τ) (st2_0 t) fullShare ((data2 V c).after 0 t)
    ∗ owns (c : Thread nD τ) (st2_1 t) fullShare ((data2 V c).after 1 t)
    ∗ owns (c : Thread nD τ) (st2_2 t) fullShare ((data2 V c).after 2 t))

theorem body2_at (c : Dev nD) (t : Fin cfg2.N) :
    handed2 V c t ⊢ wp frame (wpE (defs₀ (F := F)) Variants.none c none) Set.univ (bodyAt2 t) (fun _ => returned2 V c t) := by
  unfold handed2 returned2 bodyAt2
  simp only [data2_before_0, data2_before_1]
  rw [show (data2 V c).Φ t.succ = (data2 V c).Φ t.castSucc from rfl,
    show (data2 V c).owesAt () t.succ = (data2 V c).owesAt () t.castSucc from rfl,
    data2_after_0, data2_after_1, data2_after_2]
  iintro ⟨HΦ, Ho, ⟨%d0, H0⟩, ⟨%d1, H1⟩, ⟨%d2, H2⟩⟩
  iapply (body2_triple c Set.univ _ _ _ _ _ _ _ (blk2 V c 0 t) (blk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's obligation on the body, at every point. -/
theorem body2_obligation (c : Dev nD) : BodyObligation (data2 (F := F) V c) (defs₀ (F := F)) Variants.none () Set.univ := fun t => by
  rw [bigSep_W2, bigSep_W2]
  exact body2_at V c t

end Cert.KernelIdeal.Calls

end
-- ==== Proof.KernelIdeal.Call3.lean ====
/- The fourth pallas_call of the program: the affine map that makes `mu`, one row block of `mu0 · dense_W + dense_b`
   per grid point. Eight points; at point `t` the body reads rows `1024·t … 1024·t + 1023` of the aggregated
   features (window 0), all of `dense_W` (window 1) and the bias as a 1 × 64 row (window 2), both fetched once, and
   overwrites the output's block with the product plus the bias row repeated down the rows (window 3). Stated here,
   at any entry contents `V` of the core's buffers and for both readings of the floats: what the body leaves in
   the output's buffer as a function of the three input blocks, the body's triple, and the pipeline's proof data
   with its obligation at every point. -/
import proofs.«137898_j56616258896068_1_alg».proof.Proof.Gen.KernelIdeal.Launch
import proofs.«137898_j56616258896068_1_alg».proof.Proof.Gen.KernelIdeal.Skeleton
import proofs.«137898_j56616258896068_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Calls

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window `w`'s array that point `t` works on, as the call finds the array. -/
def blk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The rows of the features are in their buffer when the body runs, whichever proof data say the body leaves them there. -/
theorem found3_0_of {c : Dev nD} (dat : Dat τ (Elt F) Unit ℕ (UR sig nD τ) ℕ cfg3 c) (hA : dat.A 0 = V c (Pipeline.arrRef spec3 0))
    (hafter : ∀ t, dat.after 0 t = blk3 V c 0 t) (t : Fin cfg3.N) (d) : dat.before 0 t d = blk3 V c 0 t :=
  (dat.before_in_eq_fetched 0 rfl (fun _ => rfl) (fun _ _ _ => rfl) (fun t => by rw [hafter]; unfold Dat.blockOf blk3; rw [hA]; try rfl) t d).trans
    (by unfold Dat.fetched Dat.blockOf blk3; rw [hA]; try rfl)

/-- The weights are in their buffer at every point although fetched only at the first: their block never moves. -/
theorem found3_1_of {c : Dev nD} (dat : Dat τ (Elt F) Unit ℕ (UR sig nD τ) ℕ cfg3 c) (hA : dat.A 1 = V c (Pipeline.arrRef spec3 1))
    (hafter : ∀ t, dat.after 1 t = blk3 V c 1 t) (t : Fin cfg3.N) (d) : dat.before 1 t d = blk3 V c 1 t :=
  (dat.before_in_eq_fetched 1 rfl (fun _ => rfl) (fun _ _ _ => rfl) (fun t => by rw [hafter]; unfold Dat.blockOf blk3; rw [hA]; try rfl) t d).trans
    (by unfold Dat.fetched Dat.blockOf blk3; rw [hA]; try rfl)

/-- So is the bias row. -/
theorem found3_2_of {c : Dev nD} (dat : Dat τ (Elt F) Unit ℕ (UR sig nD τ) ℕ cfg3 c) (hA : dat.A 2 = V c (Pipeline.arrRef spec3 2))
    (hafter : ∀ t, dat.after 2 t = blk3 V c 2 t) (t : Fin cfg3.N) (d) : dat.before 2 t d = blk3 V c 2 t :=
  (dat.before_in_eq_fetched 2 rfl (fun _ => rfl) (fun _ _ _ => rfl) (fun t => by rw [hafter]; unfold Dat.blockOf blk3; rw [hA]; try rfl) t d).trans
    (by unfold Dat.fetched Dat.blockOf blk3; rw [hA]; try rfl)

/-- The whole of each buffer, as a rectangle: what the body's loads and its one store address. -/
abbrev whole3_x : Rect S1024x128 := Rect.unit (s := S1024x128) ![0, 0] S1024x128.size inb_S1024x128_S1024x128_0_0
abbrev whole3_w : Rect S128x64 := Rect.unit (s := S128x64) ![0, 0] S128x64.size inb_S128x64_S128x64_0_0
abbrev whole3_b : Rect S1x64 := Rect.unit (s := S1x64) ![0, 0] S1x64.size inb_S1x64_S1x64_0_0
abbrev whole3_o : Rect S1024x64 := Rect.unit (s := S1024x64) ![0, 0] S1024x64.size inb_S1024x64_S1024x64_0_0

/-- What the body leaves in the output's buffer: its one store, of the product of the two blocks plus the bias row. -/
def affine3 (x0 : Vec F S1024x128 .f32) (x1 : Vec F S128x64 .f32) (x2 : Vec F S1x64 .f32) : Vec F S1024x64 .f32 :=
  View.canon [⟨whole3_o, k3_pay1 (View.ld x0 whole3_x) (View.ld x1 whole3_w) (View.ld x2 whole3_b)⟩]

/-- That store covers the buffer. -/
theorem affine3_cover (p0 : Vec F S1024x64 .f32) (y : S1024x64.Idx) :
    ∃ pc ∈ ([⟨whole3_o, p0⟩] : List (View.Piece (Elt F) S1024x64 .f32)), y ∈ pc.1.set :=
  View.cover_of_tiled [⟨whole3_o, p0⟩] S1024x64.size (by rfl) y

set_option maxHeartbeats 1000000 in
/-- The body on whole buffers: the three inputs at `x0`, `x1`, `x2` and the output at anything; it leaves the inputs as
    they were and the output at `affine3 x0 x1 x2`. -/
theorem body3_triple (c : Dev nD) (E : Set ℕ) (i : grid3.Coords) (arg1 : Memref sig .tc .vmem S1024x128 .f32) (harg1 : arg1.IsWhole)
    (arg2 : Memref sig .tc .vmem S128x64 .f32) (harg2 : arg2.IsWhole) (arg3 : Memref sig .tc .vmem S1x64 .f32) (harg3 : arg3.IsWhole)
    (arg4 : Memref sig .tc .vmem S1024x64 .f32) (harg4 : arg4.IsWhole)
    (x0 : Vec F S1024x128 .f32) (x1 : Vec F S128x64 .f32) (x2 : Vec F S1x64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (affine3 x0 x1 x2)) -∗ K ⟨⟩))
      ⊢ wp frame (wpE (defs₀ (F := F)) Variants.none c none) E (cc3__mm_bias_kernel i arg1 harg1 arg2 harg2 arg3 harg3 arg4 harg4) K := by
  simp only [cc3__mm_bias_kernel_eq_skeleton]; unfold cc3__mm_bias_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (affine3_cover _)

/-- The pipeline's proof data on core `c`: the arrays as found; after the body each input's buffer still at its block
    and the output's at the affine image; the invariant between points the untouched rest; full shares; nothing owed. -/
def data3 (c : Dev nD) : Dat τ (Elt F) Unit ℕ (UR sig nD τ) ℕ cfg3 c where
  A w := V c (Pipeline.arrRef spec3 w)
  after w t := match w with
    | ⟨0, _⟩ => blk3 V c 0 t
    | ⟨1, _⟩ => blk3 V c 1 t
    | ⟨2, _⟩ => blk3 V c 2 t
    | ⟨3, _⟩ => affine3 (blk3 V c 0 t) (blk3 V c 1 t) (blk3 V c 2 t)
  Φ _ := Pipeline.ΦA spec3 c
  q _ := fullShare
  owed _ := 0

theorem data3_A (c : Dev nD) (w : Fin cfg3.W) : (data3 V c).A w = V c (Pipeline.arrRef spec3 w) := by
  dsimp only [data3]
theorem data3_after_0 (c : Dev nD) (t : Fin cfg3.N) : (data3 V c).after 0 t = blk3 V c 0 t := by dsimp only [data3]
theorem data3_after_1 (c : Dev nD) (t : Fin cfg3.N) : (data3 V c).after 1 t = blk3 V c 1 t := by dsimp only [data3]
theorem data3_after_2 (c : Dev nD) (t : Fin cfg3.N) : (data3 V c).after 2 t = blk3 V c 2 t := by dsimp only [data3]
theorem data3_after_3 (c : Dev nD) (t : Fin cfg3.N) :
    (data3 V c).after 3 t = affine3 (blk3 V c 0 t) (blk3 V c 1 t) (blk3 V c 2 t) := by dsimp only [data3]

theorem data3_before_0 (c : Dev nD) (t : Fin cfg3.N) (d) : (data3 V c).before 0 t d = blk3 V c 0 t :=
  found3_0_of V (data3 V c) (data3_A V c 0) (data3_after_0 V c) t d
theorem data3_before_1 (c : Dev nD) (t : Fin cfg3.N) (d) : (data3 V c).before 1 t d = blk3 V c 1 t :=
  found3_1_of V (data3 V c) (data3_A V c 1) (data3_after_1 V c) t d
theorem data3_before_2 (c : Dev nD) (t : Fin cfg3.N) (d) : (data3 V c).before 2 t d = blk3 V c 2 t :=
  found3_2_of V (data3 V c) (data3_A V c 2) (data3_after_2 V c) t d

/-- What the pipeline hands the body at point `t`, window by window, -/
def handed3 (c : Dev nD) (t : Fin cfg3.N) : sProp 𝕄 :=
  iprop((data3 V c).Φ t.castSucc ∗ (data3 V c).owesAt () t.castSucc
    ∗ (∃ d, owns (c : Thread nD τ) (st3_0 t) fullShare ((data3 V c).before 0 t d))
    ∗ (∃ d, owns (c : Thread nD τ) (st3_1 t) fullShare ((data3 V c).before 1 t d))
    ∗ (∃ d, owns (c : Thread nD τ) (st3_2 t) fullShare ((data3 V c).before 2 t d))
    ∗ (∃ d, owns (c : Thread nD τ) (st3_3 t) fullShare ((data3 V c).before 3 t d)))

/-- and what the body hands back. -/
def returned3 (c : Dev nD) (t : Fin cfg3.N) : sProp 𝕄 :=
  iprop((data3 V c).Φ t.succ ∗ (data3 V c).owesAt () t.succ
    ∗ owns (c : Thread nD τ) (st3_0 t) fullShare ((data3 V c).after 0 t)
    ∗ owns (c : Thread nD τ) (st3_1 t) fullShare ((data3 V c).after 1 t)
    ∗ owns (c : Thread nD τ) (st3_2 t) fullShare ((data3 V c).after 2 t)
    ∗ owns (c : Thread nD τ) (st3_3 t) fullShare ((data3 V c).after 3 t))

theorem body3_at (c : Dev nD) (t : Fin cfg3.N) :
    handed3 V c t ⊢ wp frame (wpE (defs₀ (F := F)) Variants.none c none) Set.univ (bodyAt3 t) (fun _ => returned3 V c t) := by
  unfold handed3 returned3 bodyAt3
  simp only [data3_before_0, data3_before_1, data3_before_2]
  rw [show (data3 V c).Φ t.succ = (data3 V c).Φ t.castSucc from rfl,
    show (data3 V c).owesAt () t.succ = (data3 V c).owesAt () t.castSucc from rfl,
    data3_after_0, data3_after_1, data3_after_2, data3_after_3]
  iintro ⟨HΦ, Ho, ⟨%d0, H0⟩, ⟨%d1, H1⟩, ⟨%d2, H2⟩, ⟨%d3, H3⟩⟩
  iapply (body3_triple c Set.univ _ _ _ _ _ _ _ _ _ (blk3 V c 0 t) (blk3 V c 1 t) (blk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's obligation on the body, at every point. -/
theorem body3_obligation (c : Dev nD) : BodyObligation (data3 (F := F) V c) (defs₀ (F := F)) Variants.none () Set.univ := fun t => by
  rw [bigSep_W3, bigSep_W3]
  exact body3_at V c t

end Cert.KernelIdeal.Calls

end
-- ==== Proof.KernelIdeal.Call4.lean ====
/- The fifth pallas_call of the program: the affine map that makes `logvar`, one row block of `logvar0 · dense_W + dense_b` per grid point (eight points; the weights and the bias row fetched once). At any entry contents `V` of the core's buffers and for both readings of the floats: what the body leaves in the output's buffer as a function of the three input blocks, the body's triple, and the pipeline's proof data with its obligation at every point. -/
import proofs.«137898_j56616258896068_1_alg».proof.Proof.Gen.KernelIdeal.Launch
import proofs.«137898_j56616258896068_1_alg».proof.Proof.Gen.KernelIdeal.Skeleton
import proofs.«137898_j56616258896068_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Calls

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window `w`'s array that point `t` works on, as the call finds the array. -/
def blk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The rows of the features are in their buffer when the body runs, whichever proof data say the body leaves them there. -/
theorem found4_0_of {c : Dev nD} (dat : Dat τ (Elt F) Unit ℕ (UR sig nD τ) ℕ cfg4 c) (hA : dat.A 0 = V c (Pipeline.arrRef spec4 0))
    (hafter : ∀ t, dat.after 0 t = blk4 V c 0 t) (t : Fin cfg4.N) (d) : dat.before 0 t d = blk4 V c 0 t :=
  (dat.before_in_eq_fetched 0 rfl (fun _ => rfl) (fun _ _ _ => rfl) (fun t => by rw [hafter]; unfold Dat.blockOf blk4; rw [hA]; try rfl) t d).trans
    (by unfold Dat.fetched Dat.blockOf blk4; rw [hA]; try rfl)

/-- The weights are in their buffer at every point although fetched only at the first: their block never moves. -/
theorem found4_1_of {c : Dev nD} (dat : Dat τ (Elt F) Unit ℕ (UR sig nD τ) ℕ cfg4 c) (hA : dat.A 1 = V c (Pipeline.arrRef spec4 1))
    (hafter : ∀ t, dat.after 1 t = blk4 V c 1 t) (t : Fin cfg4.N) (d) : dat.before 1 t d = blk4 V c 1 t :=
  (dat.before_in_eq_fetched 1 rfl (fun _ => rfl) (fun _ _ _ => rfl) (fun t => by rw [hafter]; unfold Dat.blockOf blk4; rw [hA]; try rfl) t d).trans
    (by unfold Dat.fetched Dat.blockOf blk4; rw [hA]; try rfl)

/-- So is the bias row. -/
theorem found4_2_of {c : Dev nD} (dat : Dat τ (Elt F) Unit ℕ (UR sig nD τ) ℕ cfg4 c) (hA : dat.A 2 = V c (Pipeline.arrRef spec4 2))
    (hafter : ∀ t, dat.after 2 t = blk4 V c 2 t) (t : Fin cfg4.N) (d) : dat.before 2 t d = blk4 V c 2 t :=
  (dat.before_in_eq_fetched 2 rfl (fun _ => rfl) (fun _ _ _ => rfl) (fun t => by rw [hafter]; unfold Dat.blockOf blk4; rw [hA]; try rfl) t d).trans
    (by unfold Dat.fetched Dat.blockOf blk4; rw [hA]; try rfl)

/-- The whole of each buffer, as a rectangle: what the body's loads and its one store address. -/
abbrev whole4_x : Rect S1024x128 := Rect.unit (s := S1024x128) ![0, 0] S1024x128.size inb_S1024x128_S1024x128_0_0
abbrev whole4_w : Rect S128x64 := Rect.unit (s := S128x64) ![0, 0] S128x64.size inb_S128x64_S128x64_0_0
abbrev whole4_b : Rect S1x64 := Rect.unit (s := S1x64) ![0, 0] S1x64.size inb_S1x64_S1x64_0_0
abbrev whole4_o : Rect S1024x64 := Rect.unit (s := S1024x64) ![0, 0] S1024x64.size inb_S1024x64_S1024x64_0_0

/-- What the body leaves in the output's buffer: its one store, of the product of the two blocks plus the bias row. -/
def affine4 (x0 : Vec F S1024x128 .f32) (x1 : Vec F S128x64 .f32) (x2 : Vec F S1x64 .f32) : Vec F S1024x64 .f32 :=
  View.canon [⟨whole4_o, k4_pay1 (View.ld x0 whole4_x) (View.ld x1 whole4_w) (View.ld x2 whole4_b)⟩]

/-- That store covers the buffer. -/
theorem affine4_cover (p0 : Vec F S1024x64 .f32) (y : S1024x64.Idx) :
    ∃ pc ∈ ([⟨whole4_o, p0⟩] : List (View.Piece (Elt F) S1024x64 .f32)), y ∈ pc.1.set :=
  View.cover_of_tiled [⟨whole4_o, p0⟩] S1024x64.size (by rfl) y

set_option maxHeartbeats 1000000 in
/-- The body on whole buffers: the three inputs at `x0`, `x1`, `x2` and the output at anything; it leaves the inputs as
    they were and the output at `affine4 x0 x1 x2`. -/
theorem body4_triple (c : Dev nD) (E : Set ℕ) (i : grid4.Coords) (arg1 : Memref sig .tc .vmem S1024x128 .f32) (harg1 : arg1.IsWhole)
    (arg2 : Memref sig .tc .vmem S128x64 .f32) (harg2 : arg2.IsWhole) (arg3 : Memref sig .tc .vmem S1x64 .f32) (harg3 : arg3.IsWhole)
    (arg4 : Memref sig .tc .vmem S1024x64 .f32) (harg4 : arg4.IsWhole)
    (x0 : Vec F S1024x128 .f32) (x1 : Vec F S128x64 .f32) (x2 : Vec F S1x64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (affine4 x0 x1 x2)) -∗ K ⟨⟩))
      ⊢ wp frame (wpE (defs₀ (F := F)) Variants.none c none) E (cc4__mm_bias_kernel i arg1 harg1 arg2 harg2 arg3 harg3 arg4 harg4) K := by
  simp only [cc4__mm_bias_kernel_eq_skeleton]; unfold cc4__mm_bias_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (affine4_cover _)

/-- The pipeline's proof data on core `c`: the arrays as found; after the body each input's buffer still at its block
    and the output's at the affine image; the invariant between points the untouched rest; full shares; nothing owed. -/
def data4 (c : Dev nD) : Dat τ (Elt F) Unit ℕ (UR sig nD τ) ℕ cfg4 c where
  A w := V c (Pipeline.arrRef spec4 w)
  after w t := match w with
    | ⟨0, _⟩ => blk4 V c 0 t
    | ⟨1, _⟩ => blk4 V c 1 t
    | ⟨2, _⟩ => blk4 V c 2 t
    | ⟨3, _⟩ => affine4 (blk4 V c 0 t) (blk4 V c 1 t) (blk4 V c 2 t)
  Φ _ := Pipeline.ΦA spec4 c
  q _ := fullShare
  owed _ := 0

theorem data4_A (c : Dev nD) (w : Fin cfg4.W) : (data4 V c).A w = V c (Pipeline.arrRef spec4 w) := by
  dsimp only [data4]
theorem data4_after_0 (c : Dev nD) (t : Fin cfg4.N) : (data4 V c).after 0 t = blk4 V c 0 t := by dsimp only [data4]
theorem data4_after_1 (c : Dev nD) (t : Fin cfg4.N) : (data4 V c).after 1 t = blk4 V c 1 t := by dsimp only [data4]
theorem data4_after_2 (c : Dev nD) (t : Fin cfg4.N) : (data4 V c).after 2 t = blk4 V c 2 t := by dsimp only [data4]
theorem data4_after_3 (c : Dev nD) (t : Fin cfg4.N) :
    (data4 V c).after 3 t = affine4 (blk4 V c 0 t) (blk4 V c 1 t) (blk4 V c 2 t) := by dsimp only [data4]

theorem data4_before_0 (c : Dev nD) (t : Fin cfg4.N) (d) : (data4 V c).before 0 t d = blk4 V c 0 t :=
  found4_0_of V (data4 V c) (data4_A V c 0) (data4_after_0 V c) t d
theorem data4_before_1 (c : Dev nD) (t : Fin cfg4.N) (d) : (data4 V c).before 1 t d = blk4 V c 1 t :=
  found4_1_of V (data4 V c) (data4_A V c 1) (data4_after_1 V c) t d
theorem data4_before_2 (c : Dev nD) (t : Fin cfg4.N) (d) : (data4 V c).before 2 t d = blk4 V c 2 t :=
  found4_2_of V (data4 V c) (data4_A V c 2) (data4_after_2 V c) t d

/-- What the pipeline hands the body at point `t`, window by window, -/
def handed4 (c : Dev nD) (t : Fin cfg4.N) : sProp 𝕄 :=
  iprop((data4 V c).Φ t.castSucc ∗ (data4 V c).owesAt () t.castSucc
    ∗ (∃ d, owns (c : Thread nD τ) (st4_0 t) fullShare ((data4 V c).before 0 t d))
    ∗ (∃ d, owns (c : Thread nD τ) (st4_1 t) fullShare ((data4 V c).before 1 t d))
    ∗ (∃ d, owns (c : Thread nD τ) (st4_2 t) fullShare ((data4 V c).before 2 t d))
    ∗ (∃ d, owns (c : Thread nD τ) (st4_3 t) fullShare ((data4 V c).before 3 t d)))

/-- and what the body hands back. -/
def returned4 (c : Dev nD) (t : Fin cfg4.N) : sProp 𝕄 :=
  iprop((data4 V c).Φ t.succ ∗ (data4 V c).owesAt () t.succ
    ∗ owns (c : Thread nD τ) (st4_0 t) fullShare ((data4 V c).after 0 t)
    ∗ owns (c : Thread nD τ) (st4_1 t) fullShare ((data4 V c).after 1 t)
    ∗ owns (c : Thread nD τ) (st4_2 t) fullShare ((data4 V c).after 2 t)
    ∗ owns (c : Thread nD τ) (st4_3 t) fullShare ((data4 V c).after 3 t))

theorem body4_at (c : Dev nD) (t : Fin cfg4.N) :
    handed4 V c t ⊢ wp frame (wpE (defs₀ (F := F)) Variants.none c none) Set.univ (bodyAt4 t) (fun _ => returned4 V c t) := by
  unfold handed4 returned4 bodyAt4
  simp only [data4_before_0, data4_before_1, data4_before_2]
  rw [show (data4 V c).Φ t.succ = (data4 V c).Φ t.castSucc from rfl,
    show (data4 V c).owesAt () t.succ = (data4 V c).owesAt () t.castSucc from rfl,
    data4_after_0, data4_after_1, data4_after_2, data4_after_3]
  iintro ⟨HΦ, Ho, ⟨%d0, H0⟩, ⟨%d1, H1⟩, ⟨%d2, H2⟩, ⟨%d3, H3⟩⟩
  iapply (body4_triple c Set.univ _ _ _ _ _ _ _ _ _ (blk4 V c 0 t) (blk4 V c 1 t) (blk4 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's obligation on the body, at every point. -/
theorem body4_obligation (c : Dev nD) : BodyObligation (data4 (F := F) V c) (defs₀ (F := F)) Variants.none () Set.univ := fun t => by
  rw [bigSep_W4, bigSep_W4]
  exact body4_at V c t

end Cert.KernelIdeal.Calls

end
-- ==== Proof.KernelIdeal.Call5.lean ====
/- The sixth pallas_call of the program: the inner-product decoder, one 1024 × 1024 tile of `z · zᵀ` per grid point of an
   8 × 8 grid. At point (i, j) the body reads rows 1024·i … of `z` through window 0 (fetched when i changes) and rows
   1024·j … of the SAME array through window 1 (fetched at every point), and writes over the output's tile the product
   of the first block with the transpose of the second. The two input windows share one array, so the pipeline holds
   that array at two complementary shares, one per window. Stated here, at any entry contents `V` of the core's buffers
   and for both readings of the floats: what the body leaves in the output's buffer as a function of the two input
   blocks, the body's triple, and the pipeline's proof data with its obligation at every point. -/
import proofs.«137898_j56616258896068_1_alg».proof.Proof.Gen.KernelIdeal.Launch
import proofs.«137898_j56616258896068_1_alg».proof.Proof.Gen.KernelIdeal.Skeleton
import proofs.«137898_j56616258896068_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Calls

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window `w`'s array that point `t` works on, as the call finds the array. -/
def blk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- The rows of `x` are in their buffer when the body runs, whichever proof data say the body leaves them there. -/
theorem found5_0_of {c : Dev nD} (dat : Dat τ (Elt F) Unit ℕ (UR sig nD τ) ℕ cfg5 c) (hA : dat.A 0 = V c (Pipeline.arrRef spec5 0))
    (hafter : ∀ t, dat.after 0 t = blk5 V c 0 t) (t : Fin cfg5.N) (d) : dat.before 0 t d = blk5 V c 0 t :=
  (dat.before_in_eq_fetched 0 rfl (fun _ => rfl) (fun _ _ _ => rfl) (fun t => by rw [hafter]; unfold Dat.blockOf blk5; rw [hA]; try rfl) t d).trans
    (by unfold Dat.fetched Dat.blockOf blk5; rw [hA]; try rfl)

/-- `W1` is in its buffer at every point although it is fetched only at the first: its block never moves. -/
theorem found5_1_of {c : Dev nD} (dat : Dat τ (Elt F) Unit ℕ (UR sig nD τ) ℕ cfg5 c) (hA : dat.A 1 = V c (Pipeline.arrRef spec5 1))
    (hafter : ∀ t, dat.after 1 t = blk5 V c 1 t) (t : Fin cfg5.N) (d) : dat.before 1 t d = blk5 V c 1 t :=
  (dat.before_in_eq_fetched 1 rfl (fun _ => rfl) (fun _ _ _ => rfl) (fun t => by rw [hafter]; unfold Dat.blockOf blk5; rw [hA]; try rfl) t d).trans
    (by unfold Dat.fetched Dat.blockOf blk5; rw [hA]; try rfl)

/-- The whole of each buffer, as a rectangle: what the body's loads and its one store address. -/
abbrev whole5_x : Rect S1024x64 := Rect.unit (s := S1024x64) ![0, 0] S1024x64.size inb_S1024x64_S1024x64_0_0
abbrev whole5_w : Rect S1024x64 := Rect.unit (s := S1024x64) ![0, 0] S1024x64.size inb_S1024x64_S1024x64_0_0
abbrev whole5_o : Rect S1024x1024 := Rect.unit (s := S1024x1024) ![0, 0] S1024x1024.size inb_S1024x1024_S1024x1024_0_0

/-- What the body leaves in the output's buffer: its one store, of the product of the two blocks. -/
def prod5 (x0 : Vec F S1024x64 .f32) (x1 : Vec F S1024x64 .f32) : Vec F S1024x1024 .f32 :=
  View.canon [⟨whole5_o, k5_pay1 (View.ld x0 whole5_x) (View.ld x1 whole5_w)⟩]

/-- That store covers the buffer. -/
theorem prod5_cover (p0 : Vec F S1024x1024 .f32) (y : S1024x1024.Idx) :
    ∃ pc ∈ ([⟨whole5_o, p0⟩] : List (View.Piece (Elt F) S1024x1024 .f32)), y ∈ pc.1.set :=
  View.cover_of_tiled [⟨whole5_o, p0⟩] S1024x1024.size (by rfl) y

set_option maxHeartbeats 1000000 in
/-- The body on whole buffers: the two inputs at `x0`, `x1` and the output at anything; it leaves the inputs as they
    were and the output at `prod5 x0 x1`. -/
theorem body5_triple (c : Dev nD) (E : Set ℕ) (i : grid5.Coords) (arg1 : Memref sig .tc .vmem S1024x64 .f32) (harg1 : arg1.IsWhole)
    (arg2 : Memref sig .tc .vmem S1024x64 .f32) (harg2 : arg2.IsWhole) (arg3 : Memref sig .tc .vmem S1024x1024 .f32) (harg3 : arg3.IsWhole)
    (x0 : Vec F S1024x64 .f32) (x1 : Vec F S1024x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (prod5 x0 x1)) -∗ K ⟨⟩))
      ⊢ wp frame (wpE (defs₀ (F := F)) Variants.none c none) E (cc5__inner_kernel i arg1 harg1 arg2 harg2 arg3 harg3) K := by
  simp only [cc5__inner_kernel_eq_skeleton]; unfold cc5__inner_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (prod5_cover _)

/-- The pipeline's proof data on core `c`: the arrays as found; after the body each input's buffer still at its block
    and the output's at the product; the invariant between points the untouched rest; the shared input array held half by each of
    its two windows; nothing owed. -/
def data5 (c : Dev nD) : Dat τ (Elt F) Unit ℕ (UR sig nD τ) ℕ cfg5 c where
  A w := V c (Pipeline.arrRef spec5 w)
  after w t := match w with
    | ⟨0, _⟩ => blk5 V c 0 t
    | ⟨1, _⟩ => blk5 V c 1 t
    | ⟨2, _⟩ => prod5 (blk5 V c 0 t) (blk5 V c 1 t)
  Φ _ := Pipeline.ΦA spec5 c
  q w := match w with
    | ⟨0, _⟩ => fullShare.left
    | ⟨1, _⟩ => fullShare.right
    | ⟨2, _⟩ => fullShare
  owed _ := 0

theorem data5_A (c : Dev nD) (w : Fin cfg5.W) : (data5 V c).A w = V c (Pipeline.arrRef spec5 w) := by
  dsimp only [data5]
theorem data5_after_0 (c : Dev nD) (t : Fin cfg5.N) : (data5 V c).after 0 t = blk5 V c 0 t := by dsimp only [data5]
theorem data5_after_1 (c : Dev nD) (t : Fin cfg5.N) : (data5 V c).after 1 t = blk5 V c 1 t := by dsimp only [data5]
theorem data5_after_2 (c : Dev nD) (t : Fin cfg5.N) : (data5 V c).after 2 t = prod5 (blk5 V c 0 t) (blk5 V c 1 t) := by dsimp only [data5]

theorem data5_before_0 (c : Dev nD) (t : Fin cfg5.N) (d) : (data5 V c).before 0 t d = blk5 V c 0 t :=
  found5_0_of V (data5 V c) (data5_A V c 0) (data5_after_0 V c) t d
theorem data5_before_1 (c : Dev nD) (t : Fin cfg5.N) (d) : (data5 V c).before 1 t d = blk5 V c 1 t :=
  found5_1_of V (data5 V c) (data5_A V c 1) (data5_after_1 V c) t d

/-- What the pipeline hands the body at point `t`, window by window, -/
def handed5 (c : Dev nD) (t : Fin cfg5.N) : sProp 𝕄 :=
  iprop((data5 V c).Φ t.castSucc ∗ (data5 V c).owesAt () t.castSucc
    ∗ (∃ d, owns (c : Thread nD τ) (st5_0 t) fullShare ((data5 V c).before 0 t d))
    ∗ (∃ d, owns (c : Thread nD τ) (st5_1 t) fullShare ((data5 V c).before 1 t d))
    ∗ (∃ d, owns (c : Thread nD τ) (st5_2 t) fullShare ((data5 V c).before 2 t d)))

/-- and what the body hands back. -/
def returned5 (c : Dev nD) (t : Fin cfg5.N) : sProp 𝕄 :=
  iprop((data5 V c).Φ t.succ ∗ (data5 V c).owesAt () t.succ
    ∗ owns (c : Thread nD τ) (st5_0 t) fullShare ((data5 V c).after 0 t)
    ∗ owns (c : Thread nD τ) (st5_1 t) fullShare ((data5 V c).after 1 t)
    ∗ owns (c : Thread nD τ) (st5_2 t) fullShare ((data5 V c).after 2 t))

theorem body5_at (c : Dev nD) (t : Fin cfg5.N) :
    handed5 V c t ⊢ wp frame (wpE (defs₀ (F := F)) Variants.none c none) Set.univ (bodyAt5 t) (fun _ => returned5 V c t) := by
  unfold handed5 returned5 bodyAt5
  simp only [data5_before_0, data5_before_1]
  rw [show (data5 V c).Φ t.succ = (data5 V c).Φ t.castSucc from rfl,
    show (data5 V c).owesAt () t.succ = (data5 V c).owesAt () t.castSucc from rfl,
    data5_after_0, data5_after_1, data5_after_2]
  iintro ⟨HΦ, Ho, ⟨%d0, H0⟩, ⟨%d1, H1⟩, ⟨%d2, H2⟩⟩
  iapply (body5_triple c Set.univ _ _ _ _ _ _ _ (blk5 V c 0 t) (blk5 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's obligation on the body, at every point. -/
theorem body5_obligation (c : Dev nD) : BodyObligation (data5 (F := F) V c) (defs₀ (F := F)) Variants.none () Set.univ := fun t => by
  rw [bigSep_W5, bigSep_W5]
  exact body5_at V c t

end Cert.KernelIdeal.Calls

end
-- ==== Proof.KernelIdeal.Call6.lean ====
/- The seventh pallas_call of the program: the last affine map, one row block of `z · dense1_W + dense1_b` per grid point (eight points; the 64 × 6 weights and the 1 × 6 bias row fetched once). At any entry contents `V` of the core's buffers and for both readings of the floats: what the body leaves in the output's buffer as a function of the three input blocks, the body's triple, and the pipeline's proof data with its obligation at every point. -/
import proofs.«137898_j56616258896068_1_alg».proof.Proof.Gen.KernelIdeal.Launch
import proofs.«137898_j56616258896068_1_alg».proof.Proof.Gen.KernelIdeal.Skeleton
import proofs.«137898_j56616258896068_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Calls

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window `w`'s array that point `t` works on, as the call finds the array. -/
def blk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- The rows of the features are in their buffer when the body runs, whichever proof data say the body leaves them there. -/
theorem found6_0_of {c : Dev nD} (dat : Dat τ (Elt F) Unit ℕ (UR sig nD τ) ℕ cfg6 c) (hA : dat.A 0 = V c (Pipeline.arrRef spec6 0))
    (hafter : ∀ t, dat.after 0 t = blk6 V c 0 t) (t : Fin cfg6.N) (d) : dat.before 0 t d = blk6 V c 0 t :=
  (dat.before_in_eq_fetched 0 rfl (fun _ => rfl) (fun _ _ _ => rfl) (fun t => by rw [hafter]; unfold Dat.blockOf blk6; rw [hA]; try rfl) t d).trans
    (by unfold Dat.fetched Dat.blockOf blk6; rw [hA]; try rfl)

/-- The weights are in their buffer at every point although fetched only at the first: their block never moves. -/
theorem found6_1_of {c : Dev nD} (dat : Dat τ (Elt F) Unit ℕ (UR sig nD τ) ℕ cfg6 c) (hA : dat.A 1 = V c (Pipeline.arrRef spec6 1))
    (hafter : ∀ t, dat.after 1 t = blk6 V c 1 t) (t : Fin cfg6.N) (d) : dat.before 1 t d = blk6 V c 1 t :=
  (dat.before_in_eq_fetched 1 rfl (fun _ => rfl) (fun _ _ _ => rfl) (fun t => by rw [hafter]; unfold Dat.blockOf blk6; rw [hA]; try rfl) t d).trans
    (by unfold Dat.fetched Dat.blockOf blk6; rw [hA]; try rfl)

/-- So is the bias row. -/
theorem found6_2_of {c : Dev nD} (dat : Dat τ (Elt F) Unit ℕ (UR sig nD τ) ℕ cfg6 c) (hA : dat.A 2 = V c (Pipeline.arrRef spec6 2))
    (hafter : ∀ t, dat.after 2 t = blk6 V c 2 t) (t : Fin cfg6.N) (d) : dat.before 2 t d = blk6 V c 2 t :=
  (dat.before_in_eq_fetched 2 rfl (fun _ => rfl) (fun _ _ _ => rfl) (fun t => by rw [hafter]; unfold Dat.blockOf blk6; rw [hA]; try rfl) t d).trans
    (by unfold Dat.fetched Dat.blockOf blk6; rw [hA]; try rfl)

/-- The whole of each buffer, as a rectangle: what the body's loads and its one store address. -/
abbrev whole6_x : Rect S1024x64 := Rect.unit (s := S1024x64) ![0, 0] S1024x64.size inb_S1024x64_S1024x64_0_0
abbrev whole6_w : Rect S64x6 := Rect.unit (s := S64x6) ![0, 0] S64x6.size inb_S64x6_S64x6_0_0
abbrev whole6_b : Rect S1x6 := Rect.unit (s := S1x6) ![0, 0] S1x6.size inb_S1x6_S1x6_0_0
abbrev whole6_o : Rect S1024x6 := Rect.unit (s := S1024x6) ![0, 0] S1024x6.size inb_S1024x6_S1024x6_0_0

/-- What the body leaves in the output's buffer: its one store, of the product of the two blocks plus the bias row. -/
def affine6 (x0 : Vec F S1024x64 .f32) (x1 : Vec F S64x6 .f32) (x2 : Vec F S1x6 .f32) : Vec F S1024x6 .f32 :=
  View.canon [⟨whole6_o, k6_pay1 (View.ld x0 whole6_x) (View.ld x1 whole6_w) (View.ld x2 whole6_b)⟩]

/-- That store covers the buffer. -/
theorem affine6_cover (p0 : Vec F S1024x6 .f32) (y : S1024x6.Idx) :
    ∃ pc ∈ ([⟨whole6_o, p0⟩] : List (View.Piece (Elt F) S1024x6 .f32)), y ∈ pc.1.set :=
  View.cover_of_tiled [⟨whole6_o, p0⟩] S1024x6.size (by rfl) y

set_option maxHeartbeats 1000000 in
/-- The body on whole buffers: the three inputs at `x0`, `x1`, `x2` and the output at anything; it leaves the inputs as
    they were and the output at `affine6 x0 x1 x2`. -/
theorem body6_triple (c : Dev nD) (E : Set ℕ) (i : grid6.Coords) (arg1 : Memref sig .tc .vmem S1024x64 .f32) (harg1 : arg1.IsWhole)
    (arg2 : Memref sig .tc .vmem S64x6 .f32) (harg2 : arg2.IsWhole) (arg3 : Memref sig .tc .vmem S1x6 .f32) (harg3 : arg3.IsWhole)
    (arg4 : Memref sig .tc .vmem S1024x6 .f32) (harg4 : arg4.IsWhole)
    (x0 : Vec F S1024x64 .f32) (x1 : Vec F S64x6 .f32) (x2 : Vec F S1x6 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (affine6 x0 x1 x2)) -∗ K ⟨⟩))
      ⊢ wp frame (wpE (defs₀ (F := F)) Variants.none c none) E (cc6__mm_bias_kernel i arg1 harg1 arg2 harg2 arg3 harg3 arg4 harg4) K := by
  simp only [cc6__mm_bias_kernel_eq_skeleton]; unfold cc6__mm_bias_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (affine6_cover _)

/-- The pipeline's proof data on core `c`: the arrays as found; after the body each input's buffer still at its block
    and the output's at the affine image; the invariant between points the untouched rest; full shares; nothing owed. -/
def data6 (c : Dev nD) : Dat τ (Elt F) Unit ℕ (UR sig nD τ) ℕ cfg6 c where
  A w := V c (Pipeline.arrRef spec6 w)
  after w t := match w with
    | ⟨0, _⟩ => blk6 V c 0 t
    | ⟨1, _⟩ => blk6 V c 1 t
    | ⟨2, _⟩ => blk6 V c 2 t
    | ⟨3, _⟩ => affine6 (blk6 V c 0 t) (blk6 V c 1 t) (blk6 V c 2 t)
  Φ _ := Pipeline.ΦA spec6 c
  q _ := fullShare
  owed _ := 0

theorem data6_A (c : Dev nD) (w : Fin cfg6.W) : (data6 V c).A w = V c (Pipeline.arrRef spec6 w) := by
  dsimp only [data6]
theorem data6_after_0 (c : Dev nD) (t : Fin cfg6.N) : (data6 V c).after 0 t = blk6 V c 0 t := by dsimp only [data6]
theorem data6_after_1 (c : Dev nD) (t : Fin cfg6.N) : (data6 V c).after 1 t = blk6 V c 1 t := by dsimp only [data6]
theorem data6_after_2 (c : Dev nD) (t : Fin cfg6.N) : (data6 V c).after 2 t = blk6 V c 2 t := by dsimp only [data6]
theorem data6_after_3 (c : Dev nD) (t : Fin cfg6.N) :
    (data6 V c).after 3 t = affine6 (blk6 V c 0 t) (blk6 V c 1 t) (blk6 V c 2 t) := by dsimp only [data6]

theorem data6_before_0 (c : Dev nD) (t : Fin cfg6.N) (d) : (data6 V c).before 0 t d = blk6 V c 0 t :=
  found6_0_of V (data6 V c) (data6_A V c 0) (data6_after_0 V c) t d
theorem data6_before_1 (c : Dev nD) (t : Fin cfg6.N) (d) : (data6 V c).before 1 t d = blk6 V c 1 t :=
  found6_1_of V (data6 V c) (data6_A V c 1) (data6_after_1 V c) t d
theorem data6_before_2 (c : Dev nD) (t : Fin cfg6.N) (d) : (data6 V c).before 2 t d = blk6 V c 2 t :=
  found6_2_of V (data6 V c) (data6_A V c 2) (data6_after_2 V c) t d

/-- What the pipeline hands the body at point `t`, window by window, -/
def handed6 (c : Dev nD) (t : Fin cfg6.N) : sProp 𝕄 :=
  iprop((data6 V c).Φ t.castSucc ∗ (data6 V c).owesAt () t.castSucc
    ∗ (∃ d, owns (c : Thread nD τ) (st6_0 t) fullShare ((data6 V c).before 0 t d))
    ∗ (∃ d, owns (c : Thread nD τ) (st6_1 t) fullShare ((data6 V c).before 1 t d))
    ∗ (∃ d, owns (c : Thread nD τ) (st6_2 t) fullShare ((data6 V c).before 2 t d))
    ∗ (∃ d, owns (c : Thread nD τ) (st6_3 t) fullShare ((data6 V c).before 3 t d)))

/-- and what the body hands back. -/
def returned6 (c : Dev nD) (t : Fin cfg6.N) : sProp 𝕄 :=
  iprop((data6 V c).Φ t.succ ∗ (data6 V c).owesAt () t.succ
    ∗ owns (c : Thread nD τ) (st6_0 t) fullShare ((data6 V c).after 0 t)
    ∗ owns (c : Thread nD τ) (st6_1 t) fullShare ((data6 V c).after 1 t)
    ∗ owns (c : Thread nD τ) (st6_2 t) fullShare ((data6 V c).after 2 t)
    ∗ owns (c : Thread nD τ) (st6_3 t) fullShare ((data6 V c).after 3 t))

theorem body6_at (c : Dev nD) (t : Fin cfg6.N) :
    handed6 V c t ⊢ wp frame (wpE (defs₀ (F := F)) Variants.none c none) Set.univ (bodyAt6 t) (fun _ => returned6 V c t) := by
  unfold handed6 returned6 bodyAt6
  simp only [data6_before_0, data6_before_1, data6_before_2]
  rw [show (data6 V c).Φ t.succ = (data6 V c).Φ t.castSucc from rfl,
    show (data6 V c).owesAt () t.succ = (data6 V c).owesAt () t.castSucc from rfl,
    data6_after_0, data6_after_1, data6_after_2, data6_after_3]
  iintro ⟨HΦ, Ho, ⟨%d0, H0⟩, ⟨%d1, H1⟩, ⟨%d2, H2⟩, ⟨%d3, H3⟩⟩
  iapply (body6_triple c Set.univ _ _ _ _ _ _ _ _ _ (blk6 V c 0 t) (blk6 V c 1 t) (blk6 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's obligation on the body, at every point. -/
theorem body6_obligation (c : Dev nD) : BodyObligation (data6 (F := F) V c) (defs₀ (F := F)) Variants.none () Set.univ := fun t => by
  rw [bigSep_W6, bigSep_W6]
  exact body6_at V c t

end Cert.KernelIdeal.Calls

end
-- ==== Proof.KernelIdeal.Chain.lean ====
/- The contents of the core's unscoped buffers between the items of @main, with the seven calls' results named.
   @main is: call 0, two stretches of host operations, calls 1 and 2, a stretch, call 3, a stretch, calls 4 and 5, a
   stretch, call 6. `C0` is the launch memory; a stretch of host operations changes the contents by its operations'
   pure functions; a call changes one array, its output, to what its eight (or sixty-four) write-backs leave there,
   `resK`. `left` packs those results as the family the generated conditional frame is stated over, and `between_K`
   identify the generated valuations at that family with the contents named here. `datas` is the proof-data
   family: every call's data at the contents the call is entered from. -/
import proofs.«137898_j56616258896068_1_alg».proof.Proof.KernelIdeal.Call0
import proofs.«137898_j56616258896068_1_alg».proof.Proof.KernelIdeal.Call1
import proofs.«137898_j56616258896068_1_alg».proof.Proof.KernelIdeal.Call2
import proofs.«137898_j56616258896068_1_alg».proof.Proof.KernelIdeal.Call3
import proofs.«137898_j56616258896068_1_alg».proof.Proof.KernelIdeal.Call4
import proofs.«137898_j56616258896068_1_alg».proof.Proof.KernelIdeal.Call5
import proofs.«137898_j56616258896068_1_alg».proof.Proof.KernelIdeal.Call6
import proofs.«137898_j56616258896068_1_alg».proof.Proof.Gen.KernelIdeal.Regions

noncomputable section

namespace Cert.KernelIdeal.Calls

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

variable (m : (ℓ : Loc nD τ sig) → Buf (Elt F) ℓ)

/-- A core's contents read at the TensorCore's references: the form the calls' proof data take. -/
abbrev atRefs (W : Dev nD → Valuation τ sig (Elt F)) : (c : Dev nD) → (b : Ref sig .tc) → Buf (Elt F) ((c : Thread nD τ).loc b) :=
  fun c b => W c b

/-- At launch. -/
def C0 (c : Dev nD) : Valuation τ sig (Elt F) := V0 m c
/-- What call 0 leaves in `main_v0`. -/
def res0 (c : Dev nD) : Buf (Elt F) ((c : Thread nD τ).loc main_v0) := (data0 (atRefs (C0 m)) c).arrAt 2 cfg0.N
/-- After call 0. -/
def C1 (c : Dev nD) : Valuation τ sig (Elt F) := Function.update (C0 m c) main_v0 (res0 m c)
/-- After the aggregation and the rectifier: calls 1 and 2 are entered from here. -/
def C3 (c : Dev nD) : Valuation τ sig (Elt F) := StableHlo.after hostOps1_1 (StableHlo.after hostOps1 (C1 m c))
/-- What call 1 leaves in `main_v15`. -/
def res1 (c : Dev nD) : Buf (Elt F) ((c : Thread nD τ).loc main_v15) := (data1 (atRefs (C3 m)) c).arrAt 2 cfg1.N
def C4 (c : Dev nD) : Valuation τ sig (Elt F) := Function.update (C3 m c) main_v15 (res1 m c)
/-- What call 2 leaves in `main_v16`. -/
def res2 (c : Dev nD) : Buf (Elt F) ((c : Thread nD τ).loc main_v16) := (data2 (atRefs (C4 m)) c).arrAt 2 cfg2.N
def C5 (c : Dev nD) : Valuation τ sig (Elt F) := Function.update (C4 m c) main_v16 (res2 m c)
/-- After the two aggregations and the bias row's reshape: call 3 is entered from here. -/
def C6 (c : Dev nD) : Valuation τ sig (Elt F) := StableHlo.after hostOps3 (C5 m c)
/-- What call 3 leaves in `main_v44`. -/
def res3 (c : Dev nD) : Buf (Elt F) ((c : Thread nD τ).loc main_v44) := (data3 (atRefs (C6 m)) c).arrAt 3 cfg3.N
def C7 (c : Dev nD) : Valuation τ sig (Elt F) := Function.update (C6 m c) main_v44 (res3 m c)
def C8 (c : Dev nD) : Valuation τ sig (Elt F) := StableHlo.after hostOps4 (C7 m c)
/-- What call 4 leaves in `main_v46`. -/
def res4 (c : Dev nD) : Buf (Elt F) ((c : Thread nD τ).loc main_v46) := (data4 (atRefs (C8 m)) c).arrAt 3 cfg4.N
def C9 (c : Dev nD) : Valuation τ sig (Elt F) := Function.update (C8 m c) main_v46 (res4 m c)
/-- What call 5 leaves in `main_v47`. -/
def res5 (c : Dev nD) : Buf (Elt F) ((c : Thread nD τ).loc main_v47) := (data5 (atRefs (C9 m)) c).arrAt 2 cfg5.N
def C10 (c : Dev nD) : Valuation τ sig (Elt F) := Function.update (C9 m c) main_v47 (res5 m c)
def C11 (c : Dev nD) : Valuation τ sig (Elt F) := StableHlo.after hostOps6 (C10 m c)
/-- What call 6 leaves in `main_v49`. -/
def res6 (c : Dev nD) : Buf (Elt F) ((c : Thread nD τ).loc main_v49) := (data6 (atRefs (C11 m)) c).arrAt 3 cfg6.N
/-- At the return. -/
def C12 (c : Dev nD) : Valuation τ sig (Elt F) := Function.update (C11 m c) main_v49 (res6 m c)

/-- The calls' results as the family the conditional frame is stated over (it reads the family only at a call's
    output, after that call). -/
def left : Outs (F := F) := fun J r c =>
  match J with
  | 1 => Function.update (β := fun r' : Ref sig .tc => Buf (Elt F) ((c : Thread nD τ).loc r')) (fun r' => m ((c : Thread nD τ).loc r')) main_v0 (res0 m c) r
  | 4 => Function.update (β := fun r' : Ref sig .tc => Buf (Elt F) ((c : Thread nD τ).loc r')) (fun r' => m ((c : Thread nD τ).loc r')) main_v15 (res1 m c) r
  | 5 => Function.update (β := fun r' : Ref sig .tc => Buf (Elt F) ((c : Thread nD τ).loc r')) (fun r' => m ((c : Thread nD τ).loc r')) main_v16 (res2 m c) r
  | 7 => Function.update (β := fun r' : Ref sig .tc => Buf (Elt F) ((c : Thread nD τ).loc r')) (fun r' => m ((c : Thread nD τ).loc r')) main_v44 (res3 m c) r
  | 9 => Function.update (β := fun r' : Ref sig .tc => Buf (Elt F) ((c : Thread nD τ).loc r')) (fun r' => m ((c : Thread nD τ).loc r')) main_v46 (res4 m c) r
  | 10 => Function.update (β := fun r' : Ref sig .tc => Buf (Elt F) ((c : Thread nD τ).loc r')) (fun r' => m ((c : Thread nD τ).loc r')) main_v47 (res5 m c) r
  | 12 => Function.update (β := fun r' : Ref sig .tc => Buf (Elt F) ((c : Thread nD τ).loc r')) (fun r' => m ((c : Thread nD τ).loc r')) main_v49 (res6 m c) r
  | _ => m ((c : Thread nD τ).loc r)

theorem left_1 (c : Dev nD) : left m 1 main_v0 c = res0 m c := by unfold left; exact Function.update_self ..
theorem left_4 (c : Dev nD) : left m 4 main_v15 c = res1 m c := by unfold left; exact Function.update_self ..
theorem left_5 (c : Dev nD) : left m 5 main_v16 c = res2 m c := by unfold left; exact Function.update_self ..
theorem left_7 (c : Dev nD) : left m 7 main_v44 c = res3 m c := by unfold left; exact Function.update_self ..
theorem left_9 (c : Dev nD) : left m 9 main_v46 c = res4 m c := by unfold left; exact Function.update_self ..
theorem left_10 (c : Dev nD) : left m 10 main_v47 c = res5 m c := by unfold left; exact Function.update_self ..
theorem left_12 (c : Dev nD) : left m 12 main_v49 c = res6 m c := by unfold left; exact Function.update_self ..

/-- The generated valuations, at the family `left`, are the contents named above. -/
theorem between_0 (c : Dev nD) : V0 m c = C0 m c := rfl
theorem between_1 (c : Dev nD) : V1 m (left m) c = C1 m c := by
  show Function.update (V0 m c) main_v0 (left m 1 main_v0 c) = _; rw [left_1]; rfl
theorem between_3 (c : Dev nD) : V3 m (left m) c = C3 m c := by
  show StableHlo.after hostOps1_1 (StableHlo.after hostOps1 (V1 m (left m) c)) = _; rw [between_1]; rfl
theorem between_4 (c : Dev nD) : V4 m (left m) c = C4 m c := by
  show Function.update (V3 m (left m) c) main_v15 (left m 4 main_v15 c) = _; rw [left_4, between_3]; rfl
theorem between_5 (c : Dev nD) : V5 m (left m) c = C5 m c := by
  show Function.update (V4 m (left m) c) main_v16 (left m 5 main_v16 c) = _; rw [left_5, between_4]; rfl
theorem between_6 (c : Dev nD) : V6 m (left m) c = C6 m c := by
  show StableHlo.after hostOps3 (V5 m (left m) c) = _; rw [between_5]; rfl
theorem between_7 (c : Dev nD) : V7 m (left m) c = C7 m c := by
  show Function.update (V6 m (left m) c) main_v44 (left m 7 main_v44 c) = _; rw [left_7, between_6]; rfl
theorem between_8 (c : Dev nD) : V8 m (left m) c = C8 m c := by
  show StableHlo.after hostOps4 (V7 m (left m) c) = _; rw [between_7]; rfl
theorem between_9 (c : Dev nD) : V9 m (left m) c = C9 m c := by
  show Function.update (V8 m (left m) c) main_v46 (left m 9 main_v46 c) = _; rw [left_9, between_8]; rfl
theorem between_10 (c : Dev nD) : V10 m (left m) c = C10 m c := by
  show Function.update (V9 m (left m) c) main_v47 (left m 10 main_v47 c) = _; rw [left_10, between_9]; rfl
theorem between_11 (c : Dev nD) : V11 m (left m) c = C11 m c := by
  show StableHlo.after hostOps6 (V10 m (left m) c) = _; rw [between_10]; rfl
theorem between_12 (c : Dev nD) : V12 m (left m) c = C12 m c := by
  show Function.update (V11 m (left m) c) main_v49 (left m 12 main_v49 c) = _; rw [left_12, between_11]; rfl

/-- Every call's proof data, each at the contents the call is entered from: a literal match on the call's number. -/
def datas : (p : Fin 7) → (c : Dev nD) → Dat τ (Elt F) Unit ℕ (UR sig nD τ) ℕ (cfgs p) c
  | ⟨0, _⟩ => fun c => data0 (atRefs (C0 m)) c
  | ⟨1, _⟩ => fun c => data1 (atRefs (C3 m)) c
  | ⟨2, _⟩ => fun c => data2 (atRefs (C4 m)) c
  | ⟨3, _⟩ => fun c => data3 (atRefs (C6 m)) c
  | ⟨4, _⟩ => fun c => data4 (atRefs (C8 m)) c
  | ⟨5, _⟩ => fun c => data5 (atRefs (C9 m)) c
  | ⟨6, _⟩ => fun c => data6 (atRefs (C11 m)) c

/-! ## What rides beside the buffers through every item -/

/-- No variants, no level assigned: no core owes another anything in this program. -/
abbrev noVar : Variants := Variants.none
abbrev noPairs : GSem nD τ sig → Finset Unit := fun _ => ∅
abbrev noLevel : GSem nD τ sig → Unit → ℕ := fun _ _ => 0

/-- Beside the buffers, through every item: the core's generator register at some state (a call's invariant takes it in
    and gives it back) and the core owing nothing. -/
abbrev rides (c : Dev nD) : sProp (MT nD τ sig Unit (Elt F) ℕ (UR sig nD τ) ℕ) :=
  iprop((∃ r, prngReg c r) ∗ ∃ W, owes (c : Thread nD τ) (0 : CellTallies nD τ sig Unit) W)

/-- The thread state between items: every unscoped buffer at the contents `W c`, and what rides along. -/
abbrev at_ (W : Dev nD → Valuation τ sig (Elt F)) (c : Dev nD) : sProp (MT nD τ sig Unit (Elt F) ℕ (UR sig nD τ) ℕ) :=
  iprop(StableHlo.held (c : Thread nD τ) (Pipeline.ucRefs τ sig) (W c) ∗ rides c)

end Cert.KernelIdeal.Calls

end
-- ==== Proof.KernelIdeal.Region0.lean ====
/- Call 0 as an item of @main: entered with every unscoped buffer at the launch contents `C0`, left with them at
   `C1` (the same but for the call's output, now at `res0`). At entry the call's three arrays are taken out of the
   unscoped buffers and the rest bypasses the call; the generator register goes into the call's invariant and comes
   back; at exit the arrays go back among the unscoped buffers: the two inputs unchanged, the output at what the
   write-backs left. The call has no semaphore of its own and owes nothing. -/
import proofs.«137898_j56616258896068_1_alg».proof.Proof.KernelIdeal.Chain
import Idealize.ShloMosaic.Lib.Pipeline.Regions
import Idealize.ShloMosaic.Lib.Pipeline.RegionsLoop

noncomputable section

namespace Cert.KernelIdeal.Calls

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RegionSeg)

variable {F : FTy → Type} [FloatOps F]

local notation "𝕄" => MT nD τ sig Unit (Elt F) ℕ (UR sig nD τ) ℕ

variable (m : (ℓ : Loc nD τ sig) → Buf (Elt F) ℓ)

/-- Off the call's arrays nothing changes. -/
theorem exit0_rest (c : Dev nD) : ∀ b, b ∉ Finset.univ.image (Pipeline.arrRef spec0) → atRefs (C1 m) c b = atRefs (C0 m) c b := by
  intro b hb
  have hne : b ≠ main_v0 := fun e => hb (Finset.mem_image.mpr ⟨2, Finset.mem_univ _, e.symm⟩)
  show C1 m c (Proc.devRef .tc b) = C0 m c (Proc.devRef .tc b)
  unfold C1
  rw [Function.update_of_ne (StableHlo.devRef_ne_of_ne hne : (Proc.devRef .tc b : DevRef τ sig) ≠ Proc.devRef .tc main_v0)]

/-- At exit each of the call's arrays holds what the pipeline leaves there: the inputs what they held, the output its write-backs. -/
theorem exit0_array0 (c : Dev nD) : (datas m 0 c).arrAt 0 cfg0.N = atRefs (C1 m) c (Pipeline.arrRef spec0 0) := by
  refine ((data0 (atRefs (C0 m)) c).arrAt_in 0 rfl _).trans ?_
  show C0 m c (Proc.devRef .tc main_arg0) = C1 m c (Proc.devRef .tc main_arg0)
  unfold C1
  rw [Function.update_of_ne (StableHlo.devRef_ne_of_ne (by decide) : (Proc.devRef .tc main_arg0 : DevRef τ sig) ≠ Proc.devRef .tc main_v0)]
theorem exit0_array1 (c : Dev nD) : (datas m 0 c).arrAt 1 cfg0.N = atRefs (C1 m) c (Pipeline.arrRef spec0 1) := by
  refine ((data0 (atRefs (C0 m)) c).arrAt_in 1 rfl _).trans ?_
  show C0 m c (Proc.devRef .tc main_arg4) = C1 m c (Proc.devRef .tc main_arg4)
  unfold C1
  rw [Function.update_of_ne (StableHlo.devRef_ne_of_ne (by decide) : (Proc.devRef .tc main_arg4 : DevRef τ sig) ≠ Proc.devRef .tc main_v0)]
theorem exit0_array2 (c : Dev nD) : (datas m 0 c).arrAt 2 cfg0.N = atRefs (C1 m) c (Pipeline.arrRef spec0 2) := by
  show res0 m c = C1 m c (Proc.devRef .tc main_v0)
  unfold C1
  rw [Function.update_self]
theorem exit0_arrays (c : Dev nD) : ∀ w : Fin cfg0.W, (datas m 0 c).arrAt w cfg0.N = atRefs (C1 m) c (Pipeline.arrRef spec0 w) :=
  fun | 0 => exit0_array0 m c | 1 => exit0_array1 m c | 2 => exit0_array2 m c | ⟨_ + 3, h⟩ => absurd h (Nat.not_lt.2 (Nat.le_add_left _ _))

set_option backward.isDefEq.respectTransparency.types false in
/-- The call's record. -/
def region0 : RegionSeg (pcfgs (F := F)) adm (datas m) () defs₀ noVar noPairs noLevel 0 where
  win := launch0.win.to₀
  block_pos := launch0.block_pos
  stage_whole := launch0.stage_whole
  K := PEmpty
  osem k := k.elim
  ho := Pipeline.OwnSemFacts.none _
  hbody c := (body0_obligation (atRefs (C0 m)) c).loose
  hwaits := Pipeline.hwaits_of_owed_zero _ _ _ _ noPairs noLevel 0 fun _ _ => rfl
  pre c := at_ (C0 m) c
  post c := at_ (C1 m) c
  X c := iprop(∃ r, prngReg c r)
  Y c := iprop(∃ r, prngReg c r)
  Z c := Pipeline.unscopedRest (Ix := Unit) (Name := ℕ) (U := UR sig nD τ) (Lvl := ℕ) spec0 c (atRefs (C0 m) c)
  hentry c := by
    rw [Pipeline.ownSems0_none]
    have hsplit := Pipeline.arrays_of_unscopedBufs (p := 0) (pcfgs (F := F)) adm (datas m) launch0.win launch0.arr_whole c
      ((datas m 0 c).share_full fun _ => rfl) (atRefs (C0 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (datas m 0 c).Φ 0 = Pipeline.ΦA spec0 c from rfl]; unfold Pipeline.ΦA
    iintro ⟨Hp, -, Hr⟩
    isplitl [Hr]; · iexact Hr
    iexact Hp
  hout c := by
    rw [Pipeline.ownSems0_none, show (datas m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (datas m) ((datas m 0 c).share_full fun _ => rfl)
      (atRefs (C0 m) c) (atRefs (C1 m) c) ((datas m 0 c).arrAt · cfg0.N) (exit0_arrays m c) (exit0_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Calls

end
-- ==== Proof.KernelIdeal.Region1.lean ====
/- Call 1 as an item of @main: entered with every unscoped buffer at the contents `C3`, left with them at `C4` (the same but for the call's output `main_v15`, now at `res1`). At entry the call's arrays are taken out of the unscoped buffers and the rest bypasses the call; the generator register goes into the call's invariant and comes back; at exit the arrays go back among the unscoped buffers: the two inputs unchanged, the output at what the write-backs left. The call has no semaphore of its own and owes nothing. -/
import proofs.«137898_j56616258896068_1_alg».proof.Proof.KernelIdeal.Chain
import Idealize.ShloMosaic.Lib.Pipeline.Regions
import Idealize.ShloMosaic.Lib.Pipeline.RegionsLoop

noncomputable section

namespace Cert.KernelIdeal.Calls

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RegionSeg)

variable {F : FTy → Type} [FloatOps F]

local notation "𝕄" => MT nD τ sig Unit (Elt F) ℕ (UR sig nD τ) ℕ

variable (m : (ℓ : Loc nD τ sig) → Buf (Elt F) ℓ)

/-- Off the call's arrays nothing changes. -/
theorem exit1_rest (c : Dev nD) : ∀ b, b ∉ Finset.univ.image (Pipeline.arrRef spec1) → atRefs (C4 m) c b = atRefs (C3 m) c b := by
  intro b hb
  have hne : b ≠ main_v15 := fun e => hb (Finset.mem_image.mpr ⟨2, Finset.mem_univ _, e.symm⟩)
  show C4 m c (Proc.devRef .tc b) = C3 m c (Proc.devRef .tc b)
  unfold C4
  rw [Function.update_of_ne (StableHlo.devRef_ne_of_ne hne : (Proc.devRef .tc b : DevRef τ sig) ≠ Proc.devRef .tc main_v15)]

/-- At exit each of the call's arrays holds what the pipeline leaves there: the inputs what they held, the output its write-backs. -/
theorem exit1_array0 (c : Dev nD) : (datas m 1 c).arrAt 0 cfg1.N = atRefs (C4 m) c (Pipeline.arrRef spec1 0) := by
  refine ((data1 (atRefs (C3 m)) c).arrAt_in 0 rfl _).trans ?_
  show C3 m c (Proc.devRef .tc main_v14) = C4 m c (Proc.devRef .tc main_v14)
  unfold C4
  rw [Function.update_of_ne (StableHlo.devRef_ne_of_ne (by decide) : (Proc.devRef .tc main_v14 : DevRef τ sig) ≠ Proc.devRef .tc main_v15)]
theorem exit1_array1 (c : Dev nD) : (datas m 1 c).arrAt 1 cfg1.N = atRefs (C4 m) c (Pipeline.arrRef spec1 1) := by
  refine ((data1 (atRefs (C3 m)) c).arrAt_in 1 rfl _).trans ?_
  show C3 m c (Proc.devRef .tc main_arg5) = C4 m c (Proc.devRef .tc main_arg5)
  unfold C4
  rw [Function.update_of_ne (StableHlo.devRef_ne_of_ne (by decide) : (Proc.devRef .tc main_arg5 : DevRef τ sig) ≠ Proc.devRef .tc main_v15)]
theorem exit1_array2 (c : Dev nD) : (datas m 1 c).arrAt 2 cfg1.N = atRefs (C4 m) c (Pipeline.arrRef spec1 2) := by
  show res1 m c = C4 m c (Proc.devRef .tc main_v15)
  unfold C4
  rw [Function.update_self]
theorem exit1_arrays (c : Dev nD) : ∀ w : Fin cfg1.W, (datas m 1 c).arrAt w cfg1.N = atRefs (C4 m) c (Pipeline.arrRef spec1 w) :=
  fun | 0 => exit1_array0 m c | 1 => exit1_array1 m c | 2 => exit1_array2 m c | ⟨_ + 3, h⟩ => absurd h (Nat.not_lt.2 (Nat.le_add_left _ _))

set_option backward.isDefEq.respectTransparency.types false in
/-- The call's record. -/
def region1 : RegionSeg (pcfgs (F := F)) adm (datas m) () defs₀ noVar noPairs noLevel 1 where
  win := launch1.win.to₀
  block_pos := launch1.block_pos
  stage_whole := launch1.stage_whole
  K := PEmpty
  osem k := k.elim
  ho := Pipeline.OwnSemFacts.none _
  hbody c := (body1_obligation (atRefs (C3 m)) c).loose
  hwaits := Pipeline.hwaits_of_owed_zero _ _ _ _ noPairs noLevel 1 fun _ _ => rfl
  pre c := at_ (C3 m) c
  post c := at_ (C4 m) c
  X c := iprop(∃ r, prngReg c r)
  Y c := iprop(∃ r, prngReg c r)
  Z c := Pipeline.unscopedRest (Ix := Unit) (Name := ℕ) (U := UR sig nD τ) (Lvl := ℕ) spec1 c (atRefs (C3 m) c)
  hentry c := by
    rw [Pipeline.ownSems0_none]
    have hsplit := Pipeline.arrays_of_unscopedBufs (p := 1) (pcfgs (F := F)) adm (datas m) launch1.win launch1.arr_whole c
      ((datas m 1 c).share_full fun _ => rfl) (atRefs (C3 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (datas m 1 c).Φ 0 = Pipeline.ΦA spec1 c from rfl]; unfold Pipeline.ΦA
    iintro ⟨Hp, -, Hr⟩
    isplitl [Hr]; · iexact Hr
    iexact Hp
  hout c := by
    rw [Pipeline.ownSems0_none, show (datas m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (datas m) ((datas m 1 c).share_full fun _ => rfl)
      (atRefs (C3 m) c) (atRefs (C4 m) c) ((datas m 1 c).arrAt · cfg1.N) (exit1_arrays m c) (exit1_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Calls

end
-- ==== Proof.KernelIdeal.Region2.lean ====
/- Call 2 as an item of @main: entered with every unscoped buffer at the contents `C4`, left with them at `C5` (the same but for the call's output `main_v16`, now at `res2`). At entry the call's arrays are taken out of the unscoped buffers and the rest bypasses the call; the generator register goes into the call's invariant and comes back; at exit the arrays go back among the unscoped buffers: the two inputs unchanged, the output at what the write-backs left. The call has no semaphore of its own and owes nothing. -/
import proofs.«137898_j56616258896068_1_alg».proof.Proof.KernelIdeal.Chain
import Idealize.ShloMosaic.Lib.Pipeline.Regions
import Idealize.ShloMosaic.Lib.Pipeline.RegionsLoop

noncomputable section

namespace Cert.KernelIdeal.Calls

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RegionSeg)

variable {F : FTy → Type} [FloatOps F]

local notation "𝕄" => MT nD τ sig Unit (Elt F) ℕ (UR sig nD τ) ℕ

variable (m : (ℓ : Loc nD τ sig) → Buf (Elt F) ℓ)

/-- Off the call's arrays nothing changes. -/
theorem exit2_rest (c : Dev nD) : ∀ b, b ∉ Finset.univ.image (Pipeline.arrRef spec2) → atRefs (C5 m) c b = atRefs (C4 m) c b := by
  intro b hb
  have hne : b ≠ main_v16 := fun e => hb (Finset.mem_image.mpr ⟨2, Finset.mem_univ _, e.symm⟩)
  show C5 m c (Proc.devRef .tc b) = C4 m c (Proc.devRef .tc b)
  unfold C5
  rw [Function.update_of_ne (StableHlo.devRef_ne_of_ne hne : (Proc.devRef .tc b : DevRef τ sig) ≠ Proc.devRef .tc main_v16)]

/-- At exit each of the call's arrays holds what the pipeline leaves there: the inputs what they held, the output its write-backs. -/
theorem exit2_array0 (c : Dev nD) : (datas m 2 c).arrAt 0 cfg2.N = atRefs (C5 m) c (Pipeline.arrRef spec2 0) := by
  refine ((data2 (atRefs (C4 m)) c).arrAt_in 0 rfl _).trans ?_
  show C4 m c (Proc.devRef .tc main_v14) = C5 m c (Proc.devRef .tc main_v14)
  unfold C5
  rw [Function.update_of_ne (StableHlo.devRef_ne_of_ne (by decide) : (Proc.devRef .tc main_v14 : DevRef τ sig) ≠ Proc.devRef .tc main_v16)]
theorem exit2_array1 (c : Dev nD) : (datas m 2 c).arrAt 1 cfg2.N = atRefs (C5 m) c (Pipeline.arrRef spec2 1) := by
  refine ((data2 (atRefs (C4 m)) c).arrAt_in 1 rfl _).trans ?_
  show C4 m c (Proc.devRef .tc main_arg6) = C5 m c (Proc.devRef .tc main_arg6)
  unfold C5
  rw [Function.update_of_ne (StableHlo.devRef_ne_of_ne (by decide) : (Proc.devRef .tc main_arg6 : DevRef τ sig) ≠ Proc.devRef .tc main_v16)]
theorem exit2_array2 (c : Dev nD) : (datas m 2 c).arrAt 2 cfg2.N = atRefs (C5 m) c (Pipeline.arrRef spec2 2) := by
  show res2 m c = C5 m c (Proc.devRef .tc main_v16)
  unfold C5
  rw [Function.update_self]
theorem exit2_arrays (c : Dev nD) : ∀ w : Fin cfg2.W, (datas m 2 c).arrAt w cfg2.N = atRefs (C5 m) c (Pipeline.arrRef spec2 w) :=
  fun | 0 => exit2_array0 m c | 1 => exit2_array1 m c | 2 => exit2_array2 m c | ⟨_ + 3, h⟩ => absurd h (Nat.not_lt.2 (Nat.le_add_left _ _))

set_option backward.isDefEq.respectTransparency.types false in
/-- The call's record. -/
def region2 : RegionSeg (pcfgs (F := F)) adm (datas m) () defs₀ noVar noPairs noLevel 2 where
  win := launch2.win.to₀
  block_pos := launch2.block_pos
  stage_whole := launch2.stage_whole
  K := PEmpty
  osem k := k.elim
  ho := Pipeline.OwnSemFacts.none _
  hbody c := (body2_obligation (atRefs (C4 m)) c).loose
  hwaits := Pipeline.hwaits_of_owed_zero _ _ _ _ noPairs noLevel 2 fun _ _ => rfl
  pre c := at_ (C4 m) c
  post c := at_ (C5 m) c
  X c := iprop(∃ r, prngReg c r)
  Y c := iprop(∃ r, prngReg c r)
  Z c := Pipeline.unscopedRest (Ix := Unit) (Name := ℕ) (U := UR sig nD τ) (Lvl := ℕ) spec2 c (atRefs (C4 m) c)
  hentry c := by
    rw [Pipeline.ownSems0_none]
    have hsplit := Pipeline.arrays_of_unscopedBufs (p := 2) (pcfgs (F := F)) adm (datas m) launch2.win launch2.arr_whole c
      ((datas m 2 c).share_full fun _ => rfl) (atRefs (C4 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (datas m 2 c).Φ 0 = Pipeline.ΦA spec2 c from rfl]; unfold Pipeline.ΦA
    iintro ⟨Hp, -, Hr⟩
    isplitl [Hr]; · iexact Hr
    iexact Hp
  hout c := by
    rw [Pipeline.ownSems0_none, show (datas m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (datas m) ((datas m 2 c).share_full fun _ => rfl)
      (atRefs (C4 m) c) (atRefs (C5 m) c) ((datas m 2 c).arrAt · cfg2.N) (exit2_arrays m c) (exit2_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Calls

end
-- ==== Proof.KernelIdeal.Region3.lean ====
/- Call 3 as an item of @main: entered with every unscoped buffer at the contents `C6`, left with them at `C7` (the same
   but for the call's output `main_v44`, now at `res3`). At entry the call's four arrays — the aggregated features, the
   weights, the bias row, the output — are taken out of the unscoped buffers and the rest bypasses the call; the
   generator register goes into the call's invariant and comes back; at exit the arrays go back among the unscoped
   buffers: the three inputs unchanged, the output at what the write-backs left. The call has no semaphore of its own
   and owes nothing. -/
import proofs.«137898_j56616258896068_1_alg».proof.Proof.KernelIdeal.Chain
import Idealize.ShloMosaic.Lib.Pipeline.Regions
import Idealize.ShloMosaic.Lib.Pipeline.RegionsLoop

noncomputable section

namespace Cert.KernelIdeal.Calls

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RegionSeg)

variable {F : FTy → Type} [FloatOps F]

local notation "𝕄" => MT nD τ sig Unit (Elt F) ℕ (UR sig nD τ) ℕ

variable (m : (ℓ : Loc nD τ sig) → Buf (Elt F) ℓ)

/-- Off the call's arrays nothing changes. -/
theorem exit3_rest (c : Dev nD) : ∀ b, b ∉ Finset.univ.image (Pipeline.arrRef spec3) → atRefs (C7 m) c b = atRefs (C6 m) c b := by
  intro b hb
  have hne : b ≠ main_v44 := fun e => hb (Finset.mem_image.mpr ⟨3, Finset.mem_univ _, e.symm⟩)
  show C7 m c (Proc.devRef .tc b) = C6 m c (Proc.devRef .tc b)
  unfold C7
  rw [Function.update_of_ne (StableHlo.devRef_ne_of_ne hne : (Proc.devRef .tc b : DevRef τ sig) ≠ Proc.devRef .tc main_v44)]

/-- At exit each of the call's arrays holds what the pipeline leaves there: the inputs what they held, the output its write-backs. -/
theorem exit3_array0 (c : Dev nD) : (datas m 3 c).arrAt 0 cfg3.N = atRefs (C7 m) c (Pipeline.arrRef spec3 0) := by
  refine ((data3 (atRefs (C6 m)) c).arrAt_in 0 rfl _).trans ?_
  show C6 m c (Proc.devRef .tc main_v29) = C7 m c (Proc.devRef .tc main_v29)
  unfold C7
  rw [Function.update_of_ne (StableHlo.devRef_ne_of_ne (by decide) : (Proc.devRef .tc main_v29 : DevRef τ sig) ≠ Proc.devRef .tc main_v44)]
theorem exit3_array1 (c : Dev nD) : (datas m 3 c).arrAt 1 cfg3.N = atRefs (C7 m) c (Pipeline.arrRef spec3 1) := by
  refine ((data3 (atRefs (C6 m)) c).arrAt_in 1 rfl _).trans ?_
  show C6 m c (Proc.devRef .tc main_arg7) = C7 m c (Proc.devRef .tc main_arg7)
  unfold C7
  rw [Function.update_of_ne (StableHlo.devRef_ne_of_ne (by decide) : (Proc.devRef .tc main_arg7 : DevRef τ sig) ≠ Proc.devRef .tc main_v44)]
theorem exit3_array2 (c : Dev nD) : (datas m 3 c).arrAt 2 cfg3.N = atRefs (C7 m) c (Pipeline.arrRef spec3 2) := by
  refine ((data3 (atRefs (C6 m)) c).arrAt_in 2 rfl _).trans ?_
  show C6 m c (Proc.devRef .tc main_v43) = C7 m c (Proc.devRef .tc main_v43)
  unfold C7
  rw [Function.update_of_ne (StableHlo.devRef_ne_of_ne (by decide) : (Proc.devRef .tc main_v43 : DevRef τ sig) ≠ Proc.devRef .tc main_v44)]
theorem exit3_array3 (c : Dev nD) : (datas m 3 c).arrAt 3 cfg3.N = atRefs (C7 m) c (Pipeline.arrRef spec3 3) := by
  show res3 m c = C7 m c (Proc.devRef .tc main_v44)
  unfold C7
  rw [Function.update_self]
theorem exit3_arrays (c : Dev nD) : ∀ w : Fin cfg3.W, (datas m 3 c).arrAt w cfg3.N = atRefs (C7 m) c (Pipeline.arrRef spec3 w) :=
  fun | 0 => exit3_array0 m c | 1 => exit3_array1 m c | 2 => exit3_array2 m c | 3 => exit3_array3 m c | ⟨_ + 4, h⟩ => absurd h (Nat.not_lt.2 (Nat.le_add_left _ _))

set_option backward.isDefEq.respectTransparency.types false in
/-- The call's record. -/
def region3 : RegionSeg (pcfgs (F := F)) adm (datas m) () defs₀ noVar noPairs noLevel 3 where
  win := launch3.win.to₀
  block_pos := launch3.block_pos
  stage_whole := launch3.stage_whole
  K := PEmpty
  osem k := k.elim
  ho := Pipeline.OwnSemFacts.none _
  hbody c := (body3_obligation (atRefs (C6 m)) c).loose
  hwaits := Pipeline.hwaits_of_owed_zero _ _ _ _ noPairs noLevel 3 fun _ _ => rfl
  pre c := at_ (C6 m) c
  post c := at_ (C7 m) c
  X c := iprop(∃ r, prngReg c r)
  Y c := iprop(∃ r, prngReg c r)
  Z c := Pipeline.unscopedRest (Ix := Unit) (Name := ℕ) (U := UR sig nD τ) (Lvl := ℕ) spec3 c (atRefs (C6 m) c)
  hentry c := by
    rw [Pipeline.ownSems0_none]
    have hsplit := Pipeline.arrays_of_unscopedBufs (p := 3) (pcfgs (F := F)) adm (datas m) launch3.win launch3.arr_whole c
      ((datas m 3 c).share_full fun _ => rfl) (atRefs (C6 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (datas m 3 c).Φ 0 = Pipeline.ΦA spec3 c from rfl]; unfold Pipeline.ΦA
    iintro ⟨Hp, -, Hr⟩
    isplitl [Hr]; · iexact Hr
    iexact Hp
  hout c := by
    rw [Pipeline.ownSems0_none, show (datas m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (datas m) ((datas m 3 c).share_full fun _ => rfl)
      (atRefs (C6 m) c) (atRefs (C7 m) c) ((datas m 3 c).arrAt · cfg3.N) (exit3_arrays m c) (exit3_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Calls

end
-- ==== Proof.KernelIdeal.Region4.lean ====
/- Call 4 as an item of @main: entered with every unscoped buffer at the contents `C8`, left with them at `C9` (the same but for the call's output `main_v46`, now at `res4`). At entry the call's arrays are taken out of the unscoped buffers and the rest bypasses the call; the generator register goes into the call's invariant and comes back; at exit the arrays go back among the unscoped buffers: the three inputs unchanged, the output at what the write-backs left. The call has no semaphore of its own and owes nothing. -/
import proofs.«137898_j56616258896068_1_alg».proof.Proof.KernelIdeal.Chain
import Idealize.ShloMosaic.Lib.Pipeline.Regions
import Idealize.ShloMosaic.Lib.Pipeline.RegionsLoop

noncomputable section

namespace Cert.KernelIdeal.Calls

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RegionSeg)

variable {F : FTy → Type} [FloatOps F]

local notation "𝕄" => MT nD τ sig Unit (Elt F) ℕ (UR sig nD τ) ℕ

variable (m : (ℓ : Loc nD τ sig) → Buf (Elt F) ℓ)

/-- Off the call's arrays nothing changes. -/
theorem exit4_rest (c : Dev nD) : ∀ b, b ∉ Finset.univ.image (Pipeline.arrRef spec4) → atRefs (C9 m) c b = atRefs (C8 m) c b := by
  intro b hb
  have hne : b ≠ main_v46 := fun e => hb (Finset.mem_image.mpr ⟨3, Finset.mem_univ _, e.symm⟩)
  show C9 m c (Proc.devRef .tc b) = C8 m c (Proc.devRef .tc b)
  unfold C9
  rw [Function.update_of_ne (StableHlo.devRef_ne_of_ne hne : (Proc.devRef .tc b : DevRef τ sig) ≠ Proc.devRef .tc main_v46)]

/-- At exit each of the call's arrays holds what the pipeline leaves there: the inputs what they held, the output its write-backs. -/
theorem exit4_array0 (c : Dev nD) : (datas m 4 c).arrAt 0 cfg4.N = atRefs (C9 m) c (Pipeline.arrRef spec4 0) := by
  refine ((data4 (atRefs (C8 m)) c).arrAt_in 0 rfl _).trans ?_
  show C8 m c (Proc.devRef .tc main_v42) = C9 m c (Proc.devRef .tc main_v42)
  unfold C9
  rw [Function.update_of_ne (StableHlo.devRef_ne_of_ne (by decide) : (Proc.devRef .tc main_v42 : DevRef τ sig) ≠ Proc.devRef .tc main_v46)]
theorem exit4_array1 (c : Dev nD) : (datas m 4 c).arrAt 1 cfg4.N = atRefs (C9 m) c (Pipeline.arrRef spec4 1) := by
  refine ((data4 (atRefs (C8 m)) c).arrAt_in 1 rfl _).trans ?_
  show C8 m c (Proc.devRef .tc main_arg7) = C9 m c (Proc.devRef .tc main_arg7)
  unfold C9
  rw [Function.update_of_ne (StableHlo.devRef_ne_of_ne (by decide) : (Proc.devRef .tc main_arg7 : DevRef τ sig) ≠ Proc.devRef .tc main_v46)]
theorem exit4_array2 (c : Dev nD) : (datas m 4 c).arrAt 2 cfg4.N = atRefs (C9 m) c (Pipeline.arrRef spec4 2) := by
  refine ((data4 (atRefs (C8 m)) c).arrAt_in 2 rfl _).trans ?_
  show C8 m c (Proc.devRef .tc main_v45) = C9 m c (Proc.devRef .tc main_v45)
  unfold C9
  rw [Function.update_of_ne (StableHlo.devRef_ne_of_ne (by decide) : (Proc.devRef .tc main_v45 : DevRef τ sig) ≠ Proc.devRef .tc main_v46)]
theorem exit4_array3 (c : Dev nD) : (datas m 4 c).arrAt 3 cfg4.N = atRefs (C9 m) c (Pipeline.arrRef spec4 3) := by
  show res4 m c = C9 m c (Proc.devRef .tc main_v46)
  unfold C9
  rw [Function.update_self]
theorem exit4_arrays (c : Dev nD) : ∀ w : Fin cfg4.W, (datas m 4 c).arrAt w cfg4.N = atRefs (C9 m) c (Pipeline.arrRef spec4 w) :=
  fun | 0 => exit4_array0 m c | 1 => exit4_array1 m c | 2 => exit4_array2 m c | 3 => exit4_array3 m c | ⟨_ + 4, h⟩ => absurd h (Nat.not_lt.2 (Nat.le_add_left _ _))

set_option backward.isDefEq.respectTransparency.types false in
/-- The call's record. -/
def region4 : RegionSeg (pcfgs (F := F)) adm (datas m) () defs₀ noVar noPairs noLevel 4 where
  win := launch4.win.to₀
  block_pos := launch4.block_pos
  stage_whole := launch4.stage_whole
  K := PEmpty
  osem k := k.elim
  ho := Pipeline.OwnSemFacts.none _
  hbody c := (body4_obligation (atRefs (C8 m)) c).loose
  hwaits := Pipeline.hwaits_of_owed_zero _ _ _ _ noPairs noLevel 4 fun _ _ => rfl
  pre c := at_ (C8 m) c
  post c := at_ (C9 m) c
  X c := iprop(∃ r, prngReg c r)
  Y c := iprop(∃ r, prngReg c r)
  Z c := Pipeline.unscopedRest (Ix := Unit) (Name := ℕ) (U := UR sig nD τ) (Lvl := ℕ) spec4 c (atRefs (C8 m) c)
  hentry c := by
    rw [Pipeline.ownSems0_none]
    have hsplit := Pipeline.arrays_of_unscopedBufs (p := 4) (pcfgs (F := F)) adm (datas m) launch4.win launch4.arr_whole c
      ((datas m 4 c).share_full fun _ => rfl) (atRefs (C8 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (datas m 4 c).Φ 0 = Pipeline.ΦA spec4 c from rfl]; unfold Pipeline.ΦA
    iintro ⟨Hp, -, Hr⟩
    isplitl [Hr]; · iexact Hr
    iexact Hp
  hout c := by
    rw [Pipeline.ownSems0_none, show (datas m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (datas m) ((datas m 4 c).share_full fun _ => rfl)
      (atRefs (C8 m) c) (atRefs (C9 m) c) ((datas m 4 c).arrAt · cfg4.N) (exit4_arrays m c) (exit4_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Calls

end
-- ==== Proof.KernelIdeal.Region5.lean ====
/- Call 5 as an item of @main: entered with every unscoped buffer at the contents `C9`, left with them at `C10` (the same
   but for the call's output `main_v47`, now at `res5`). Its two input windows are on ONE array, `main_v44`: at entry
   that array's full share is split in two, one half to each window; at exit the halves are put together again. The
   rest is as for the other calls: the buffers that are no array of the call bypass it, the generator register goes into
   the call's invariant and comes back, the call has no semaphore of its own and owes nothing. -/
import proofs.«137898_j56616258896068_1_alg».proof.Proof.KernelIdeal.Chain
import Idealize.ShloMosaic.Lib.Pipeline.Regions
import Idealize.ShloMosaic.Lib.Pipeline.RegionsLoop

noncomputable section

namespace Cert.KernelIdeal.Calls

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RegionSeg)

variable {F : FTy → Type} [FloatOps F]

local notation "𝕄" => MT nD τ sig Unit (Elt F) ℕ (UR sig nD τ) ℕ

variable (m : (ℓ : Loc nD τ sig) → Buf (Elt F) ℓ)

/-- The buffers behind the call's arrays: the input that both input windows read, and the output. -/
theorem arrRefs5 : (Finset.univ : Finset (Fin 3)).image (Pipeline.arrRef spec5) = {main_v44, main_v47} := by decide

/-- The two buffers are distinct. -/
theorem v44_notMem : main_v44 ∉ ({main_v47} : Finset (Ref sig .tc)) := by decide

section Shares

variable (V : (c : Dev nD) → (b : Ref sig .tc) → Buf (Elt F) ((c : Thread nD τ).loc b))

/-- Window 0 holds the shared input whole at the left half of the full share. -/
theorem arr5_0 (c : Dev nD) (G : Buf (Elt F) ((cfg5.win 0).arr.view.loc (c : Thread nD τ))) :
    ((cfg5.win 0).arr.view.loc (c : Thread nD τ) ↦[(cfg5.win 0).arr.view.set]{(data5 V c).share 0} G : sProp 𝕄)
      = ((c : Thread nD τ).loc main_v44 ↦{fullShare.left} G) := by
  rw [(arr_whole5 0).set_eq_univ]; rfl

/-- Window 1 holds it whole at the right half. -/
theorem arr5_1 (c : Dev nD) (G : Buf (Elt F) ((cfg5.win 1).arr.view.loc (c : Thread nD τ))) :
    ((cfg5.win 1).arr.view.loc (c : Thread nD τ) ↦[(cfg5.win 1).arr.view.set]{(data5 V c).share 1} G : sProp 𝕄)
      = ((c : Thread nD τ).loc main_v44 ↦{fullShare.right} G) := by
  rw [(arr_whole5 1).set_eq_univ]; rfl

/-- Window 2 holds the output whole at the full share. -/
theorem arr5_2 (c : Dev nD) (G : Buf (Elt F) ((cfg5.win 2).arr.view.loc (c : Thread nD τ))) :
    ((cfg5.win 2).arr.view.loc (c : Thread nD τ) ↦[(cfg5.win 2).arr.view.set]{(data5 V c).share 2} G : sProp 𝕄)
      = ((c : Thread nD τ).loc main_v47 ↦{fullShare} G) := by
  rw [(arr_whole5 2).set_eq_univ]; rfl

/-- The call's arrays, window by window: the shared input at its two halves and the output whole. -/
theorem arrays5_eq (c : Dev nD) (G : (w : Fin cfg5.W) → Buf (Elt F) ((cfg5.win w).arr.view.loc (c : Thread nD τ))) :
    ((data5 V c).arrays G : sProp 𝕄)
      = iprop(((c : Thread nD τ).loc main_v44 ↦{fullShare.left} G 0) ∗ ((c : Thread nD τ).loc main_v44 ↦{fullShare.right} G 1)
          ∗ ((c : Thread nD τ).loc main_v47 ↦{fullShare} G 2)) := by
  unfold Pipeline.Dat.arrays
  rw [bigSep_W5, arr5_0, arr5_1, arr5_2]

/-- The buffers behind the call's arrays, each whole at the full share: the shared input and the output. -/
theorem arrBufs5_eq (c : Dev nD) (W : (b : Ref sig .tc) → Buf (Elt F) ((c : Thread nD τ).loc b)) :
    (Pipeline.arrBufs spec5 c W : sProp 𝕄)
      = iprop(((c : Thread nD τ).loc main_v44 ↦{fullShare} W main_v44) ∗ ((c : Thread nD τ).loc main_v47 ↦{fullShare} W main_v47)) := by
  unfold Pipeline.arrBufs
  rw [arrRefs5, BI.bigSep_insert v44_notMem, BI.bigSep_singleton]; rfl

/-- ENTRY: the full share of the shared input is split in two, one half to each input window. -/
theorem entry5_arrays (c : Dev nD) (W : (b : Ref sig .tc) → Buf (Elt F) ((c : Thread nD τ).loc b))
    (G : (w : Fin cfg5.W) → Buf (Elt F) ((cfg5.win w).arr.view.loc (c : Thread nD τ)))
    (h0 : G 0 = W main_v44) (h1 : G 1 = W main_v44) (h2 : G 2 = W main_v47) :
    (Pipeline.arrBufs spec5 c W : sProp 𝕄) ⊢ (data5 V c).arrays G := by
  rw [arrBufs5_eq, arrays5_eq, h0, h1, h2]
  iintro ⟨H44, H47⟩
  ihave H := (pointsTo_share (PosShare.mem_left_op_right fullShare)).1 $$ H44
  icases H with ⟨Hl, Hr⟩
  isplitl [Hl]; · iexact Hl
  isplitl [Hr]; · iexact Hr
  iexact H47

/-- EXIT: the two halves of the shared input, at one contents, are joined to the full share again. -/
theorem exit5_arrays (c : Dev nD) (W : (b : Ref sig .tc) → Buf (Elt F) ((c : Thread nD τ).loc b))
    (G : (w : Fin cfg5.W) → Buf (Elt F) ((cfg5.win w).arr.view.loc (c : Thread nD τ)))
    (h0 : G 0 = W main_v44) (h1 : G 1 = W main_v44) (h2 : G 2 = W main_v47) :
    ((data5 V c).arrays G : sProp 𝕄) ⊢ Pipeline.arrBufs spec5 c W := by
  rw [arrBufs5_eq, arrays5_eq, h0, h1, h2]
  iintro ⟨Hl, Hr, H47⟩
  isplitl [Hl Hr]
  · iapply (pointsTo_share (PosShare.mem_left_op_right fullShare)).2
    isplitl [Hl]; · iexact Hl
    iexact Hr
  iexact H47

end Shares

/-- Off the call's arrays nothing changes. -/
theorem exit5_rest (c : Dev nD) : ∀ b, b ∉ Finset.univ.image (Pipeline.arrRef spec5) → atRefs (C10 m) c b = atRefs (C9 m) c b := by
  intro b hb
  have hne : b ≠ main_v47 := fun e => hb (Finset.mem_image.mpr ⟨2, Finset.mem_univ _, e.symm⟩)
  show C10 m c (Proc.devRef .tc b) = C9 m c (Proc.devRef .tc b)
  unfold C10
  rw [Function.update_of_ne (StableHlo.devRef_ne_of_ne hne : (Proc.devRef .tc b : DevRef τ sig) ≠ Proc.devRef .tc main_v47)]

/-- At entry each window's array is at the entry contents of the buffer behind it. -/
theorem entry5_arr0 (c : Dev nD) : (datas m 5 c).arrAt 0 0 = atRefs (C9 m) c main_v44 := rfl
theorem entry5_arr1 (c : Dev nD) : (datas m 5 c).arrAt 1 0 = atRefs (C9 m) c main_v44 := rfl
theorem entry5_arr2 (c : Dev nD) : (datas m 5 c).arrAt 2 0 = atRefs (C9 m) c main_v47 := rfl

/-- At exit each of the call's arrays holds what the pipeline leaves there: the shared input, through either window,
    what it held; the output its write-backs. -/
theorem exit5_arr0 (c : Dev nD) : (datas m 5 c).arrAt 0 cfg5.N = atRefs (C10 m) c main_v44 := by
  refine ((data5 (atRefs (C9 m)) c).arrAt_in 0 rfl _).trans ?_
  show C9 m c (Proc.devRef .tc main_v44) = C10 m c (Proc.devRef .tc main_v44)
  unfold C10
  rw [Function.update_of_ne (StableHlo.devRef_ne_of_ne (by decide) : (Proc.devRef .tc main_v44 : DevRef τ sig) ≠ Proc.devRef .tc main_v47)]
theorem exit5_arr1 (c : Dev nD) : (datas m 5 c).arrAt 1 cfg5.N = atRefs (C10 m) c main_v44 := by
  refine ((data5 (atRefs (C9 m)) c).arrAt_in 1 rfl _).trans ?_
  show C9 m c (Proc.devRef .tc main_v44) = C10 m c (Proc.devRef .tc main_v44)
  unfold C10
  rw [Function.update_of_ne (StableHlo.devRef_ne_of_ne (by decide) : (Proc.devRef .tc main_v44 : DevRef τ sig) ≠ Proc.devRef .tc main_v47)]
theorem exit5_arr2 (c : Dev nD) : (datas m 5 c).arrAt 2 cfg5.N = atRefs (C10 m) c main_v47 := by
  show res5 m c = C10 m c (Proc.devRef .tc main_v47)
  unfold C10
  rw [Function.update_self]

/-- ENTRY, the buffers' part: the core's unscoped buffers at the entry contents are the call's arrays, the shared input
    dealt in halves to its two windows, and the unscoped rest. -/
theorem entry5_held (c : Dev nD) :
    (StableHlo.held (c : Thread nD τ) (Pipeline.ucRefs τ sig) (C9 m c) : sProp 𝕄)
      ⊢ iprop((datas m 5 c).arrays ((datas m 5 c).arrAt · 0)
          ∗ Pipeline.unscopedRest (Ix := Unit) (Name := ℕ) (U := UR sig nD τ) (Lvl := ℕ) spec5 c (atRefs (C9 m) c)) := by
  have hsplit := Pipeline.unscopedBufs_split₀ (Ix := Unit) (Name := ℕ) (U := UR sig nD τ) (Lvl := ℕ) (Val := Elt F) cfgs 5
    winFacts₀5.arr_unscoped c (atRefs (C9 m) c)
  rw [Pipeline.unscopedBufs_held] at hsplit
  exact (Entails.of_eq hsplit).trans
    (sep_mono (entry5_arrays (atRefs (C9 m)) c (atRefs (C9 m) c) _ (entry5_arr0 m c) (entry5_arr1 m c) (entry5_arr2 m c)) .rfl)

/-- EXIT, the buffers' part: the call's arrays at their final contents, the halves of the shared input joined again, and
    the unscoped rest are the core's unscoped buffers at the contents after the call. -/
theorem exit5_held (c : Dev nD) :
    iprop((datas m 5 c).arrays ((datas m 5 c).arrAt · cfg5.N)
        ∗ Pipeline.unscopedRest (Ix := Unit) (Name := ℕ) (U := UR sig nD τ) (Lvl := ℕ) spec5 c (atRefs (C9 m) c))
      ⊢ (StableHlo.held (c : Thread nD τ) (Pipeline.ucRefs τ sig) (C10 m c) : sProp 𝕄) := by
  have hsplit := Pipeline.unscopedBufs_split₀ (Ix := Unit) (Name := ℕ) (U := UR sig nD τ) (Lvl := ℕ) (Val := Elt F) cfgs 5
    winFacts₀5.arr_unscoped c (atRefs (C10 m) c)
  rw [Pipeline.unscopedBufs_held] at hsplit
  refine BIBase.Entails.trans ?_ (Entails.of_eq hsplit.symm)
  refine sep_mono (exit5_arrays (atRefs (C9 m)) c (atRefs (C10 m) c) _ (exit5_arr0 m c) (exit5_arr1 m c) (exit5_arr2 m c)) (Entails.of_eq ?_)
  unfold Pipeline.unscopedRest
  exact BI.bigSep_congr fun b hb => by rw [exit5_rest m c b (Finset.mem_sdiff.mp hb).2]

set_option backward.isDefEq.respectTransparency.types false in
/-- Call 5's record. -/
def region5 : RegionSeg (pcfgs (F := F)) adm (datas m) () defs₀ noVar noPairs noLevel 5 where
  win := winFacts₀5
  block_pos := block_pos5
  stage_whole := stage_whole5
  K := PEmpty
  osem k := k.elim
  ho := Pipeline.OwnSemFacts.none _
  hbody c := (body5_obligation (atRefs (C9 m)) c).loose
  hwaits := Pipeline.hwaits_of_owed_zero _ _ _ _ noPairs noLevel 5 fun _ _ => rfl
  pre c := at_ (C9 m) c
  post c := at_ (C10 m) c
  X c := iprop(∃ r, prngReg c r)
  Y c := iprop(∃ r, prngReg c r)
  Z c := Pipeline.unscopedRest (Ix := Unit) (Name := ℕ) (U := UR sig nD τ) (Lvl := ℕ) spec5 c (atRefs (C9 m) c)
  hentry c := by
    rw [Pipeline.ownSems0_none]
    iintro ⟨⟨Hub, Hp, HO⟩, -, -⟩
    ihave H := (entry5_held m c) $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (datas m 5 c).Φ 0 = Pipeline.ΦA spec5 c from rfl]; unfold Pipeline.ΦA
    iintro ⟨Hp, -, Hr⟩
    isplitl [Hr]; · iexact Hr
    iexact Hp
  hout c := by
    rw [Pipeline.ownSems0_none, show (datas m 5 c).Φ (Fin.last _) = Pipeline.ΦA spec5 c from rfl]; unfold Pipeline.ΦA
    iintro ⟨Hr, Hp⟩
    isplitl [Hp]; · iexact Hp
    isplitr; · iempintro
    iexact Hr
  hexit c := by
    iintro ⟨Ha, HO, HY, Hrest⟩
    imodintro
    isplitl [Ha Hrest]
    · iapply (exit5_held m c); isplitl [Ha] <;> iassumption
    isplitl [HY]; · iexact HY
    unfold Pipeline.Dat.owesAt Pipeline.owesWithin
    icases HO with ⟨%W, -, HO⟩; iexists W; iexact HO

end Cert.KernelIdeal.Calls

end
-- ==== Proof.KernelIdeal.Region6.lean ====
/- Call 6 as an item of @main: entered with every unscoped buffer at the contents `C11`, left with them at `C12` (the same but for the call's output `main_v49`, now at `res6`). At entry the call's arrays are taken out of the unscoped buffers and the rest bypasses the call; the generator register goes into the call's invariant and comes back; at exit the arrays go back among the unscoped buffers: the three inputs unchanged, the output at what the write-backs left. The call has no semaphore of its own and owes nothing. -/
import proofs.«137898_j56616258896068_1_alg».proof.Proof.KernelIdeal.Chain
import Idealize.ShloMosaic.Lib.Pipeline.Regions
import Idealize.ShloMosaic.Lib.Pipeline.RegionsLoop

noncomputable section

namespace Cert.KernelIdeal.Calls

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RegionSeg)

variable {F : FTy → Type} [FloatOps F]

local notation "𝕄" => MT nD τ sig Unit (Elt F) ℕ (UR sig nD τ) ℕ

variable (m : (ℓ : Loc nD τ sig) → Buf (Elt F) ℓ)

/-- Off the call's arrays nothing changes. -/
theorem exit6_rest (c : Dev nD) : ∀ b, b ∉ Finset.univ.image (Pipeline.arrRef spec6) → atRefs (C12 m) c b = atRefs (C11 m) c b := by
  intro b hb
  have hne : b ≠ main_v49 := fun e => hb (Finset.mem_image.mpr ⟨3, Finset.mem_univ _, e.symm⟩)
  show C12 m c (Proc.devRef .tc b) = C11 m c (Proc.devRef .tc b)
  unfold C12
  rw [Function.update_of_ne (StableHlo.devRef_ne_of_ne hne : (Proc.devRef .tc b : DevRef τ sig) ≠ Proc.devRef .tc main_v49)]

/-- At exit each of the call's arrays holds what the pipeline leaves there: the inputs what they held, the output its write-backs. -/
theorem exit6_array0 (c : Dev nD) : (datas m 6 c).arrAt 0 cfg6.N = atRefs (C12 m) c (Pipeline.arrRef spec6 0) := by
  refine ((data6 (atRefs (C11 m)) c).arrAt_in 0 rfl _).trans ?_
  show C11 m c (Proc.devRef .tc main_v44) = C12 m c (Proc.devRef .tc main_v44)
  unfold C12
  rw [Function.update_of_ne (StableHlo.devRef_ne_of_ne (by decide) : (Proc.devRef .tc main_v44 : DevRef τ sig) ≠ Proc.devRef .tc main_v49)]
theorem exit6_array1 (c : Dev nD) : (datas m 6 c).arrAt 1 cfg6.N = atRefs (C12 m) c (Pipeline.arrRef spec6 1) := by
  refine ((data6 (atRefs (C11 m)) c).arrAt_in 1 rfl _).trans ?_
  show C11 m c (Proc.devRef .tc main_arg9) = C12 m c (Proc.devRef .tc main_arg9)
  unfold C12
  rw [Function.update_of_ne (StableHlo.devRef_ne_of_ne (by decide) : (Proc.devRef .tc main_arg9 : DevRef τ sig) ≠ Proc.devRef .tc main_v49)]
theorem exit6_array2 (c : Dev nD) : (datas m 6 c).arrAt 2 cfg6.N = atRefs (C12 m) c (Pipeline.arrRef spec6 2) := by
  refine ((data6 (atRefs (C11 m)) c).arrAt_in 2 rfl _).trans ?_
  show C11 m c (Proc.devRef .tc main_v48) = C12 m c (Proc.devRef .tc main_v48)
  unfold C12
  rw [Function.update_of_ne (StableHlo.devRef_ne_of_ne (by decide) : (Proc.devRef .tc main_v48 : DevRef τ sig) ≠ Proc.devRef .tc main_v49)]
theorem exit6_array3 (c : Dev nD) : (datas m 6 c).arrAt 3 cfg6.N = atRefs (C12 m) c (Pipeline.arrRef spec6 3) := by
  show res6 m c = C12 m c (Proc.devRef .tc main_v49)
  unfold C12
  rw [Function.update_self]
theorem exit6_arrays (c : Dev nD) : ∀ w : Fin cfg6.W, (datas m 6 c).arrAt w cfg6.N = atRefs (C12 m) c (Pipeline.arrRef spec6 w) :=
  fun | 0 => exit6_array0 m c | 1 => exit6_array1 m c | 2 => exit6_array2 m c | 3 => exit6_array3 m c | ⟨_ + 4, h⟩ => absurd h (Nat.not_lt.2 (Nat.le_add_left _ _))

set_option backward.isDefEq.respectTransparency.types false in
/-- The call's record. -/
def region6 : RegionSeg (pcfgs (F := F)) adm (datas m) () defs₀ noVar noPairs noLevel 6 where
  win := launch6.win.to₀
  block_pos := launch6.block_pos
  stage_whole := launch6.stage_whole
  K := PEmpty
  osem k := k.elim
  ho := Pipeline.OwnSemFacts.none _
  hbody c := (body6_obligation (atRefs (C11 m)) c).loose
  hwaits := Pipeline.hwaits_of_owed_zero _ _ _ _ noPairs noLevel 6 fun _ _ => rfl
  pre c := at_ (C11 m) c
  post c := at_ (C12 m) c
  X c := iprop(∃ r, prngReg c r)
  Y c := iprop(∃ r, prngReg c r)
  Z c := Pipeline.unscopedRest (Ix := Unit) (Name := ℕ) (U := UR sig nD τ) (Lvl := ℕ) spec6 c (atRefs (C11 m) c)
  hentry c := by
    rw [Pipeline.ownSems0_none]
    have hsplit := Pipeline.arrays_of_unscopedBufs (p := 6) (pcfgs (F := F)) adm (datas m) launch6.win launch6.arr_whole c
      ((datas m 6 c).share_full fun _ => rfl) (atRefs (C11 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (datas m 6 c).Φ 0 = Pipeline.ΦA spec6 c from rfl]; unfold Pipeline.ΦA
    iintro ⟨Hp, -, Hr⟩
    isplitl [Hr]; · iexact Hr
    iexact Hp
  hout c := by
    rw [Pipeline.ownSems0_none, show (datas m 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (datas m) ((datas m 6 c).share_full fun _ => rfl)
      (atRefs (C11 m) c) (atRefs (C12 m) c) ((datas m 6 c).arrAt · cfg6.N) (exit6_arrays m c) (exit6_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Calls

end
-- ==== Proof.KernelIdeal.RunCond.lean ====
/- The run of @main given the calls' records, with every unscoped buffer read at the end. The hypotheses are those of
   the conditional frame: any proof data, any contents `outs` the calls leave, any rest states `E` chaining through the
   items, and per call a record entered from the thread state before it and left at the one after it. The conclusion
   says more than the frame: every weakly fair execution terminates and the final memory holds EVERY unscoped buffer at
   the last valuation `V12 m outs c` — the arguments (which no item writes) and also what the calls and the host
   operations computed. -/
import proofs.«137898_j56616258896068_1_alg».proof.Proof.Gen.KernelIdeal.Regions

noncomputable section

namespace Cert.KernelIdeal.Calls

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

variable (m : (ℓ : Loc nD τ sig) → Buf (Elt F) ℓ)

set_option backward.isDefEq.respectTransparency.types false in
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 7) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 8 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE7 : ∀ c : Dev nD, E 7 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V0 m c) ∗ E 0 c) ⊢ R0.pre c)
    (hpost0 : ∀ c : Dev nD, R0.post c ⊢ iprop(StableHlo.held (c : Thread nD τ) (Pipeline.ucRefs τ sig) (V1 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V3 m outs c) ∗ E 1 c) ⊢ R1.pre c)
    (hpost1 : ∀ c : Dev nD, R1.post c ⊢ iprop(StableHlo.held (c : Thread nD τ) (Pipeline.ucRefs τ sig) (V4 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V4 m outs c) ∗ E 2 c) ⊢ R2.pre c)
    (hpost2 : ∀ c : Dev nD, R2.post c ⊢ iprop(StableHlo.held (c : Thread nD τ) (Pipeline.ucRefs τ sig) (V5 m outs c) ∗ E 3 c))
    (R3 : RegionSeg (pcfgs (F := F)) adm pdats ι defs₀ 𝒱₀ L lv 3)
    (hpre3 : ∀ c : Dev nD, iprop(StableHlo.held (c : Thread nD τ) (Pipeline.ucRefs τ sig) (V6 m outs c) ∗ E 3 c) ⊢ R3.pre c)
    (hpost3 : ∀ c : Dev nD, R3.post c ⊢ iprop(StableHlo.held (c : Thread nD τ) (Pipeline.ucRefs τ sig) (V7 m outs c) ∗ E 4 c))
    (R4 : RegionSeg (pcfgs (F := F)) adm pdats ι defs₀ 𝒱₀ L lv 4)
    (hpre4 : ∀ c : Dev nD, iprop(StableHlo.held (c : Thread nD τ) (Pipeline.ucRefs τ sig) (V8 m outs c) ∗ E 4 c) ⊢ R4.pre c)
    (hpost4 : ∀ c : Dev nD, R4.post c ⊢ iprop(StableHlo.held (c : Thread nD τ) (Pipeline.ucRefs τ sig) (V9 m outs c) ∗ E 5 c))
    (R5 : RegionSeg (pcfgs (F := F)) adm pdats ι defs₀ 𝒱₀ L lv 5)
    (hpre5 : ∀ c : Dev nD, iprop(StableHlo.held (c : Thread nD τ) (Pipeline.ucRefs τ sig) (V9 m outs c) ∗ E 5 c) ⊢ R5.pre c)
    (hpost5 : ∀ c : Dev nD, R5.post c ⊢ iprop(StableHlo.held (c : Thread nD τ) (Pipeline.ucRefs τ sig) (V10 m outs c) ∗ E 6 c))
    (R6 : RegionSeg (pcfgs (F := F)) adm pdats ι defs₀ 𝒱₀ L lv 6)
    (hpre6 : ∀ c : Dev nD, iprop(StableHlo.held (c : Thread nD τ) (Pipeline.ucRefs τ sig) (V11 m outs c) ∗ E 6 c) ⊢ R6.pre c)
    (hpost6 : ∀ c : Dev nD, R6.post c ⊢ iprop(StableHlo.held (c : Thread nD τ) (Pipeline.ucRefs τ sig) (V12 m outs c) ∗ E 7 c)) :
    θ_run defs (onTc (τ := τ) (main (F := F))) ⟨m, fun _ => 0, ρ⟩ (fun r => ∀ c : Dev nD,
      ∀ b ∈ Pipeline.ucRefs τ sig, r.2.mem ((c : Thread nD τ).1, b) = V12 m outs c b) := by
  refine Pipeline.θ_run_regions_kit_dev (pcfgs (F := F)) adm pdats ι cellOf_inj EP defs₀ 𝒱₀ L lv m ρ main
    (segs m outs 𝒱₀ L lv E ι pdats R0 R1 R2 R3 R4 R5 R6)
    (fun c Q => by
      rewrite [main_chain c, Seg.run_eq_chain,
        show (segs m outs 𝒱₀ L lv E ι pdats R0 R1 R2 R3 R4 R5 R6 c).map Seg.prog = [
          Prog.lift (.customCall (Pipeline.entry 0) ()),
          StableHlo.seq hostOps1,
          StableHlo.seq hostOps1_1,
          Prog.lift (.customCall (Pipeline.entry 1) ()),
          Prog.lift (.customCall (Pipeline.entry 2) ()),
          StableHlo.seq hostOps3,
          Prog.lift (.customCall (Pipeline.entry 3) ()),
          StableHlo.seq hostOps4,
          Prog.lift (.customCall (Pipeline.entry 4) ()),
          Prog.lift (.customCall (Pipeline.entry 5) ()),
          StableHlo.seq hostOps6,
          Prog.lift (.customCall (Pipeline.entry 6) ()) ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V12 m outs c))
    (hch := fun c => ⟨hpre0 c, hpost0 c, .rfl, hpre1 c, (hpost1 c).trans (hpre2 c), hpost2 c, hpre3 c, hpost3 c, hpre4 c, (hpost4 c).trans (hpre5 c), hpost5 c, hpre6 c, (hpost6 c).trans (sep_mono .rfl (hE7 c))⟩)
    (hinit := ?_) (QY := fun c s => ∀ b ∈ Pipeline.ucRefs τ sig, s.mem ((c : Thread nD τ).1, b) = V12 m outs c b)
    (hfin := fun c s' => ?_) (hQ := fun _ h => h)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: every unscoped buffer read off the last valuation
    unfold StableHlo.held
    iintro ⟨Hh, HSI⟩
    imodintro
    iapply (pointsTo_read_all (Pipeline.ucRefs τ sig) (fun b => ((c : Thread nD τ).1, b)) (V12 m outs c) s')
    isplitl [Hh] <;> iassumption

end Cert.KernelIdeal.Calls

end
-- ==== Proof.KernelIdeal.Frames.lean ====
/- The two launches of @main at the seven calls' records. The launch deals every core its generator register and
   nothing owed, which is what rides beside the buffers through every item; each call's record is entered from the
   contents before it and left at the contents after it, and the generated valuations at the family `left` are those
   contents (`between_K`). `frame`: every weakly fair execution terminates, faults nowhere, and the eleven argument
   arrays end as launched. `run`: the same run, with every unscoped buffer read at the end at the contents `C12`. -/
import proofs.«137898_j56616258896068_1_alg».proof.Proof.KernelIdeal.Region0
import proofs.«137898_j56616258896068_1_alg».proof.Proof.KernelIdeal.Region1
import proofs.«137898_j56616258896068_1_alg».proof.Proof.KernelIdeal.Region2
import proofs.«137898_j56616258896068_1_alg».proof.Proof.KernelIdeal.Region3
import proofs.«137898_j56616258896068_1_alg».proof.Proof.KernelIdeal.Region4
import proofs.«137898_j56616258896068_1_alg».proof.Proof.KernelIdeal.Region5
import proofs.«137898_j56616258896068_1_alg».proof.Proof.KernelIdeal.Region6
import proofs.«137898_j56616258896068_1_alg».proof.Proof.KernelIdeal.RunCond

noncomputable section

namespace Cert.KernelIdeal.Calls

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The launch's ghost element is the pipelines' own; no core gets anything besides. -/
theorem launch_element :
    (ownU (initOf (Pipeline.cells cfgs cellOf_inj) (Pipeline.launchToks cfgs cellOf_inj)) : sProp 𝕄)
      ⊢ |={Set.univ}=> iprop(BI.own (emb₁ (initOf (Pipeline.cells cfgs cellOf_inj) (Pipeline.launchToks cfgs cellOf_inj)))
          ∗ bigSep Finset.univ fun _ : Dev nD => (BI.emp : sProp 𝕄)) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

/-- What the launch deals each core makes what rides along: its generator register, and nothing owed. -/
theorem launch_rides :
    iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (BI.emp : sProp 𝕄))) ∗ levAts noPairs noLevel)
      ⊢ (|={Set.univ}=> bigSep Finset.univ (fun c : Dev nD => rides (F := F) c) : sProp 𝕄) := by
  refine Pipeline.initEach noPairs noLevel fun c => ?_
  iintro ⟨⟨-, HO, -, Hp, -⟩, -⟩
  imodintro
  isplitl [Hp]; · iexists _; iexact Hp
  iexists ∅; iexact HO

set_option backward.isDefEq.respectTransparency.types false in
/-- The frame of @main. -/
theorem frame :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_cond m emb₁ () noVar noPairs noLevel (fun _ _ => rfl) ρ (left m) (datas m) 0 (fun _ => (BI.emp : sProp 𝕄)) _
    launch_element (fun _ c => rides c) (launch_rides ρ) (fun c => by iintro ⟨-, H⟩; iexact H)
    (region0 m) (fun c => by rw [between_0]; exact .rfl) (fun c => by rw [between_1]; exact .rfl)
    (region1 m) (fun c => by rw [between_3]; exact .rfl) (fun c => by rw [between_4]; exact .rfl)
    (region2 m) (fun c => by rw [between_4]; exact .rfl) (fun c => by rw [between_5]; exact .rfl)
    (region3 m) (fun c => by rw [between_6]; exact .rfl) (fun c => by rw [between_7]; exact .rfl)
    (region4 m) (fun c => by rw [between_8]; exact .rfl) (fun c => by rw [between_9]; exact .rfl)
    (region5 m) (fun c => by rw [between_9]; exact .rfl) (fun c => by rw [between_10]; exact .rfl)
    (region6 m) (fun c => by rw [between_11]; exact .rfl) (fun c => by rw [between_12]; exact .rfl)

set_option backward.isDefEq.respectTransparency.types false in
/-- The run of @main with every unscoped buffer read at the end. -/
theorem run :
    θ_run defs (onTc (τ := τ) (main (F := F))) ⟨m, fun _ => 0, ρ⟩ (fun r => ∀ c : Dev nD,
      ∀ b ∈ Pipeline.ucRefs τ sig, r.2.mem ((c : Thread nD τ).1, b) = C12 m c b) :=
  (θ_run defs _ _).mono (fun r h c b hb => (h c b hb).trans (congrFun (between_12 m c) b))
    (run_cond m emb₁ () noVar noPairs noLevel (fun _ _ => rfl) ρ (left m) (datas m) 0 (fun _ => (BI.emp : sProp 𝕄)) _
      launch_element (fun _ c => rides c) (launch_rides ρ) (fun c => by iintro ⟨-, H⟩; iexact H)
      (region0 m) (fun c => by rw [between_0]; exact .rfl) (fun c => by rw [between_1]; exact .rfl)
      (region1 m) (fun c => by rw [between_3]; exact .rfl) (fun c => by rw [between_4]; exact .rfl)
      (region2 m) (fun c => by rw [between_4]; exact .rfl) (fun c => by rw [between_5]; exact .rfl)
      (region3 m) (fun c => by rw [between_6]; exact .rfl) (fun c => by rw [between_7]; exact .rfl)
      (region4 m) (fun c => by rw [between_8]; exact .rfl) (fun c => by rw [between_9]; exact .rfl)
      (region5 m) (fun c => by rw [between_9]; exact .rfl) (fun c => by rw [between_10]; exact .rfl)
      (region6 m) (fun c => by rw [between_11]; exact .rfl) (fun c => by rw [between_12]; exact .rfl))

end Cert.KernelIdeal.Calls

end
-- ==== Proof.Value.RefOps.lean ====
/- The reference's five kinds of dense step, each named once as a function of plain array contents over the extended
   reals: the three matrix products `x · W1`, `h · W` (used for `W2` and for `W3`) and `z · zᵀ`, and the two affine
   maps `a · W + b` (64 columns, used for `mu` and for `logvar`; 6 columns for the last layer) whose bias arrives as a
   one-row matrix repeated down the rows. These are the reference program's own operations, with its own dimension
   records; the calls' results are compared with them. -/
import proofs.«137898_j56616258896068_1_alg».proof.Proof.Gen.ReferenceIdeal
import Idealize.ShloMosaic.PureOps.Ideal

noncomputable section

namespace Cert.Bridge

open Cert.ReferenceIdeal Cert.ReferenceIdeal.Facts₀
open Idealize.ShloMosaic

/-- Contents of a float array of shape `s`, over the extended reals. -/
abbrev Arr (s : Shape) : Type := FVec Ideal s .f32

/-- `x · W1`. -/
def refProjection (x : Arr S8192x512) (w : Arr S512x256) : Arr S8192x256 :=
  Host.dotGeneral (F := Ideal) dot_S8192x512_S512x256_S8192x256_1_0_0_1_n_n none x w

/-- `h · W` for a 256 × 128 weight. -/
def refHidden (h : Arr S8192x256) (w : Arr S256x128) : Arr S8192x128 :=
  Host.dotGeneral (F := Ideal) dot_S8192x256_S256x128_S8192x128_1_0_0_1_n_n none h w

/-- `a · W + b`, 64 columns, the bias a 1 × 64 row. -/
def refAffine64 (a : Arr S8192x128) (w : Arr S128x64) (b : Arr S1x64) : Arr S8192x64 :=
  addf (F := Ideal) (Host.dotGeneral (F := Ideal) dot_S8192x128_S128x64_S8192x64_1_0_0_1_n_n none a w)
    (broadcastInDim S8192x64 ![0, 1] bcast_S1x64_S8192x64_0_1 b)

/-- `z · zᵀ`. -/
def refGram (z : Arr S8192x64) : Arr S8192x8192 :=
  Host.dotGeneral (F := Ideal) dot_S8192x64_S64x8192_S8192x8192_1_0_0_1_n_n none z
    (transpose S64x8192 [1, 0] z transposes_S8192x64_S64x8192_1_0)

/-- `z · W + b`, 6 columns, the bias a 1 × 6 row. -/
def refAffine6 (z : Arr S8192x64) (w : Arr S64x6) (b : Arr S1x6) : Arr S8192x6 :=
  addf (F := Ideal) (Host.dotGeneral (F := Ideal) dot_S8192x64_S64x6_S8192x6_1_0_0_1_n_n none z w)
    (broadcastInDim S8192x6 ![0, 1] bcast_S1x6_S8192x6_0_1 b)

end Cert.Bridge

end
-- ==== Proof.LibDot2.lean ====
/-
  A matrix product at the ideal instance, read at an entry.

  For two rank-2 operands of shapes [M, K] and [K, N] whose dimension numbers contract the left operand's second
  axis with the right operand's first, the product into a zero accumulator is, at row `p` and column `j`, the
  plain sum over `a : Fin K` of `l (p, a) * r (a, j)` on the extended reals. The dimension numbers enter only
  through four coordinate facts (which coordinate of each operand is the output's and which is the contracted
  one); a caller proves those four for its own record and gets the sum.
-/
import Idealize.ShloMosaic.Lib.ValueIdx
import Idealize.ShloMosaic.PureOps.Ideal.Laws

noncomputable section

namespace Cert.Lib.Dot2

open Idealize.ShloMosaic Idealize.ShloMosaic.ValueIdx

/-- The contraction sum of a rank-2 by rank-2 product, re-indexed from the record's one-axis contraction index to
    `Fin K`: the left operand is read along row `p`, the right along column `j`. -/
theorem contraction_ix2 {M K N : Nat} (D : DotDims ⟨2, ![M, K]⟩ ⟨2, ![K, N]⟩ ⟨2, ![M, N]⟩)
    (hr : D.contr.rank = 1) (hs : D.contr.size ⟨0, by omega⟩ = K)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (l : (⟨2, ![M, K]⟩ : Shape).Idx → EReal) (r : (⟨2, ![K, N]⟩ : Shape).Idx → EReal) (p : Fin M) (j : Fin N) :
    ∑ k : D.contr.Idx, l (D.lhsIdx (ix2 p j) k) * r (D.rhsIdx (ix2 p j) k) = ∑ a : Fin K, l (ix2 p a) * r (ix2 a j) := by
  rw [← Equiv.sum_comp (contrEquiv1 D K hr hs).symm]
  refine Finset.sum_congr rfl fun a _ => ?_
  have hk := contrEquiv1_symm_val D K hr hs a
  have el : D.lhsIdx (ix2 p j) ((contrEquiv1 D K hr hs).symm a) = ix2 p a := funext fun d => Fin.ext (by
    match d with
    | ⟨0, _⟩ => exact hl0 _ _
    | ⟨1, _⟩ => exact (hl1 _ _).trans hk)
  have er : D.rhsIdx (ix2 p j) ((contrEquiv1 D K hr hs).symm a) = ix2 a j := funext fun d => Fin.ext (by
    match d with
    | ⟨0, _⟩ => exact (hr0 _ _).trans hk
    | ⟨1, _⟩ => exact hr1 _ _)
  rw [el, er]

/-- A kernel's matrix product into the zero accumulator, at the ideal instance, read at `(p, j)`. -/
theorem matmul_zero_ix2 {M K N : Nat} {φ₁ φ₂ : FTy} (D : DotDims ⟨2, ![M, K]⟩ ⟨2, ![K, N]⟩ ⟨2, ![M, N]⟩)
    (prec : Option ContractPrecision)
    (hr : D.contr.rank = 1) (hs : D.contr.size ⟨0, by omega⟩ = K)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (l : FVec Ideal ⟨2, ![M, K]⟩ φ₁) (r : FVec Ideal ⟨2, ![K, N]⟩ φ₂) (p : Fin M) (j : Fin N) :
    matmul D prec l r (constant (F := Ideal) ⟨2, ![M, N]⟩ .f32 0x00000000#32) (ix2 p j)
      = ∑ a : Fin K, l (ix2 p a) * r (ix2 a j) := by
  show FloatOps.matmul D prec l r (constant (F := Ideal) ⟨2, ![M, N]⟩ .f32 0x00000000#32) (ix2 p j) = _
  rw [Ideal.matmul_constant_zero_apply]
  exact contraction_ix2 D hr hs hl0 hl1 hr0 hr1 l r p j

end Cert.Lib.Dot2

end
-- ==== Proof.Value.Call0Value.lean ====
/- Call 0 computes the reference's first product. Over the extended reals the eight row blocks the call writes
   back make up, entry by entry, the reference's `x · W1`: entry (r, j) of block t is the sum over k of
   x (1024·t + r, k) · W1 (k, j), which is entry (1024·t + r, j) of the whole product; a change of float format is
   the identity there. -/
import proofs.«137898_j56616258896068_1_alg».proof.Proof.KernelIdeal.Call0
import proofs.«137898_j56616258896068_1_alg».proof.Proof.Value.RefOps
import proofs.«137898_j56616258896068_1_alg».proof.Proof.LibDot2
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.Bridge

open Cert.KernelIdeal Cert.KernelIdeal.Gen Cert.KernelIdeal.Calls
open Idealize.ShloMosaic Idealize.ShloMosaic.TcCoe Idealize.ShloMosaic.ValueIdx
open Idealize.SL Idealize.SL.Sem

/-! ## The two dimension records, axis by axis

Both records contract the left operand's second axis with the right operand's first; the left operand's first axis
and the right operand's second are the result's. -/

theorem kdot0_lhs_0 (i : S1024x256.Idx) (q : dot_S1024x512_S512x256_S1024x256_1_0_0_1_n_n.contr.Idx) :
    (dot_S1024x512_S512x256_S1024x256_1_0_0_1_n_n.lhsIdx i q 0).val = (i 0).val := by
  unfold DotDims.lhsIdx
  rw [dif_neg (show ¬(0 : Fin S1024x512.rank) ∈ dot_S1024x512_S512x256_S1024x256_1_0_0_1_n_n.lhsBatch by decide), dif_pos (show (0 : Fin S1024x512.rank) ∈ dot_S1024x512_S512x256_S1024x256_1_0_0_1_n_n.lhsNonContracting by decide)]
  rfl
theorem kdot0_lhs_1 (i : S1024x256.Idx) (q : dot_S1024x512_S512x256_S1024x256_1_0_0_1_n_n.contr.Idx) :
    (dot_S1024x512_S512x256_S1024x256_1_0_0_1_n_n.lhsIdx i q 1).val = (q ⟨0, by decide⟩).val :=
  dot_S1024x512_S512x256_S1024x256_1_0_0_1_n_n.lhsIdx_val_of_single rfl i q
theorem kdot0_rhs_0 (i : S1024x256.Idx) (q : dot_S1024x512_S512x256_S1024x256_1_0_0_1_n_n.contr.Idx) :
    (dot_S1024x512_S512x256_S1024x256_1_0_0_1_n_n.rhsIdx i q 0).val = (q ⟨0, by decide⟩).val :=
  dot_S1024x512_S512x256_S1024x256_1_0_0_1_n_n.rhsIdx_val_of_single rfl i q
theorem kdot0_rhs_1 (i : S1024x256.Idx) (q : dot_S1024x512_S512x256_S1024x256_1_0_0_1_n_n.contr.Idx) :
    (dot_S1024x512_S512x256_S1024x256_1_0_0_1_n_n.rhsIdx i q 1).val = (i 1).val := by
  unfold DotDims.rhsIdx
  rw [dif_neg (show ¬(1 : Fin S512x256.rank) ∈ dot_S1024x512_S512x256_S1024x256_1_0_0_1_n_n.rhsBatch by decide), dif_pos (show (1 : Fin S512x256.rank) ∈ dot_S1024x512_S512x256_S1024x256_1_0_0_1_n_n.rhsNonContracting by decide)]
  rfl

theorem rdot0_lhs_0 (i : S8192x256.Idx) (q : Cert.ReferenceIdeal.dot_S8192x512_S512x256_S8192x256_1_0_0_1_n_n.contr.Idx) :
    (Cert.ReferenceIdeal.dot_S8192x512_S512x256_S8192x256_1_0_0_1_n_n.lhsIdx i q 0).val = (i 0).val := by
  unfold DotDims.lhsIdx
  rw [dif_neg (show ¬(0 : Fin S8192x512.rank) ∈ Cert.ReferenceIdeal.dot_S8192x512_S512x256_S8192x256_1_0_0_1_n_n.lhsBatch by decide), dif_pos (show (0 : Fin S8192x512.rank) ∈ Cert.ReferenceIdeal.dot_S8192x512_S512x256_S8192x256_1_0_0_1_n_n.lhsNonContracting by decide)]
  rfl
theorem rdot0_lhs_1 (i : S8192x256.Idx) (q : Cert.ReferenceIdeal.dot_S8192x512_S512x256_S8192x256_1_0_0_1_n_n.contr.Idx) :
    (Cert.ReferenceIdeal.dot_S8192x512_S512x256_S8192x256_1_0_0_1_n_n.lhsIdx i q 1).val = (q ⟨0, by decide⟩).val :=
  Cert.ReferenceIdeal.dot_S8192x512_S512x256_S8192x256_1_0_0_1_n_n.lhsIdx_val_of_single rfl i q
theorem rdot0_rhs_0 (i : S8192x256.Idx) (q : Cert.ReferenceIdeal.dot_S8192x512_S512x256_S8192x256_1_0_0_1_n_n.contr.Idx) :
    (Cert.ReferenceIdeal.dot_S8192x512_S512x256_S8192x256_1_0_0_1_n_n.rhsIdx i q 0).val = (q ⟨0, by decide⟩).val :=
  Cert.ReferenceIdeal.dot_S8192x512_S512x256_S8192x256_1_0_0_1_n_n.rhsIdx_val_of_single rfl i q
theorem rdot0_rhs_1 (i : S8192x256.Idx) (q : Cert.ReferenceIdeal.dot_S8192x512_S512x256_S8192x256_1_0_0_1_n_n.contr.Idx) :
    (Cert.ReferenceIdeal.dot_S8192x512_S512x256_S8192x256_1_0_0_1_n_n.rhsIdx i q 1).val = (i 1).val := by
  unfold DotDims.rhsIdx
  rw [dif_neg (show ¬(1 : Fin S512x256.rank) ∈ Cert.ReferenceIdeal.dot_S8192x512_S512x256_S8192x256_1_0_0_1_n_n.rhsBatch by decide), dif_pos (show (1 : Fin S512x256.rank) ∈ Cert.ReferenceIdeal.dot_S8192x512_S512x256_S8192x256_1_0_0_1_n_n.rhsNonContracting by decide)]
  rfl

/-! ## The body's product and the reference's product, entry by entry -/

/-- Entry (p, j) of the body's product of two blocks: the plain sum over the 512 contracted positions. -/
theorem pay0_apply (x0 : Vec Ideal S1024x512 .f32) (x1 : Vec Ideal S512x256 .f32) (p : Fin 1024) (j : Fin 256) :
    k0_pay1 (F := Ideal) x0 x1 (ix2 p j) = ∑ a : Fin 512, x0 (ix2 p a) * x1 (ix2 a j) := by
  unfold k0_pay1
  exact Cert.Lib.Dot2.matmul_zero_ix2 dot_S1024x512_S512x256_S1024x256_1_0_0_1_n_n none rfl rfl
    kdot0_lhs_0 kdot0_lhs_1 kdot0_rhs_0 kdot0_rhs_1 _ _ p j

/-- Entry (r, j) of the reference's product: the same sum along row r of the whole array. -/
theorem refProjection_apply (x : Arr S8192x512) (w : Arr S512x256) (r : Fin 8192) (j : Fin 256) :
    refProjection x w (ix2 r j) = ∑ a : Fin 512, x (ix2 r a) * w (ix2 a j) := by
  unfold refProjection
  simp only [Host.dotGeneral]
  rw [Ideal.dotGeneral_apply]
  exact Cert.Lib.Dot2.contraction_ix2 Cert.ReferenceIdeal.dot_S8192x512_S512x256_S8192x256_1_0_0_1_n_n rfl rfl
    rdot0_lhs_0 rdot0_lhs_1 rdot0_rhs_0 rdot0_rhs_1 x w r j

/-! ## From the eight blocks to the array -/

theorem zero_offsets0 : (![0, 0] : Fin 2 → Nat) = fun _ => 0 :=
  funext fun a => match a with | ⟨0, _⟩ => rfl | ⟨1, _⟩ => rfl

/-- Where each window's block sits at grid point `t`: the rows' and the output's blocks are the `t`-th along the rows,
    the weights' block is the whole array. -/
theorem block_indices0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

variable (V : (c : Dev nD) → (b : Ref sig .tc) → Buf (Elt Ideal) ((c : Thread nD τ).loc b))

/-- The rows' block at point `t` is rows `1024·t …` of `x`. -/
theorem rows0_apply (c : Dev nD) (t : Fin cfg0.N) (p : Fin 1024) (a : Fin 512) (r : Fin 8192) (hr : r.val = 1024 * t.val + p.val) :
    blk0 V c 0 t (ix2 p a) = (V c main_arg0 : S8192x512.Idx → EReal) (ix2 r a) := by
  obtain ⟨e0, e1, -, -, -, -⟩ := block_indices0 t
  unfold blk0
  rw [View.read_apply]
  show V c main_arg0 _ = V c main_arg0 _
  congr 1
  funext d
  apply Fin.ext
  match d with
  | ⟨0, _⟩ => show win0_0.index t (0 : Fin 2) * 1024 + 1 * p.val = r.val; omega
  | ⟨1, _⟩ => show win0_0.index t (1 : Fin 2) * 512 + 1 * a.val = a.val; omega

/-- The weights' block at every point is all of `W1`. -/
theorem weights0_apply (c : Dev nD) (t : Fin cfg0.N) (a : Fin 512) (j : Fin 256) :
    blk0 V c 1 t (ix2 a j) = (V c main_arg4 : S512x256.Idx → EReal) (ix2 a j) := by
  obtain ⟨-, -, e2, e3, -, -⟩ := block_indices0 t
  unfold blk0
  rw [View.read_apply]
  show V c main_arg4 _ = V c main_arg4 _
  congr 1
  funext d
  apply Fin.ext
  match d with
  | ⟨0, _⟩ => show win0_1.index t (0 : Fin 2) * 512 + 1 * a.val = a.val; omega
  | ⟨1, _⟩ => show win0_1.index t (1 : Fin 2) * 256 + 1 * j.val = j.val; omega

/-- What point `t` writes back is block `t` of the reference's product. -/
theorem flushed0_eq (c : Dev nD) (t : Fin cfg0.N) :
    (data0 V c).flushed 2 t = ((cfg0.win 2).blk t).view.read (Elt Ideal) (refProjection (V c main_arg0) (V c main_arg4)) := by
  show (cfg0.win 2).cut (grid0.coords t) ((data0 V c).after 2 t) = _
  rw [data0_after_2]
  unfold prod0
  rw [View.canon_unit_zero zero_offsets0]
  simp only [View.ld_unit_zero (S := S1024x512) zero_offsets0, View.ld_unit_zero (S := S512x256) zero_offsets0]
  funext y
  obtain ⟨-, -, -, -, e4, e5⟩ := block_indices0 t
  have ht : t.val < 8 := lt_of_lt_of_eq t.isLt N_0
  have hy0 : (y 0).val < 1024 := (y 0).isLt
  have hy1 : (y 1).val < 256 := (y 1).isLt
  have ey : (win0 2).xinj (grid0.coords t) y = ix2 (⟨(y 0).val, hy0⟩ : Fin 1024) (⟨(y 1).val, hy1⟩ : Fin 256) :=
    funext fun d => match d with | ⟨0, _⟩ => rfl | ⟨1, _⟩ => rfl
  have er : ((cfg0.win 2).blk t).view.emb y
      = (ix2 (⟨1024 * t.val + (y 0).val, by omega⟩ : Fin 8192) (⟨(y 1).val, hy1⟩ : Fin 256) : S8192x256.Idx) := by
    funext d; apply Fin.ext
    match d with
    | ⟨0, _⟩ => show win0_2.index t (0 : Fin 2) * 1024 + 1 * (y 0).val = 1024 * t.val + (y 0).val; omega
    | ⟨1, _⟩ => show win0_2.index t (1 : Fin 2) * 256 + 1 * (y 1).val = (y 1).val; omega
  show k0_pay1 (F := Ideal) (blk0 V c 0 t) (blk0 V c 1 t) ((win0 2).xinj (grid0.coords t) y)
    = refProjection (V c main_arg0) (V c main_arg4) (((cfg0.win 2).blk t).view.emb y)
  rw [ey, er, pay0_apply, refProjection_apply]
  refine Finset.sum_congr rfl fun a _ => ?_
  exact congrArg₂ (· * ·) (rows0_apply V c t ⟨(y 0).val, hy0⟩ a ⟨1024 * t.val + (y 0).val, by omega⟩ rfl)
    (weights0_apply V c t a ⟨(y 1).val, hy1⟩)

/-- An entry of the output is in point `t`'s block iff each coordinate is in the block's range on its axis. -/
theorem mem_block0 (t : Fin cfg0.N) (i : S8192x256.Idx) :
    i ∈ ((cfg0.win 2).blk t).view.set ↔ ∀ a : Fin 2, win0_2.index t a * S1024x256.size a ≤ (i a).val
      ∧ (i a).val < win0_2.index t a * S1024x256.size a + S1024x256.size a := by
  show i ∈ ((View.whole main_v0).slice (win0_2.rect t)).set ↔ _
  rw [View.set_slice_whole, Rect.mem_set_unit]
  exact Iff.rfl

/-- Row `r` of the output is in the block of point `r / 1024`. -/
theorem cover0 (i : S8192x256.Idx) :
    ∃ t : Fin cfg0.N, (cfg0.win 2).flush t = true ∧ i ∈ ((cfg0.win 2).blk t).view.set := by
  have hi0 : (i 0).val < 8192 := (i 0).isLt
  have hi1 : (i 1).val < 256 := (i 1).isLt
  have hN : cfg0.N = 8 := N_0
  obtain ⟨t, ht⟩ : ∃ t : Fin cfg0.N, t.val = (i 0).val / 1024 :=
    ⟨⟨(i 0).val / 1024, lt_of_lt_of_eq (show (i 0).val / 1024 < 8 by omega) hN.symm⟩, rfl⟩
  obtain ⟨-, -, -, -, e4, e5⟩ := block_indices0 t
  refine ⟨t, flush0_2 t, ?_⟩
  rw [mem_block0]
  intro a
  match a with
  | ⟨0, _⟩ =>
    show win0_2.index t (0 : Fin 2) * 1024 ≤ (i 0).val ∧ (i 0).val < win0_2.index t (0 : Fin 2) * 1024 + 1024
    omega
  | ⟨1, _⟩ =>
    show win0_2.index t (1 : Fin 2) * 256 ≤ (i 1).val ∧ (i 1).val < win0_2.index t (1 : Fin 2) * 256 + 256
    omega

/-- After the eight write-backs the output holds the reference's product. -/
theorem call0_value (c : Dev nD) :
    (data0 V c).arrAt 2 cfg0.N = refProjection (V c main_arg0) (V c main_arg4) :=
  (data0 V c).arrAt_eq_of_cover 2 (refProjection (V c main_arg0) (V c main_arg4)) (fun t _ => flushed0_eq V c t) cover0

end Cert.Bridge

end
-- ==== Proof.Value.Call1Value.lean ====
/- Call 1 computes the reference's product `hidden1 · W2`: over the extended reals the eight row blocks it writes back
   make up that product entry by entry (entry (r, j) of block t is the sum over k of hidden1 (1024·t + r, k) · W2 (k, j)). -/
import proofs.«137898_j56616258896068_1_alg».proof.Proof.KernelIdeal.Call1
import proofs.«137898_j56616258896068_1_alg».proof.Proof.Value.RefOps
import proofs.«137898_j56616258896068_1_alg».proof.Proof.LibDot2
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.Bridge

open Cert.KernelIdeal Cert.KernelIdeal.Gen Cert.KernelIdeal.Calls
open Idealize.ShloMosaic Idealize.ShloMosaic.TcCoe Idealize.ShloMosaic.ValueIdx
open Idealize.SL Idealize.SL.Sem

/-! ## The two dimension records, axis by axis

Both records contract the left operand's second axis with the right operand's first; the left operand's first axis
and the right operand's second are the result's. -/

theorem kdot1_lhs_0 (i : S1024x128.Idx) (q : dot_S1024x256_S256x128_S1024x128_1_0_0_1_n_n.contr.Idx) :
    (dot_S1024x256_S256x128_S1024x128_1_0_0_1_n_n.lhsIdx i q 0).val = (i 0).val := by
  unfold DotDims.lhsIdx
  rw [dif_neg (show ¬(0 : Fin S1024x256.rank) ∈ dot_S1024x256_S256x128_S1024x128_1_0_0_1_n_n.lhsBatch by decide), dif_pos (show (0 : Fin S1024x256.rank) ∈ dot_S1024x256_S256x128_S1024x128_1_0_0_1_n_n.lhsNonContracting by decide)]
  rfl
theorem kdot1_lhs_1 (i : S1024x128.Idx) (q : dot_S1024x256_S256x128_S1024x128_1_0_0_1_n_n.contr.Idx) :
    (dot_S1024x256_S256x128_S1024x128_1_0_0_1_n_n.lhsIdx i q 1).val = (q ⟨0, by decide⟩).val :=
  dot_S1024x256_S256x128_S1024x128_1_0_0_1_n_n.lhsIdx_val_of_single rfl i q
theorem kdot1_rhs_0 (i : S1024x128.Idx) (q : dot_S1024x256_S256x128_S1024x128_1_0_0_1_n_n.contr.Idx) :
    (dot_S1024x256_S256x128_S1024x128_1_0_0_1_n_n.rhsIdx i q 0).val = (q ⟨0, by decide⟩).val :=
  dot_S1024x256_S256x128_S1024x128_1_0_0_1_n_n.rhsIdx_val_of_single rfl i q
theorem kdot1_rhs_1 (i : S1024x128.Idx) (q : dot_S1024x256_S256x128_S1024x128_1_0_0_1_n_n.contr.Idx) :
    (dot_S1024x256_S256x128_S1024x128_1_0_0_1_n_n.rhsIdx i q 1).val = (i 1).val := by
  unfold DotDims.rhsIdx
  rw [dif_neg (show ¬(1 : Fin S256x128.rank) ∈ dot_S1024x256_S256x128_S1024x128_1_0_0_1_n_n.rhsBatch by decide), dif_pos (show (1 : Fin S256x128.rank) ∈ dot_S1024x256_S256x128_S1024x128_1_0_0_1_n_n.rhsNonContracting by decide)]
  rfl

theorem rdot1_lhs_0 (i : S8192x128.Idx) (q : Cert.ReferenceIdeal.dot_S8192x256_S256x128_S8192x128_1_0_0_1_n_n.contr.Idx) :
    (Cert.ReferenceIdeal.dot_S8192x256_S256x128_S8192x128_1_0_0_1_n_n.lhsIdx i q 0).val = (i 0).val := by
  unfold DotDims.lhsIdx
  rw [dif_neg (show ¬(0 : Fin S8192x256.rank) ∈ Cert.ReferenceIdeal.dot_S8192x256_S256x128_S8192x128_1_0_0_1_n_n.lhsBatch by decide), dif_pos (show (0 : Fin S8192x256.rank) ∈ Cert.ReferenceIdeal.dot_S8192x256_S256x128_S8192x128_1_0_0_1_n_n.lhsNonContracting by decide)]
  rfl
theorem rdot1_lhs_1 (i : S8192x128.Idx) (q : Cert.ReferenceIdeal.dot_S8192x256_S256x128_S8192x128_1_0_0_1_n_n.contr.Idx) :
    (Cert.ReferenceIdeal.dot_S8192x256_S256x128_S8192x128_1_0_0_1_n_n.lhsIdx i q 1).val = (q ⟨0, by decide⟩).val :=
  Cert.ReferenceIdeal.dot_S8192x256_S256x128_S8192x128_1_0_0_1_n_n.lhsIdx_val_of_single rfl i q
theorem rdot1_rhs_0 (i : S8192x128.Idx) (q : Cert.ReferenceIdeal.dot_S8192x256_S256x128_S8192x128_1_0_0_1_n_n.contr.Idx) :
    (Cert.ReferenceIdeal.dot_S8192x256_S256x128_S8192x128_1_0_0_1_n_n.rhsIdx i q 0).val = (q ⟨0, by decide⟩).val :=
  Cert.ReferenceIdeal.dot_S8192x256_S256x128_S8192x128_1_0_0_1_n_n.rhsIdx_val_of_single rfl i q
theorem rdot1_rhs_1 (i : S8192x128.Idx) (q : Cert.ReferenceIdeal.dot_S8192x256_S256x128_S8192x128_1_0_0_1_n_n.contr.Idx) :
    (Cert.ReferenceIdeal.dot_S8192x256_S256x128_S8192x128_1_0_0_1_n_n.rhsIdx i q 1).val = (i 1).val := by
  unfold DotDims.rhsIdx
  rw [dif_neg (show ¬(1 : Fin S256x128.rank) ∈ Cert.ReferenceIdeal.dot_S8192x256_S256x128_S8192x128_1_0_0_1_n_n.rhsBatch by decide), dif_pos (show (1 : Fin S256x128.rank) ∈ Cert.ReferenceIdeal.dot_S8192x256_S256x128_S8192x128_1_0_0_1_n_n.rhsNonContracting by decide)]
  rfl

/-! ## The body's product and the reference's product, entry by entry -/

/-- Entry (p, j) of the body's product of two blocks: the plain sum over the 256 contracted positions. -/
theorem pay1_apply (x0 : Vec Ideal S1024x256 .f32) (x1 : Vec Ideal S256x128 .f32) (p : Fin 1024) (j : Fin 128) :
    k1_pay1 (F := Ideal) x0 x1 (ix2 p j) = ∑ a : Fin 256, x0 (ix2 p a) * x1 (ix2 a j) := by
  unfold k1_pay1
  simp only [shapeCast_self]
  exact Cert.Lib.Dot2.matmul_zero_ix2 dot_S1024x256_S256x128_S1024x128_1_0_0_1_n_n none rfl rfl
    kdot1_lhs_0 kdot1_lhs_1 kdot1_rhs_0 kdot1_rhs_1 _ _ p j

/-- Entry (r, j) of the reference's product: the same sum along row r of the whole array. -/
theorem refHidden_apply1 (x : Arr S8192x256) (w : Arr S256x128) (r : Fin 8192) (j : Fin 128) :
    refHidden x w (ix2 r j) = ∑ a : Fin 256, x (ix2 r a) * w (ix2 a j) := by
  unfold refHidden
  simp only [Host.dotGeneral]
  rw [Ideal.dotGeneral_apply]
  exact Cert.Lib.Dot2.contraction_ix2 Cert.ReferenceIdeal.dot_S8192x256_S256x128_S8192x128_1_0_0_1_n_n rfl rfl
    rdot1_lhs_0 rdot1_lhs_1 rdot1_rhs_0 rdot1_rhs_1 x w r j

/-! ## From the eight blocks to the array -/

theorem zero_offsets1 : (![0, 0] : Fin 2 → Nat) = fun _ => 0 :=
  funext fun a => match a with | ⟨0, _⟩ => rfl | ⟨1, _⟩ => rfl

/-- Where each window's block sits at grid point `t`: the rows' and the output's blocks are the `t`-th along the rows,
    the weights' block is the whole array. -/
theorem block_indices1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

variable (V : (c : Dev nD) → (b : Ref sig .tc) → Buf (Elt Ideal) ((c : Thread nD τ).loc b))

/-- The rows' block at point `t` is rows `1024·t …` of `hidden1`. -/
theorem rows1_apply (c : Dev nD) (t : Fin cfg1.N) (p : Fin 1024) (a : Fin 256) (r : Fin 8192) (hr : r.val = 1024 * t.val + p.val) :
    blk1 V c 0 t (ix2 p a) = (V c main_v14 : S8192x256.Idx → EReal) (ix2 r a) := by
  obtain ⟨e0, e1, -, -, -, -⟩ := block_indices1 t
  unfold blk1
  rw [View.read_apply]
  show V c main_v14 _ = V c main_v14 _
  congr 1
  funext d
  apply Fin.ext
  match d with
  | ⟨0, _⟩ => show win1_0.index t (0 : Fin 2) * 1024 + 1 * p.val = r.val; omega
  | ⟨1, _⟩ => show win1_0.index t (1 : Fin 2) * 256 + 1 * a.val = a.val; omega

/-- The weights' block at every point is all of `W2`. -/
theorem weights1_apply (c : Dev nD) (t : Fin cfg1.N) (a : Fin 256) (j : Fin 128) :
    blk1 V c 1 t (ix2 a j) = (V c main_arg5 : S256x128.Idx → EReal) (ix2 a j) := by
  obtain ⟨-, -, e2, e3, -, -⟩ := block_indices1 t
  unfold blk1
  rw [View.read_apply]
  show V c main_arg5 _ = V c main_arg5 _
  congr 1
  funext d
  apply Fin.ext
  match d with
  | ⟨0, _⟩ => show win1_1.index t (0 : Fin 2) * 256 + 1 * a.val = a.val; omega
  | ⟨1, _⟩ => show win1_1.index t (1 : Fin 2) * 128 + 1 * j.val = j.val; omega

/-- What point `t` writes back is block `t` of the reference's product. -/
theorem flushed1_eq (c : Dev nD) (t : Fin cfg1.N) :
    (data1 V c).flushed 2 t = ((cfg1.win 2).blk t).view.read (Elt Ideal) (refHidden (V c main_v14) (V c main_arg5)) := by
  show (cfg1.win 2).cut (grid1.coords t) ((data1 V c).after 2 t) = _
  rw [data1_after_2]
  unfold prod1
  rw [View.canon_unit_zero zero_offsets1]
  simp only [View.ld_unit_zero (S := S1024x256) zero_offsets1, View.ld_unit_zero (S := S256x128) zero_offsets1]
  funext y
  obtain ⟨-, -, -, -, e4, e5⟩ := block_indices1 t
  have ht : t.val < 8 := lt_of_lt_of_eq t.isLt N_1
  have hy0 : (y 0).val < 1024 := (y 0).isLt
  have hy1 : (y 1).val < 128 := (y 1).isLt
  have ey : (win1 2).xinj (grid1.coords t) y = ix2 (⟨(y 0).val, hy0⟩ : Fin 1024) (⟨(y 1).val, hy1⟩ : Fin 128) :=
    funext fun d => match d with | ⟨0, _⟩ => rfl | ⟨1, _⟩ => rfl
  have er : ((cfg1.win 2).blk t).view.emb y
      = (ix2 (⟨1024 * t.val + (y 0).val, by omega⟩ : Fin 8192) (⟨(y 1).val, hy1⟩ : Fin 128) : S8192x128.Idx) := by
    funext d; apply Fin.ext
    match d with
    | ⟨0, _⟩ => show win1_2.index t (0 : Fin 2) * 1024 + 1 * (y 0).val = 1024 * t.val + (y 0).val; omega
    | ⟨1, _⟩ => show win1_2.index t (1 : Fin 2) * 128 + 1 * (y 1).val = (y 1).val; omega
  show k1_pay1 (F := Ideal) (blk1 V c 0 t) (blk1 V c 1 t) ((win1 2).xinj (grid1.coords t) y)
    = refHidden (V c main_v14) (V c main_arg5) (((cfg1.win 2).blk t).view.emb y)
  rw [ey, er, pay1_apply, refHidden_apply1]
  refine Finset.sum_congr rfl fun a _ => ?_
  exact congrArg₂ (· * ·) (rows1_apply V c t ⟨(y 0).val, hy0⟩ a ⟨1024 * t.val + (y 0).val, by omega⟩ rfl)
    (weights1_apply V c t a ⟨(y 1).val, hy1⟩)

/-- An entry of the output is in point `t`'s block iff each coordinate is in the block's range on its axis. -/
theorem mem_block1 (t : Fin cfg1.N) (i : S8192x128.Idx) :
    i ∈ ((cfg1.win 2).blk t).view.set ↔ ∀ a : Fin 2, win1_2.index t a * S1024x128.size a ≤ (i a).val
      ∧ (i a).val < win1_2.index t a * S1024x128.size a + S1024x128.size a := by
  show i ∈ ((View.whole main_v15).slice (win1_2.rect t)).set ↔ _
  rw [View.set_slice_whole, Rect.mem_set_unit]
  exact Iff.rfl

/-- Row `r` of the output is in the block of point `r / 1024`. -/
theorem cover1 (i : S8192x128.Idx) :
    ∃ t : Fin cfg1.N, (cfg1.win 2).flush t = true ∧ i ∈ ((cfg1.win 2).blk t).view.set := by
  have hi0 : (i 0).val < 8192 := (i 0).isLt
  have hi1 : (i 1).val < 128 := (i 1).isLt
  have hN : cfg1.N = 8 := N_1
  obtain ⟨t, ht⟩ : ∃ t : Fin cfg1.N, t.val = (i 0).val / 1024 :=
    ⟨⟨(i 0).val / 1024, lt_of_lt_of_eq (show (i 0).val / 1024 < 8 by omega) hN.symm⟩, rfl⟩
  obtain ⟨-, -, -, -, e4, e5⟩ := block_indices1 t
  refine ⟨t, flush1_2 t, ?_⟩
  rw [mem_block1]
  intro a
  match a with
  | ⟨0, _⟩ =>
    show win1_2.index t (0 : Fin 2) * 1024 ≤ (i 0).val ∧ (i 0).val < win1_2.index t (0 : Fin 2) * 1024 + 1024
    omega
  | ⟨1, _⟩ =>
    show win1_2.index t (1 : Fin 2) * 128 ≤ (i 1).val ∧ (i 1).val < win1_2.index t (1 : Fin 2) * 128 + 128
    omega

/-- After the eight write-backs the output holds the reference's product. -/
theorem call1_value (c : Dev nD) :
    (data1 V c).arrAt 2 cfg1.N = refHidden (V c main_v14) (V c main_arg5) :=
  (data1 V c).arrAt_eq_of_cover 2 (refHidden (V c main_v14) (V c main_arg5)) (fun t _ => flushed1_eq V c t) cover1

end Cert.Bridge

end
-- ==== Proof.Value.Call2Value.lean ====
/- Call 2 computes the reference's product `hidden1 · W3`: over the extended reals the eight row blocks it writes back
   make up that product entry by entry (entry (r, j) of block t is the sum over k of hidden1 (1024·t + r, k) · W3 (k, j)). -/
import proofs.«137898_j56616258896068_1_alg».proof.Proof.KernelIdeal.Call2
import proofs.«137898_j56616258896068_1_alg».proof.Proof.Value.RefOps
import proofs.«137898_j56616258896068_1_alg».proof.Proof.LibDot2
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.Bridge

open Cert.KernelIdeal Cert.KernelIdeal.Gen Cert.KernelIdeal.Calls
open Idealize.ShloMosaic Idealize.ShloMosaic.TcCoe Idealize.ShloMosaic.ValueIdx
open Idealize.SL Idealize.SL.Sem

/-! ## The two dimension records, axis by axis

Both records contract the left operand's second axis with the right operand's first; the left operand's first axis
and the right operand's second are the result's. -/

theorem kdot2_lhs_0 (i : S1024x128.Idx) (q : dot_S1024x256_S256x128_S1024x128_1_0_0_1_n_n.contr.Idx) :
    (dot_S1024x256_S256x128_S1024x128_1_0_0_1_n_n.lhsIdx i q 0).val = (i 0).val := by
  unfold DotDims.lhsIdx
  rw [dif_neg (show ¬(0 : Fin S1024x256.rank) ∈ dot_S1024x256_S256x128_S1024x128_1_0_0_1_n_n.lhsBatch by decide), dif_pos (show (0 : Fin S1024x256.rank) ∈ dot_S1024x256_S256x128_S1024x128_1_0_0_1_n_n.lhsNonContracting by decide)]
  rfl
theorem kdot2_lhs_1 (i : S1024x128.Idx) (q : dot_S1024x256_S256x128_S1024x128_1_0_0_1_n_n.contr.Idx) :
    (dot_S1024x256_S256x128_S1024x128_1_0_0_1_n_n.lhsIdx i q 1).val = (q ⟨0, by decide⟩).val :=
  dot_S1024x256_S256x128_S1024x128_1_0_0_1_n_n.lhsIdx_val_of_single rfl i q
theorem kdot2_rhs_0 (i : S1024x128.Idx) (q : dot_S1024x256_S256x128_S1024x128_1_0_0_1_n_n.contr.Idx) :
    (dot_S1024x256_S256x128_S1024x128_1_0_0_1_n_n.rhsIdx i q 0).val = (q ⟨0, by decide⟩).val :=
  dot_S1024x256_S256x128_S1024x128_1_0_0_1_n_n.rhsIdx_val_of_single rfl i q
theorem kdot2_rhs_1 (i : S1024x128.Idx) (q : dot_S1024x256_S256x128_S1024x128_1_0_0_1_n_n.contr.Idx) :
    (dot_S1024x256_S256x128_S1024x128_1_0_0_1_n_n.rhsIdx i q 1).val = (i 1).val := by
  unfold DotDims.rhsIdx
  rw [dif_neg (show ¬(1 : Fin S256x128.rank) ∈ dot_S1024x256_S256x128_S1024x128_1_0_0_1_n_n.rhsBatch by decide), dif_pos (show (1 : Fin S256x128.rank) ∈ dot_S1024x256_S256x128_S1024x128_1_0_0_1_n_n.rhsNonContracting by decide)]
  rfl

theorem rdot2_lhs_0 (i : S8192x128.Idx) (q : Cert.ReferenceIdeal.dot_S8192x256_S256x128_S8192x128_1_0_0_1_n_n.contr.Idx) :
    (Cert.ReferenceIdeal.dot_S8192x256_S256x128_S8192x128_1_0_0_1_n_n.lhsIdx i q 0).val = (i 0).val := by
  unfold DotDims.lhsIdx
  rw [dif_neg (show ¬(0 : Fin S8192x256.rank) ∈ Cert.ReferenceIdeal.dot_S8192x256_S256x128_S8192x128_1_0_0_1_n_n.lhsBatch by decide), dif_pos (show (0 : Fin S8192x256.rank) ∈ Cert.ReferenceIdeal.dot_S8192x256_S256x128_S8192x128_1_0_0_1_n_n.lhsNonContracting by decide)]
  rfl
theorem rdot2_lhs_1 (i : S8192x128.Idx) (q : Cert.ReferenceIdeal.dot_S8192x256_S256x128_S8192x128_1_0_0_1_n_n.contr.Idx) :
    (Cert.ReferenceIdeal.dot_S8192x256_S256x128_S8192x128_1_0_0_1_n_n.lhsIdx i q 1).val = (q ⟨0, by decide⟩).val :=
  Cert.ReferenceIdeal.dot_S8192x256_S256x128_S8192x128_1_0_0_1_n_n.lhsIdx_val_of_single rfl i q
theorem rdot2_rhs_0 (i : S8192x128.Idx) (q : Cert.ReferenceIdeal.dot_S8192x256_S256x128_S8192x128_1_0_0_1_n_n.contr.Idx) :
    (Cert.ReferenceIdeal.dot_S8192x256_S256x128_S8192x128_1_0_0_1_n_n.rhsIdx i q 0).val = (q ⟨0, by decide⟩).val :=
  Cert.ReferenceIdeal.dot_S8192x256_S256x128_S8192x128_1_0_0_1_n_n.rhsIdx_val_of_single rfl i q
theorem rdot2_rhs_1 (i : S8192x128.Idx) (q : Cert.ReferenceIdeal.dot_S8192x256_S256x128_S8192x128_1_0_0_1_n_n.contr.Idx) :
    (Cert.ReferenceIdeal.dot_S8192x256_S256x128_S8192x128_1_0_0_1_n_n.rhsIdx i q 1).val = (i 1).val := by
  unfold DotDims.rhsIdx
  rw [dif_neg (show ¬(1 : Fin S256x128.rank) ∈ Cert.ReferenceIdeal.dot_S8192x256_S256x128_S8192x128_1_0_0_1_n_n.rhsBatch by decide), dif_pos (show (1 : Fin S256x128.rank) ∈ Cert.ReferenceIdeal.dot_S8192x256_S256x128_S8192x128_1_0_0_1_n_n.rhsNonContracting by decide)]
  rfl

/-! ## The body's product and the reference's product, entry by entry -/

/-- Entry (p, j) of the body's product of two blocks: the plain sum over the 256 contracted positions. -/
theorem pay2_apply (x0 : Vec Ideal S1024x256 .f32) (x1 : Vec Ideal S256x128 .f32) (p : Fin 1024) (j : Fin 128) :
    k2_pay1 (F := Ideal) x0 x1 (ix2 p j) = ∑ a : Fin 256, x0 (ix2 p a) * x1 (ix2 a j) := by
  unfold k2_pay1
  simp only [shapeCast_self]
  exact Cert.Lib.Dot2.matmul_zero_ix2 dot_S1024x256_S256x128_S1024x128_1_0_0_1_n_n none rfl rfl
    kdot2_lhs_0 kdot2_lhs_1 kdot2_rhs_0 kdot2_rhs_1 _ _ p j

/-- Entry (r, j) of the reference's product: the same sum along row r of the whole array. -/
theorem refHidden_apply2 (x : Arr S8192x256) (w : Arr S256x128) (r : Fin 8192) (j : Fin 128) :
    refHidden x w (ix2 r j) = ∑ a : Fin 256, x (ix2 r a) * w (ix2 a j) := by
  unfold refHidden
  simp only [Host.dotGeneral]
  rw [Ideal.dotGeneral_apply]
  exact Cert.Lib.Dot2.contraction_ix2 Cert.ReferenceIdeal.dot_S8192x256_S256x128_S8192x128_1_0_0_1_n_n rfl rfl
    rdot2_lhs_0 rdot2_lhs_1 rdot2_rhs_0 rdot2_rhs_1 x w r j

/-! ## From the eight blocks to the array -/

theorem zero_offsets2 : (![0, 0] : Fin 2 → Nat) = fun _ => 0 :=
  funext fun a => match a with | ⟨0, _⟩ => rfl | ⟨1, _⟩ => rfl

/-- Where each window's block sits at grid point `t`: the rows' and the output's blocks are the `t`-th along the rows,
    the weights' block is the whole array. -/
theorem block_indices2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

variable (V : (c : Dev nD) → (b : Ref sig .tc) → Buf (Elt Ideal) ((c : Thread nD τ).loc b))

/-- The rows' block at point `t` is rows `1024·t …` of `hidden1`. -/
theorem rows2_apply (c : Dev nD) (t : Fin cfg2.N) (p : Fin 1024) (a : Fin 256) (r : Fin 8192) (hr : r.val = 1024 * t.val + p.val) :
    blk2 V c 0 t (ix2 p a) = (V c main_v14 : S8192x256.Idx → EReal) (ix2 r a) := by
  obtain ⟨e0, e1, -, -, -, -⟩ := block_indices2 t
  unfold blk2
  rw [View.read_apply]
  show V c main_v14 _ = V c main_v14 _
  congr 1
  funext d
  apply Fin.ext
  match d with
  | ⟨0, _⟩ => show win2_0.index t (0 : Fin 2) * 1024 + 1 * p.val = r.val; omega
  | ⟨1, _⟩ => show win2_0.index t (1 : Fin 2) * 256 + 1 * a.val = a.val; omega

/-- The weights' block at every point is all of `W3`. -/
theorem weights2_apply (c : Dev nD) (t : Fin cfg2.N) (a : Fin 256) (j : Fin 128) :
    blk2 V c 1 t (ix2 a j) = (V c main_arg6 : S256x128.Idx → EReal) (ix2 a j) := by
  obtain ⟨-, -, e2, e3, -, -⟩ := block_indices2 t
  unfold blk2
  rw [View.read_apply]
  show V c main_arg6 _ = V c main_arg6 _
  congr 1
  funext d
  apply Fin.ext
  match d with
  | ⟨0, _⟩ => show win2_1.index t (0 : Fin 2) * 256 + 1 * a.val = a.val; omega
  | ⟨1, _⟩ => show win2_1.index t (1 : Fin 2) * 128 + 1 * j.val = j.val; omega

/-- What point `t` writes back is block `t` of the reference's product. -/
theorem flushed2_eq (c : Dev nD) (t : Fin cfg2.N) :
    (data2 V c).flushed 2 t = ((cfg2.win 2).blk t).view.read (Elt Ideal) (refHidden (V c main_v14) (V c main_arg6)) := by
  show (cfg2.win 2).cut (grid2.coords t) ((data2 V c).after 2 t) = _
  rw [data2_after_2]
  unfold prod2
  rw [View.canon_unit_zero zero_offsets2]
  simp only [View.ld_unit_zero (S := S1024x256) zero_offsets2, View.ld_unit_zero (S := S256x128) zero_offsets2]
  funext y
  obtain ⟨-, -, -, -, e4, e5⟩ := block_indices2 t
  have ht : t.val < 8 := lt_of_lt_of_eq t.isLt N_2
  have hy0 : (y 0).val < 1024 := (y 0).isLt
  have hy1 : (y 1).val < 128 := (y 1).isLt
  have ey : (win2 2).xinj (grid2.coords t) y = ix2 (⟨(y 0).val, hy0⟩ : Fin 1024) (⟨(y 1).val, hy1⟩ : Fin 128) :=
    funext fun d => match d with | ⟨0, _⟩ => rfl | ⟨1, _⟩ => rfl
  have er : ((cfg2.win 2).blk t).view.emb y
      = (ix2 (⟨1024 * t.val + (y 0).val, by omega⟩ : Fin 8192) (⟨(y 1).val, hy1⟩ : Fin 128) : S8192x128.Idx) := by
    funext d; apply Fin.ext
    match d with
    | ⟨0, _⟩ => show win2_2.index t (0 : Fin 2) * 1024 + 1 * (y 0).val = 1024 * t.val + (y 0).val; omega
    | ⟨1, _⟩ => show win2_2.index t (1 : Fin 2) * 128 + 1 * (y 1).val = (y 1).val; omega
  show k2_pay1 (F := Ideal) (blk2 V c 0 t) (blk2 V c 1 t) ((win2 2).xinj (grid2.coords t) y)
    = refHidden (V c main_v14) (V c main_arg6) (((cfg2.win 2).blk t).view.emb y)
  rw [ey, er, pay2_apply, refHidden_apply2]
  refine Finset.sum_congr rfl fun a _ => ?_
  exact congrArg₂ (· * ·) (rows2_apply V c t ⟨(y 0).val, hy0⟩ a ⟨1024 * t.val + (y 0).val, by omega⟩ rfl)
    (weights2_apply V c t a ⟨(y 1).val, hy1⟩)

/-- An entry of the output is in point `t`'s block iff each coordinate is in the block's range on its axis. -/
theorem mem_block2 (t : Fin cfg2.N) (i : S8192x128.Idx) :
    i ∈ ((cfg2.win 2).blk t).view.set ↔ ∀ a : Fin 2, win2_2.index t a * S1024x128.size a ≤ (i a).val
      ∧ (i a).val < win2_2.index t a * S1024x128.size a + S1024x128.size a := by
  show i ∈ ((View.whole main_v16).slice (win2_2.rect t)).set ↔ _
  rw [View.set_slice_whole, Rect.mem_set_unit]
  exact Iff.rfl

/-- Row `r` of the output is in the block of point `r / 1024`. -/
theorem cover2 (i : S8192x128.Idx) :
    ∃ t : Fin cfg2.N, (cfg2.win 2).flush t = true ∧ i ∈ ((cfg2.win 2).blk t).view.set := by
  have hi0 : (i 0).val < 8192 := (i 0).isLt
  have hi1 : (i 1).val < 128 := (i 1).isLt
  have hN : cfg2.N = 8 := N_2
  obtain ⟨t, ht⟩ : ∃ t : Fin cfg2.N, t.val = (i 0).val / 1024 :=
    ⟨⟨(i 0).val / 1024, lt_of_lt_of_eq (show (i 0).val / 1024 < 8 by omega) hN.symm⟩, rfl⟩
  obtain ⟨-, -, -, -, e4, e5⟩ := block_indices2 t
  refine ⟨t, flush2_2 t, ?_⟩
  rw [mem_block2]
  intro a
  match a with
  | ⟨0, _⟩ =>
    show win2_2.index t (0 : Fin 2) * 1024 ≤ (i 0).val ∧ (i 0).val < win2_2.index t (0 : Fin 2) * 1024 + 1024
    omega
  | ⟨1, _⟩ =>
    show win2_2.index t (1 : Fin 2) * 128 ≤ (i 1).val ∧ (i 1).val < win2_2.index t (1 : Fin 2) * 128 + 128
    omega

/-- After the eight write-backs the output holds the reference's product. -/
theorem call2_value (c : Dev nD) :
    (data2 V c).arrAt 2 cfg2.N = refHidden (V c main_v14) (V c main_arg6) :=
  (data2 V c).arrAt_eq_of_cover 2 (refHidden (V c main_v14) (V c main_arg6)) (fun t _ => flushed2_eq V c t) cover2

end Cert.Bridge

end
-- ==== Proof.Value.Call3Value.lean ====
/- Call 3 computes the reference's `mu0 · dense_W + dense_b`, the bias given to it as a 1 × 64 row: over the extended
   reals entry (r, j) of block t is the sum over k of mu0 (1024·t + r, k) · dense_W (k, j), plus the row's entry j. -/
import proofs.«137898_j56616258896068_1_alg».proof.Proof.KernelIdeal.Call3
import proofs.«137898_j56616258896068_1_alg».proof.Proof.Value.RefOps
import proofs.«137898_j56616258896068_1_alg».proof.Proof.LibDot2
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.Bridge

open Cert.KernelIdeal Cert.KernelIdeal.Gen Cert.KernelIdeal.Calls
open Idealize.ShloMosaic Idealize.ShloMosaic.TcCoe Idealize.ShloMosaic.ValueIdx
open Idealize.SL Idealize.SL.Sem

/-! ## The two products read at an entry

The kernel's product and the reference's have their own dimension records (1024 and 8192 rows); each contracts the
left operand's second axis with the right operand's first. -/

/-- The zero offsets of a rank-2 rectangle, as a constant function. -/
theorem offsets3_zero : (![0, 0] : Fin 2 → Nat) = fun _ => 0 :=
  funext fun a => match a with | ⟨0, _⟩ => rfl | ⟨1, _⟩ => rfl

theorem kdot3_lhs_0 (i : S1024x64.Idx) (q : dot_S1024x128_S128x64_S1024x64_1_0_0_1_n_n.contr.Idx) :
    (dot_S1024x128_S128x64_S1024x64_1_0_0_1_n_n.lhsIdx i q 0).val = (i 0).val := by
  unfold DotDims.lhsIdx
  rw [dif_neg (show ¬(0 : Fin S1024x128.rank) ∈ dot_S1024x128_S128x64_S1024x64_1_0_0_1_n_n.lhsBatch by decide), dif_pos (show (0 : Fin S1024x128.rank) ∈ dot_S1024x128_S128x64_S1024x64_1_0_0_1_n_n.lhsNonContracting by decide)]
  rfl
theorem kdot3_lhs_1 (i : S1024x64.Idx) (q : dot_S1024x128_S128x64_S1024x64_1_0_0_1_n_n.contr.Idx) :
    (dot_S1024x128_S128x64_S1024x64_1_0_0_1_n_n.lhsIdx i q 1).val = (q ⟨0, by decide⟩).val :=
  dot_S1024x128_S128x64_S1024x64_1_0_0_1_n_n.lhsIdx_val_of_single rfl i q
theorem kdot3_rhs_0 (i : S1024x64.Idx) (q : dot_S1024x128_S128x64_S1024x64_1_0_0_1_n_n.contr.Idx) :
    (dot_S1024x128_S128x64_S1024x64_1_0_0_1_n_n.rhsIdx i q 0).val = (q ⟨0, by decide⟩).val :=
  dot_S1024x128_S128x64_S1024x64_1_0_0_1_n_n.rhsIdx_val_of_single rfl i q
theorem kdot3_rhs_1 (i : S1024x64.Idx) (q : dot_S1024x128_S128x64_S1024x64_1_0_0_1_n_n.contr.Idx) :
    (dot_S1024x128_S128x64_S1024x64_1_0_0_1_n_n.rhsIdx i q 1).val = (i 1).val := by
  unfold DotDims.rhsIdx
  rw [dif_neg (show ¬(1 : Fin S128x64.rank) ∈ dot_S1024x128_S128x64_S1024x64_1_0_0_1_n_n.rhsBatch by decide), dif_pos (show (1 : Fin S128x64.rank) ∈ dot_S1024x128_S128x64_S1024x64_1_0_0_1_n_n.rhsNonContracting by decide)]
  rfl

theorem rdot3_lhs_0 (i : Cert.ReferenceIdeal.S8192x64.Idx) (q : Cert.ReferenceIdeal.dot_S8192x128_S128x64_S8192x64_1_0_0_1_n_n.contr.Idx) :
    (Cert.ReferenceIdeal.dot_S8192x128_S128x64_S8192x64_1_0_0_1_n_n.lhsIdx i q 0).val = (i 0).val := by
  unfold DotDims.lhsIdx
  rw [dif_neg (show ¬(0 : Fin Cert.ReferenceIdeal.S8192x128.rank) ∈ Cert.ReferenceIdeal.dot_S8192x128_S128x64_S8192x64_1_0_0_1_n_n.lhsBatch by decide), dif_pos (show (0 : Fin Cert.ReferenceIdeal.S8192x128.rank) ∈ Cert.ReferenceIdeal.dot_S8192x128_S128x64_S8192x64_1_0_0_1_n_n.lhsNonContracting by decide)]
  rfl
theorem rdot3_lhs_1 (i : Cert.ReferenceIdeal.S8192x64.Idx) (q : Cert.ReferenceIdeal.dot_S8192x128_S128x64_S8192x64_1_0_0_1_n_n.contr.Idx) :
    (Cert.ReferenceIdeal.dot_S8192x128_S128x64_S8192x64_1_0_0_1_n_n.lhsIdx i q 1).val = (q ⟨0, by decide⟩).val :=
  Cert.ReferenceIdeal.dot_S8192x128_S128x64_S8192x64_1_0_0_1_n_n.lhsIdx_val_of_single rfl i q
theorem rdot3_rhs_0 (i : Cert.ReferenceIdeal.S8192x64.Idx) (q : Cert.ReferenceIdeal.dot_S8192x128_S128x64_S8192x64_1_0_0_1_n_n.contr.Idx) :
    (Cert.ReferenceIdeal.dot_S8192x128_S128x64_S8192x64_1_0_0_1_n_n.rhsIdx i q 0).val = (q ⟨0, by decide⟩).val :=
  Cert.ReferenceIdeal.dot_S8192x128_S128x64_S8192x64_1_0_0_1_n_n.rhsIdx_val_of_single rfl i q
theorem rdot3_rhs_1 (i : Cert.ReferenceIdeal.S8192x64.Idx) (q : Cert.ReferenceIdeal.dot_S8192x128_S128x64_S8192x64_1_0_0_1_n_n.contr.Idx) :
    (Cert.ReferenceIdeal.dot_S8192x128_S128x64_S8192x64_1_0_0_1_n_n.rhsIdx i q 1).val = (i 1).val := by
  unfold DotDims.rhsIdx
  rw [dif_neg (show ¬(1 : Fin Cert.ReferenceIdeal.S128x64.rank) ∈ Cert.ReferenceIdeal.dot_S8192x128_S128x64_S8192x64_1_0_0_1_n_n.rhsBatch by decide), dif_pos (show (1 : Fin Cert.ReferenceIdeal.S128x64.rank) ∈ Cert.ReferenceIdeal.dot_S8192x128_S128x64_S8192x64_1_0_0_1_n_n.rhsNonContracting by decide)]
  rfl

/-- The body's payload at entry (p, j): row p of the first block times column j of the second, plus entry j of the
    bias row; the change of float format is the identity over the extended reals. -/
theorem pay3_apply (x0 : Vec Ideal S1024x128 .f32) (x1 : Vec Ideal S128x64 .f32) (x2 : Vec Ideal S1x64 .f32)
    (p : Fin 1024) (j : Fin 64) :
    k3_pay1 x0 x1 x2 (ix2 p j) = (∑ a : Fin 128, x0 (ix2 p a) * x1 (ix2 a j)) + x2 (ix2 0 j) := by
  unfold k3_pay1
  rw [addf_apply]
  congr 1
  · rw [shapeCast_self]
    exact Cert.Lib.Dot2.matmul_zero_ix2 dot_S1024x128_S128x64_S1024x64_1_0_0_1_n_n none rfl rfl
      kdot3_lhs_0 kdot3_lhs_1 kdot3_rhs_0 kdot3_rhs_1 _ _ p j
  · rw [shapeCast_self]
    exact broadcastTo_apply x2 broadcasts_S1x64_S1024x64 (ix2 p j) (ix2 0 j) (fun a => match a with
      | ⟨0, _⟩ => by show 0 = if (1 : Nat) = 1 then 0 else _; rw [if_pos rfl]
      | ⟨1, _⟩ => by show j.val = if (64 : Nat) = 1 then 0 else j.val; rw [if_neg (by decide)])

/-- The reference's affine map at entry (r, j). -/
theorem ref3_apply (a : Arr S8192x128) (w : Arr S128x64) (b : Arr S1x64) (r : Fin 8192) (j : Fin 64) :
    refAffine64 a w b (ix2 r j) = (∑ k : Fin 128, a (ix2 r k) * w (ix2 k j)) + b (ix2 0 j) := by
  unfold refAffine64
  rw [addf_apply]
  congr 1
  · simp only [Host.dotGeneral]
    rw [Ideal.dotGeneral_apply]
    exact Cert.Lib.Dot2.contraction_ix2 Cert.ReferenceIdeal.dot_S8192x128_S128x64_S8192x64_1_0_0_1_n_n rfl rfl
      rdot3_lhs_0 rdot3_lhs_1 rdot3_rhs_0 rdot3_rhs_1 a w r j
  · exact broadcastInDim_apply _ Cert.ReferenceIdeal.Facts₀.bcast_S1x64_S8192x64_0_1 b (ix2 r j) (ix2 0 j) (fun a => match a with
      | ⟨0, _⟩ => by show 0 = if (1 : Nat) = 1 then 0 else _; rw [if_pos rfl]
      | ⟨1, _⟩ => by show j.val = if (64 : Nat) = 1 then 0 else j.val; rw [if_neg (by decide)])

/-- Entry y of a block's payload is entry i of the reference's map of the whole arrays, when the first block's row
    (y 0) is the first array's row (i 0), the other two blocks are the whole weight and bias, and the columns agree. -/
theorem affine3_block_point (x0 : Vec Ideal S1024x128 .f32) (x1 : Vec Ideal S128x64 .f32) (x2 : Vec Ideal S1x64 .f32)
    (a : Arr S8192x128) (w : Arr S128x64) (b : Arr S1x64) (y : S1024x64.Idx) (i : S8192x64.Idx)
    (hx0 : ∀ (u : S1024x128.Idx) (v : S8192x128.Idx), (u 0).val = (y 0).val → (v 0).val = (i 0).val → (u 1).val = (v 1).val → x0 u = a v)
    (hx1 : ∀ u, x1 u = w u) (hx2 : ∀ u, x2 u = b u) (hi1 : (i 1).val = (y 1).val) :
    k3_pay1 x0 x1 x2 y = refAffine64 a w b i := by
  obtain ⟨p, q, rfl⟩ : ∃ (p : Fin 1024) (q : Fin 64), y = ix2 p q := ⟨y 0, y 1, eq_ix2 y⟩
  obtain ⟨r, s, rfl⟩ : ∃ (r : Fin 8192) (s : Fin 64), i = ix2 r s := ⟨i 0, i 1, eq_ix2 i⟩
  obtain rfl : s = q := Fin.ext hi1
  rw [pay3_apply, ref3_apply]
  congr 1
  · exact Finset.sum_congr rfl fun k _ => by rw [hx0 (ix2 p k) (ix2 r k) rfl rfl rfl, hx1]
  · exact hx2 _

variable (V : (c : Dev nD) → (b : Ref sig .tc) → Buf (Elt Ideal) ((c : Thread nD τ).loc b))

/-! ## From the eight blocks to the array -/

/-- The printed index maps, decided over the grid: point t reads row block t of the first array and writes row block
    t of the output; the weight and the bias row are one block each. -/
theorem idx_facts3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- Every row block of the output is some point's. -/
theorem idx_onto3 : ∀ q0 : Fin 8, ∃ t : Fin cfg3.N, win3_3.index t = ![q0.val, 0] :=
  (by decide +kernel : ∀ q0 : Fin 8, ∃ t : Fin grid3.N, win3_3.index t = ![q0.val, 0])

/-- What point t writes back is block t of the reference's affine map of the three arrays as the call finds them. -/
theorem flushed3_eq (c : Dev nD) (t : Fin cfg3.N) :
    (data3 V c).flushed 3 t
      = ((cfg3.win 3).blk t).view.read (Elt Ideal) (refAffine64 (V c main_v29) (V c main_arg7) (V c main_v43)) := by
  show (cfg3.win 3).cut (grid3.coords t) ((data3 V c).after 3 t) = _
  rw [data3_after_3]
  unfold affine3
  rw [View.canon_unit_zero offsets3_zero]
  simp only [View.ld_unit_zero (S := S1024x128) offsets3_zero, View.ld_unit_zero (S := S128x64) offsets3_zero,
    View.ld_unit_zero (S := S1x64) offsets3_zero]
  obtain ⟨e00, e01, e10, e11, e20, e21, e30, e31⟩ := idx_facts3 t
  funext y
  rw [View.read_apply]
  refine affine3_block_point (blk3 V c 0 t) (blk3 V c 1 t) (blk3 V c 2 t) (V c main_v29) (V c main_arg7) (V c main_v43)
    y (((cfg3.win 3).blk t).view.emb y) ?_ ?_ ?_ ?_
  · intro u v hu hv huv
    unfold blk3
    rw [View.read_apply]
    show V c main_v29 (((cfg3.win 0).blk t).view.emb u) = V c main_v29 v
    refine congrArg _ (funext fun a => Fin.ext ?_)
    have hv' : (v 0).val = win3_3.index t (0 : Fin 2) * 1024 + 1 * (y 0).val := hv
    match a with
    | ⟨0, _⟩ => show win3_0.index t (0 : Fin 2) * 1024 + 1 * (u 0).val = (v 0).val; omega
    | ⟨1, _⟩ => show win3_0.index t (1 : Fin 2) * 128 + 1 * (u 1).val = (v 1).val; omega
  · intro u
    unfold blk3
    rw [View.read_apply]
    show V c main_arg7 (((cfg3.win 1).blk t).view.emb u) = V c main_arg7 u
    refine congrArg _ (funext fun a => Fin.ext ?_)
    match a with
    | ⟨0, _⟩ => show win3_1.index t (0 : Fin 2) * 128 + 1 * (u 0).val = (u 0).val; omega
    | ⟨1, _⟩ => show win3_1.index t (1 : Fin 2) * 64 + 1 * (u 1).val = (u 1).val; omega
  · intro u
    unfold blk3
    rw [View.read_apply]
    show V c main_v43 (((cfg3.win 2).blk t).view.emb u) = V c main_v43 u
    refine congrArg _ (funext fun a => Fin.ext ?_)
    match a with
    | ⟨0, _⟩ => show win3_2.index t (0 : Fin 2) * 1 + 1 * (u 0).val = (u 0).val; omega
    | ⟨1, _⟩ => show win3_2.index t (1 : Fin 2) * 64 + 1 * (u 1).val = (u 1).val; omega
  · show win3_3.index t (1 : Fin 2) * 64 + 1 * (y 1).val = (y 1).val
    omega

/-- An index of the output is in point t's block iff each coordinate is in the block's range on its axis. -/
theorem mem_blk3 (t : Fin cfg3.N) (i : S8192x64.Idx) :
    i ∈ ((cfg3.win 3).blk t).view.set ↔ ∀ a : Fin 2, win3_3.index t a * S1024x64.size a ≤ (i a).val ∧ (i a).val < win3_3.index t a * S1024x64.size a + S1024x64.size a := by
  show i ∈ ((View.whole main_v44).slice (win3_3.rect t)).set ↔ _
  rw [View.set_slice_whole, Rect.mem_set_unit]
  exact Iff.rfl

/-- The eight blocks cover the output: row r is in the block of point r / 1024. -/
theorem cover3 (i : S8192x64.Idx) : ∃ t : Fin cfg3.N, (cfg3.win 3).flush t = true ∧ i ∈ ((cfg3.win 3).blk t).view.set := by
  have hi0 : (i 0).val < 8192 := (i 0).isLt
  have hi1 : (i 1).val < 64 := (i 1).isLt
  obtain ⟨t, ht⟩ := idx_onto3 ⟨(i 0).val / 1024, by omega⟩
  have q0 : win3_3.index t (0 : Fin 2) = (i 0).val / 1024 := congrFun ht 0
  have q1 : win3_3.index t (1 : Fin 2) = 0 := congrFun ht 1
  refine ⟨t, flush3_3 t, ?_⟩
  rw [mem_blk3]
  intro a
  match a with
  | ⟨0, _⟩ => show win3_3.index t (0 : Fin 2) * 1024 ≤ (i 0).val ∧ (i 0).val < win3_3.index t (0 : Fin 2) * 1024 + 1024; omega
  | ⟨1, _⟩ => show win3_3.index t (1 : Fin 2) * 64 ≤ (i 1).val ∧ (i 1).val < win3_3.index t (1 : Fin 2) * 64 + 64; omega

theorem call3_value (c : Dev nD) :
    (data3 V c).arrAt 3 cfg3.N = refAffine64 (V c main_v29) (V c main_arg7) (V c main_v43) :=
  (data3 V c).arrAt_eq_of_cover 3 (refAffine64 (V c main_v29) (V c main_arg7) (V c main_v43))
    (fun t _ => flushed3_eq V c t) cover3

end Cert.Bridge

end
-- ==== Proof.Value.Call4Value.lean ====
/- Call 4 computes the reference's `logvar0 · dense_W + dense_b`, the bias given to it as a 1 × 64 row: over the extended reals entry (r, j) of block t is the sum over k of logvar0 (1024·t + r, k) · dense_W (k, j), plus the row's entry j. -/
import proofs.«137898_j56616258896068_1_alg».proof.Proof.KernelIdeal.Call4
import proofs.«137898_j56616258896068_1_alg».proof.Proof.Value.RefOps
import proofs.«137898_j56616258896068_1_alg».proof.Proof.LibDot2
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.Bridge

open Cert.KernelIdeal Cert.KernelIdeal.Gen Cert.KernelIdeal.Calls
open Idealize.ShloMosaic Idealize.ShloMosaic.TcCoe Idealize.ShloMosaic.ValueIdx
open Idealize.SL Idealize.SL.Sem

/-! ## The two products read at an entry

The kernel's product and the reference's have their own dimension records (1024 and 8192 rows); each contracts the
left operand's second axis with the right operand's first. -/

/-- The zero offsets of a rank-2 rectangle, as a constant function. -/
theorem offsets4_zero : (![0, 0] : Fin 2 → Nat) = fun _ => 0 :=
  funext fun a => match a with | ⟨0, _⟩ => rfl | ⟨1, _⟩ => rfl

theorem kdot4_lhs_0 (i : S1024x64.Idx) (q : dot_S1024x128_S128x64_S1024x64_1_0_0_1_n_n.contr.Idx) :
    (dot_S1024x128_S128x64_S1024x64_1_0_0_1_n_n.lhsIdx i q 0).val = (i 0).val := by
  unfold DotDims.lhsIdx
  rw [dif_neg (show ¬(0 : Fin S1024x128.rank) ∈ dot_S1024x128_S128x64_S1024x64_1_0_0_1_n_n.lhsBatch by decide), dif_pos (show (0 : Fin S1024x128.rank) ∈ dot_S1024x128_S128x64_S1024x64_1_0_0_1_n_n.lhsNonContracting by decide)]
  rfl
theorem kdot4_lhs_1 (i : S1024x64.Idx) (q : dot_S1024x128_S128x64_S1024x64_1_0_0_1_n_n.contr.Idx) :
    (dot_S1024x128_S128x64_S1024x64_1_0_0_1_n_n.lhsIdx i q 1).val = (q ⟨0, by decide⟩).val :=
  dot_S1024x128_S128x64_S1024x64_1_0_0_1_n_n.lhsIdx_val_of_single rfl i q
theorem kdot4_rhs_0 (i : S1024x64.Idx) (q : dot_S1024x128_S128x64_S1024x64_1_0_0_1_n_n.contr.Idx) :
    (dot_S1024x128_S128x64_S1024x64_1_0_0_1_n_n.rhsIdx i q 0).val = (q ⟨0, by decide⟩).val :=
  dot_S1024x128_S128x64_S1024x64_1_0_0_1_n_n.rhsIdx_val_of_single rfl i q
theorem kdot4_rhs_1 (i : S1024x64.Idx) (q : dot_S1024x128_S128x64_S1024x64_1_0_0_1_n_n.contr.Idx) :
    (dot_S1024x128_S128x64_S1024x64_1_0_0_1_n_n.rhsIdx i q 1).val = (i 1).val := by
  unfold DotDims.rhsIdx
  rw [dif_neg (show ¬(1 : Fin S128x64.rank) ∈ dot_S1024x128_S128x64_S1024x64_1_0_0_1_n_n.rhsBatch by decide), dif_pos (show (1 : Fin S128x64.rank) ∈ dot_S1024x128_S128x64_S1024x64_1_0_0_1_n_n.rhsNonContracting by decide)]
  rfl

theorem rdot4_lhs_0 (i : Cert.ReferenceIdeal.S8192x64.Idx) (q : Cert.ReferenceIdeal.dot_S8192x128_S128x64_S8192x64_1_0_0_1_n_n.contr.Idx) :
    (Cert.ReferenceIdeal.dot_S8192x128_S128x64_S8192x64_1_0_0_1_n_n.lhsIdx i q 0).val = (i 0).val := by
  unfold DotDims.lhsIdx
  rw [dif_neg (show ¬(0 : Fin Cert.ReferenceIdeal.S8192x128.rank) ∈ Cert.ReferenceIdeal.dot_S8192x128_S128x64_S8192x64_1_0_0_1_n_n.lhsBatch by decide), dif_pos (show (0 : Fin Cert.ReferenceIdeal.S8192x128.rank) ∈ Cert.ReferenceIdeal.dot_S8192x128_S128x64_S8192x64_1_0_0_1_n_n.lhsNonContracting by decide)]
  rfl
theorem rdot4_lhs_1 (i : Cert.ReferenceIdeal.S8192x64.Idx) (q : Cert.ReferenceIdeal.dot_S8192x128_S128x64_S8192x64_1_0_0_1_n_n.contr.Idx) :
    (Cert.ReferenceIdeal.dot_S8192x128_S128x64_S8192x64_1_0_0_1_n_n.lhsIdx i q 1).val = (q ⟨0, by decide⟩).val :=
  Cert.ReferenceIdeal.dot_S8192x128_S128x64_S8192x64_1_0_0_1_n_n.lhsIdx_val_of_single rfl i q
theorem rdot4_rhs_0 (i : Cert.ReferenceIdeal.S8192x64.Idx) (q : Cert.ReferenceIdeal.dot_S8192x128_S128x64_S8192x64_1_0_0_1_n_n.contr.Idx) :
    (Cert.ReferenceIdeal.dot_S8192x128_S128x64_S8192x64_1_0_0_1_n_n.rhsIdx i q 0).val = (q ⟨0, by decide⟩).val :=
  Cert.ReferenceIdeal.dot_S8192x128_S128x64_S8192x64_1_0_0_1_n_n.rhsIdx_val_of_single rfl i q
theorem rdot4_rhs_1 (i : Cert.ReferenceIdeal.S8192x64.Idx) (q : Cert.ReferenceIdeal.dot_S8192x128_S128x64_S8192x64_1_0_0_1_n_n.contr.Idx) :
    (Cert.ReferenceIdeal.dot_S8192x128_S128x64_S8192x64_1_0_0_1_n_n.rhsIdx i q 1).val = (i 1).val := by
  unfold DotDims.rhsIdx
  rw [dif_neg (show ¬(1 : Fin Cert.ReferenceIdeal.S128x64.rank) ∈ Cert.ReferenceIdeal.dot_S8192x128_S128x64_S8192x64_1_0_0_1_n_n.rhsBatch by decide), dif_pos (show (1 : Fin Cert.ReferenceIdeal.S128x64.rank) ∈ Cert.ReferenceIdeal.dot_S8192x128_S128x64_S8192x64_1_0_0_1_n_n.rhsNonContracting by decide)]
  rfl

/-- The body's payload at entry (p, j): row p of the first block times column j of the second, plus entry j of the
    bias row; the change of float format is the identity over the extended reals. -/
theorem pay4_apply (x0 : Vec Ideal S1024x128 .f32) (x1 : Vec Ideal S128x64 .f32) (x2 : Vec Ideal S1x64 .f32)
    (p : Fin 1024) (j : Fin 64) :
    k4_pay1 x0 x1 x2 (ix2 p j) = (∑ a : Fin 128, x0 (ix2 p a) * x1 (ix2 a j)) + x2 (ix2 0 j) := by
  unfold k4_pay1
  rw [addf_apply]
  congr 1
  · rw [shapeCast_self]
    exact Cert.Lib.Dot2.matmul_zero_ix2 dot_S1024x128_S128x64_S1024x64_1_0_0_1_n_n none rfl rfl
      kdot4_lhs_0 kdot4_lhs_1 kdot4_rhs_0 kdot4_rhs_1 _ _ p j
  · rw [shapeCast_self]
    exact broadcastTo_apply x2 broadcasts_S1x64_S1024x64 (ix2 p j) (ix2 0 j) (fun a => match a with
      | ⟨0, _⟩ => by show 0 = if (1 : Nat) = 1 then 0 else _; rw [if_pos rfl]
      | ⟨1, _⟩ => by show j.val = if (64 : Nat) = 1 then 0 else j.val; rw [if_neg (by decide)])

/-- The reference's affine map at entry (r, j). -/
theorem ref4_apply (a : Arr S8192x128) (w : Arr S128x64) (b : Arr S1x64) (r : Fin 8192) (j : Fin 64) :
    refAffine64 a w b (ix2 r j) = (∑ k : Fin 128, a (ix2 r k) * w (ix2 k j)) + b (ix2 0 j) := by
  unfold refAffine64
  rw [addf_apply]
  congr 1
  · simp only [Host.dotGeneral]
    rw [Ideal.dotGeneral_apply]
    exact Cert.Lib.Dot2.contraction_ix2 Cert.ReferenceIdeal.dot_S8192x128_S128x64_S8192x64_1_0_0_1_n_n rfl rfl
      rdot4_lhs_0 rdot4_lhs_1 rdot4_rhs_0 rdot4_rhs_1 a w r j
  · exact broadcastInDim_apply _ Cert.ReferenceIdeal.Facts₀.bcast_S1x64_S8192x64_0_1 b (ix2 r j) (ix2 0 j) (fun a => match a with
      | ⟨0, _⟩ => by show 0 = if (1 : Nat) = 1 then 0 else _; rw [if_pos rfl]
      | ⟨1, _⟩ => by show j.val = if (64 : Nat) = 1 then 0 else j.val; rw [if_neg (by decide)])

/-- Entry y of a block's payload is entry i of the reference's map of the whole arrays, when the first block's row
    (y 0) is the first array's row (i 0), the other two blocks are the whole weight and bias, and the columns agree. -/
theorem affine4_block_point (x0 : Vec Ideal S1024x128 .f32) (x1 : Vec Ideal S128x64 .f32) (x2 : Vec Ideal S1x64 .f32)
    (a : Arr S8192x128) (w : Arr S128x64) (b : Arr S1x64) (y : S1024x64.Idx) (i : S8192x64.Idx)
    (hx0 : ∀ (u : S1024x128.Idx) (v : S8192x128.Idx), (u 0).val = (y 0).val → (v 0).val = (i 0).val → (u 1).val = (v 1).val → x0 u = a v)
    (hx1 : ∀ u, x1 u = w u) (hx2 : ∀ u, x2 u = b u) (hi1 : (i 1).val = (y 1).val) :
    k4_pay1 x0 x1 x2 y = refAffine64 a w b i := by
  obtain ⟨p, q, rfl⟩ : ∃ (p : Fin 1024) (q : Fin 64), y = ix2 p q := ⟨y 0, y 1, eq_ix2 y⟩
  obtain ⟨r, s, rfl⟩ : ∃ (r : Fin 8192) (s : Fin 64), i = ix2 r s := ⟨i 0, i 1, eq_ix2 i⟩
  obtain rfl : s = q := Fin.ext hi1
  rw [pay4_apply, ref4_apply]
  congr 1
  · exact Finset.sum_congr rfl fun k _ => by rw [hx0 (ix2 p k) (ix2 r k) rfl rfl rfl, hx1]
  · exact hx2 _

variable (V : (c : Dev nD) → (b : Ref sig .tc) → Buf (Elt Ideal) ((c : Thread nD τ).loc b))

/-! ## From the eight blocks to the array -/

/-- The printed index maps, decided over the grid: point t reads row block t of the first array and writes row block
    t of the output; the weight and the bias row are one block each. -/
theorem idx_facts4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

/-- Every row block of the output is some point's. -/
theorem idx_onto4 : ∀ q0 : Fin 8, ∃ t : Fin cfg4.N, win4_3.index t = ![q0.val, 0] :=
  (by decide +kernel : ∀ q0 : Fin 8, ∃ t : Fin grid4.N, win4_3.index t = ![q0.val, 0])

/-- What point t writes back is block t of the reference's affine map of the three arrays as the call finds them. -/
theorem flushed4_eq (c : Dev nD) (t : Fin cfg4.N) :
    (data4 V c).flushed 3 t
      = ((cfg4.win 3).blk t).view.read (Elt Ideal) (refAffine64 (V c main_v42) (V c main_arg7) (V c main_v45)) := by
  show (cfg4.win 3).cut (grid4.coords t) ((data4 V c).after 3 t) = _
  rw [data4_after_3]
  unfold affine4
  rw [View.canon_unit_zero offsets4_zero]
  simp only [View.ld_unit_zero (S := S1024x128) offsets4_zero, View.ld_unit_zero (S := S128x64) offsets4_zero,
    View.ld_unit_zero (S := S1x64) offsets4_zero]
  obtain ⟨e00, e01, e10, e11, e20, e21, e30, e31⟩ := idx_facts4 t
  funext y
  rw [View.read_apply]
  refine affine4_block_point (blk4 V c 0 t) (blk4 V c 1 t) (blk4 V c 2 t) (V c main_v42) (V c main_arg7) (V c main_v45)
    y (((cfg4.win 3).blk t).view.emb y) ?_ ?_ ?_ ?_
  · intro u v hu hv huv
    unfold blk4
    rw [View.read_apply]
    show V c main_v42 (((cfg4.win 0).blk t).view.emb u) = V c main_v42 v
    refine congrArg _ (funext fun a => Fin.ext ?_)
    have hv' : (v 0).val = win4_3.index t (0 : Fin 2) * 1024 + 1 * (y 0).val := hv
    match a with
    | ⟨0, _⟩ => show win4_0.index t (0 : Fin 2) * 1024 + 1 * (u 0).val = (v 0).val; omega
    | ⟨1, _⟩ => show win4_0.index t (1 : Fin 2) * 128 + 1 * (u 1).val = (v 1).val; omega
  · intro u
    unfold blk4
    rw [View.read_apply]
    show V c main_arg7 (((cfg4.win 1).blk t).view.emb u) = V c main_arg7 u
    refine congrArg _ (funext fun a => Fin.ext ?_)
    match a with
    | ⟨0, _⟩ => show win4_1.index t (0 : Fin 2) * 128 + 1 * (u 0).val = (u 0).val; omega
    | ⟨1, _⟩ => show win4_1.index t (1 : Fin 2) * 64 + 1 * (u 1).val = (u 1).val; omega
  · intro u
    unfold blk4
    rw [View.read_apply]
    show V c main_v45 (((cfg4.win 2).blk t).view.emb u) = V c main_v45 u
    refine congrArg _ (funext fun a => Fin.ext ?_)
    match a with
    | ⟨0, _⟩ => show win4_2.index t (0 : Fin 2) * 1 + 1 * (u 0).val = (u 0).val; omega
    | ⟨1, _⟩ => show win4_2.index t (1 : Fin 2) * 64 + 1 * (u 1).val = (u 1).val; omega
  · show win4_3.index t (1 : Fin 2) * 64 + 1 * (y 1).val = (y 1).val
    omega

/-- An index of the output is in point t's block iff each coordinate is in the block's range on its axis. -/
theorem mem_blk4 (t : Fin cfg4.N) (i : S8192x64.Idx) :
    i ∈ ((cfg4.win 3).blk t).view.set ↔ ∀ a : Fin 2, win4_3.index t a * S1024x64.size a ≤ (i a).val ∧ (i a).val < win4_3.index t a * S1024x64.size a + S1024x64.size a := by
  show i ∈ ((View.whole main_v46).slice (win4_3.rect t)).set ↔ _
  rw [View.set_slice_whole, Rect.mem_set_unit]
  exact Iff.rfl

/-- The eight blocks cover the output: row r is in the block of point r / 1024. -/
theorem cover4 (i : S8192x64.Idx) : ∃ t : Fin cfg4.N, (cfg4.win 3).flush t = true ∧ i ∈ ((cfg4.win 3).blk t).view.set := by
  have hi0 : (i 0).val < 8192 := (i 0).isLt
  have hi1 : (i 1).val < 64 := (i 1).isLt
  obtain ⟨t, ht⟩ := idx_onto4 ⟨(i 0).val / 1024, by omega⟩
  have q0 : win4_3.index t (0 : Fin 2) = (i 0).val / 1024 := congrFun ht 0
  have q1 : win4_3.index t (1 : Fin 2) = 0 := congrFun ht 1
  refine ⟨t, flush4_3 t, ?_⟩
  rw [mem_blk4]
  intro a
  match a with
  | ⟨0, _⟩ => show win4_3.index t (0 : Fin 2) * 1024 ≤ (i 0).val ∧ (i 0).val < win4_3.index t (0 : Fin 2) * 1024 + 1024; omega
  | ⟨1, _⟩ => show win4_3.index t (1 : Fin 2) * 64 ≤ (i 1).val ∧ (i 1).val < win4_3.index t (1 : Fin 2) * 64 + 64; omega

theorem call4_value (c : Dev nD) :
    (data4 V c).arrAt 3 cfg4.N = refAffine64 (V c main_v42) (V c main_arg7) (V c main_v45) :=
  (data4 V c).arrAt_eq_of_cover 3 (refAffine64 (V c main_v42) (V c main_arg7) (V c main_v45))
    (fun t _ => flushed4_eq V c t) cover4

end Cert.Bridge

end
-- ==== Proof.Value.Call5Value.lean ====
/- Call 5 computes the reference's `z · zᵀ`: over the extended reals the sixty-four tiles it writes back make up that
   product entry by entry. Entry (r, s) of tile (i, j) is the sum over k of z (1024·i + r, k) · z (1024·j + s, k): the
   body's product of the first block with the transpose of the second; the reference contracts z with its transpose. -/
import proofs.«137898_j56616258896068_1_alg».proof.Proof.KernelIdeal.Call5
import proofs.«137898_j56616258896068_1_alg».proof.Proof.Value.RefOps
import proofs.«137898_j56616258896068_1_alg».proof.Proof.LibDot2
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.Bridge

open Cert.KernelIdeal Cert.KernelIdeal.Gen Cert.KernelIdeal.Calls
open Idealize.ShloMosaic Idealize.ShloMosaic.TcCoe Idealize.ShloMosaic.ValueIdx
open Idealize.SL Idealize.SL.Sem

/-! ## The two contractions' coordinate facts

Each record contracts the left operand's second axis with the right operand's first: the left index takes the
output's row and the contraction index, the right index the contraction index and the output's column. -/

theorem lhs_tile_0 (i : S1024x1024.Idx) (q : dot_S1024x64_S64x1024_S1024x1024_1_0_0_1_n_n.contr.Idx) :
    (dot_S1024x64_S64x1024_S1024x1024_1_0_0_1_n_n.lhsIdx i q 0).val = (i 0).val := by
  unfold DotDims.lhsIdx
  rw [dif_neg (show ¬(0 : Fin S1024x64.rank) ∈ dot_S1024x64_S64x1024_S1024x1024_1_0_0_1_n_n.lhsBatch by decide), dif_pos (show (0 : Fin S1024x64.rank) ∈ dot_S1024x64_S64x1024_S1024x1024_1_0_0_1_n_n.lhsNonContracting by decide)]
  rfl
theorem lhs_tile_1 (i : S1024x1024.Idx) (q : dot_S1024x64_S64x1024_S1024x1024_1_0_0_1_n_n.contr.Idx) :
    (dot_S1024x64_S64x1024_S1024x1024_1_0_0_1_n_n.lhsIdx i q 1).val = (q ⟨0, by decide⟩).val :=
  dot_S1024x64_S64x1024_S1024x1024_1_0_0_1_n_n.lhsIdx_val_of_single rfl i q
theorem rhs_tile_0 (i : S1024x1024.Idx) (q : dot_S1024x64_S64x1024_S1024x1024_1_0_0_1_n_n.contr.Idx) :
    (dot_S1024x64_S64x1024_S1024x1024_1_0_0_1_n_n.rhsIdx i q 0).val = (q ⟨0, by decide⟩).val :=
  dot_S1024x64_S64x1024_S1024x1024_1_0_0_1_n_n.rhsIdx_val_of_single rfl i q
theorem rhs_tile_1 (i : S1024x1024.Idx) (q : dot_S1024x64_S64x1024_S1024x1024_1_0_0_1_n_n.contr.Idx) :
    (dot_S1024x64_S64x1024_S1024x1024_1_0_0_1_n_n.rhsIdx i q 1).val = (i 1).val := by
  unfold DotDims.rhsIdx
  rw [dif_neg (show ¬(1 : Fin S64x1024.rank) ∈ dot_S1024x64_S64x1024_S1024x1024_1_0_0_1_n_n.rhsBatch by decide), dif_pos (show (1 : Fin S64x1024.rank) ∈ dot_S1024x64_S64x1024_S1024x1024_1_0_0_1_n_n.rhsNonContracting by decide)]
  rfl

theorem lhs_gram_0 (i : Cert.ReferenceIdeal.S8192x8192.Idx) (q : Cert.ReferenceIdeal.dot_S8192x64_S64x8192_S8192x8192_1_0_0_1_n_n.contr.Idx) :
    (Cert.ReferenceIdeal.dot_S8192x64_S64x8192_S8192x8192_1_0_0_1_n_n.lhsIdx i q 0).val = (i 0).val := by
  unfold DotDims.lhsIdx
  rw [dif_neg (show ¬(0 : Fin Cert.ReferenceIdeal.S8192x64.rank) ∈ Cert.ReferenceIdeal.dot_S8192x64_S64x8192_S8192x8192_1_0_0_1_n_n.lhsBatch by decide), dif_pos (show (0 : Fin Cert.ReferenceIdeal.S8192x64.rank) ∈ Cert.ReferenceIdeal.dot_S8192x64_S64x8192_S8192x8192_1_0_0_1_n_n.lhsNonContracting by decide)]
  rfl
theorem lhs_gram_1 (i : Cert.ReferenceIdeal.S8192x8192.Idx) (q : Cert.ReferenceIdeal.dot_S8192x64_S64x8192_S8192x8192_1_0_0_1_n_n.contr.Idx) :
    (Cert.ReferenceIdeal.dot_S8192x64_S64x8192_S8192x8192_1_0_0_1_n_n.lhsIdx i q 1).val = (q ⟨0, by decide⟩).val :=
  Cert.ReferenceIdeal.dot_S8192x64_S64x8192_S8192x8192_1_0_0_1_n_n.lhsIdx_val_of_single rfl i q
theorem rhs_gram_0 (i : Cert.ReferenceIdeal.S8192x8192.Idx) (q : Cert.ReferenceIdeal.dot_S8192x64_S64x8192_S8192x8192_1_0_0_1_n_n.contr.Idx) :
    (Cert.ReferenceIdeal.dot_S8192x64_S64x8192_S8192x8192_1_0_0_1_n_n.rhsIdx i q 0).val = (q ⟨0, by decide⟩).val :=
  Cert.ReferenceIdeal.dot_S8192x64_S64x8192_S8192x8192_1_0_0_1_n_n.rhsIdx_val_of_single rfl i q
theorem rhs_gram_1 (i : Cert.ReferenceIdeal.S8192x8192.Idx) (q : Cert.ReferenceIdeal.dot_S8192x64_S64x8192_S8192x8192_1_0_0_1_n_n.contr.Idx) :
    (Cert.ReferenceIdeal.dot_S8192x64_S64x8192_S8192x8192_1_0_0_1_n_n.rhsIdx i q 1).val = (i 1).val := by
  unfold DotDims.rhsIdx
  rw [dif_neg (show ¬(1 : Fin Cert.ReferenceIdeal.S64x8192.rank) ∈ Cert.ReferenceIdeal.dot_S8192x64_S64x8192_S8192x8192_1_0_0_1_n_n.rhsBatch by decide), dif_pos (show (1 : Fin Cert.ReferenceIdeal.S64x8192.rank) ∈ Cert.ReferenceIdeal.dot_S8192x64_S64x8192_S8192x8192_1_0_0_1_n_n.rhsNonContracting by decide)]
  rfl

/-! ## The two products, entry by entry -/

/-- The body's payload at (p, q): row p of the first block against row q of the second. A change of float format is
    the identity on extended reals, a shape cast to the same shape is the identity, and the transpose swaps the two
    coordinates. -/
theorem tile_apply (x0 x1 : Vec Ideal S1024x64 .f32) (p q : Fin 1024) :
    k5_pay1 x0 x1 (ix2 p q) = ∑ a : Fin 64, (x0 (ix2 p a) : EReal) * (x1 (ix2 q a) : EReal) := by
  unfold k5_pay1
  refine (Cert.Lib.Dot2.matmul_zero_ix2 dot_S1024x64_S64x1024_S1024x1024_1_0_0_1_n_n none rfl rfl
    lhs_tile_0 lhs_tile_1 rhs_tile_0 rhs_tile_1 _ _ p q).trans ?_
  refine Finset.sum_congr rfl fun a _ => ?_
  congr 1
  · exact congrFun (shapeCast_self x0 shapeCasts_S1024x64_S1024x64) (ix2 p a)
  · refine (transpose_apply [1, 0] _ transposes_S1024x64_p1_0_S64x1024 (ix2 a q) (ix2 q a) (fun b => match b with
      | ⟨0, _⟩ => rfl
      | ⟨1, _⟩ => rfl)).trans ?_
    exact congrFun (shapeCast_self x1 shapeCasts_S1024x64_S1024x64) (ix2 q a)

/-- The reference's product at (r, s): row r of z against row s of z. -/
theorem gram_apply (z : Arr Cert.ReferenceIdeal.S8192x64) (r s : Fin 8192) :
    refGram z (ix2 r s) = ∑ a : Fin 64, (z (ix2 r a) : EReal) * (z (ix2 s a) : EReal) := by
  unfold refGram
  simp only [Host.dotGeneral]
  rw [Ideal.dotGeneral_apply]
  refine (Cert.Lib.Dot2.contraction_ix2 Cert.ReferenceIdeal.dot_S8192x64_S64x8192_S8192x8192_1_0_0_1_n_n rfl rfl
    lhs_gram_0 lhs_gram_1 rhs_gram_0 rhs_gram_1 z _ r s).trans ?_
  refine Finset.sum_congr rfl fun a _ => ?_
  congr 1
  exact transpose_apply [1, 0] z Cert.ReferenceIdeal.Facts₀.transposes_S8192x64_S64x8192_1_0 (ix2 a s) (ix2 s a) (fun b => match b with
    | ⟨0, _⟩ => rfl
    | ⟨1, _⟩ => rfl)

/-- A tile's entry is the whole product's entry wherever the first block's row is z's row of that entry and the
    second block's row is z's row named by the entry's column. -/
theorem tile_entry (z : Arr Cert.ReferenceIdeal.S8192x64) (x0 x1 : Vec Ideal S1024x64 .f32)
    (p q : Fin 1024) (r s : Fin 8192)
    (h0 : ∀ a : Fin 64, x0 (ix2 p a) = z (ix2 r a)) (h1 : ∀ a : Fin 64, x1 (ix2 q a) = z (ix2 s a)) :
    k5_pay1 x0 x1 (ix2 p q) = refGram z (ix2 r s) := by
  rw [tile_apply, gram_apply]
  exact Finset.sum_congr rfl fun a _ => by rw [h0, h1]

/-! ## From the sixty-four tiles to the array -/

theorem zero_offsets : (![0, 0] : Fin 2 → Nat) = fun _ => 0 := funext fun a => match a with
  | ⟨0, _⟩ => rfl
  | ⟨1, _⟩ => rfl

/-- The three index maps over the 8 × 8 grid: the first window's row block is the output's row block, the second
    window's row block is the output's column block, neither input window moves along its columns, and the output's
    block indices are below 8. -/
theorem index_maps : ∀ t : Fin cfg5.N, win5_0.index t (0 : Fin 2) = win5_2.index t (0 : Fin 2)
    ∧ win5_0.index t (1 : Fin 2) = 0
    ∧ win5_1.index t (0 : Fin 2) = win5_2.index t (1 : Fin 2)
    ∧ win5_1.index t (1 : Fin 2) = 0
    ∧ win5_2.index t (0 : Fin 2) ≤ 7 ∧ win5_2.index t (1 : Fin 2) ≤ 7 :=
  (by decide +kernel : ∀ t : Fin grid5.N, _)

/-- Every tile of the output is some point's. -/
theorem tiles_onto : ∀ (q0 : Fin 8) (q1 : Fin 8), ∃ t : Fin cfg5.N, win5_2.index t = ![q0.val, q1.val] :=
  (by decide +kernel : ∀ (q0 : Fin 8) (q1 : Fin 8), ∃ t : Fin grid5.N, win5_2.index t = ![q0.val, q1.val])

variable (V : (c : Dev nD) → (b : Ref sig .tc) → Buf (Elt Ideal) ((c : Thread nD τ).loc b))

/-- What point `t` writes back is tile `t` of `z · zᵀ`. -/
theorem flushed5_eq (c : Dev nD) (t : Fin cfg5.N) :
    (data5 V c).flushed 2 t = ((cfg5.win 2).blk t).view.read (Elt Ideal) (refGram (V c main_v44)) := by
  show (cfg5.win 2).cut (grid5.coords t) ((data5 V c).after 2 t) = _
  rw [data5_after_2]
  unfold prod5
  rw [View.canon_unit_zero zero_offsets]
  simp only [View.ld_unit_zero (S := S1024x64) zero_offsets]
  obtain ⟨e0, e1, e2, e3, e4, e5⟩ := index_maps t
  funext j
  show k5_pay1 (blk5 V c 0 t) (blk5 V c 1 t) j = refGram (V c main_v44) (((cfg5.win 2).blk t).view.emb j)
  obtain ⟨p, q, rfl⟩ : ∃ (p : Fin 1024) (q : Fin 1024), j = ix2 p q := ⟨j 0, j 1, eq_ix2 j⟩
  have hp : p.val < 1024 := p.isLt
  have hq : q.val < 1024 := q.isLt
  refine (tile_entry (V c main_v44) _ _ p q ⟨win5_2.index t (0 : Fin 2) * 1024 + p.val, by omega⟩
    ⟨win5_2.index t (1 : Fin 2) * 1024 + q.val, by omega⟩ (fun a => ?_) (fun a => ?_)).trans ?_
  · show V c main_v44 (((cfg5.win 0).blk t).view.emb (ix2 p a)) = V c main_v44 _
    refine congrArg _ (funext fun b => Fin.ext ?_)
    match b with
    | ⟨0, _⟩ => show win5_0.index t (0 : Fin 2) * 1024 + 1 * p.val = win5_2.index t (0 : Fin 2) * 1024 + p.val; omega
    | ⟨1, _⟩ => show win5_0.index t (1 : Fin 2) * 64 + 1 * a.val = a.val; omega
  · show V c main_v44 (((cfg5.win 1).blk t).view.emb (ix2 q a)) = V c main_v44 _
    refine congrArg _ (funext fun b => Fin.ext ?_)
    match b with
    | ⟨0, _⟩ => show win5_1.index t (0 : Fin 2) * 1024 + 1 * q.val = win5_2.index t (1 : Fin 2) * 1024 + q.val; omega
    | ⟨1, _⟩ => show win5_1.index t (1 : Fin 2) * 64 + 1 * a.val = a.val; omega
  · refine congrArg _ (funext fun b => Fin.ext ?_)
    match b with
    | ⟨0, _⟩ => show win5_2.index t (0 : Fin 2) * 1024 + p.val = win5_2.index t (0 : Fin 2) * 1024 + 1 * p.val; omega
    | ⟨1, _⟩ => show win5_2.index t (1 : Fin 2) * 1024 + q.val = win5_2.index t (1 : Fin 2) * 1024 + 1 * q.val; omega

/-- An index of the output is in point `t`'s tile iff each coordinate is in the tile's range on its axis. -/
theorem mem_tile (t : Fin cfg5.N) (i : S8192x8192.Idx) :
    i ∈ ((cfg5.win 2).blk t).view.set ↔ ∀ a : Fin 2, win5_2.index t a * S1024x1024.size a ≤ (i a).val ∧ (i a).val < win5_2.index t a * S1024x1024.size a + S1024x1024.size a := by
  show i ∈ ((View.whole main_v47).slice (win5_2.rect t)).set ↔ _
  rw [View.set_slice_whole, Rect.mem_set_unit]
  exact Iff.rfl

/-- The sixty-four tiles cover the output: entry (r, s) is in the tile of the point whose block indices are
    r / 1024 and s / 1024. -/
theorem tiles_cover (i : S8192x8192.Idx) :
    ∃ t : Fin cfg5.N, (cfg5.win 2).flush t = true ∧ i ∈ ((cfg5.win 2).blk t).view.set := by
  have hi0 : (i 0).val < 8192 := (i 0).isLt
  have hi1 : (i 1).val < 8192 := (i 1).isLt
  obtain ⟨t, ht⟩ := tiles_onto ⟨(i 0).val / 1024, by omega⟩ ⟨(i 1).val / 1024, by omega⟩
  have q0 : win5_2.index t (0 : Fin 2) = (i 0).val / 1024 := congrFun ht 0
  have q1 : win5_2.index t (1 : Fin 2) = (i 1).val / 1024 := congrFun ht 1
  refine ⟨t, flush5_2 t, ?_⟩
  rw [mem_tile]
  intro a
  match a with
  | ⟨0, _⟩ => show win5_2.index t (0 : Fin 2) * 1024 ≤ (i 0).val ∧ (i 0).val < win5_2.index t (0 : Fin 2) * 1024 + 1024; omega
  | ⟨1, _⟩ => show win5_2.index t (1 : Fin 2) * 1024 ≤ (i 1).val ∧ (i 1).val < win5_2.index t (1 : Fin 2) * 1024 + 1024; omega

theorem call5_value (c : Dev nD) :
    (data5 V c).arrAt 2 cfg5.N = refGram (V c main_v44) := by
  exact (data5 V c).arrAt_eq_of_cover 2 (refGram (V c main_v44)) (fun t _ => flushed5_eq V c t) tiles_cover

end Cert.Bridge

end
-- ==== Proof.Value.Call6Value.lean ====
/- Call 6 computes the reference's `z · dense1_W + dense1_b`, the bias given to it as a 1 × 6 row: over the extended reals entry (r, j) of block t is the sum over k of z (1024·t + r, k) · dense1_W (k, j), plus the row's entry j. -/
import proofs.«137898_j56616258896068_1_alg».proof.Proof.KernelIdeal.Call6
import proofs.«137898_j56616258896068_1_alg».proof.Proof.Value.RefOps
import proofs.«137898_j56616258896068_1_alg».proof.Proof.LibDot2
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.Bridge

open Cert.KernelIdeal Cert.KernelIdeal.Gen Cert.KernelIdeal.Calls
open Idealize.ShloMosaic Idealize.ShloMosaic.TcCoe Idealize.ShloMosaic.ValueIdx
open Idealize.SL Idealize.SL.Sem

/-! ## The two products read at an entry

The kernel's product and the reference's have their own dimension records (1024 and 8192 rows); each contracts the
left operand's second axis with the right operand's first. -/

/-- The zero offsets of a rank-2 rectangle, as a constant function. -/
theorem offsets6_zero : (![0, 0] : Fin 2 → Nat) = fun _ => 0 :=
  funext fun a => match a with | ⟨0, _⟩ => rfl | ⟨1, _⟩ => rfl

theorem kdot6_lhs_0 (i : S1024x6.Idx) (q : dot_S1024x64_S64x6_S1024x6_1_0_0_1_n_n.contr.Idx) :
    (dot_S1024x64_S64x6_S1024x6_1_0_0_1_n_n.lhsIdx i q 0).val = (i 0).val := by
  unfold DotDims.lhsIdx
  rw [dif_neg (show ¬(0 : Fin S1024x64.rank) ∈ dot_S1024x64_S64x6_S1024x6_1_0_0_1_n_n.lhsBatch by decide), dif_pos (show (0 : Fin S1024x64.rank) ∈ dot_S1024x64_S64x6_S1024x6_1_0_0_1_n_n.lhsNonContracting by decide)]
  rfl
theorem kdot6_lhs_1 (i : S1024x6.Idx) (q : dot_S1024x64_S64x6_S1024x6_1_0_0_1_n_n.contr.Idx) :
    (dot_S1024x64_S64x6_S1024x6_1_0_0_1_n_n.lhsIdx i q 1).val = (q ⟨0, by decide⟩).val :=
  dot_S1024x64_S64x6_S1024x6_1_0_0_1_n_n.lhsIdx_val_of_single rfl i q
theorem kdot6_rhs_0 (i : S1024x6.Idx) (q : dot_S1024x64_S64x6_S1024x6_1_0_0_1_n_n.contr.Idx) :
    (dot_S1024x64_S64x6_S1024x6_1_0_0_1_n_n.rhsIdx i q 0).val = (q ⟨0, by decide⟩).val :=
  dot_S1024x64_S64x6_S1024x6_1_0_0_1_n_n.rhsIdx_val_of_single rfl i q
theorem kdot6_rhs_1 (i : S1024x6.Idx) (q : dot_S1024x64_S64x6_S1024x6_1_0_0_1_n_n.contr.Idx) :
    (dot_S1024x64_S64x6_S1024x6_1_0_0_1_n_n.rhsIdx i q 1).val = (i 1).val := by
  unfold DotDims.rhsIdx
  rw [dif_neg (show ¬(1 : Fin S64x6.rank) ∈ dot_S1024x64_S64x6_S1024x6_1_0_0_1_n_n.rhsBatch by decide), dif_pos (show (1 : Fin S64x6.rank) ∈ dot_S1024x64_S64x6_S1024x6_1_0_0_1_n_n.rhsNonContracting by decide)]
  rfl

theorem rdot6_lhs_0 (i : Cert.ReferenceIdeal.S8192x6.Idx) (q : Cert.ReferenceIdeal.dot_S8192x64_S64x6_S8192x6_1_0_0_1_n_n.contr.Idx) :
    (Cert.ReferenceIdeal.dot_S8192x64_S64x6_S8192x6_1_0_0_1_n_n.lhsIdx i q 0).val = (i 0).val := by
  unfold DotDims.lhsIdx
  rw [dif_neg (show ¬(0 : Fin Cert.ReferenceIdeal.S8192x64.rank) ∈ Cert.ReferenceIdeal.dot_S8192x64_S64x6_S8192x6_1_0_0_1_n_n.lhsBatch by decide), dif_pos (show (0 : Fin Cert.ReferenceIdeal.S8192x64.rank) ∈ Cert.ReferenceIdeal.dot_S8192x64_S64x6_S8192x6_1_0_0_1_n_n.lhsNonContracting by decide)]
  rfl
theorem rdot6_lhs_1 (i : Cert.ReferenceIdeal.S8192x6.Idx) (q : Cert.ReferenceIdeal.dot_S8192x64_S64x6_S8192x6_1_0_0_1_n_n.contr.Idx) :
    (Cert.ReferenceIdeal.dot_S8192x64_S64x6_S8192x6_1_0_0_1_n_n.lhsIdx i q 1).val = (q ⟨0, by decide⟩).val :=
  Cert.ReferenceIdeal.dot_S8192x64_S64x6_S8192x6_1_0_0_1_n_n.lhsIdx_val_of_single rfl i q
theorem rdot6_rhs_0 (i : Cert.ReferenceIdeal.S8192x6.Idx) (q : Cert.ReferenceIdeal.dot_S8192x64_S64x6_S8192x6_1_0_0_1_n_n.contr.Idx) :
    (Cert.ReferenceIdeal.dot_S8192x64_S64x6_S8192x6_1_0_0_1_n_n.rhsIdx i q 0).val = (q ⟨0, by decide⟩).val :=
  Cert.ReferenceIdeal.dot_S8192x64_S64x6_S8192x6_1_0_0_1_n_n.rhsIdx_val_of_single rfl i q
theorem rdot6_rhs_1 (i : Cert.ReferenceIdeal.S8192x6.Idx) (q : Cert.ReferenceIdeal.dot_S8192x64_S64x6_S8192x6_1_0_0_1_n_n.contr.Idx) :
    (Cert.ReferenceIdeal.dot_S8192x64_S64x6_S8192x6_1_0_0_1_n_n.rhsIdx i q 1).val = (i 1).val := by
  unfold DotDims.rhsIdx
  rw [dif_neg (show ¬(1 : Fin Cert.ReferenceIdeal.S64x6.rank) ∈ Cert.ReferenceIdeal.dot_S8192x64_S64x6_S8192x6_1_0_0_1_n_n.rhsBatch by decide), dif_pos (show (1 : Fin Cert.ReferenceIdeal.S64x6.rank) ∈ Cert.ReferenceIdeal.dot_S8192x64_S64x6_S8192x6_1_0_0_1_n_n.rhsNonContracting by decide)]
  rfl

/-- The body's payload at entry (p, j): row p of the first block times column j of the second, plus entry j of the
    bias row; the change of float format is the identity over the extended reals. -/
theorem pay6_apply (x0 : Vec Ideal S1024x64 .f32) (x1 : Vec Ideal S64x6 .f32) (x2 : Vec Ideal S1x6 .f32)
    (p : Fin 1024) (j : Fin 6) :
    k6_pay1 x0 x1 x2 (ix2 p j) = (∑ a : Fin 64, x0 (ix2 p a) * x1 (ix2 a j)) + x2 (ix2 0 j) := by
  unfold k6_pay1
  rw [addf_apply]
  congr 1
  · rw [shapeCast_self]
    exact Cert.Lib.Dot2.matmul_zero_ix2 dot_S1024x64_S64x6_S1024x6_1_0_0_1_n_n none rfl rfl
      kdot6_lhs_0 kdot6_lhs_1 kdot6_rhs_0 kdot6_rhs_1 _ _ p j
  · rw [shapeCast_self]
    exact broadcastTo_apply x2 broadcasts_S1x6_S1024x6 (ix2 p j) (ix2 0 j) (fun a => match a with
      | ⟨0, _⟩ => by show 0 = if (1 : Nat) = 1 then 0 else _; rw [if_pos rfl]
      | ⟨1, _⟩ => by show j.val = if (6 : Nat) = 1 then 0 else j.val; rw [if_neg (by decide)])

/-- The reference's affine map at entry (r, j). -/
theorem ref6_apply (a : Arr S8192x64) (w : Arr S64x6) (b : Arr S1x6) (r : Fin 8192) (j : Fin 6) :
    refAffine6 a w b (ix2 r j) = (∑ k : Fin 64, a (ix2 r k) * w (ix2 k j)) + b (ix2 0 j) := by
  unfold refAffine6
  rw [addf_apply]
  congr 1
  · simp only [Host.dotGeneral]
    rw [Ideal.dotGeneral_apply]
    exact Cert.Lib.Dot2.contraction_ix2 Cert.ReferenceIdeal.dot_S8192x64_S64x6_S8192x6_1_0_0_1_n_n rfl rfl
      rdot6_lhs_0 rdot6_lhs_1 rdot6_rhs_0 rdot6_rhs_1 a w r j
  · exact broadcastInDim_apply _ Cert.ReferenceIdeal.Facts₀.bcast_S1x6_S8192x6_0_1 b (ix2 r j) (ix2 0 j) (fun a => match a with
      | ⟨0, _⟩ => by show 0 = if (1 : Nat) = 1 then 0 else _; rw [if_pos rfl]
      | ⟨1, _⟩ => by show j.val = if (6 : Nat) = 1 then 0 else j.val; rw [if_neg (by decide)])

/-- Entry y of a block's payload is entry i of the reference's map of the whole arrays, when the first block's row
    (y 0) is the first array's row (i 0), the other two blocks are the whole weight and bias, and the columns agree. -/
theorem affine6_block_point (x0 : Vec Ideal S1024x64 .f32) (x1 : Vec Ideal S64x6 .f32) (x2 : Vec Ideal S1x6 .f32)
    (a : Arr S8192x64) (w : Arr S64x6) (b : Arr S1x6) (y : S1024x6.Idx) (i : S8192x6.Idx)
    (hx0 : ∀ (u : S1024x64.Idx) (v : S8192x64.Idx), (u 0).val = (y 0).val → (v 0).val = (i 0).val → (u 1).val = (v 1).val → x0 u = a v)
    (hx1 : ∀ u, x1 u = w u) (hx2 : ∀ u, x2 u = b u) (hi1 : (i 1).val = (y 1).val) :
    k6_pay1 x0 x1 x2 y = refAffine6 a w b i := by
  obtain ⟨p, q, rfl⟩ : ∃ (p : Fin 1024) (q : Fin 6), y = ix2 p q := ⟨y 0, y 1, eq_ix2 y⟩
  obtain ⟨r, s, rfl⟩ : ∃ (r : Fin 8192) (s : Fin 6), i = ix2 r s := ⟨i 0, i 1, eq_ix2 i⟩
  obtain rfl : s = q := Fin.ext hi1
  rw [pay6_apply, ref6_apply]
  congr 1
  · exact Finset.sum_congr rfl fun k _ => by rw [hx0 (ix2 p k) (ix2 r k) rfl rfl rfl, hx1]
  · exact hx2 _

variable (V : (c : Dev nD) → (b : Ref sig .tc) → Buf (Elt Ideal) ((c : Thread nD τ).loc b))

/-! ## From the eight blocks to the array -/

/-- The printed index maps, decided over the grid: point t reads row block t of the first array and writes row block
    t of the output; the weight and the bias row are one block each. -/
theorem idx_facts6 : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = t.val ∧ win6_3.index t (1 : Fin 2) = 0 :=
  (by decide +kernel : ∀ t : Fin grid6.N, _)

/-- Every row block of the output is some point's. -/
theorem idx_onto6 : ∀ q0 : Fin 8, ∃ t : Fin cfg6.N, win6_3.index t = ![q0.val, 0] :=
  (by decide +kernel : ∀ q0 : Fin 8, ∃ t : Fin grid6.N, win6_3.index t = ![q0.val, 0])

/-- What point t writes back is block t of the reference's affine map of the three arrays as the call finds them. -/
theorem flushed6_eq (c : Dev nD) (t : Fin cfg6.N) :
    (data6 V c).flushed 3 t
      = ((cfg6.win 3).blk t).view.read (Elt Ideal) (refAffine6 (V c main_v44) (V c main_arg9) (V c main_v48)) := by
  show (cfg6.win 3).cut (grid6.coords t) ((data6 V c).after 3 t) = _
  rw [data6_after_3]
  unfold affine6
  rw [View.canon_unit_zero offsets6_zero]
  simp only [View.ld_unit_zero (S := S1024x64) offsets6_zero, View.ld_unit_zero (S := S64x6) offsets6_zero,
    View.ld_unit_zero (S := S1x6) offsets6_zero]
  obtain ⟨e00, e01, e10, e11, e20, e21, e30, e31⟩ := idx_facts6 t
  funext y
  rw [View.read_apply]
  refine affine6_block_point (blk6 V c 0 t) (blk6 V c 1 t) (blk6 V c 2 t) (V c main_v44) (V c main_arg9) (V c main_v48)
    y (((cfg6.win 3).blk t).view.emb y) ?_ ?_ ?_ ?_
  · intro u v hu hv huv
    unfold blk6
    rw [View.read_apply]
    show V c main_v44 (((cfg6.win 0).blk t).view.emb u) = V c main_v44 v
    refine congrArg _ (funext fun a => Fin.ext ?_)
    have hv' : (v 0).val = win6_3.index t (0 : Fin 2) * 1024 + 1 * (y 0).val := hv
    match a with
    | ⟨0, _⟩ => show win6_0.index t (0 : Fin 2) * 1024 + 1 * (u 0).val = (v 0).val; omega
    | ⟨1, _⟩ => show win6_0.index t (1 : Fin 2) * 64 + 1 * (u 1).val = (v 1).val; omega
  · intro u
    unfold blk6
    rw [View.read_apply]
    show V c main_arg9 (((cfg6.win 1).blk t).view.emb u) = V c main_arg9 u
    refine congrArg _ (funext fun a => Fin.ext ?_)
    match a with
    | ⟨0, _⟩ => show win6_1.index t (0 : Fin 2) * 64 + 1 * (u 0).val = (u 0).val; omega
    | ⟨1, _⟩ => show win6_1.index t (1 : Fin 2) * 6 + 1 * (u 1).val = (u 1).val; omega
  · intro u
    unfold blk6
    rw [View.read_apply]
    show V c main_v48 (((cfg6.win 2).blk t).view.emb u) = V c main_v48 u
    refine congrArg _ (funext fun a => Fin.ext ?_)
    match a with
    | ⟨0, _⟩ => show win6_2.index t (0 : Fin 2) * 1 + 1 * (u 0).val = (u 0).val; omega
    | ⟨1, _⟩ => show win6_2.index t (1 : Fin 2) * 6 + 1 * (u 1).val = (u 1).val; omega
  · show win6_3.index t (1 : Fin 2) * 6 + 1 * (y 1).val = (y 1).val
    omega

/-- An index of the output is in point t's block iff each coordinate is in the block's range on its axis. -/
theorem mem_blk6 (t : Fin cfg6.N) (i : S8192x6.Idx) :
    i ∈ ((cfg6.win 3).blk t).view.set ↔ ∀ a : Fin 2, win6_3.index t a * S1024x6.size a ≤ (i a).val ∧ (i a).val < win6_3.index t a * S1024x6.size a + S1024x6.size a := by
  show i ∈ ((View.whole main_v49).slice (win6_3.rect t)).set ↔ _
  rw [View.set_slice_whole, Rect.mem_set_unit]
  exact Iff.rfl

/-- The eight blocks cover the output: row r is in the block of point r / 1024. -/
theorem cover6 (i : S8192x6.Idx) : ∃ t : Fin cfg6.N, (cfg6.win 3).flush t = true ∧ i ∈ ((cfg6.win 3).blk t).view.set := by
  have hi0 : (i 0).val < 8192 := (i 0).isLt
  have hi1 : (i 1).val < 6 := (i 1).isLt
  obtain ⟨t, ht⟩ := idx_onto6 ⟨(i 0).val / 1024, by omega⟩
  have q0 : win6_3.index t (0 : Fin 2) = (i 0).val / 1024 := congrFun ht 0
  have q1 : win6_3.index t (1 : Fin 2) = 0 := congrFun ht 1
  refine ⟨t, flush6_3 t, ?_⟩
  rw [mem_blk6]
  intro a
  match a with
  | ⟨0, _⟩ => show win6_3.index t (0 : Fin 2) * 1024 ≤ (i 0).val ∧ (i 0).val < win6_3.index t (0 : Fin 2) * 1024 + 1024; omega
  | ⟨1, _⟩ => show win6_3.index t (1 : Fin 2) * 6 ≤ (i 1).val ∧ (i 1).val < win6_3.index t (1 : Fin 2) * 6 + 6; omega

theorem call6_value (c : Dev nD) :
    (data6 V c).arrAt 3 cfg6.N = refAffine6 (V c main_v44) (V c main_arg9) (V c main_v48) :=
  (data6 V c).arrAt_eq_of_cover 3 (refAffine6 (V c main_v44) (V c main_arg9) (V c main_v48))
    (fun t _ => flushed6_eq V c t) cover6

end Cert.Bridge

end
-- ==== Proof.Value.Results.lean ====
/- What the idealized kernel leaves in its four result arrays is what the reference computes. Going through @main item by
   item: each call's output is the reference's operation of the call's operands (the seven value lemmas), and each stretch
   of host operations between two calls — the two index fix-ups, the gathers, the scaling by the edge weights, the
   scatter-adds, the rectifier, the reshapes of the biases — is the same chain of pure functions in both programs.
   So the contents at the return, read at the four results, are the reference's stages of the eleven arguments. -/
import proofs.«137898_j56616258896068_1_alg».proof.Proof.KernelIdeal.Chain
import proofs.«137898_j56616258896068_1_alg».proof.Proof.Value.Call0Value
import proofs.«137898_j56616258896068_1_alg».proof.Proof.Value.Call1Value
import proofs.«137898_j56616258896068_1_alg».proof.Proof.Value.Call2Value
import proofs.«137898_j56616258896068_1_alg».proof.Proof.Value.Call3Value
import proofs.«137898_j56616258896068_1_alg».proof.Proof.Value.Call4Value
import proofs.«137898_j56616258896068_1_alg».proof.Proof.Value.Call5Value
import proofs.«137898_j56616258896068_1_alg».proof.Proof.Value.Call6Value
import proofs.«137898_j56616258896068_1_alg».proof.Proof.Gen.ReferenceIdeal.Read
import Idealize.ShloMosaic.Lib.StableHlo.Run

set_option maxRecDepth 16384

noncomputable section

namespace Cert.Bridge

open Cert.KernelIdeal Cert.KernelIdeal.Gen Cert.KernelIdeal.Calls
open Idealize.ShloMosaic Idealize.ShloMosaic.TcCoe
open Idealize.SL Idealize.SL.Sem

variable (m : (ℓ : Loc nD τ sig) → Buf (Elt Ideal) ℓ) (c : Dev nD)

open Cert.ReferenceIdeal.Read

/-! ## What each item leaves unchanged

An item of @main changes one array (a call: its output) or the arrays its operations write (a host stretch); every
other array keeps its contents. -/

theorem C1_of (r : Ref sig .tc) (h : r ≠ main_v0) :
    C1 m c (Proc.devRef .tc r) = m ((c : Thread nD τ).loc r) :=
  Function.update_of_ne (StableHlo.devRef_ne_of_ne h) ..

theorem C3_of (r : Ref sig .tc) (h : r ∉ hostOps1_W ++ hostOps1_1_W) :
    C3 m c (Proc.devRef .tc r) = C1 m c (Proc.devRef .tc r) :=
  (StableHlo.after_of_writes_sub hostOps1_1 _ hostOps1_1_writes (fun h' => h (List.mem_append_right _ h'))).trans
    (StableHlo.after_of_writes_sub hostOps1 _ hostOps1_writes (fun h' => h (List.mem_append_left _ h')))

theorem C4_of (r : Ref sig .tc) (h : r ≠ main_v15) :
    C4 m c (Proc.devRef .tc r) = C3 m c (Proc.devRef .tc r) :=
  Function.update_of_ne (StableHlo.devRef_ne_of_ne h) ..

theorem C5_of (r : Ref sig .tc) (h : r ≠ main_v16) :
    C5 m c (Proc.devRef .tc r) = C4 m c (Proc.devRef .tc r) :=
  Function.update_of_ne (StableHlo.devRef_ne_of_ne h) ..

theorem C6_of (r : Ref sig .tc) (h : r ∉ hostOps3_W) :
    C6 m c (Proc.devRef .tc r) = C5 m c (Proc.devRef .tc r) :=
  StableHlo.after_of_writes_sub hostOps3 _ hostOps3_writes h

theorem C7_of (r : Ref sig .tc) (h : r ≠ main_v44) :
    C7 m c (Proc.devRef .tc r) = C6 m c (Proc.devRef .tc r) :=
  Function.update_of_ne (StableHlo.devRef_ne_of_ne h) ..

theorem C8_of (r : Ref sig .tc) (h : r ∉ hostOps4_W) :
    C8 m c (Proc.devRef .tc r) = C7 m c (Proc.devRef .tc r) :=
  StableHlo.after_of_writes_sub hostOps4 _ hostOps4_writes h

theorem C9_of (r : Ref sig .tc) (h : r ≠ main_v46) :
    C9 m c (Proc.devRef .tc r) = C8 m c (Proc.devRef .tc r) :=
  Function.update_of_ne (StableHlo.devRef_ne_of_ne h) ..

theorem C10_of (r : Ref sig .tc) (h : r ≠ main_v47) :
    C10 m c (Proc.devRef .tc r) = C9 m c (Proc.devRef .tc r) :=
  Function.update_of_ne (StableHlo.devRef_ne_of_ne h) ..

theorem C11_of (r : Ref sig .tc) (h : r ∉ hostOps6_W) :
    C11 m c (Proc.devRef .tc r) = C10 m c (Proc.devRef .tc r) :=
  StableHlo.after_of_writes_sub hostOps6 _ hostOps6_writes h

theorem C12_of (r : Ref sig .tc) (h : r ≠ main_v49) :
    C12 m c (Proc.devRef .tc r) = C11 m c (Proc.devRef .tc r) :=
  Function.update_of_ne (StableHlo.devRef_ne_of_ne h) ..

/-! ## A bias vector as a one-row matrix

The kernel's program reshapes a bias vector of `n` entries to a `1 × n` matrix; the reference broadcasts it along a
new leading axis of size one. Both read the vector at the column. -/

theorem row_of_vector {α : Type} (n : ℕ) (hn : n ≠ 1) (x : (⟨1, ![n]⟩ : Shape).Idx → α)
    (hs : (⟨1, ![n]⟩ : Shape).ShapeCasts ⟨2, ![1, n]⟩)
    (hb : (⟨1, ![n]⟩ : Shape).BroadcastsInDim ⟨2, ![1, n]⟩ (![1] : Fin 1 → Fin 2)) :
    shapeCast ⟨2, ![1, n]⟩ x hs = broadcastInDim ⟨2, ![1, n]⟩ ![1] hb x := by
  funext j
  refine (shapeCast_addUnit_apply ![n] x hs j).trans ?_
  refine (broadcastInDim_apply _ hb x j (fun a => j a.succ) fun a => ?_).symm
  match a with
  | ⟨0, _⟩ =>
    show (j 1).val = if n = 1 then 0 else (j 1).val
    rw [if_neg hn]

/-! ## Call 0 and the first aggregation -/

/-- Call 0's result is the reference's first product. -/
theorem res0_eq :
    res0 m c = val_main_v0 (F := Ideal) (m ((c : Thread nD τ).loc main_arg0)) (m ((c : Thread nD τ).loc main_arg4)) := by
  unfold res0
  exact call0_value _ c

theorem C1_v0 : C1 m c (Proc.devRef .tc main_v0) = res0 m c := Function.update_self ..

/-- The first aggregation (gather along the edges, scale by the edge weights, scatter-add) of call 0's result. -/
theorem C2_v13 :
    StableHlo.after hostOps1 (C1 m c) (Proc.devRef .tc main_v13)
      = val_main_v13 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  after_results_simp
  rw [C1_v0, res0_eq, C1_of m c main_arg1 (by decide), C1_of m c main_arg2 (by decide), C1_of m c main_arg3 (by decide)]
  generalize (m ((c : Thread nD τ).loc main_arg0)) = x0
  generalize (m ((c : Thread nD τ).loc main_arg1)) = x1
  generalize (m ((c : Thread nD τ).loc main_arg2)) = x2
  generalize (m ((c : Thread nD τ).loc main_arg3)) = x3
  generalize (m ((c : Thread nD τ).loc main_arg4)) = x4
  rfl

/-- The rectifier's stretch, from any contents: the maximum of `main_v13` and the zero array. -/
theorem relu_stretch (V : Valuation τ sig (Elt Ideal)) :
    (StableHlo.after hostOps1_1 V (Proc.devRef .tc main_v14) : (⟨S8192x256, .f32⟩ : BufTy).Contents (Elt Ideal))
      = @maximumf Ideal _ S8192x256 .f32 (V (Proc.devRef .tc main_v13)) (val_main_call0_v0 (F := Ideal)) := by
  after_results_simp
  rfl

/-- After the first aggregation and the rectifier, `main_v14` holds the reference's hidden layer. -/
theorem C3_v14 :
    C3 m c main_v14 = val_main_v14 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  show StableHlo.after hostOps1_1 (StableHlo.after hostOps1 (C1 m c)) (Proc.devRef .tc main_v14) = _
  rw [relu_stretch, C2_v13]
  rfl

/-! ## Calls 1 and 2 and the two aggregations -/

theorem res1_eq :
    res1 m c = val_main_v15 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  unfold res1
  refine (call1_value _ c).trans ?_
  show refHidden (C3 m c main_v14) (C3 m c main_arg5) = _
  rw [C3_v14, ((C3_of m c main_arg5 (by decide)).trans <| (C1_of m c main_arg5 (by decide)))]
  rfl

theorem C4_v15 : C4 m c (Proc.devRef .tc main_v15) = res1 m c := Function.update_self ..

theorem res2_eq :
    res2 m c = val_main_v29 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) := by
  unfold res2
  refine (call2_value _ c).trans ?_
  show refHidden (C4 m c main_v14) (C4 m c main_arg6) = _
  rw [C4_of m c main_v14 (by decide), C3_v14, ((C4_of m c main_arg6 (by decide)).trans <| (C3_of m c main_arg6 (by decide)).trans <| (C1_of m c main_arg6 (by decide)))]
  rfl

theorem C5_v16 : C5 m c (Proc.devRef .tc main_v16) = res2 m c := Function.update_self ..

theorem C5_v15 : C5 m c (Proc.devRef .tc main_v15) = res1 m c :=
  (C5_of m c main_v15 (by decide)).trans (C4_v15 m c)

/-- The aggregation of call 1's result: the operand of `mu`'s affine map. -/
theorem C6_v29 :
    C6 m c main_v29 = val_main_v28 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  show StableHlo.after hostOps3 (C5 m c) (Proc.devRef .tc main_v29) = _
  after_results_simp
  rw [C5_v15, res1_eq, ((C5_of m c main_arg1 (by decide)).trans <| (C4_of m c main_arg1 (by decide)).trans <| (C3_of m c main_arg1 (by decide)).trans <| (C1_of m c main_arg1 (by decide))), ((C5_of m c main_arg2 (by decide)).trans <| (C4_of m c main_arg2 (by decide)).trans <| (C3_of m c main_arg2 (by decide)).trans <| (C1_of m c main_arg2 (by decide))), ((C5_of m c main_arg3 (by decide)).trans <| (C4_of m c main_arg3 (by decide)).trans <| (C3_of m c main_arg3 (by decide)).trans <| (C1_of m c main_arg3 (by decide)))]
  generalize (m ((c : Thread nD τ).loc main_arg0)) = x0
  generalize (m ((c : Thread nD τ).loc main_arg1)) = x1
  generalize (m ((c : Thread nD τ).loc main_arg2)) = x2
  generalize (m ((c : Thread nD τ).loc main_arg3)) = x3
  generalize (m ((c : Thread nD τ).loc main_arg4)) = x4
  generalize (m ((c : Thread nD τ).loc main_arg5)) = x5
  rfl

/-- The aggregation of call 2's result: the operand of `logvar`'s affine map. -/
theorem C6_v42 :
    C6 m c main_v42 = val_main_v42 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) := by
  show StableHlo.after hostOps3 (C5 m c) (Proc.devRef .tc main_v42) = _
  after_results_simp
  rw [C5_v16, res2_eq, ((C5_of m c main_arg1 (by decide)).trans <| (C4_of m c main_arg1 (by decide)).trans <| (C3_of m c main_arg1 (by decide)).trans <| (C1_of m c main_arg1 (by decide))), ((C5_of m c main_arg2 (by decide)).trans <| (C4_of m c main_arg2 (by decide)).trans <| (C3_of m c main_arg2 (by decide)).trans <| (C1_of m c main_arg2 (by decide))), ((C5_of m c main_arg3 (by decide)).trans <| (C4_of m c main_arg3 (by decide)).trans <| (C3_of m c main_arg3 (by decide)).trans <| (C1_of m c main_arg3 (by decide)))]
  generalize (m ((c : Thread nD τ).loc main_arg0)) = x0
  generalize (m ((c : Thread nD τ).loc main_arg1)) = x1
  generalize (m ((c : Thread nD τ).loc main_arg2)) = x2
  generalize (m ((c : Thread nD τ).loc main_arg3)) = x3
  generalize (m ((c : Thread nD τ).loc main_arg4)) = x4
  generalize (m ((c : Thread nD τ).loc main_arg6)) = x6
  rfl

/-- The bias of the two affine maps, as the one-row matrix call 3 reads. -/
theorem C6_v43 :
    C6 m c main_v43 = val_main_v44 (F := Ideal) (m ((c : Thread nD τ).loc main_arg8)) := by
  show StableHlo.after hostOps3 (C5 m c) (Proc.devRef .tc main_v43) = _
  after_results_simp
  rw [((C5_of m c main_arg8 (by decide)).trans <| (C4_of m c main_arg8 (by decide)).trans <| (C3_of m c main_arg8 (by decide)).trans <| (C1_of m c main_arg8 (by decide)))]
  exact row_of_vector 64 (by decide) _ _ _

/-! ## Calls 3, 4, 5 and 6 -/

/-- Call 3's result is the reference's `mu`. -/
theorem res3_eq :
    res3 m c = val_main_v46 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg7)) (m ((c : Thread nD τ).loc main_arg8)) := by
  unfold res3
  refine (call3_value _ c).trans ?_
  show refAffine64 (C6 m c main_v29) (C6 m c main_arg7) (C6 m c main_v43) = _
  rw [C6_v29, C6_v43, ((C6_of m c main_arg7 (by decide)).trans <| (C5_of m c main_arg7 (by decide)).trans <| (C4_of m c main_arg7 (by decide)).trans <| (C3_of m c main_arg7 (by decide)).trans <| (C1_of m c main_arg7 (by decide)))]
  rfl

theorem C7_v44 : C7 m c (Proc.devRef .tc main_v44) = res3 m c := Function.update_self ..

/-- The bias again, as the one-row matrix call 4 reads. -/
theorem C8_v45 :
    C8 m c main_v45 = val_main_v48 (F := Ideal) (m ((c : Thread nD τ).loc main_arg8)) := by
  show StableHlo.after hostOps4 (C7 m c) (Proc.devRef .tc main_v45) = _
  after_results_simp
  rw [((C7_of m c main_arg8 (by decide)).trans <| (C6_of m c main_arg8 (by decide)).trans <| (C5_of m c main_arg8 (by decide)).trans <| (C4_of m c main_arg8 (by decide)).trans <| (C3_of m c main_arg8 (by decide)).trans <| (C1_of m c main_arg8 (by decide)))]
  exact row_of_vector 64 (by decide) _ _ _

/-- Call 4's result is the reference's `logvar`. -/
theorem res4_eq :
    res4 m c = val_main_v50 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) (m ((c : Thread nD τ).loc main_arg7)) (m ((c : Thread nD τ).loc main_arg8)) := by
  unfold res4
  refine (call4_value _ c).trans ?_
  show refAffine64 (C8 m c main_v42) (C8 m c main_arg7) (C8 m c main_v45) = _
  rw [C8_v45, ((C8_of m c main_v42 (by decide)).trans <| (C7_of m c main_v42 (by decide))), C6_v42, ((C8_of m c main_arg7 (by decide)).trans <| (C7_of m c main_arg7 (by decide)).trans <| (C6_of m c main_arg7 (by decide)).trans <| (C5_of m c main_arg7 (by decide)).trans <| (C4_of m c main_arg7 (by decide)).trans <| (C3_of m c main_arg7 (by decide)).trans <| (C1_of m c main_arg7 (by decide)))]
  rfl

theorem C9_v46 : C9 m c (Proc.devRef .tc main_v46) = res4 m c := Function.update_self ..

/-- Call 5's result is the reference's `z · zᵀ`. -/
theorem res5_eq :
    res5 m c = val_main_v52 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg7)) (m ((c : Thread nD τ).loc main_arg8)) := by
  unfold res5
  refine (call5_value _ c).trans ?_
  show refGram (C9 m c main_v44) = _
  rw [((C9_of m c main_v44 (by decide)).trans <| (C8_of m c main_v44 (by decide))), C7_v44, res3_eq]
  rfl

theorem C10_v47 : C10 m c (Proc.devRef .tc main_v47) = res5 m c := Function.update_self ..

/-- The last layer's bias, as the one-row matrix call 6 reads. -/
theorem C11_v48 :
    C11 m c main_v48 = val_main_v54 (F := Ideal) (m ((c : Thread nD τ).loc main_arg10)) := by
  show StableHlo.after hostOps6 (C10 m c) (Proc.devRef .tc main_v48) = _
  after_results_simp
  rw [((C10_of m c main_arg10 (by decide)).trans <| (C9_of m c main_arg10 (by decide)).trans <| (C8_of m c main_arg10 (by decide)).trans <| (C7_of m c main_arg10 (by decide)).trans <| (C6_of m c main_arg10 (by decide)).trans <| (C5_of m c main_arg10 (by decide)).trans <| (C4_of m c main_arg10 (by decide)).trans <| (C3_of m c main_arg10 (by decide)).trans <| (C1_of m c main_arg10 (by decide)))]
  exact row_of_vector 6 (by decide) _ _ _

/-- Call 6's result is the reference's last layer. -/
theorem res6_eq :
    res6 m c = val_main_v56 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg7)) (m ((c : Thread nD τ).loc main_arg8)) (m ((c : Thread nD τ).loc main_arg9)) (m ((c : Thread nD τ).loc main_arg10)) := by
  unfold res6
  refine (call6_value _ c).trans ?_
  show refAffine6 (C11 m c main_v44) (C11 m c main_arg9) (C11 m c main_v48) = _
  rw [C11_v48, ((C11_of m c main_v44 (by decide)).trans <| (C10_of m c main_v44 (by decide)).trans <| (C9_of m c main_v44 (by decide)).trans <| (C8_of m c main_v44 (by decide))), C7_v44, res3_eq, ((C11_of m c main_arg9 (by decide)).trans <| (C10_of m c main_arg9 (by decide)).trans <| (C9_of m c main_arg9 (by decide)).trans <| (C8_of m c main_arg9 (by decide)).trans <| (C7_of m c main_arg9 (by decide)).trans <| (C6_of m c main_arg9 (by decide)).trans <| (C5_of m c main_arg9 (by decide)).trans <| (C4_of m c main_arg9 (by decide)).trans <| (C3_of m c main_arg9 (by decide)).trans <| (C1_of m c main_arg9 (by decide)))]
  rfl

/-! ## The four results at the return -/

/-- `mu`: the kernel's third result. -/
theorem kernel_mu :
    C12 m c main_v44 = Cert.ReferenceIdeal.Read.val_main_v46 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg7)) (m ((c : Thread nD τ).loc main_arg8)) := by
  exact ((C12_of m c main_v44 (by decide)).trans <| (C11_of m c main_v44 (by decide)).trans <| (C10_of m c main_v44 (by decide)).trans <| (C9_of m c main_v44 (by decide)).trans <| (C8_of m c main_v44 (by decide))).trans <| (C7_v44 m c).trans (res3_eq m c)

/-- `logvar`: the kernel's fourth result. -/
theorem kernel_logvar :
    C12 m c main_v46 = Cert.ReferenceIdeal.Read.val_main_v50 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) (m ((c : Thread nD τ).loc main_arg7)) (m ((c : Thread nD τ).loc main_arg8)) := by
  exact ((C12_of m c main_v46 (by decide)).trans <| (C11_of m c main_v46 (by decide)).trans <| (C10_of m c main_v46 (by decide))).trans <| (C9_v46 m c).trans (res4_eq m c)

/-- The reconstructed adjacency `z · zᵀ`: the kernel's first result. -/
theorem kernel_adj :
    C12 m c main_v47 = Cert.ReferenceIdeal.Read.val_main_v52 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg7)) (m ((c : Thread nD τ).loc main_arg8)) := by
  exact ((C12_of m c main_v47 (by decide)).trans <| (C11_of m c main_v47 (by decide))).trans <| (C10_v47 m c).trans (res5_eq m c)

/-- The last layer's six columns: the kernel's second result. -/
theorem kernel_out6 :
    C12 m c main_v49 = Cert.ReferenceIdeal.Read.val_main_v56 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg7)) (m ((c : Thread nD τ).loc main_arg8)) (m ((c : Thread nD τ).loc main_arg9)) (m ((c : Thread nD τ).loc main_arg10)) := by
  exact (Function.update_self ..).trans (res6_eq m c)

end Cert.Bridge

end
-- ==== Proof.RefRead.lean ====
/- The reference program's run and its stages read at an index, brought in for the modules that
   compare the reference's results with the kernel's. -/
import proofs.«137898_j56616258896068_1_alg».proof.Proof.Gen.ReferenceIdeal.Run
import proofs.«137898_j56616258896068_1_alg».proof.Proof.Gen.ReferenceIdeal.Read
-- ==== Proof.Claims.lean ====
/- The five claims. The two kernels' frames are the launch of @main over the seven calls' records; the reference's frame
   is its generated run with the results dropped. The ideal pass rewrote nothing, so there is nothing to preserve. For the
   equivalence both programs are run from memories that agree on the eleven arguments: the idealized kernel ends with
   its four results at the contents `C12`, which the bridge identifies with the reference's stages of the arguments
   (`mu`, `logvar`, the reconstructed adjacency `z · zᵀ` and the last layer's six columns); the reference ends with its
   results at the same stages of its own arguments; the arguments agree. -/
import proofs.«137898_j56616258896068_1_alg».proof.Defs
import proofs.«137898_j56616258896068_1_alg».proof.Proof.Kernel.Frames
import proofs.«137898_j56616258896068_1_alg».proof.Proof.KernelIdeal.Frames
import proofs.«137898_j56616258896068_1_alg».proof.Proof.Value.Results
import proofs.«137898_j56616258896068_1_alg».proof.Proof.RefRead
import proofs.«137898_j56616258896068_1_alg».proof.Proof.Gen.Pre_finite_inputs

noncomputable section

namespace Cert.Proof.Parts

open Idealize.ShloMosaic Idealize.ShloMosaic.TcCoe Idealize.SL.Sem

theorem frame_kernel : Cert.frame_Kernel := fun m ρ _ => Cert.Kernel.Calls.frame (F := Bits) m ρ

theorem frame_kernelIdeal : Cert.frame_KernelIdeal := fun m ρ _ => Cert.KernelIdeal.Calls.frame (F := Ideal) m ρ

theorem frame_referenceIdeal : Cert.frame_ReferenceIdeal := fun m ρ _ =>
  (θ_run Cert.ReferenceIdeal.defs _ _).mono (fun _ h c => (h c).2.2.2.2) (Cert.ReferenceIdeal.Value.run (F := Ideal) m ρ)

theorem preserves : Cert.preserves_Kernel_KernelIdeal := trivial

/-- A reference of the idealized kernel's TensorCore is among the unscoped ones when it is not scoped. -/
theorem unscoped_mem (b : Ref Cert.KernelIdeal.sig .tc) (h : ¬ (Proc.devRef .tc b : DevRef Cert.KernelIdeal.τ Cert.KernelIdeal.sig).isScoped) :
    Proc.devRef .tc b ∈ Pipeline.ucRefs Cert.KernelIdeal.τ Cert.KernelIdeal.sig :=
  Finset.mem_filter.mpr ⟨StableHlo.devRef_mem_tcRefs b, h⟩

open Cert.KernelIdeal.Calls Cert.KernelIdeal.Gen in
/-- No item of the kernel's @main writes an argument: at the return each holds its launch contents. -/
theorem kept (m : (ℓ : Loc Cert.KernelIdeal.nD Cert.KernelIdeal.τ Cert.KernelIdeal.sig) → Buf (Elt Ideal) ℓ) (c : Dev Cert.KernelIdeal.nD) :
    C12 m c Cert.KernelIdeal.main_arg0 = (m ((c.tc : Thread Cert.KernelIdeal.nD Cert.KernelIdeal.τ).loc Cert.KernelIdeal.main_arg0)) ∧ C12 m c Cert.KernelIdeal.main_arg1 = (m ((c.tc : Thread Cert.KernelIdeal.nD Cert.KernelIdeal.τ).loc Cert.KernelIdeal.main_arg1))
    ∧ C12 m c Cert.KernelIdeal.main_arg2 = (m ((c.tc : Thread Cert.KernelIdeal.nD Cert.KernelIdeal.τ).loc Cert.KernelIdeal.main_arg2)) ∧ C12 m c Cert.KernelIdeal.main_arg3 = (m ((c.tc : Thread Cert.KernelIdeal.nD Cert.KernelIdeal.τ).loc Cert.KernelIdeal.main_arg3))
    ∧ C12 m c Cert.KernelIdeal.main_arg4 = (m ((c.tc : Thread Cert.KernelIdeal.nD Cert.KernelIdeal.τ).loc Cert.KernelIdeal.main_arg4)) ∧ C12 m c Cert.KernelIdeal.main_arg5 = (m ((c.tc : Thread Cert.KernelIdeal.nD Cert.KernelIdeal.τ).loc Cert.KernelIdeal.main_arg5))
    ∧ C12 m c Cert.KernelIdeal.main_arg6 = (m ((c.tc : Thread Cert.KernelIdeal.nD Cert.KernelIdeal.τ).loc Cert.KernelIdeal.main_arg6)) ∧ C12 m c Cert.KernelIdeal.main_arg7 = (m ((c.tc : Thread Cert.KernelIdeal.nD Cert.KernelIdeal.τ).loc Cert.KernelIdeal.main_arg7))
    ∧ C12 m c Cert.KernelIdeal.main_arg8 = (m ((c.tc : Thread Cert.KernelIdeal.nD Cert.KernelIdeal.τ).loc Cert.KernelIdeal.main_arg8)) ∧ C12 m c Cert.KernelIdeal.main_arg9 = (m ((c.tc : Thread Cert.KernelIdeal.nD Cert.KernelIdeal.τ).loc Cert.KernelIdeal.main_arg9))
    ∧ C12 m c Cert.KernelIdeal.main_arg10 = (m ((c.tc : Thread Cert.KernelIdeal.nD Cert.KernelIdeal.τ).loc Cert.KernelIdeal.main_arg10)) := by
  rw [← between_12]
  exact ⟨V12_main_arg0 m (left m) c, V12_main_arg1 m (left m) c, V12_main_arg2 m (left m) c, V12_main_arg3 m (left m) c,
    V12_main_arg4 m (left m) c, V12_main_arg5 m (left m) c, V12_main_arg6 m (left m) c, V12_main_arg7 m (left m) c,
    V12_main_arg8 m (left m) c, V12_main_arg9 m (left m) c, V12_main_arg10 m (left m) c⟩

set_option maxHeartbeats 1000000 in
open Cert.KernelIdeal.Calls Cert.Bridge in
theorem algebraic : Cert.algebraic_KernelIdeal_ReferenceIdeal := by
  intro m ρ m' ρ' _ hagree
  refine ⟨fun c => Cert.ReferenceIdeal.Read.val_main_v52 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)),
    fun c => Cert.ReferenceIdeal.Read.val_main_v56 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)),
    fun c => Cert.ReferenceIdeal.Read.val_main_v46 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)),
    fun c => Cert.ReferenceIdeal.Read.val_main_v50 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), ?_, ?_⟩
  · -- the idealized kernel: every unscoped buffer is read at `C12`; the four results by the bridge, the arguments kept
    refine (θ_run Cert.KernelIdeal.defs _ _).mono (fun r h c => ?_) (Cert.KernelIdeal.Calls.run (F := Ideal) m ρ)
    have hb := h c
    obtain ⟨k0, k1, k2, k3, k4, k5, k6, k7, k8, k9, k10⟩ := kept m c
    exact ⟨(hb _ (unscoped_mem Cert.KernelIdeal.main_v47 (by decide))).trans (kernel_adj m c),
      (hb _ (unscoped_mem Cert.KernelIdeal.main_v49 (by decide))).trans (kernel_out6 m c),
      (hb _ (unscoped_mem Cert.KernelIdeal.main_v44 (by decide))).trans (kernel_mu m c),
      (hb _ (unscoped_mem Cert.KernelIdeal.main_v46 (by decide))).trans (kernel_logvar m c),
      (hb _ (unscoped_mem Cert.KernelIdeal.main_arg0 (by decide))).trans k0,
      (hb _ (unscoped_mem Cert.KernelIdeal.main_arg1 (by decide))).trans k1,
      (hb _ (unscoped_mem Cert.KernelIdeal.main_arg2 (by decide))).trans k2,
      (hb _ (unscoped_mem Cert.KernelIdeal.main_arg3 (by decide))).trans k3,
      (hb _ (unscoped_mem Cert.KernelIdeal.main_arg4 (by decide))).trans k4,
      (hb _ (unscoped_mem Cert.KernelIdeal.main_arg5 (by decide))).trans k5,
      (hb _ (unscoped_mem Cert.KernelIdeal.main_arg6 (by decide))).trans k6,
      (hb _ (unscoped_mem Cert.KernelIdeal.main_arg7 (by decide))).trans k7,
      (hb _ (unscoped_mem Cert.KernelIdeal.main_arg8 (by decide))).trans k8,
      (hb _ (unscoped_mem Cert.KernelIdeal.main_arg9 (by decide))).trans k9,
      (hb _ (unscoped_mem Cert.KernelIdeal.main_arg10 (by decide))).trans k10⟩
  · -- the reference: its generated run, its four results the stages of its own arguments, which agree with the kernel's
    refine (θ_run Cert.ReferenceIdeal.defs _ _).mono (fun r h c => ?_) (Cert.ReferenceIdeal.Value.run (F := Ideal) m' ρ')
    obtain ⟨a0, a1, a2, a3, a4, a5, a6, a7, a8, a9, a10⟩ := hagree c
    obtain ⟨r52, r56, r46, r50, rest⟩ := h c
    refine ⟨?_, ?_, ?_, ?_, rest⟩
    · exact r52.trans ((Cert.ReferenceIdeal.Read.val_main_v52_eq m' c).trans (by rw [a0, a1, a2, a3, a4, a5, a7, a8]))
    · exact r56.trans ((Cert.ReferenceIdeal.Read.val_main_v56_eq (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10))).trans
        (by rw [a0, a1, a2, a3, a4, a5, a7, a8, a9, a10]))
    · exact r46.trans ((Cert.ReferenceIdeal.Read.val_main_v46_eq (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8))).trans
        (by rw [a0, a1, a2, a3, a4, a5, a7, a8]))
    · exact r50.trans ((Cert.ReferenceIdeal.Read.val_main_v50_eq (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8))).trans
        (by rw [a0, a1, a2, a3, a4, a6, a7, a8]))

end Cert.Proof.Parts

end
-- ==== Proof.lean ====
/- The certificate of the graph auto-encoder's forward pass: a Pallas kernel of seven matrix-product calls (the feature
   projection, the two hidden projections, the two affine maps, the inner-product decoder `z · zᵀ`, the last affine
   layer) around the sparse aggregations done on the host, against the plain reference that computes the same with
   `dot_general`. Over the extended reals each call's row blocks (tiles, for the decoder) make up the reference's
   product entry by entry, and the host operations between the calls are the same in both programs; so the four results
   are equal. The parts are in Proof/Claims.lean. -/
import proofs.«137898_j56616258896068_1_alg».proof.Defs
import proofs.«137898_j56616258896068_1_alg».proof.Proof.Gen.Kernel
import proofs.«137898_j56616258896068_1_alg».proof.Proof.Gen.KernelIdeal
import proofs.«137898_j56616258896068_1_alg».proof.Proof.Gen.ReferenceIdeal
import proofs.«137898_j56616258896068_1_alg».proof.Proof.Gen.Pre_finite_inputs
import proofs.«137898_j56616258896068_1_alg».proof.Proof.Claims

noncomputable section

namespace Cert.Proof

theorem claim : Cert.Claim :=
  ⟨Cert.Kernel.Gen.facts, Cert.KernelIdeal.Gen.facts, Cert.ReferenceIdeal.Gen.facts, Cert.Pre_finite_inputs.Gen.facts,
    Parts.frame_kernel, Parts.frame_kernelIdeal, Parts.frame_referenceIdeal, Parts.preserves, Parts.algebraic⟩

end Cert.Proof

end
